-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S24x3 : Shape := ⟨2, ![24, 3]⟩
abbrev S65536x24x3 : Shape := ⟨3, ![65536, 24, 3]⟩
abbrev S65536x3 : Shape := ⟨2, ![65536, 3]⟩
abbrev S_ : Shape := ⟨0, ![]⟩

class Facts : Prop where
  bcast_S_S24x3 : S_.BroadcastsInDim S24x3 (![] : Fin 0 → Fin S24x3.rank)
  reducesTo_S24x3_S_d0_1 : S24x3.ReducesTo [0, 1] S_
  h_S_ : 0 < S_.numel
  bcast_S_S65536x24x3 : S_.BroadcastsInDim S65536x24x3 (![] : Fin 0 → Fin S65536x24x3.rank)
  reducesTo_S65536x24x3_S_d0_1_2 : S65536x24x3.ReducesTo [0, 1, 2] S_
  bcast_S_S65536x3 : S_.BroadcastsInDim S65536x3 (![] : Fin 0 → Fin S65536x3.rank)
  reducesTo_S65536x3_S_d0_1 : S65536x3.ReducesTo [0, 1] S_

variable [Facts]

def fn {F : FTy → Type} [FloatOps F] (main_arg0 : FVec F S24x3 .f32) (main_arg1 : FVec F S65536x24x3 .f32) (main_arg2 : FVec F S65536x3 .f32) : IVec S_ 1 :=
  let main_v0 : FVec F S24x3 .f32 := Host.absf main_arg0
  let main_cst : FVec F S_ .f32 := constant S_ .f32 0x7F800000#32
  let main_v1 : FVec F S24x3 .f32 := broadcastInDim S24x3 ![] bcast_S_S24x3 main_cst
  let main_v2 : IVec S24x3 1 := cmpf .olt main_v0 main_v1
  let main_c : IVec S_ 1 := constantI S_ 1 1#1
  let main_v3 : IVec S_ 1 := (fun x v => Host.reduce IntOp.andi x v reducesTo_S24x3_S_d0_1 h_S_) main_v2 main_c
  let main_v4 : FVec F S65536x24x3 .f32 := Host.absf main_arg1
  let main_cst_0 : FVec F S_ .f32 := constant S_ .f32 0x7F800000#32
  let main_v5 : FVec F S65536x24x3 .f32 := broadcastInDim S65536x24x3 ![] bcast_S_S65536x24x3 main_cst_0
  let main_v6 : IVec S65536x24x3 1 := cmpf .olt main_v4 main_v5
  let main_c_1 : IVec S_ 1 := constantI S_ 1 1#1
  let main_v7 : IVec S_ 1 := (fun x v => Host.reduce IntOp.andi x v reducesTo_S65536x24x3_S_d0_1_2 h_S_) main_v6 main_c_1
  let main_v8 : IVec S_ 1 := andi main_v3 main_v7
  let main_v9 : FVec F S65536x3 .f32 := Host.absf main_arg2
  let main_cst_2 : FVec F S_ .f32 := constant S_ .f32 0x7F800000#32
  let main_v10 : FVec F S65536x3 .f32 := broadcastInDim S65536x3 ![] bcast_S_S65536x3 main_cst_2
  let main_v11 : IVec S65536x3 1 := cmpf .olt main_v9 main_v10
  let main_c_3 : IVec S_ 1 := constantI S_ 1 1#1
  let main_v12 : IVec S_ 1 := (fun x v => Host.reduce IntOp.andi x v reducesTo_S65536x3_S_d0_1 h_S_) main_v11 main_c_3
  let main_v13 : IVec S_ 1 := andi main_v8 main_v12
  main_v13
-- ==== Kernel.lean ====
abbrev S24x3 : Shape := ⟨2, ![24, 3]⟩
abbrev S65536x24x3 : Shape := ⟨3, ![65536, 24, 3]⟩
abbrev S65536x3 : Shape := ⟨2, ![65536, 3]⟩
abbrev S24x3x65536 : Shape := ⟨3, ![24, 3, 65536]⟩
abbrev S3x65536 : Shape := ⟨2, ![3, 65536]⟩
abbrev S24x3x4096 : Shape := ⟨3, ![24, 3, 4096]⟩
abbrev S3x4096 : Shape := ⟨2, ![3, 4096]⟩
abbrev S24x4096 : Shape := ⟨2, ![24, 4096]⟩
abbrev S1x3x4096 : Shape := ⟨3, ![1, 3, 4096]⟩
abbrev S4096 : Shape := ⟨1, ![4096]⟩
abbrev S1x4096 : Shape := ⟨2, ![1, 4096]⟩
abbrev S1x1 : Shape := ⟨2, ![1, 1]⟩

abbrev nBuf : Space → Nat
  | .hbm => 7
  | .vmem => 19
  | .smem => 0
  | _ => 0

abbrev bufTy : (tb : Table) → Fin (tcTables nBuf tb) → BufTy
  | .hbm, ⟨0, _⟩ => ⟨S24x3, .f32⟩
  | .hbm, ⟨1, _⟩ => ⟨S65536x24x3, .f32⟩
  | .hbm, ⟨2, _⟩ => ⟨S65536x3, .f32⟩
  | .hbm, ⟨3, _⟩ => ⟨S24x3x65536, .f32⟩
  | .hbm, ⟨4, _⟩ => ⟨S3x65536, .f32⟩
  | .hbm, ⟨5, _⟩ => ⟨S24x3x65536, .f32⟩
  | .hbm, ⟨6, _⟩ => ⟨S65536x24x3, .f32⟩
  | .local _ .vmem, ⟨0, _⟩ => ⟨S24x3x4096, .f32⟩
  | .local _ .vmem, ⟨1, _⟩ => ⟨S24x3x4096, .f32⟩
  | .local _ .vmem, ⟨2, _⟩ => ⟨S24x3, .f32⟩
  | .local _ .vmem, ⟨3, _⟩ => ⟨S3x4096, .f32⟩
  | .local _ .vmem, ⟨4, _⟩ => ⟨S3x4096, .f32⟩
  | .local _ .vmem, ⟨5, _⟩ => ⟨S24x3x4096, .f32⟩
  | .local _ .vmem, ⟨6, _⟩ => ⟨S24x3x4096, .f32⟩
  | .local _ .vmem, ⟨7, _⟩ => ⟨S24x4096, .f32⟩
  | .local _ .vmem, ⟨8, _⟩ => ⟨S24x4096, .f32⟩
  | .local _ .vmem, ⟨9, _⟩ => ⟨S24x4096, .f32⟩
  | .local _ .vmem, ⟨10, _⟩ => ⟨S24x4096, .f32⟩
  | .local _ .vmem, ⟨11, _⟩ => ⟨S24x4096, .f32⟩
  | .local _ .vmem, ⟨12, _⟩ => ⟨S24x4096, .f32⟩
  | .local _ .vmem, ⟨13, _⟩ => ⟨S24x4096, .f32⟩
  | .local _ .vmem, ⟨14, _⟩ => ⟨S24x4096, .f32⟩
  | .local _ .vmem, ⟨15, _⟩ => ⟨S24x4096, .f32⟩
  | .local _ .vmem, ⟨16, _⟩ => ⟨S24x4096, .f32⟩
  | .local _ .vmem, ⟨17, _⟩ => ⟨S24x4096, .f32⟩
  | .local _ .vmem, ⟨18, _⟩ => ⟨S24x4096, .f32⟩
  | _, _ => ⟨S24x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_scratch11 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S24x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x3x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S65536x24x3_S24x3x65536_1_2_0 : S65536x24x3.Transposes [1, 2, 0] S24x3x65536
  transposes_S65536x3_S3x65536_1_0 : S65536x3.Transposes [1, 0] S3x65536
  inb_S24x3_S24x3_0_0 : ∀ a, (![0, 0] : Fin 2 → Nat) a + S24x3.size a ≤ S24x3.size a
  h_S24x3 : 0 < S24x3.numel
  inb_S24x3x4096_S1x3x4096_0_0_0 : ∀ a, (![0, 0, 0] : Fin 3 → Nat) a + S1x3x4096.size a ≤ S24x3x4096.size a
  h_S1x3x4096 : 0 < S1x3x4096.numel
  shapeCasts_S1x3x4096_S3x4096 : S1x3x4096.ShapeCasts S3x4096
  reduces_S3x4096_S4096 : S3x4096.Reduces [0] S4096
  shapeCasts_S4096_S1x4096 : S4096.ShapeCasts S1x4096
  broadcasts_S1x4096_S3x4096 : S1x4096.Broadcasts S3x4096
  slices_S3x4096_o0_0_S1x4096 : S3x4096.Slices ![0, 0] S1x4096
  slices_S3x4096_o1_0_S1x4096 : S3x4096.Slices ![1, 0] S1x4096
  slices_S3x4096_o2_0_S1x4096 : S3x4096.Slices ![2, 0] S1x4096
  slices_S24x3_o0_0_S1x1 : S24x3.Slices ![0, 0] S1x1
  inpos_S1x1_p0_0 : ∀ a, (![0, 0] : Fin 2 → Nat) a < S1x1.size a
  slices_S24x3_o0_1_S1x1 : S24x3.Slices ![0, 1] S1x1
  slices_S24x3_o0_2_S1x1 : S24x3.Slices ![0, 2] S1x1
  inb_S24x4096_S1x4096_0_0 : ∀ a, (![0, 0] : Fin 2 → Nat) a + S1x4096.size a ≤ S24x4096.size a
  h_S1x4096 : 0 < S1x4096.numel
  shapeCasts_S1x4096_S1x4096 : S1x4096.ShapeCasts S1x4096
  inb_S3x4096_S1x4096_0_0 : ∀ a, (![0, 0] : Fin 2 → Nat) a + S1x4096.size a ≤ S3x4096.size a
  inb_S3x4096_S1x4096_1_0 : ∀ a, (![1, 0] : Fin 2 → Nat) a + S1x4096.size a ≤ S3x4096.size a
  inb_S3x4096_S1x4096_2_0 : ∀ a, (![2, 0] : Fin 2 → Nat) a + S1x4096.size a ≤ S3x4096.size a
  concatenates_S1x4096_S1x4096_S1x4096_S3x4096_d0 : Shape.Concatenates [S1x4096, S1x4096, S1x4096] S3x4096 0
  shapeCasts_S3x4096_S1x3x4096 : S3x4096.ShapeCasts S1x3x4096
  inb_S24x3x4096_S1x3x4096_1_0_0 : ∀ a, (![1, 0, 0] : Fin 3 → Nat) a + S1x3x4096.size a ≤ S24x3x4096.size a
  slices_S24x3_o1_0_S1x1 : S24x3.Slices ![1, 0] S1x1
  slices_S24x3_o1_1_S1x1 : S24x3.Slices ![1, 1] S1x1
  slices_S24x3_o1_2_S1x1 : S24x3.Slices ![1, 2] S1x1
  inb_S24x4096_S1x4096_1_0 : ∀ a, (![1, 0] : Fin 2 → Nat) a + S1x4096.size a ≤ S24x4096.size a
  inb_S24x3x4096_S1x3x4096_2_0_0 : ∀ a, (![2, 0, 0] : Fin 3 → Nat) a + S1x3x4096.size a ≤ S24x3x4096.size a
  slices_S24x3_o2_0_S1x1 : S24x3.Slices ![2, 0] S1x1
  slices_S24x3_o2_1_S1x1 : S24x3.Slices ![2, 1] S1x1
  slices_S24x3_o2_2_S1x1 : S24x3.Slices ![2, 2] S1x1
  inb_S24x4096_S1x4096_2_0 : ∀ a, (![2, 0] : Fin 2 → Nat) a + S1x4096.size a ≤ S24x4096.size a
  inb_S24x3x4096_S1x3x4096_3_0_0 : ∀ a, (![3, 0, 0] : Fin 3 → Nat) a + S1x3x4096.size a ≤ S24x3x4096.size a
  slices_S24x3_o3_0_S1x1 : S24x3.Slices ![3, 0] S1x1
  slices_S24x3_o3_1_S1x1 : S24x3.Slices ![3, 1] S1x1
  slices_S24x3_o3_2_S1x1 : S24x3.Slices ![3, 2] S1x1
  inb_S24x4096_S1x4096_3_0 : ∀ a, (![3, 0] : Fin 2 → Nat) a + S1x4096.size a ≤ S24x4096.size a
  inb_S24x3x4096_S1x3x4096_4_0_0 : ∀ a, (![4, 0, 0] : Fin 3 → Nat) a + S1x3x4096.size a ≤ S24x3x4096.size a
  slices_S24x3_o4_0_S1x1 : S24x3.Slices ![4, 0] S1x1
  slices_S24x3_o4_1_S1x1 : S24x3.Slices ![4, 1] S1x1
  slices_S24x3_o4_2_S1x1 : S24x3.Slices ![4, 2] S1x1
  inb_S24x4096_S1x4096_4_0 : ∀ a, (![4, 0] : Fin 2 → Nat) a + S1x4096.size a ≤ S24x4096.size a
  inb_S24x3x4096_S1x3x4096_5_0_0 : ∀ a, (![5, 0, 0] : Fin 3 → Nat) a + S1x3x4096.size a ≤ S24x3x4096.size a
  slices_S24x3_o5_0_S1x1 : S24x3.Slices ![5, 0] S1x1
  slices_S24x3_o5_1_S1x1 : S24x3.Slices ![5, 1] S1x1
  slices_S24x3_o5_2_S1x1 : S24x3.Slices ![5, 2] S1x1
  inb_S24x4096_S1x4096_5_0 : ∀ a, (![5, 0] : Fin 2 → Nat) a + S1x4096.size a ≤ S24x4096.size a
  inb_S24x3x4096_S1x3x4096_6_0_0 : ∀ a, (![6, 0, 0] : Fin 3 → Nat) a + S1x3x4096.size a ≤ S24x3x4096.size a
  slices_S24x3_o6_0_S1x1 : S24x3.Slices ![6, 0] S1x1
  slices_S24x3_o6_1_S1x1 : S24x3.Slices ![6, 1] S1x1
  slices_S24x3_o6_2_S1x1 : S24x3.Slices ![6, 2] S1x1
  inb_S24x4096_S1x4096_6_0 : ∀ a, (![6, 0] : Fin 2 → Nat) a + S1x4096.size a ≤ S24x4096.size a
  inb_S24x3x4096_S1x3x4096_7_0_0 : ∀ a, (![7, 0, 0] : Fin 3 → Nat) a + S1x3x4096.size a ≤ S24x3x4096.size a
  slices_S24x3_o7_0_S1x1 : S24x3.Slices ![7, 0] S1x1
  slices_S24x3_o7_1_S1x1 : S24x3.Slices ![7, 1] S1x1
  slices_S24x3_o7_2_S1x1 : S24x3.Slices ![7, 2] S1x1
  inb_S24x4096_S1x4096_7_0 : ∀ a, (![7, 0] : Fin 2 → Nat) a + S1x4096.size a ≤ S24x4096.size a
  inb_S24x3x4096_S1x3x4096_8_0_0 : ∀ a, (![8, 0, 0] : Fin 3 → Nat) a + S1x3x4096.size a ≤ S24x3x4096.size a
  slices_S24x3_o8_0_S1x1 : S24x3.Slices ![8, 0] S1x1
  slices_S24x3_o8_1_S1x1 : S24x3.Slices ![8, 1] S1x1
  slices_S24x3_o8_2_S1x1 : S24x3.Slices ![8, 2] S1x1
  inb_S24x4096_S1x4096_8_0 : ∀ a, (![8, 0] : Fin 2 → Nat) a + S1x4096.size a ≤ S24x4096.size a
  inb_S24x3x4096_S1x3x4096_9_0_0 : ∀ a, (![9, 0, 0] : Fin 3 → Nat) a + S1x3x4096.size a ≤ S24x3x4096.size a
  slices_S24x3_o9_0_S1x1 : S24x3.Slices ![9, 0] S1x1
  slices_S24x3_o9_1_S1x1 : S24x3.Slices ![9, 1] S1x1
  slices_S24x3_o9_2_S1x1 : S24x3.Slices ![9, 2] S1x1
  inb_S24x4096_S1x4096_9_0 : ∀ a, (![9, 0] : Fin 2 → Nat) a + S1x4096.size a ≤ S24x4096.size a
  inb_S24x3x4096_S1x3x4096_10_0_0 : ∀ a, (![10, 0, 0] : Fin 3 → Nat) a + S1x3x4096.size a ≤ S24x3x4096.size a
  slices_S24x3_o10_0_S1x1 : S24x3.Slices ![10, 0] S1x1
  slices_S24x3_o10_1_S1x1 : S24x3.Slices ![10, 1] S1x1
  slices_S24x3_o10_2_S1x1 : S24x3.Slices ![10, 2] S1x1
  inb_S24x4096_S1x4096_10_0 : ∀ a, (![10, 0] : Fin 2 → Nat) a + S1x4096.size a ≤ S24x4096.size a
  inb_S24x3x4096_S1x3x4096_11_0_0 : ∀ a, (![11, 0, 0] : Fin 3 → Nat) a + S1x3x4096.size a ≤ S24x3x4096.size a
  slices_S24x3_o11_0_S1x1 : S24x3.Slices ![11, 0] S1x1
  slices_S24x3_o11_1_S1x1 : S24x3.Slices ![11, 1] S1x1
  slices_S24x3_o11_2_S1x1 : S24x3.Slices ![11, 2] S1x1
  inb_S24x4096_S1x4096_11_0 : ∀ a, (![11, 0] : Fin 2 → Nat) a + S1x4096.size a ≤ S24x4096.size a
  inb_S24x3x4096_S1x3x4096_12_0_0 : ∀ a, (![12, 0, 0] : Fin 3 → Nat) a + S1x3x4096.size a ≤ S24x3x4096.size a
  slices_S24x3_o12_0_S1x1 : S24x3.Slices ![12, 0] S1x1
  slices_S24x3_o12_1_S1x1 : S24x3.Slices ![12, 1] S1x1
  slices_S24x3_o12_2_S1x1 : S24x3.Slices ![12, 2] S1x1
  inb_S24x4096_S1x4096_12_0 : ∀ a, (![12, 0] : Fin 2 → Nat) a + S1x4096.size a ≤ S24x4096.size a
  inb_S24x3x4096_S1x3x4096_13_0_0 : ∀ a, (![13, 0, 0] : Fin 3 → Nat) a + S1x3x4096.size a ≤ S24x3x4096.size a
  slices_S24x3_o13_0_S1x1 : S24x3.Slices ![13, 0] S1x1
  slices_S24x3_o13_1_S1x1 : S24x3.Slices ![13, 1] S1x1
  slices_S24x3_o13_2_S1x1 : S24x3.Slices ![13, 2] S1x1
  inb_S24x4096_S1x4096_13_0 : ∀ a, (![13, 0] : Fin 2 → Nat) a + S1x4096.size a ≤ S24x4096.size a
  inb_S24x3x4096_S1x3x4096_14_0_0 : ∀ a, (![14, 0, 0] : Fin 3 → Nat) a + S1x3x4096.size a ≤ S24x3x4096.size a
  slices_S24x3_o14_0_S1x1 : S24x3.Slices ![14, 0] S1x1
  slices_S24x3_o14_1_S1x1 : S24x3.Slices ![14, 1] S1x1
  slices_S24x3_o14_2_S1x1 : S24x3.Slices ![14, 2] S1x1
  inb_S24x4096_S1x4096_14_0 : ∀ a, (![14, 0] : Fin 2 → Nat) a + S1x4096.size a ≤ S24x4096.size a
  inb_S24x3x4096_S1x3x4096_15_0_0 : ∀ a, (![15, 0, 0] : Fin 3 → Nat) a + S1x3x4096.size a ≤ S24x3x4096.size a
  slices_S24x3_o15_0_S1x1 : S24x3.Slices ![15, 0] S1x1
  slices_S24x3_o15_1_S1x1 : S24x3.Slices ![15, 1] S1x1
  slices_S24x3_o15_2_S1x1 : S24x3.Slices ![15, 2] S1x1
  inb_S24x4096_S1x4096_15_0 : ∀ a, (![15, 0] : Fin 2 → Nat) a + S1x4096.size a ≤ S24x4096.size a
  inb_S24x3x4096_S1x3x4096_16_0_0 : ∀ a, (![16, 0, 0] : Fin 3 → Nat) a + S1x3x4096.size a ≤ S24x3x4096.size a
  slices_S24x3_o16_0_S1x1 : S24x3.Slices ![16, 0] S1x1
  slices_S24x3_o16_1_S1x1 : S24x3.Slices ![16, 1] S1x1
  slices_S24x3_o16_2_S1x1 : S24x3.Slices ![16, 2] S1x1
  inb_S24x4096_S1x4096_16_0 : ∀ a, (![16, 0] : Fin 2 → Nat) a + S1x4096.size a ≤ S24x4096.size a
  inb_S24x3x4096_S1x3x4096_17_0_0 : ∀ a, (![17, 0, 0] : Fin 3 → Nat) a + S1x3x4096.size a ≤ S24x3x4096.size a
  slices_S24x3_o17_0_S1x1 : S24x3.Slices ![17, 0] S1x1
  slices_S24x3_o17_1_S1x1 : S24x3.Slices ![17, 1] S1x1
  slices_S24x3_o17_2_S1x1 : S24x3.Slices ![17, 2] S1x1
  inb_S24x4096_S1x4096_17_0 : ∀ a, (![17, 0] : Fin 2 → Nat) a + S1x4096.size a ≤ S24x4096.size a
  inb_S24x3x4096_S1x3x4096_18_0_0 : ∀ a, (![18, 0, 0] : Fin 3 → Nat) a + S1x3x4096.size a ≤ S24x3x4096.size a
  slices_S24x3_o18_0_S1x1 : S24x3.Slices ![18, 0] S1x1
  slices_S24x3_o18_1_S1x1 : S24x3.Slices ![18, 1] S1x1
  slices_S24x3_o18_2_S1x1 : S24x3.Slices ![18, 2] S1x1
  inb_S24x4096_S1x4096_18_0 : ∀ a, (![18, 0] : Fin 2 → Nat) a + S1x4096.size a ≤ S24x4096.size a
  inb_S24x3x4096_S1x3x4096_19_0_0 : ∀ a, (![19, 0, 0] : Fin 3 → Nat) a + S1x3x4096.size a ≤ S24x3x4096.size a
  slices_S24x3_o19_0_S1x1 : S24x3.Slices ![19, 0] S1x1
  slices_S24x3_o19_1_S1x1 : S24x3.Slices ![19, 1] S1x1
  slices_S24x3_o19_2_S1x1 : S24x3.Slices ![19, 2] S1x1
  inb_S24x4096_S1x4096_19_0 : ∀ a, (![19, 0] : Fin 2 → Nat) a + S1x4096.size a ≤ S24x4096.size a
  inb_S24x3x4096_S1x3x4096_20_0_0 : ∀ a, (![20, 0, 0] : Fin 3 → Nat) a + S1x3x4096.size a ≤ S24x3x4096.size a
  slices_S24x3_o20_0_S1x1 : S24x3.Slices ![20, 0] S1x1
  slices_S24x3_o20_1_S1x1 : S24x3.Slices ![20, 1] S1x1
  slices_S24x3_o20_2_S1x1 : S24x3.Slices ![20, 2] S1x1
  inb_S24x4096_S1x4096_20_0 : ∀ a, (![20, 0] : Fin 2 → Nat) a + S1x4096.size a ≤ S24x4096.size a
  inb_S24x3x4096_S1x3x4096_21_0_0 : ∀ a, (![21, 0, 0] : Fin 3 → Nat) a + S1x3x4096.size a ≤ S24x3x4096.size a
  slices_S24x3_o21_0_S1x1 : S24x3.Slices ![21, 0] S1x1
  slices_S24x3_o21_1_S1x1 : S24x3.Slices ![21, 1] S1x1
  slices_S24x3_o21_2_S1x1 : S24x3.Slices ![21, 2] S1x1
  inb_S24x4096_S1x4096_21_0 : ∀ a, (![21, 0] : Fin 2 → Nat) a + S1x4096.size a ≤ S24x4096.size a
  inb_S24x3x4096_S1x3x4096_22_0_0 : ∀ a, (![22, 0, 0] : Fin 3 → Nat) a + S1x3x4096.size a ≤ S24x3x4096.size a
  slices_S24x3_o22_0_S1x1 : S24x3.Slices ![22, 0] S1x1
  slices_S24x3_o22_1_S1x1 : S24x3.Slices ![22, 1] S1x1
  slices_S24x3_o22_2_S1x1 : S24x3.Slices ![22, 2] S1x1
  inb_S24x4096_S1x4096_22_0 : ∀ a, (![22, 0] : Fin 2 → Nat) a + S1x4096.size a ≤ S24x4096.size a
  inb_S24x3x4096_S1x3x4096_23_0_0 : ∀ a, (![23, 0, 0] : Fin 3 → Nat) a + S1x3x4096.size a ≤ S24x3x4096.size a
  slices_S24x3_o23_0_S1x1 : S24x3.Slices ![23, 0] S1x1
  slices_S24x3_o23_1_S1x1 : S24x3.Slices ![23, 1] S1x1
  slices_S24x3_o23_2_S1x1 : S24x3.Slices ![23, 2] S1x1
  inb_S24x4096_S1x4096_23_0 : ∀ a, (![23, 0] : Fin 2 → Nat) a + S1x4096.size a ≤ S24x4096.size a
  transposes_S24x3x65536_S65536x24x3_2_0_1 : S24x3x65536.Transposes [2, 0, 1] S65536x24x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x3x4096.size a ≤ S24x3x65536.size a
  hwx0_0 : ∀ i : grid0.Coords, EltTy.bits .f32 = 32 ∨ (Rect.block (s := S24x3x65536) S24x3x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x3.size a ≤ S24x3.size a
  hwx0_1 : ∀ i : grid0.Coords, EltTy.bits .f32 = 32 ∨ (Rect.block (s := S24x3) S24x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x4096.size a ≤ S3x65536.size a
  hwx0_2 : ∀ i : grid0.Coords, EltTy.bits .f32 = 32 ∨ (Rect.block (s := S3x65536) S3x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S24x3x4096.size a ≤ S24x3x65536.size a
  hwx0_3 : ∀ i : grid0.Coords, EltTy.bits .f32 = 32 ∨ (Rect.block (s := S24x3x65536) S24x3x4096.size (cc0_transform_3 i) (hinb0_3 i)).WholeWords (EltTy.packing .f32)

variable [Facts₀]

abbrev win0_0 : Pipeline.Window sig grid0 :=
  Pipeline.Window.ofSpec (Memref.whole main_v0) S24x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S24x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S24x3x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S24x3 : Shape := ⟨2, ![24, 3]⟩
abbrev S65536x24x3 : Shape := ⟨3, ![65536, 24, 3]⟩
abbrev S65536x3 : Shape := ⟨2, ![65536, 3]⟩
abbrev S4 : Shape := ⟨1, ![4]⟩
abbrev S_ : Shape := ⟨0, ![]⟩
abbrev S65536x24 : Shape := ⟨2, ![65536, 24]⟩
abbrev S65536x24x1 : Shape := ⟨3, ![65536, 24, 1]⟩
abbrev S65536x24x1x1 : Shape := ⟨4, ![65536, 24, 1, 1]⟩
abbrev S65536x24x9 : Shape := ⟨3, ![65536, 24, 9]⟩
abbrev S65536x24x3x3 : Shape := ⟨4, ![65536, 24, 3, 3]⟩
abbrev S3x3 : Shape := ⟨2, ![3, 3]⟩
abbrev S1x1x3x3 : Shape := ⟨4, ![1, 1, 3, 3]⟩
abbrev S1x24x3x1 : Shape := ⟨4, ![1, 24, 3, 1]⟩
abbrev S65536x24x3x1 : Shape := ⟨4, ![65536, 24, 3, 1]⟩
abbrev S65536x24x3x4 : Shape := ⟨4, ![65536, 24, 3, 4]⟩
abbrev S65536x24x1x4 : Shape := ⟨4, ![65536, 24, 1, 4]⟩
abbrev S65536x24x4x4 : Shape := ⟨4, ![65536, 24, 4, 4]⟩
abbrev S65536x1x4x4 : Shape := ⟨4, ![65536, 1, 4, 4]⟩
abbrev S65536x4x4 : Shape := ⟨3, ![65536, 4, 4]⟩
abbrev S65536x16x4x4 : Shape := ⟨4, ![65536, 16, 4, 4]⟩
abbrev S65536x8x4x4 : Shape := ⟨4, ![65536, 8, 4, 4]⟩
abbrev S65536x1x3 : Shape := ⟨3, ![65536, 1, 3]⟩

abbrev nBuf : Space → Nat
  | .hbm => 167
  | .vmem => 0
  | .smem => 0
  | _ => 0

abbrev hbmTy0_0 (i : Nat) : BufTy := match i % 128 with
  | 0 => ⟨S24x3, .f32⟩
  | 1 => ⟨S65536x24x3, .f32⟩
  | 2 => ⟨S65536x3, .f32⟩
  | 3 => ⟨S4, .f32⟩
  | 4 => ⟨S_, .f32⟩
  | 5 => ⟨S65536x24x3, .f32⟩
  | 6 => ⟨S65536x24x3, .f32⟩
  | 7 => ⟨S65536x24x3, .f32⟩
  | 8 => ⟨S_, .f32⟩
  | 9 => ⟨S65536x24, .f32⟩
  | 10 => ⟨S65536x24x1, .f32⟩
  | 11 => ⟨S65536x24x1, .f32⟩
  | 12 => ⟨S65536x24x3, .f32⟩
  | 13 => ⟨S65536x24x3, .f32⟩
  | 14 => ⟨S65536x24x1, .f32⟩
  | 15 => ⟨S65536x24x1x1, .f32⟩
  | 16 => ⟨S65536x24x1, .f32⟩
  | 17 => ⟨S65536x24x1x1, .f32⟩
  | 18 => ⟨S65536x24x1, .f32⟩
  | 19 => ⟨S65536x24, .f32⟩
  | 20 => ⟨S65536x24x1, .f32⟩
  | 21 => ⟨S65536x24, .f32⟩
  | 22 => ⟨S65536x24x1, .f32⟩
  | 23 => ⟨S65536x24, .f32⟩
  | 24 => ⟨S_, .f32⟩
  | 25 => ⟨S65536x24, .f32⟩
  | 26 => ⟨S65536x24, .f32⟩
  | 27 => ⟨S65536x24, .f32⟩
  | 28 => ⟨S65536x24, .f32⟩
  | 29 => ⟨S65536x24x1, .f32⟩
  | 30 => ⟨S65536x24x1, .f32⟩
  | 31 => ⟨S65536x24x1, .f32⟩
  | 32 => ⟨S65536x24x1, .f32⟩
  | 33 => ⟨S65536x24x1, .f32⟩
  | 34 => ⟨S65536x24x1, .f32⟩
  | 35 => ⟨S65536x24x1, .f32⟩
  | 36 => ⟨S65536x24x1, .f32⟩
  | 37 => ⟨S65536x24x1, .f32⟩
  | 38 => ⟨S65536x24x9, .f32⟩
  | 39 => ⟨S65536x24x3x3, .f32⟩
  | 40 => ⟨S3x3, .i32⟩
  | 41 => ⟨S3x3, .i32⟩
  | 42 => ⟨S_, .i32⟩
  | 43 => ⟨S3x3, .i32⟩
  | 44 => ⟨S3x3, .i32⟩
  | 45 => ⟨S3x3, .i1⟩
  | 46 => ⟨S3x3, .f32⟩
  | 47 => ⟨S65536x24x3x3, .f32⟩
  | 48 => ⟨S65536x24x3x3, .f32⟩
  | 49 => ⟨S1x1x3x3, .f32⟩
  | 50 => ⟨S65536x24x3x3, .f32⟩
  | 51 => ⟨S65536x24x3x3, .f32⟩
  | 52 => ⟨S_, .f32⟩
  | 53 => ⟨S65536x24x1x1, .f32⟩
  | 54 => ⟨S65536x24x1x1, .f32⟩
  | 55 => ⟨S65536x24x3x3, .f32⟩
  | 56 => ⟨S65536x24x3x3, .f32⟩
  | 57 => ⟨S65536x24x3x3, .f32⟩
  | 58 => ⟨S65536x24x3x3, .f32⟩
  | 59 => ⟨S1x24x3x1, .f32⟩
  | 60 => ⟨S65536x24x3x1, .f32⟩
  | 61 => ⟨S65536x24x3x4, .f32⟩
  | 62 => ⟨S65536x24x1x4, .f32⟩
  | 63 => ⟨S65536x24x4x4, .f32⟩
  | 64 => ⟨S65536x1x4x4, .f32⟩
  | 65 => ⟨S65536x4x4, .f32⟩
  | 66 => ⟨S65536x1x4x4, .f32⟩
  | 67 => ⟨S65536x4x4, .f32⟩
  | 68 => ⟨S65536x4x4, .f32⟩
  | 69 => ⟨S65536x1x4x4, .f32⟩
  | 70 => ⟨S65536x4x4, .f32⟩
  | 71 => ⟨S65536x4x4, .f32⟩
  | 72 => ⟨S65536x1x4x4, .f32⟩
  | 73 => ⟨S65536x4x4, .f32⟩
  | 74 => ⟨S65536x4x4, .f32⟩
  | 75 => ⟨S65536x1x4x4, .f32⟩
  | 76 => ⟨S65536x4x4, .f32⟩
  | 77 => ⟨S65536x4x4, .f32⟩
  | 78 => ⟨S65536x1x4x4, .f32⟩
  | 79 => ⟨S65536x4x4, .f32⟩
  | 80 => ⟨S65536x4x4, .f32⟩
  | 81 => ⟨S65536x1x4x4, .f32⟩
  | 82 => ⟨S65536x4x4, .f32⟩
  | 83 => ⟨S65536x4x4, .f32⟩
  | 84 => ⟨S65536x1x4x4, .f32⟩
  | 85 => ⟨S65536x4x4, .f32⟩
  | 86 => ⟨S65536x4x4, .f32⟩
  | 87 => ⟨S65536x1x4x4, .f32⟩
  | 88 => ⟨S65536x4x4, .f32⟩
  | 89 => ⟨S65536x4x4, .f32⟩
  | 90 => ⟨S65536x1x4x4, .f32⟩
  | 91 => ⟨S65536x4x4, .f32⟩
  | 92 => ⟨S65536x4x4, .f32⟩
  | 93 => ⟨S65536x1x4x4, .f32⟩
  | 94 => ⟨S65536x4x4, .f32⟩
  | 95 => ⟨S65536x4x4, .f32⟩
  | 96 => ⟨S65536x1x4x4, .f32⟩
  | 97 => ⟨S65536x4x4, .f32⟩
  | 98 => ⟨S65536x4x4, .f32⟩
  | 99 => ⟨S65536x1x4x4, .f32⟩
  | 100 => ⟨S65536x4x4, .f32⟩
  | 101 => ⟨S65536x4x4, .f32⟩
  | 102 => ⟨S65536x1x4x4, .f32⟩
  | 103 => ⟨S65536x4x4, .f32⟩
  | 104 => ⟨S65536x4x4, .f32⟩
  | 105 => ⟨S65536x1x4x4, .f32⟩
  | 106 => ⟨S65536x4x4, .f32⟩
  | 107 => ⟨S65536x4x4, .f32⟩
  | 108 => ⟨S65536x1x4x4, .f32⟩
  | 109 => ⟨S65536x4x4, .f32⟩
  | 110 => ⟨S65536x4x4, .f32⟩
  | 111 => ⟨S65536x1x4x4, .f32⟩
  | 112 => ⟨S65536x4x4, .f32⟩
  | 113 => ⟨S65536x4x4, .f32⟩
  | 114 => ⟨S65536x1x4x4, .f32⟩
  | 115 => ⟨S65536x4x4, .f32⟩
  | 116 => ⟨S65536x4x4, .f32⟩
  | 117 => ⟨S65536x1x4x4, .f32⟩
  | 118 => ⟨S65536x4x4, .f32⟩
  | 119 => ⟨S65536x4x4, .f32⟩
  | 120 => ⟨S65536x1x4x4, .f32⟩
  | 121 => ⟨S65536x4x4, .f32⟩
  | 122 => ⟨S65536x4x4, .f32⟩
  | 123 => ⟨S65536x1x4x4, .f32⟩
  | 124 => ⟨S65536x4x4, .f32⟩
  | 125 => ⟨S65536x4x4, .f32⟩
  | 126 => ⟨S65536x1x4x4, .f32⟩
  | 127 => ⟨S65536x4x4, .f32⟩
  | _ => ⟨S24x3, .f32⟩

abbrev hbmTy0_1 (i : Nat) : BufTy := match i % 128 with
  | 0 => ⟨S65536x4x4, .f32⟩
  | 1 => ⟨S65536x1x4x4, .f32⟩
  | 2 => ⟨S65536x4x4, .f32⟩
  | 3 => ⟨S65536x4x4, .f32⟩
  | 4 => ⟨S65536x1x4x4, .f32⟩
  | 5 => ⟨S65536x4x4, .f32⟩
  | 6 => ⟨S65536x4x4, .f32⟩
  | 7 => ⟨S65536x1x4x4, .f32⟩
  | 8 => ⟨S65536x1x4x4, .f32⟩
  | 9 => ⟨S65536x1x4x4, .f32⟩
  | 10 => ⟨S65536x1x4x4, .f32⟩
  | 11 => ⟨S65536x1x4x4, .f32⟩
  | 12 => ⟨S65536x1x4x4, .f32⟩
  | 13 => ⟨S65536x1x4x4, .f32⟩
  | 14 => ⟨S65536x1x4x4, .f32⟩
  | 15 => ⟨S65536x1x4x4, .f32⟩
  | 16 => ⟨S65536x1x4x4, .f32⟩
  | 17 => ⟨S65536x1x4x4, .f32⟩
  | 18 => ⟨S65536x1x4x4, .f32⟩
  | 19 => ⟨S65536x1x4x4, .f32⟩
  | 20 => ⟨S65536x1x4x4, .f32⟩
  | 21 => ⟨S65536x1x4x4, .f32⟩
  | 22 => ⟨S65536x1x4x4, .f32⟩
  | 23 => ⟨S65536x1x4x4, .f32⟩
  | 24 => ⟨S65536x1x4x4, .f32⟩
  | 25 => ⟨S65536x1x4x4, .f32⟩
  | 26 => ⟨S65536x1x4x4, .f32⟩
  | 27 => ⟨S65536x1x4x4, .f32⟩
  | 28 => ⟨S65536x1x4x4, .f32⟩
  | 29 => ⟨S65536x1x4x4, .f32⟩
  | 30 => ⟨S65536x1x4x4, .f32⟩
  | 31 => ⟨S65536x16x4x4, .f32⟩
  | 32 => ⟨S65536x8x4x4, .f32⟩
  | 33 => ⟨S65536x24x4x4, .f32⟩
  | 34 => ⟨S65536x24x3x1, .f32⟩
  | 35 => ⟨S65536x24x3, .f32⟩
  | 36 => ⟨S65536x1x3, .f32⟩
  | 37 => ⟨S65536x24x3, .f32⟩
  | 38 => ⟨S65536x24x3, .f32⟩
  | _ => ⟨S24x3, .f32⟩

abbrev hbmTy (i : Nat) : BufTy := match i / 128 with
  | 0 => hbmTy0_0 i
  | 1 => hbmTy0_1 i
  | _ => ⟨S24x3, .f32⟩

abbrev bufTy : (tb : Table) → Fin (tcTables nBuf tb) → BufTy
  | .hbm, ⟨i, _⟩ => hbmTy i
  | _, _ => ⟨S24x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩

abbrev nD : Nat := 1
abbrev τ : Topo := Topo.v7x

variable {F : FTy → Type} [FloatOps F]

class Facts₀ : Prop where
  bcast_S_S65536x24x3 : S_.BroadcastsInDim S65536x24x3 (![] : Fin 0 → Fin S65536x24x3.rank)
  reducesTo_S65536x24x3_S65536x24_d2 : S65536x24x3.ReducesTo [2] S65536x24
  h_S_ : 0 < S_.numel
  bcast_S65536x24_S65536x24x1_0_1 : S65536x24.BroadcastsInDim S65536x24x1 (![0, 1] : Fin 2 → Fin S65536x24x1.rank)
  bcast_S65536x24x1_S65536x24x3_0_1_2 : S65536x24x1.BroadcastsInDim S65536x24x3 (![0, 1, 2] : Fin 3 → Fin S65536x24x3.rank)
  bcast_S65536x24x1_S65536x24x1x1_0_1_2 : S65536x24x1.BroadcastsInDim S65536x24x1x1 (![0, 1, 2] : Fin 3 → Fin S65536x24x1x1.rank)
  slices_S65536x24x3_S65536x24x1_0_0_0 : S65536x24x3.Slices ![0, 0, 0] S65536x24x1
  shapeCasts_S65536x24x1_S65536x24 : S65536x24x1.ShapeCasts S65536x24
  slices_S65536x24x3_S65536x24x1_0_0_1 : S65536x24x3.Slices ![0, 0, 1] S65536x24x1
  slices_S65536x24x3_S65536x24x1_0_0_2 : S65536x24x3.Slices ![0, 0, 2] S65536x24x1
  bcast_S_S65536x24 : S_.BroadcastsInDim S65536x24 (![] : Fin 0 → Fin S65536x24.rank)
  concatenates_S65536x24x1_S65536x24x1_S65536x24x1_S65536x24x1_S65536x24x1_S65536x24x1_S65536x24x1_S65536x24x1_S65536x24x1_S65536x24x9_d2 : Shape.Concatenates [S65536x24x1, S65536x24x1, S65536x24x1, S65536x24x1, S65536x24x1, S65536x24x1, S65536x24x1, S65536x24x1, S65536x24x1] S65536x24x9 2
  shapeCasts_S65536x24x9_S65536x24x3x3 : S65536x24x9.ShapeCasts S65536x24x3x3
  bcast_S_S3x3 : S_.BroadcastsInDim S3x3 (![] : Fin 0 → Fin S3x3.rank)
  bcast_S65536x24x1x1_S65536x24x3x3_0_1_2_3 : S65536x24x1x1.BroadcastsInDim S65536x24x3x3 (![0, 1, 2, 3] : Fin 4 → Fin S65536x24x3x3.rank)
  bcast_S3x3_S1x1x3x3_2_3 : S3x3.BroadcastsInDim S1x1x3x3 (![2, 3] : Fin 2 → Fin S1x1x3x3.rank)
  bcast_S1x1x3x3_S65536x24x3x3_0_1_2_3 : S1x1x3x3.BroadcastsInDim S65536x24x3x3 (![0, 1, 2, 3] : Fin 4 → Fin S65536x24x3x3.rank)
  bcast_S_S65536x24x1x1 : S_.BroadcastsInDim S65536x24x1x1 (![] : Fin 0 → Fin S65536x24x1x1.rank)
  bcast_S24x3_S1x24x3x1_1_2 : S24x3.BroadcastsInDim S1x24x3x1 (![1, 2] : Fin 2 → Fin S1x24x3x1.rank)
  bcast_S1x24x3x1_S65536x24x3x1_0_1_2_3 : S1x24x3x1.BroadcastsInDim S65536x24x3x1 (![0, 1, 2, 3] : Fin 4 → Fin S65536x24x3x1.rank)
  concatenates_S65536x24x3x3_S65536x24x3x1_S65536x24x3x4_d3 : Shape.Concatenates [S65536x24x3x3, S65536x24x3x1] S65536x24x3x4 3
  bcast_S4_S65536x24x1x4_3 : S4.BroadcastsInDim S65536x24x1x4 (![3] : Fin 1 → Fin S65536x24x1x4.rank)
  concatenates_S65536x24x3x4_S65536x24x1x4_S65536x24x4x4_d2 : Shape.Concatenates [S65536x24x3x4, S65536x24x1x4] S65536x24x4x4 2
  slices_S65536x24x4x4_S65536x1x4x4_0_0_0_0 : S65536x24x4x4.Slices ![0, 0, 0, 0] S65536x1x4x4
  shapeCasts_S65536x1x4x4_S65536x4x4 : S65536x1x4x4.ShapeCasts S65536x4x4
  slices_S65536x24x4x4_S65536x1x4x4_0_1_0_0 : S65536x24x4x4.Slices ![0, 1, 0, 0] S65536x1x4x4
  slices_S65536x24x4x4_S65536x1x4x4_0_2_0_0 : S65536x24x4x4.Slices ![0, 2, 0, 0] S65536x1x4x4
  slices_S65536x24x4x4_S65536x1x4x4_0_3_0_0 : S65536x24x4x4.Slices ![0, 3, 0, 0] S65536x1x4x4
  slices_S65536x24x4x4_S65536x1x4x4_0_4_0_0 : S65536x24x4x4.Slices ![0, 4, 0, 0] S65536x1x4x4
  slices_S65536x24x4x4_S65536x1x4x4_0_5_0_0 : S65536x24x4x4.Slices ![0, 5, 0, 0] S65536x1x4x4
  slices_S65536x24x4x4_S65536x1x4x4_0_6_0_0 : S65536x24x4x4.Slices ![0, 6, 0, 0] S65536x1x4x4
  slices_S65536x24x4x4_S65536x1x4x4_0_7_0_0 : S65536x24x4x4.Slices ![0, 7, 0, 0] S65536x1x4x4
  slices_S65536x24x4x4_S65536x1x4x4_0_8_0_0 : S65536x24x4x4.Slices ![0, 8, 0, 0] S65536x1x4x4
  slices_S65536x24x4x4_S65536x1x4x4_0_9_0_0 : S65536x24x4x4.Slices ![0, 9, 0, 0] S65536x1x4x4
  slices_S65536x24x4x4_S65536x1x4x4_0_10_0_0 : S65536x24x4x4.Slices ![0, 10, 0, 0] S65536x1x4x4
  slices_S65536x24x4x4_S65536x1x4x4_0_11_0_0 : S65536x24x4x4.Slices ![0, 11, 0, 0] S65536x1x4x4
  slices_S65536x24x4x4_S65536x1x4x4_0_12_0_0 : S65536x24x4x4.Slices ![0, 12, 0, 0] S65536x1x4x4
  slices_S65536x24x4x4_S65536x1x4x4_0_13_0_0 : S65536x24x4x4.Slices ![0, 13, 0, 0] S65536x1x4x4
  slices_S65536x24x4x4_S65536x1x4x4_0_14_0_0 : S65536x24x4x4.Slices ![0, 14, 0, 0] S65536x1x4x4
  slices_S65536x24x4x4_S65536x1x4x4_0_15_0_0 : S65536x24x4x4.Slices ![0, 15, 0, 0] S65536x1x4x4
  slices_S65536x24x4x4_S65536x1x4x4_0_16_0_0 : S65536x24x4x4.Slices ![0, 16, 0, 0] S65536x1x4x4
  slices_S65536x24x4x4_S65536x1x4x4_0_17_0_0 : S65536x24x4x4.Slices ![0, 17, 0, 0] S65536x1x4x4
  slices_S65536x24x4x4_S65536x1x4x4_0_18_0_0 : S65536x24x4x4.Slices ![0, 18, 0, 0] S65536x1x4x4
  slices_S65536x24x4x4_S65536x1x4x4_0_19_0_0 : S65536x24x4x4.Slices ![0, 19, 0, 0] S65536x1x4x4
  slices_S65536x24x4x4_S65536x1x4x4_0_20_0_0 : S65536x24x4x4.Slices ![0, 20, 0, 0] S65536x1x4x4
  slices_S65536x24x4x4_S65536x1x4x4_0_21_0_0 : S65536x24x4x4.Slices ![0, 21, 0, 0] S65536x1x4x4
  slices_S65536x24x4x4_S65536x1x4x4_0_22_0_0 : S65536x24x4x4.Slices ![0, 22, 0, 0] S65536x1x4x4
  slices_S65536x24x4x4_S65536x1x4x4_0_23_0_0 : S65536x24x4x4.Slices ![0, 23, 0, 0] S65536x1x4x4
  bcast_S65536x4x4_S65536x1x4x4_0_2_3 : S65536x4x4.BroadcastsInDim S65536x1x4x4 (![0, 2, 3] : Fin 3 → Fin S65536x1x4x4.rank)
  concatenates_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x16x4x4_d1 : Shape.Concatenates [S65536x1x4x4, S65536x1x4x4, S65536x1x4x4, S65536x1x4x4, S65536x1x4x4, S65536x1x4x4, S65536x1x4x4, S65536x1x4x4, S65536x1x4x4, S65536x1x4x4, S65536x1x4x4, S65536x1x4x4, S65536x1x4x4, S65536x1x4x4, S65536x1x4x4, S65536x1x4x4] S65536x16x4x4 1
  concatenates_S65536x1x4x4_S65536x1x4x4_S65536x1x4x4_S65536x1x4x4_S65536x1x4x4_S65536x1x4x4_S65536x1x4x4_S65536x1x4x4_S65536x8x4x4_d1 : Shape.Concatenates [S65536x1x4x4, S65536x1x4x4, S65536x1x4x4, S65536x1x4x4, S65536x1x4x4, S65536x1x4x4, S65536x1x4x4, S65536x1x4x4] S65536x8x4x4 1
  concatenates_S65536x16x4x4_S65536x8x4x4_S65536x24x4x4_d1 : Shape.Concatenates [S65536x16x4x4, S65536x8x4x4] S65536x24x4x4 1
  slices_S65536x24x4x4_S65536x24x3x1_0_0_0_3 : S65536x24x4x4.Slices ![0, 0, 0, 3] S65536x24x3x1
  shapeCasts_S65536x24x3x1_S65536x24x3 : S65536x24x3x1.ShapeCasts S65536x24x3
  bcast_S65536x3_S65536x1x3_0_2 : S65536x3.BroadcastsInDim S65536x1x3 (![0, 2] : Fin 2 → Fin S65536x1x3.rank)
  bcast_S65536x1x3_S65536x24x3_0_1_2 : S65536x1x3.BroadcastsInDim S65536x24x3 (![0, 1, 2] : Fin 3 → Fin S65536x24x3.rank)
  dot_S65536x24x3x3_S65536x24x3x3_S65536x24x3x3_3_2_2_3_01_01_wf : DotDims.WF S65536x24x3x3 S65536x24x3x3 S65536x24x3x3 [3] [2] [2] [3] [0, 1] [0, 1]
  dot_S65536x4x4_S65536x4x4_S65536x4x4_2_1_1_2_0_0_wf : DotDims.WF S65536x4x4 S65536x4x4 S65536x4x4 [2] [1] [1] [2] [0] [0]

variable [Facts₀]

def dot_S65536x24x3x3_S65536x24x3x3_S65536x24x3x3_3_2_2_3_01_01 : DotDims S65536x24x3x3 S65536x24x3x3 S65536x24x3x3 where
  lhsContracting := [3]
  rhsContracting := [2]
  lhsNonContracting := [2]
  rhsNonContracting := [3]
  lhsBatch := [0, 1]
  rhsBatch := [0, 1]
  wf := dot_S65536x24x3x3_S65536x24x3x3_S65536x24x3x3_3_2_2_3_01_01_wf
def dot_S65536x4x4_S65536x4x4_S65536x4x4_2_1_1_2_0_0 : DotDims S65536x4x4 S65536x4x4 S65536x4x4 where
  lhsContracting := [2]
  rhsContracting := [1]
  lhsNonContracting := [1]
  rhsNonContracting := [2]
  lhsBatch := [0]
  rhsBatch := [0]
  wf := dot_S65536x4x4_S65536x4x4_S65536x4x4_2_1_1_2_0_0_wf

class Facts : Prop extends Facts₀ where

variable [Facts]
-- ==== Proof.Spec.lean ====
/-
  Forward kinematics of a 24-joint tree, on ONE batch lane, over the extended reals.

  A joint's axis-angle vector `v` gives an angle `ang v = √(Σ (v k + ε)²)`, a direction `dir v k = v k / ang v`,
  and the local rotation `I + sin·K + (1 − cos)·K²` (Rodrigues), `K` the cross-product matrix of the direction.
  That rotation is written here twice: entry by entry in its expanded closed form (`kr00 … kr22`), and as the
  matrix expression itself (`rR`). Along the tree a joint's world transform is its parent's times its own
  `[[R, offset], [0, 1]]`; this too is written twice: on the twelve entries of the top three rows
  (`rootSt`, `compSt`), and as a 4×4 product (`st`, `mm`). `bridge` says the two agree in the translation column.
-/
import Idealize.ShloMosaic.PureOps.Ideal
import Idealize.ShloMosaic.PureOps.Ideal.Laws
import Idealize.ShloMosaic.Lib.ValueIdx

noncomputable section

namespace Cert.FK

open Idealize.ShloMosaic

/-- The f32 nearest to 1e-8, as an extended real. -/
def eps : EReal := Ideal.ofBits .f32 0x322BCC77#32
/-- The f32 one, as an extended real. -/
def oneW : EReal := Ideal.ofBits .f32 0x3F800000#32

/-- The rotation angle of an axis-angle vector: the norm of the vector shifted by ε. -/
def ang (v : Fin 3 → EReal) : EReal := Ideal.sqrt (∑ k : Fin 3, (v k + eps) * (v k + eps))
/-- The rotation axis: the vector over its angle. -/
def dir (v : Fin 3 → EReal) (k : Fin 3) : EReal := Ideal.div (v k) (ang v)
def sn (v : Fin 3 → EReal) : EReal := Ideal.sin (ang v)
def oc (v : Fin 3 → EReal) : EReal := oneW - Ideal.cos (ang v)

/-! ## The local rotation, entry by entry in closed form -/
def kr00 (v : Fin 3 → EReal) : EReal := oneW - oc v * (dir v 1 * dir v 1 + dir v 2 * dir v 2)
def kr01 (v : Fin 3 → EReal) : EReal := (0 - sn v) * dir v 2 + oc v * dir v 0 * dir v 1
def kr02 (v : Fin 3 → EReal) : EReal := sn v * dir v 1 + oc v * dir v 0 * dir v 2
def kr10 (v : Fin 3 → EReal) : EReal := sn v * dir v 2 + oc v * dir v 0 * dir v 1
def kr11 (v : Fin 3 → EReal) : EReal := oneW - oc v * (dir v 0 * dir v 0 + dir v 2 * dir v 2)
def kr12 (v : Fin 3 → EReal) : EReal := (0 - sn v) * dir v 0 + oc v * dir v 1 * dir v 2
def kr20 (v : Fin 3 → EReal) : EReal := (0 - sn v) * dir v 1 + oc v * dir v 0 * dir v 2
def kr21 (v : Fin 3 → EReal) : EReal := sn v * dir v 0 + oc v * dir v 1 * dir v 2
def kr22 (v : Fin 3 → EReal) : EReal := oneW - oc v * (dir v 0 * dir v 0 + dir v 1 * dir v 1)
/-- The closed form as a matrix. -/
def kR (v : Fin 3 → EReal) : Fin 3 → Fin 3 → EReal :=
  ![![kr00 v, kr01 v, kr02 v], ![kr10 v, kr11 v, kr12 v], ![kr20 v, kr21 v, kr22 v]]

/-! ## The local rotation as the matrix expression -/
/-- The cross-product matrix of the direction. -/
def Kx (v : Fin 3 → EReal) : Fin 3 → Fin 3 → EReal :=
  ![![0, -dir v 2, dir v 1], ![dir v 2, 0, -dir v 0], ![-dir v 1, dir v 0, 0]]
/-- The identity matrix's entries. -/
def idm (i k : Fin 3) : EReal := if i = k then 1 else 0
/-- `I + sin·K + (1 − cos)·K²`, grouped as `(I + sin·K) + (1 − cos)·K²`. -/
def rR (v : Fin 3 → EReal) (i k : Fin 3) : EReal :=
  (idm i k + sn v * Kx v i k) + oc v * ∑ l : Fin 3, Kx v i l * Kx v l k

/-! ## Composition along the tree, on the twelve entries of the top three rows -/
/-- A joint's world transform: the rotation's nine entries and the translation's three. -/
structure St where
  n00 : EReal
  n01 : EReal
  n02 : EReal
  n10 : EReal
  n11 : EReal
  n12 : EReal
  n20 : EReal
  n21 : EReal
  n22 : EReal
  tx : EReal
  ty : EReal
  tz : EReal

/-- The translation column. -/
def St.t (s : St) : Fin 3 → EReal := ![s.tx, s.ty, s.tz]
/-- The rotation block. -/
def St.n (s : St) : Fin 3 → Fin 3 → EReal := ![![s.n00, s.n01, s.n02], ![s.n10, s.n11, s.n12], ![s.n20, s.n21, s.n22]]

/-- The root joint: its own rotation and offset. -/
def rootSt (v o : Fin 3 → EReal) : St :=
  ⟨kr00 v, kr01 v, kr02 v, kr10 v, kr11 v, kr12 v, kr20 v, kr21 v, kr22 v, o 0, o 1, o 2⟩

/-- A child joint: the parent's transform times the joint's own. -/
def compSt (p : St) (v o : Fin 3 → EReal) : St :=
  ⟨p.n00 * kr00 v + p.n01 * kr10 v + p.n02 * kr20 v,
   p.n00 * kr01 v + p.n01 * kr11 v + p.n02 * kr21 v,
   p.n00 * kr02 v + p.n01 * kr12 v + p.n02 * kr22 v,
   p.n10 * kr00 v + p.n11 * kr10 v + p.n12 * kr20 v,
   p.n10 * kr01 v + p.n11 * kr11 v + p.n12 * kr21 v,
   p.n10 * kr02 v + p.n11 * kr12 v + p.n12 * kr22 v,
   p.n20 * kr00 v + p.n21 * kr10 v + p.n22 * kr20 v,
   p.n20 * kr01 v + p.n21 * kr11 v + p.n22 * kr21 v,
   p.n20 * kr02 v + p.n21 * kr12 v + p.n22 * kr22 v,
   p.n00 * o 0 + p.n01 * o 1 + p.n02 * o 2 + p.tx,
   p.n10 * o 0 + p.n11 * o 1 + p.n12 * o 2 + p.ty,
   p.n20 * o 0 + p.n21 * o 1 + p.n22 * o 2 + p.tz⟩

/-! ## The same composition as 4×4 products -/
/-- The bottom row `[0, 0, 0, 1]`. -/
def lastRow : Fin 4 → EReal := ![0, 0, 0, oneW]
/-- `[[R, o], [0, 0, 0, 1]]`. -/
def st (R : Fin 3 → Fin 3 → EReal) (o : Fin 3 → EReal) (i k : Fin 4) : EReal :=
  if hi : i.val < 3 then (if hk : k.val < 3 then R ⟨i.val, hi⟩ ⟨k.val, hk⟩ else o ⟨i.val, hi⟩) else lastRow k
/-- The 4×4 product. -/
def mm (A B : Fin 4 → Fin 4 → EReal) (i k : Fin 4) : EReal := ∑ l : Fin 4, A i l * B l k

variable (v o : Fin 24 → Fin 3 → EReal)

/-! ## The tree: each joint after its parent (parents 0,0,0,1,2,3,4,5,6,7,8,9,9,9,12,13,14,16,17,18,19,20,21) -/
def kS0 : St := rootSt (v 0) (o 0)
def kS1 : St := compSt (kS0 v o) (v 1) (o 1)
def kS2 : St := compSt (kS0 v o) (v 2) (o 2)
def kS3 : St := compSt (kS0 v o) (v 3) (o 3)
def kS4 : St := compSt (kS1 v o) (v 4) (o 4)
def kS5 : St := compSt (kS2 v o) (v 5) (o 5)
def kS6 : St := compSt (kS3 v o) (v 6) (o 6)
def kS7 : St := compSt (kS4 v o) (v 7) (o 7)
def kS8 : St := compSt (kS5 v o) (v 8) (o 8)
def kS9 : St := compSt (kS6 v o) (v 9) (o 9)
def kS10 : St := compSt (kS7 v o) (v 10) (o 10)
def kS11 : St := compSt (kS8 v o) (v 11) (o 11)
def kS12 : St := compSt (kS9 v o) (v 12) (o 12)
def kS13 : St := compSt (kS9 v o) (v 13) (o 13)
def kS14 : St := compSt (kS9 v o) (v 14) (o 14)
def kS15 : St := compSt (kS12 v o) (v 15) (o 15)
def kS16 : St := compSt (kS13 v o) (v 16) (o 16)
def kS17 : St := compSt (kS14 v o) (v 17) (o 17)
def kS18 : St := compSt (kS16 v o) (v 18) (o 18)
def kS19 : St := compSt (kS17 v o) (v 19) (o 19)
def kS20 : St := compSt (kS18 v o) (v 20) (o 20)
def kS21 : St := compSt (kS19 v o) (v 21) (o 21)
def kS22 : St := compSt (kS20 v o) (v 22) (o 22)
def kS23 : St := compSt (kS21 v o) (v 23) (o 23)
/-- Joint `j`'s world transform, entry by entry. -/
def kSt : Fin 24 → St
  | ⟨0, _⟩ => kS0 v o
  | ⟨1, _⟩ => kS1 v o
  | ⟨2, _⟩ => kS2 v o
  | ⟨3, _⟩ => kS3 v o
  | ⟨4, _⟩ => kS4 v o
  | ⟨5, _⟩ => kS5 v o
  | ⟨6, _⟩ => kS6 v o
  | ⟨7, _⟩ => kS7 v o
  | ⟨8, _⟩ => kS8 v o
  | ⟨9, _⟩ => kS9 v o
  | ⟨10, _⟩ => kS10 v o
  | ⟨11, _⟩ => kS11 v o
  | ⟨12, _⟩ => kS12 v o
  | ⟨13, _⟩ => kS13 v o
  | ⟨14, _⟩ => kS14 v o
  | ⟨15, _⟩ => kS15 v o
  | ⟨16, _⟩ => kS16 v o
  | ⟨17, _⟩ => kS17 v o
  | ⟨18, _⟩ => kS18 v o
  | ⟨19, _⟩ => kS19 v o
  | ⟨20, _⟩ => kS20 v o
  | ⟨21, _⟩ => kS21 v o
  | ⟨22, _⟩ => kS22 v o
  | ⟨23, _⟩ => kS23 v o
  | ⟨_ + 24, h⟩ => absurd h (Nat.not_lt.2 (Nat.le_add_left _ _))

/-- The tree's products over ANY per-joint 4×4 matrices `T`: the root's own, each other joint's parent's times its own. -/
def cM0 (T : Fin 24 → Fin 4 → Fin 4 → EReal) : Fin 4 → Fin 4 → EReal := T 0
def cM1 (T : Fin 24 → Fin 4 → Fin 4 → EReal) : Fin 4 → Fin 4 → EReal := mm (cM0 T) (T 1)
def cM2 (T : Fin 24 → Fin 4 → Fin 4 → EReal) : Fin 4 → Fin 4 → EReal := mm (cM0 T) (T 2)
def cM3 (T : Fin 24 → Fin 4 → Fin 4 → EReal) : Fin 4 → Fin 4 → EReal := mm (cM0 T) (T 3)
def cM4 (T : Fin 24 → Fin 4 → Fin 4 → EReal) : Fin 4 → Fin 4 → EReal := mm (cM1 T) (T 4)
def cM5 (T : Fin 24 → Fin 4 → Fin 4 → EReal) : Fin 4 → Fin 4 → EReal := mm (cM2 T) (T 5)
def cM6 (T : Fin 24 → Fin 4 → Fin 4 → EReal) : Fin 4 → Fin 4 → EReal := mm (cM3 T) (T 6)
def cM7 (T : Fin 24 → Fin 4 → Fin 4 → EReal) : Fin 4 → Fin 4 → EReal := mm (cM4 T) (T 7)
def cM8 (T : Fin 24 → Fin 4 → Fin 4 → EReal) : Fin 4 → Fin 4 → EReal := mm (cM5 T) (T 8)
def cM9 (T : Fin 24 → Fin 4 → Fin 4 → EReal) : Fin 4 → Fin 4 → EReal := mm (cM6 T) (T 9)
def cM10 (T : Fin 24 → Fin 4 → Fin 4 → EReal) : Fin 4 → Fin 4 → EReal := mm (cM7 T) (T 10)
def cM11 (T : Fin 24 → Fin 4 → Fin 4 → EReal) : Fin 4 → Fin 4 → EReal := mm (cM8 T) (T 11)
def cM12 (T : Fin 24 → Fin 4 → Fin 4 → EReal) : Fin 4 → Fin 4 → EReal := mm (cM9 T) (T 12)
def cM13 (T : Fin 24 → Fin 4 → Fin 4 → EReal) : Fin 4 → Fin 4 → EReal := mm (cM9 T) (T 13)
def cM14 (T : Fin 24 → Fin 4 → Fin 4 → EReal) : Fin 4 → Fin 4 → EReal := mm (cM9 T) (T 14)
def cM15 (T : Fin 24 → Fin 4 → Fin 4 → EReal) : Fin 4 → Fin 4 → EReal := mm (cM12 T) (T 15)
def cM16 (T : Fin 24 → Fin 4 → Fin 4 → EReal) : Fin 4 → Fin 4 → EReal := mm (cM13 T) (T 16)
def cM17 (T : Fin 24 → Fin 4 → Fin 4 → EReal) : Fin 4 → Fin 4 → EReal := mm (cM14 T) (T 17)
def cM18 (T : Fin 24 → Fin 4 → Fin 4 → EReal) : Fin 4 → Fin 4 → EReal := mm (cM16 T) (T 18)
def cM19 (T : Fin 24 → Fin 4 → Fin 4 → EReal) : Fin 4 → Fin 4 → EReal := mm (cM17 T) (T 19)
def cM20 (T : Fin 24 → Fin 4 → Fin 4 → EReal) : Fin 4 → Fin 4 → EReal := mm (cM18 T) (T 20)
def cM21 (T : Fin 24 → Fin 4 → Fin 4 → EReal) : Fin 4 → Fin 4 → EReal := mm (cM19 T) (T 21)
def cM22 (T : Fin 24 → Fin 4 → Fin 4 → EReal) : Fin 4 → Fin 4 → EReal := mm (cM20 T) (T 22)
def cM23 (T : Fin 24 → Fin 4 → Fin 4 → EReal) : Fin 4 → Fin 4 → EReal := mm (cM21 T) (T 23)
/-- Joint `j`'s product. -/
def cMt (T : Fin 24 → Fin 4 → Fin 4 → EReal) : Fin 24 → Fin 4 → Fin 4 → EReal
  | ⟨0, _⟩ => cM0 T
  | ⟨1, _⟩ => cM1 T
  | ⟨2, _⟩ => cM2 T
  | ⟨3, _⟩ => cM3 T
  | ⟨4, _⟩ => cM4 T
  | ⟨5, _⟩ => cM5 T
  | ⟨6, _⟩ => cM6 T
  | ⟨7, _⟩ => cM7 T
  | ⟨8, _⟩ => cM8 T
  | ⟨9, _⟩ => cM9 T
  | ⟨10, _⟩ => cM10 T
  | ⟨11, _⟩ => cM11 T
  | ⟨12, _⟩ => cM12 T
  | ⟨13, _⟩ => cM13 T
  | ⟨14, _⟩ => cM14 T
  | ⟨15, _⟩ => cM15 T
  | ⟨16, _⟩ => cM16 T
  | ⟨17, _⟩ => cM17 T
  | ⟨18, _⟩ => cM18 T
  | ⟨19, _⟩ => cM19 T
  | ⟨20, _⟩ => cM20 T
  | ⟨21, _⟩ => cM21 T
  | ⟨22, _⟩ => cM22 T
  | ⟨23, _⟩ => cM23 T
  | ⟨_ + 24, h⟩ => absurd h (Nat.not_lt.2 (Nat.le_add_left _ _))

/-- Joint `j`'s world transform as a 4×4 matrix, from the joints' rotations `R` and offsets `o`. -/
def rMt (R : Fin 24 → Fin 3 → Fin 3 → EReal) : Fin 24 → Fin 4 → Fin 4 → EReal := cMt (fun j => st (R j) (o j))

/-! ## The two arrangements agree -/

/-! ## Auxiliary facts for the local rotation -/

/-- The f32 one denotes the real number one. -/
theorem oneW_eq : oneW = 1 := by
  unfold oneW
  simp [Ideal.ofBits, Ideal.ieee, -EReal.coe_mul]
  norm_num

/-- ε is a finite real (its value is never needed). -/
theorem eps_real : ∃ e : ℝ, eps = (e : EReal) := by
  have h1 : eps ≠ ⊤ := by
    unfold eps
    simp [Ideal.ofBits, Ideal.ieee, -EReal.coe_mul]
  have h2 : eps ≠ ⊥ := by
    unfold eps
    simp [Ideal.ofBits, Ideal.ieee, -EReal.coe_mul]
  exact ⟨eps.toReal, (EReal.coe_toReal h1 h2).symm⟩

/-- A finite extended real is a real. -/
theorem fin_real {x : EReal} (h : x ≠ ⊤ ∧ x ≠ ⊥) : ∃ r : ℝ, x = (r : EReal) :=
  ⟨x.toReal, (EReal.coe_toReal h.1 h.2).symm⟩

/-- The angle of a finite vector is a real. -/
theorem ang_real (w : Fin 3 → EReal) (hw : ∀ k, w k ≠ ⊤ ∧ w k ≠ ⊥) : ∃ a : ℝ, ang w = (a : EReal) := by
  obtain ⟨e, he⟩ := eps_real
  obtain ⟨x0, hx0⟩ := fin_real (hw 0)
  obtain ⟨x1, hx1⟩ := fin_real (hw 1)
  obtain ⟨x2, hx2⟩ := fin_real (hw 2)
  refine ⟨Real.sqrt ((x0 + e) * (x0 + e) + (x1 + e) * (x1 + e) + (x2 + e) * (x2 + e)), ?_⟩
  unfold ang
  rw [Fin.sum_univ_three, hx0, hx1, hx2, he]
  simp only [← EReal.coe_add, ← EReal.coe_mul]
  rw [Ideal.sqrt_coe, if_neg (not_lt.2 (add_nonneg (add_nonneg (mul_self_nonneg _) (mul_self_nonneg _)) (mul_self_nonneg _)))]

theorem sn_zero (w : Fin 3 → EReal) (h : ang w = 0) : sn w = 0 := by
  unfold sn
  rw [h, ← EReal.coe_zero, Ideal.sin_coe, Real.sin_zero]

theorem oc_zero (w : Fin 3 → EReal) (h : ang w = 0) : oc w = 0 := by
  unfold oc
  rw [h, oneW_eq, ← EReal.coe_zero, Ideal.cos_coe, Real.cos_zero, ← EReal.coe_one, ← EReal.coe_sub, sub_self]

/-- At angle zero both forms are the identity matrix, whatever the direction's entries. -/
theorem zero_case (w : Fin 3 → EReal) (h : ang w = 0) (i k : Fin 3) : kR w i k = rR w i k := by
  have hs := sn_zero w h
  have hc := oc_zero w h
  fin_cases i <;> fin_cases k <;>
    simp [kR, rR, idm, kr00, kr01, kr02, kr10, kr11, kr12, kr20, kr21, kr22, hs, hc, oneW_eq]

/-- Where direction, sine and one-minus-cosine are reals the identity is polynomial. -/
theorem real_case (w : Fin 3 → EReal) (d0 d1 d2 s c : ℝ) (h0 : dir w 0 = d0) (h1 : dir w 1 = d1)
    (h2 : dir w 2 = d2) (hs : sn w = s) (hc : oc w = c) (i k : Fin 3) : kR w i k = rR w i k := by
  fin_cases i <;> fin_cases k <;>
    simp [kR, rR, Kx, idm, kr00, kr01, kr02, kr10, kr11, kr12, kr20, kr21, kr22, Fin.sum_univ_three, h0, h1, h2, hs, hc, oneW_eq, -EReal.coe_mul, -EReal.coe_add, -EReal.coe_sub, -EReal.coe_neg] <;>
    norm_cast <;> ring

/-- For a finite axis-angle vector the closed form IS the matrix expression. Where the angle is not zero every
    quantity is a real number and the identity is polynomial; where it is zero, `sin` and `1 − cos` vanish and both
    sides are the identity matrix whatever the direction's entries are. -/
theorem kR_eq_rR (w : Fin 3 → EReal) (hw : ∀ k, w k ≠ ⊤ ∧ w k ≠ ⊥) (i k : Fin 3) : kR w i k = rR w i k := by
  obtain ⟨a, ha⟩ := ang_real w hw
  by_cases ha0 : a = 0
  · exact zero_case w (by rw [ha, ha0, EReal.coe_zero]) i k
  · obtain ⟨x0, hx0⟩ := fin_real (hw 0)
    obtain ⟨x1, hx1⟩ := fin_real (hw 1)
    obtain ⟨x2, hx2⟩ := fin_real (hw 2)
    refine real_case w (x0 * (1 / a)) (x1 * (1 / a)) (x2 * (1 / a)) (Real.sin a) (1 - Real.cos a) ?_ ?_ ?_ ?_ ?_ i k
    · unfold dir; rw [ha, Ideal.div_coe ha0, hx0, ← EReal.coe_mul]
    · unfold dir; rw [ha, Ideal.div_coe ha0, hx1, ← EReal.coe_mul]
    · unfold dir; rw [ha, Ideal.div_coe ha0, hx2, ← EReal.coe_mul]
    · unfold sn; rw [ha, Ideal.sin_coe]
    · unfold oc; rw [ha, Ideal.cos_coe, oneW_eq, ← EReal.coe_one, ← EReal.coe_sub]

/-! ## Auxiliary facts for the chain -/

/-- The 4×4 matrix `M` is `[[n, t], [0, 0, 0, 1]]` for the entrywise transform `s`. -/
structure Rel (M : Fin 4 → Fin 4 → EReal) (s : St) : Prop where
  h00 : M 0 0 = s.n00
  h01 : M 0 1 = s.n01
  h02 : M 0 2 = s.n02
  h03 : M 0 3 = s.tx
  h10 : M 1 0 = s.n10
  h11 : M 1 1 = s.n11
  h12 : M 1 2 = s.n12
  h13 : M 1 3 = s.ty
  h20 : M 2 0 = s.n20
  h21 : M 2 1 = s.n21
  h22 : M 2 2 = s.n22
  h23 : M 2 3 = s.tz
  h30 : M 3 0 = 0
  h31 : M 3 1 = 0
  h32 : M 3 2 = 0
  h33 : M 3 3 = 1

/-- A joint's own 4×4 matrix, entry by entry. -/
theorem rel_root (w ov : Fin 3 → EReal) (hw : ∀ k, w k ≠ ⊤ ∧ w k ≠ ⊥) : Rel (st (rR w) ov) (rootSt w ov) := by
  constructor <;> simp [st, rootSt, lastRow, oneW_eq, ← kR_eq_rR w hw, kR]

/-- One step down the tree: the product's entries are the entrywise composition's, by `x·0 = 0`, `x·1 = x`, `x + 0 = x`. -/
theorem rel_comp {M : Fin 4 → Fin 4 → EReal} {p : St} (h : Rel M p) (w ov : Fin 3 → EReal)
    (hw : ∀ k, w k ≠ ⊤ ∧ w k ≠ ⊥) : Rel (mm M (st (rR w) ov)) (compSt p w ov) := by
  have b := rel_root w ov hw
  constructor <;>
    simp only [mm, Fin.sum_univ_four, h.h00, h.h01, h.h02, h.h03, h.h10, h.h11, h.h12, h.h13, h.h20, h.h21, h.h22, h.h23, h.h30, h.h31, h.h32, h.h33, b.h00, b.h01, b.h02, b.h03, b.h10, b.h11, b.h12, b.h13, b.h20, b.h21, b.h22, b.h23, b.h30, b.h31, b.h32, b.h33, compSt, rootSt,
      mul_zero, add_zero, mul_one, zero_mul, zero_add, one_mul]

section Chain
variable (hv : ∀ j k, v j k ≠ ⊤ ∧ v j k ≠ ⊥)
include hv
theorem rel0 : Rel (cM0 (fun j => st (rR (v j)) (o j))) (kS0 v o) := rel_root (v 0) (o 0) (hv 0)
theorem rel1 : Rel (cM1 (fun j => st (rR (v j)) (o j))) (kS1 v o) := rel_comp (rel0 v o hv) (v 1) (o 1) (hv 1)
theorem rel2 : Rel (cM2 (fun j => st (rR (v j)) (o j))) (kS2 v o) := rel_comp (rel0 v o hv) (v 2) (o 2) (hv 2)
theorem rel3 : Rel (cM3 (fun j => st (rR (v j)) (o j))) (kS3 v o) := rel_comp (rel0 v o hv) (v 3) (o 3) (hv 3)
theorem rel4 : Rel (cM4 (fun j => st (rR (v j)) (o j))) (kS4 v o) := rel_comp (rel1 v o hv) (v 4) (o 4) (hv 4)
theorem rel5 : Rel (cM5 (fun j => st (rR (v j)) (o j))) (kS5 v o) := rel_comp (rel2 v o hv) (v 5) (o 5) (hv 5)
theorem rel6 : Rel (cM6 (fun j => st (rR (v j)) (o j))) (kS6 v o) := rel_comp (rel3 v o hv) (v 6) (o 6) (hv 6)
theorem rel7 : Rel (cM7 (fun j => st (rR (v j)) (o j))) (kS7 v o) := rel_comp (rel4 v o hv) (v 7) (o 7) (hv 7)
theorem rel8 : Rel (cM8 (fun j => st (rR (v j)) (o j))) (kS8 v o) := rel_comp (rel5 v o hv) (v 8) (o 8) (hv 8)
theorem rel9 : Rel (cM9 (fun j => st (rR (v j)) (o j))) (kS9 v o) := rel_comp (rel6 v o hv) (v 9) (o 9) (hv 9)
theorem rel10 : Rel (cM10 (fun j => st (rR (v j)) (o j))) (kS10 v o) := rel_comp (rel7 v o hv) (v 10) (o 10) (hv 10)
theorem rel11 : Rel (cM11 (fun j => st (rR (v j)) (o j))) (kS11 v o) := rel_comp (rel8 v o hv) (v 11) (o 11) (hv 11)
theorem rel12 : Rel (cM12 (fun j => st (rR (v j)) (o j))) (kS12 v o) := rel_comp (rel9 v o hv) (v 12) (o 12) (hv 12)
theorem rel13 : Rel (cM13 (fun j => st (rR (v j)) (o j))) (kS13 v o) := rel_comp (rel9 v o hv) (v 13) (o 13) (hv 13)
theorem rel14 : Rel (cM14 (fun j => st (rR (v j)) (o j))) (kS14 v o) := rel_comp (rel9 v o hv) (v 14) (o 14) (hv 14)
theorem rel15 : Rel (cM15 (fun j => st (rR (v j)) (o j))) (kS15 v o) := rel_comp (rel12 v o hv) (v 15) (o 15) (hv 15)
theorem rel16 : Rel (cM16 (fun j => st (rR (v j)) (o j))) (kS16 v o) := rel_comp (rel13 v o hv) (v 16) (o 16) (hv 16)
theorem rel17 : Rel (cM17 (fun j => st (rR (v j)) (o j))) (kS17 v o) := rel_comp (rel14 v o hv) (v 17) (o 17) (hv 17)
theorem rel18 : Rel (cM18 (fun j => st (rR (v j)) (o j))) (kS18 v o) := rel_comp (rel16 v o hv) (v 18) (o 18) (hv 18)
theorem rel19 : Rel (cM19 (fun j => st (rR (v j)) (o j))) (kS19 v o) := rel_comp (rel17 v o hv) (v 19) (o 19) (hv 19)
theorem rel20 : Rel (cM20 (fun j => st (rR (v j)) (o j))) (kS20 v o) := rel_comp (rel18 v o hv) (v 20) (o 20) (hv 20)
theorem rel21 : Rel (cM21 (fun j => st (rR (v j)) (o j))) (kS21 v o) := rel_comp (rel19 v o hv) (v 21) (o 21) (hv 21)
theorem rel22 : Rel (cM22 (fun j => st (rR (v j)) (o j))) (kS22 v o) := rel_comp (rel20 v o hv) (v 22) (o 22) (hv 22)
theorem rel23 : Rel (cM23 (fun j => st (rR (v j)) (o j))) (kS23 v o) := rel_comp (rel21 v o hv) (v 23) (o 23) (hv 23)

/-- Every joint's 4×4 product is its entrywise transform. -/
theorem rel_all (j : Fin 24) : Rel (rMt o (fun j => rR (v j)) j) (kSt v o j) := by
  obtain ⟨j, hj⟩ := j
  interval_cases j
  · exact rel0 v o hv
  · exact rel1 v o hv
  · exact rel2 v o hv
  · exact rel3 v o hv
  · exact rel4 v o hv
  · exact rel5 v o hv
  · exact rel6 v o hv
  · exact rel7 v o hv
  · exact rel8 v o hv
  · exact rel9 v o hv
  · exact rel10 v o hv
  · exact rel11 v o hv
  · exact rel12 v o hv
  · exact rel13 v o hv
  · exact rel14 v o hv
  · exact rel15 v o hv
  · exact rel16 v o hv
  · exact rel17 v o hv
  · exact rel18 v o hv
  · exact rel19 v o hv
  · exact rel20 v o hv
  · exact rel21 v o hv
  · exact rel22 v o hv
  · exact rel23 v o hv

end Chain

/-- The translation column of the 4×4 chain is the translation of the entrywise chain, at every joint, for finite
    axis-angle vectors (offsets may be any extended reals: the chain uses only `x·0 = 0`, `x·1 = x`, `x + 0 = x`). -/
theorem bridge (hv : ∀ j k, v j k ≠ ⊤ ∧ v j k ≠ ⊥) (j : Fin 24) (k : Fin 3) :
    (kSt v o j).t k = rMt o (fun j => rR (v j)) j ⟨k.val, by omega⟩ 3 := by
  have key := rel_all v o hv j
  fin_cases k
  · exact key.h03.symm
  · exact key.h13.symm
  · exact key.h23.symm

/-! ## The whole result array, as a function of the three argument arrays -/

/-- Offsets `[24, 3]`, axis-angle vectors `[65536, 24, 3]`, root translations `[65536, 3]`; the result `[65536, 24, 3]`. -/
abbrev SOff : Shape := ⟨2, ![24, 3]⟩
abbrev SPose : Shape := ⟨3, ![65536, 24, 3]⟩
abbrev STrans : Shape := ⟨2, ![65536, 3]⟩

open ValueIdx in
/-- Joint positions by the entrywise chain: at `(b, j, k)` the `k`-th translation entry of joint `j`'s transform on lane
    `b`, plus the lane's root translation. -/
def G (A0 : SOff.Idx → EReal) (A1 : SPose.Idx → EReal) (A2 : STrans.Idx → EReal) : SPose.Idx → EReal := fun i =>
  (kSt (fun j k => A1 (ix3 (i 0) j k)) (fun j k => A0 (ix2 j k)) (i 1)).t (i 2) + A2 (ix2 (i 0) (i 2))

open ValueIdx in
/-- Joint positions by the 4×4 chain: the same entry read in the last column of the 4×4 product. -/
def GR (A0 : SOff.Idx → EReal) (A1 : SPose.Idx → EReal) (A2 : STrans.Idx → EReal) : SPose.Idx → EReal := fun i =>
  rMt (fun j k => A0 (ix2 j k)) (fun j => rR (fun k => A1 (ix3 (i 0) j k))) (i 1) ⟨(i 2).val, Nat.lt_of_lt_of_le (i 2).isLt (by decide)⟩ 3
    + A2 (ix2 (i 0) (i 2))

/-- For finite axis-angle vectors the two are one array. -/
theorem G_eq_GR (A0 : SOff.Idx → EReal) (A1 : SPose.Idx → EReal) (A2 : STrans.Idx → EReal)
    (hfin : ∀ i, A1 i ≠ ⊤ ∧ A1 i ≠ ⊥) : G A0 A1 A2 = GR A0 A1 A2 := by
  funext i
  unfold G GR
  rw [bridge _ _ (fun j k => hfin _) (i 1) (i 2)]

end Cert.FK

end
-- ==== Proof.KOut.lean ====
/-
  What the kernel's body leaves in its output block, as ONE function of its three input blocks: at joint `j`, coordinate
  `k` and lane `b`, the `k`-th translation entry of joint `j`'s world transform computed from the lane's 24 axis-angle
  vectors and the offsets, plus the lane's root translation.
-/
import proofs.«160816_j62156766707902_1_alg».proof.KernelIdeal
import proofs.«160816_j62156766707902_1_alg».proof.Proof.Spec

noncomputable section

namespace Cert.KernelIdeal.Body

open Cert.KernelIdeal Idealize.ShloMosaic Idealize.ShloMosaic.ValueIdx

/-- The axis-angle vectors of one lane of a `[24, 3, 4096]` block. -/
def laneV (x0 : Vec Ideal S24x3x4096 .f32) (b : Fin 4096) : Fin 24 → Fin 3 → EReal := fun j k => x0 (ix3 j k b)
/-- The offsets as a table. -/
def offT (x1 : Vec Ideal S24x3 .f32) : Fin 24 → Fin 3 → EReal := fun j k => x1 (ix2 j k)

/-- The output block. -/
def KOut (x0 : Vec Ideal S24x3x4096 .f32) (x1 : Vec Ideal S24x3 .f32) (x2 : Vec Ideal S3x4096 .f32) :
    Vec Ideal S24x3x4096 .f32 := fun y =>
  (Cert.FK.kSt (laneV x0 (y 2)) (offT x1) (y 0)).t (y 1) + x2 (ix2 (y 1) (y 2))

end Cert.KernelIdeal.Body

end
-- ==== Proof.KArray.lean ====
/-
  From blocks to the whole array. The kernel runs at 16 grid points; point `t` reads lanes `4096·t … 4096·t+4095` of the
  lane-major pose array `[24, 3, 65536]` and of the lane-major root translations `[3, 65536]`, the whole offsets table
  `[24, 3]`, and writes the same lanes of the lane-major output `[24, 3, 65536]`. The two lane-major inputs are transposes
  of the arguments `[65536, 24, 3]` and `[65536, 3]`, and the result is the transpose of the output back to
  `[65536, 24, 3]`. So if every point leaves the forward-kinematics block function of its three input blocks, the result
  array is the forward-kinematics function `G` of the three arguments, index by index: entry `(b, j, k)` is read at
  `(j, k, b)` of the output, which lies in the block of point `b / 4096` at lane `b % 4096`, whose inputs are the
  lane `b` of the arguments.
-/
import proofs.«160816_j62156766707902_1_alg».proof.Proof.KernelIdealFrame
import proofs.«160816_j62156766707902_1_alg».proof.Proof.KOut
import proofs.«160816_j62156766707902_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.KArray

open Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section

variable (m : (ℓ : Loc nD τ sig) → Buf (Elt Ideal) ℓ) (ρ : Dev nD → PrngReg)

/-! ## The lane-major output array as one function of the lane-major inputs -/

/-- At joint `j`, coordinate `k`, lane `B`: the `k`-th translation entry of joint `j`'s world transform on lane `B`,
    plus the lane's root translation; the poses and translations lane-major. -/
def GArr (a0 : Vec Ideal S24x3x65536 .f32) (a1 : Vec Ideal S24x3 .f32) (a2 : Vec Ideal S3x65536 .f32) :
    Vec Ideal S24x3x65536 .f32 := fun Y =>
  (Cert.FK.kSt (fun j k => a0 (ix3 j k (Y 2))) (fun j k => a1 (ix2 j k)) (Y 0)).t (Y 1) + a2 (ix2 (Y 1) (Y 2))

/-- A block's entry is the array's entry once the block's lane is the array's lane: the block function reads its
    inputs only on the entry's own lane. -/
theorem KOut_at (x0 : Vec Ideal S24x3x4096 .f32) (x1 : Vec Ideal S24x3 .f32) (x2 : Vec Ideal S3x4096 .f32)
    (a0 : Vec Ideal S24x3x65536 .f32) (a1 : Vec Ideal S24x3 .f32) (a2 : Vec Ideal S3x65536 .f32)
    (y : S24x3x4096.Idx) (Y : S24x3x65536.Idx)
    (hy0 : (Y 0).val = (y 0).val) (hy1 : (Y 1).val = (y 1).val)
    (h0 : ∀ (j : Fin 24) (k : Fin 3), x0 (ix3 j k (y 2)) = a0 (ix3 j k (Y 2)))
    (h1 : ∀ (j : Fin 24) (k : Fin 3), x1 (ix2 j k) = a1 (ix2 j k))
    (h2 : ∀ k : Fin 3, x2 (ix2 k (y 2)) = a2 (ix2 k (Y 2))) :
    Body.KOut x0 x1 x2 y = GArr a0 a1 a2 Y := by
  have e0 : (fun (j : Fin 24) (k : Fin 3) => x0 (ix3 j k (y 2))) = fun j k => a0 (ix3 j k (Y 2)) :=
    funext fun j => funext fun k => h0 j k
  have e1 : (fun (j : Fin 24) (k : Fin 3) => x1 (ix2 j k)) = fun j k => a1 (ix2 j k) :=
    funext fun j => funext fun k => h1 j k
  have q0 : (Y 0 : Fin 24) = y 0 := Fin.ext hy0
  have q1 : (Y 1 : Fin 3) = y 1 := Fin.ext hy1
  show (Cert.FK.kSt (fun (j : Fin 24) (k : Fin 3) => x0 (ix3 j k (y 2))) (fun (j : Fin 24) (k : Fin 3) => x1 (ix2 j k)) (y 0)).t (y 1) + x2 (ix2 (y 1) (y 2))
    = (Cert.FK.kSt (fun (j : Fin 24) (k : Fin 3) => a0 (ix3 j k (Y 2))) (fun (j : Fin 24) (k : Fin 3) => a1 (ix2 j k)) (Y 0)).t (Y 1) + a2 (ix2 (Y 1) (Y 2))
  rw [e0, e1, q0, q1]
  exact congrArg (_ + ·) (h2 (y 1))

/-! ## The index maps over the grid -/

/-- Every window's block index at point `t`: the lane axis moves with the point, the others stay. -/
theorem idx_facts : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = 0
    ∧ win0_2.index t (0 : Fin 2) = 0 ∧ win0_2.index t (1 : Fin 2) = t.val
    ∧ win0_3.index t (0 : Fin 3) = 0 ∧ win0_3.index t (1 : Fin 3) = 0 ∧ win0_3.index t (2 : Fin 3) = t.val :=
  (by decide +kernel : ∀ t : Fin grid0.N, _)

/-- The block of point `t` in the output array: the lanes `4096·t … 4096·t + 4095`. -/
theorem mem_blk (t : Fin cfg0.N) (i : S24x3x65536.Idx) :
    i ∈ ((cfg0.win 3).blk t).view.set ↔ ∀ a : Fin 3, win0_3.index t a * S24x3x4096.size a ≤ (i a).val ∧ (i a).val < win0_3.index t a * S24x3x4096.size a + S24x3x4096.size a := by
  show i ∈ ((View.whole main_v2).slice (win0_3.rect t)).set ↔ _
  rw [View.set_slice_whole, Rect.mem_set_unit]
  exact Iff.rfl

/-- Every entry of the output array is in the block of the point its lane falls in. -/
theorem cover (i : S24x3x65536.Idx) : ∃ t : Fin cfg0.N, (cfg0.win 3).flush t = true ∧ i ∈ ((cfg0.win 3).blk t).view.set := by
  have hN : cfg0.N = 16 := N_0
  have hi0 : (i 0).val < 24 := (i 0).isLt
  have hi1 : (i 1).val < 3 := (i 1).isLt
  have hi2 : (i 2).val < 65536 := (i 2).isLt
  have ht : (i 2).val / 4096 < cfg0.N := by rw [hN]; omega
  refine ⟨⟨(i 2).val / 4096, ht⟩, flush0_3 _, ?_⟩
  rw [mem_blk]
  obtain ⟨-, -, -, -, -, -, -, e0, e1, e2⟩ := idx_facts ⟨(i 2).val / 4096, ht⟩
  intro a
  match a with
  | ⟨0, _⟩ => show win0_3.index ⟨(i 2).val / 4096, ht⟩ (0 : Fin 3) * 24 ≤ (i 0).val ∧ (i 0).val < win0_3.index ⟨(i 2).val / 4096, ht⟩ (0 : Fin 3) * 24 + 24; omega
  | ⟨1, _⟩ => show win0_3.index ⟨(i 2).val / 4096, ht⟩ (1 : Fin 3) * 3 ≤ (i 1).val ∧ (i 1).val < win0_3.index ⟨(i 2).val / 4096, ht⟩ (1 : Fin 3) * 3 + 3; omega
  | ⟨2, _⟩ => show win0_3.index ⟨(i 2).val / 4096, ht⟩ (2 : Fin 3) * 4096 ≤ (i 2).val ∧ (i 2).val < win0_3.index ⟨(i 2).val / 4096, ht⟩ (2 : Fin 3) * 4096 + 4096
              have e2' : win0_3.index ⟨(i 2).val / 4096, ht⟩ (2 : Fin 3) = (i 2).val / 4096 := e2
              omega

/-- What point `t` writes back is block `t` of the array function of the arrays as the region finds them: the three
    input blocks at `t` are the same lanes of their arrays (the offsets table whole). -/
theorem flushed_eq
    (hbody : ∀ (m : (ℓ : Loc nD τ sig) → Buf (Elt Ideal) ℓ) (c : Dev nD) (t : Fin cfg0.N),
        GenP.outsAt0 (F := Ideal) m c t = Body.KOut (iblk m c 0 t) (iblk m c 1 t) (iblk m c 2 t))
    (c : Dev nD) (t : Fin cfg0.N) :
    (GenP.dats m 0 c).flushed 3 t
      = ((cfg0.win 3).blk t).view.read (Elt Ideal) (GArr (V m c main_v0) (V m c main_arg0) (V m c main_v1)) := by
  show (cfg0.win 3).cut (grid0.coords t) ((GenP.dats m 0 c).after 3 t) = _
  rw [GenP.after0_3, hbody m c t]
  obtain ⟨a0, a1, a2, b0, b1, c0, c1, d0, d1, d2⟩ := idx_facts t
  funext y
  show Body.KOut (iblk m c 0 t) (iblk m c 1 t) (iblk m c 2 t) y
    = GArr (V m c main_v0) (V m c main_arg0) (V m c main_v1) (((cfg0.win 3).blk t).view.emb y)
  refine KOut_at (iblk m c 0 t) (iblk m c 1 t) (iblk m c 2 t) (V m c main_v0) (V m c main_arg0) (V m c main_v1) y
    (((cfg0.win 3).blk t).view.emb y) ?_ ?_ ?_ ?_ ?_
  · show win0_3.index t (0 : Fin 3) * 24 + 1 * (y 0).val = (y 0).val
    omega
  · show win0_3.index t (1 : Fin 3) * 3 + 1 * (y 1).val = (y 1).val
    omega
  · intro j k
    show V m c main_v0 (((cfg0.win 0).blk t).view.emb (ix3 j k (y 2)))
      = V m c main_v0 (ix3 j k ((((cfg0.win 3).blk t).view.emb y) 2))
    have h : ((cfg0.win 0).blk t).view.emb (ix3 j k (y 2)) = ix3 j k ((((cfg0.win 3).blk t).view.emb y) 2) := by
      funext a; apply Fin.ext
      match a with
      | ⟨0, _⟩ => show win0_0.index t (0 : Fin 3) * 24 + 1 * j.val = j.val; omega
      | ⟨1, _⟩ => show win0_0.index t (1 : Fin 3) * 3 + 1 * k.val = k.val; omega
      | ⟨2, _⟩ => show win0_0.index t (2 : Fin 3) * 4096 + 1 * (y 2).val = win0_3.index t (2 : Fin 3) * 4096 + 1 * (y 2).val; omega
    exact congrArg (fun i => V m c main_v0 i) h
  · intro j k
    show V m c main_arg0 (((cfg0.win 1).blk t).view.emb (ix2 j k)) = V m c main_arg0 (ix2 j k)
    have h : ((cfg0.win 1).blk t).view.emb (ix2 j k) = ix2 j k := by
      funext a; apply Fin.ext
      match a with
      | ⟨0, _⟩ => show win0_1.index t (0 : Fin 2) * 24 + 1 * j.val = j.val; omega
      | ⟨1, _⟩ => show win0_1.index t (1 : Fin 2) * 3 + 1 * k.val = k.val; omega
    exact congrArg (fun i => V m c main_arg0 i) h
  · intro k
    show V m c main_v1 (((cfg0.win 2).blk t).view.emb (ix2 k (y 2)))
      = V m c main_v1 (ix2 k ((((cfg0.win 3).blk t).view.emb y) 2))
    have h : ((cfg0.win 2).blk t).view.emb (ix2 k (y 2)) = ix2 k ((((cfg0.win 3).blk t).view.emb y) 2) := by
      funext a; apply Fin.ext
      match a with
      | ⟨0, _⟩ => show win0_2.index t (0 : Fin 2) * 3 + 1 * k.val = k.val; omega
      | ⟨1, _⟩ => show win0_2.index t (1 : Fin 2) * 4096 + 1 * (y 2).val = win0_3.index t (2 : Fin 3) * 4096 + 1 * (y 2).val; omega
    exact congrArg (fun i => V m c main_v1 i) h

/-- So the output array ends holding the array function of the arrays the region finds. -/
theorem final
    (hbody : ∀ (m : (ℓ : Loc nD τ sig) → Buf (Elt Ideal) ℓ) (c : Dev nD) (t : Fin cfg0.N),
        GenP.outsAt0 (F := Ideal) m c t = Body.KOut (iblk m c 0 t) (iblk m c 1 t) (iblk m c 2 t))
    (c : Dev nD) :
    (GenP.dats m 0 c).arrAt 3 cfg0.N = GArr (V m c main_v0) (V m c main_arg0) (V m c main_v1) :=
  (GenP.dats m 0 c).arrAt_eq_of_cover 3 (GArr (V m c main_v0) (V m c main_arg0) (V m c main_v1))
    (fun t _ => flushed_eq m hbody c t) cover

/-! ## The host transposes, read at an index -/

/-- The lane-major poses the region finds are the argument's, transposed: entry `(j, k, B)` is the argument's `(B, j, k)`. -/
theorem V_v0_apply (c : Dev nD) (j : Fin 24) (k : Fin 3) (B : Fin 65536) :
    V m c main_v0 (ix3 j k B) = m ((c.tc : Thread nD τ).loc main_arg1) (ix3 B j k) := by
  have e : (V m c main_v0 : S24x3x65536.Idx → Ideal .f32)
      = transpose S24x3x65536 [1, 2, 0] (m ((c.tc : Thread nD τ).loc main_arg1)) transposes_S65536x24x3_S24x3x65536_1_2_0 := by
    show StableHlo.after hostOps0 (fun b => m (c, b)) (Proc.devRef .tc main_v0) = _
    after_results
  rw [e]
  exact transpose_apply _ _ _ _ _ fun b => match b with | ⟨0, _⟩ => rfl | ⟨1, _⟩ => rfl | ⟨2, _⟩ => rfl

/-- The lane-major root translations the region finds are the argument's, transposed. -/
theorem V_v1_apply (c : Dev nD) (k : Fin 3) (B : Fin 65536) :
    V m c main_v1 (ix2 k B) = m ((c.tc : Thread nD τ).loc main_arg2) (ix2 B k) := by
  have e : (V m c main_v1 : S3x65536.Idx → Ideal .f32)
      = transpose S3x65536 [1, 0] (m ((c.tc : Thread nD τ).loc main_arg2)) transposes_S65536x3_S3x65536_1_0 := by
    show StableHlo.after hostOps0 (fun b => m (c, b)) (Proc.devRef .tc main_v1) = _
    after_results
  rw [e]
  exact transpose_apply _ _ _ _ _ fun b => match b with | ⟨0, _⟩ => rfl | ⟨1, _⟩ => rfl

/-! ## The host transpose after the region, and the run -/

/-- The result is the output array the region leaves, transposed back: entry `(B, j, k)` is the array's `(j, k, B)`. -/
theorem tail_apply (c : Dev nD) (B : Fin 65536) (j : Fin 24) (k : Fin 3) :
    Pipeline.afterTail₀ cfgs (GenP.dats m) 0 (V0 m) [hostOps1] c main_v3 (ix3 B j k)
      = (GenP.dats m 0 c).arrAt 3 cfg0.N (ix3 j k B) := by
  have e : (Pipeline.afterTail₀ cfgs (GenP.dats m) 0 (V0 m) [hostOps1] c main_v3 : S65536x24x3.Idx → Ideal .f32)
      = transpose S65536x24x3 [2, 0, 1] ((GenP.dats m 0 c).arrAt 3 cfg0.N) transposes_S24x3x65536_S65536x24x3_2_0_1 := by
    unfold Pipeline.afterTail₀
    show StableHlo.after hostOps1 _ (Proc.devRef .tc main_v3) = _
    after_results
    exact congrArg (fun x => transpose S65536x24x3 [2, 0, 1] x transposes_S24x3x65536_S65536x24x3_2_0_1)
      (Pipeline.withArrays_arr spec0 launch0.win.arr_inj c (V0 m c) (fun w => (GenP.dats m 0 c).arrAt w cfg0.N) 3)
  rw [e]
  exact transpose_apply _ _ _ _ _ fun b => match b with | ⟨0, _⟩ => rfl | ⟨1, _⟩ => rfl | ⟨2, _⟩ => rfl

/-- The result array is the forward-kinematics function of the three arguments: the lane-major arrays are the arguments
    transposed, and the result the output transposed back. -/
theorem result_eq
    (hbody : ∀ (m : (ℓ : Loc nD τ sig) → Buf (Elt Ideal) ℓ) (c : Dev nD) (t : Fin cfg0.N),
        GenP.outsAt0 (F := Ideal) m c t = Body.KOut (iblk m c 0 t) (iblk m c 1 t) (iblk m c 2 t))
    (c : Dev nD) :
    Pipeline.afterTail₀ cfgs (GenP.dats m) 0 (V0 m) [hostOps1] c main_v3
      = Cert.FK.G (m ((c.tc : Thread nD τ).loc main_arg0)) (m ((c.tc : Thread nD τ).loc main_arg1)) (m ((c.tc : Thread nD τ).loc main_arg2)) := by
  funext i
  obtain ⟨B, j, k, rfl⟩ : ∃ (B : Fin 65536) (j : Fin 24) (k : Fin 3), i = ix3 B j k := ⟨i 0, i 1, i 2, eq_ix3 i⟩
  rw [tail_apply, final m hbody c]
  have e0 : (fun (j' : Fin 24) (k' : Fin 3) => V m c main_v0 (ix3 j' k' B))
      = fun j' k' => m ((c.tc : Thread nD τ).loc main_arg1) (ix3 B j' k') :=
    funext fun j' => funext fun k' => V_v0_apply m c j' k' B
  have e1 : (fun (j' : Fin 24) (k' : Fin 3) => V m c main_arg0 (ix2 j' k'))
      = fun j' k' => m ((c.tc : Thread nD τ).loc main_arg0) (ix2 j' k') := by
    rw [V_main_arg0 m c]
  show (Cert.FK.kSt (fun (j' : Fin 24) (k' : Fin 3) => V m c main_v0 (ix3 j' k' B)) (fun (j' : Fin 24) (k' : Fin 3) => V m c main_arg0 (ix2 j' k')) j).t k
      + V m c main_v1 (ix2 k B)
    = (Cert.FK.kSt (fun (j' : Fin 24) (k' : Fin 3) => m ((c.tc : Thread nD τ).loc main_arg1) (ix3 B j' k'))
        (fun (j' : Fin 24) (k' : Fin 3) => m ((c.tc : Thread nD τ).loc main_arg0) (ix2 j' k')) j).t k
      + m ((c.tc : Thread nD τ).loc main_arg2) (ix2 B k)
  rw [e0, e1]
  exact congrArg (_ + ·) (V_v1_apply m c k B)

end

/-- THE RUN: every execution of the program ends with the result array at the forward-kinematics function of the three
    arguments, and the arguments as they were. -/
theorem kernel_run
    (hbody : ∀ (m : (ℓ : Loc nD τ sig) → Buf (Elt Ideal) ℓ) (c : Dev nD) (t : Fin cfg0.N),
        GenP.outsAt0 (F := Ideal) m c t = Body.KOut (iblk m c 0 t) (iblk m c 1 t) (iblk m c 2 t))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = Cert.FK.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v3 (Pipeline.mem_restRefs_of main_v3 (by decide) (by decide))).trans (result_eq m hbody c),
       ((h c).1 1).trans (((GenP.dats m 0 c).arrAt_in 1 rfl _).trans ((GenP.A_eq m c 1).trans (V_main_arg0 m c))),
       ((h c).2 main_arg1 (Pipeline.mem_restRefs_of main_arg1 (by decide) (by decide))).trans (W_main_arg1 m (GenP.dats m) c),
       ((h c).2 main_arg2 (Pipeline.mem_restRefs_of main_arg2 (by decide) (by decide))).trans (W_main_arg2 m (GenP.dats m) c)⟩)
    (GenP.run_main m ρ)

end Cert.KernelIdeal.KArray

end
-- ==== Proof.KLevelLib.lean ====
/-
  A buffer filled one row at a time, read back one row at a time: if every piece written holds the values of ONE
  function `G` of the buffer's index at the piece's place, then a row read back after the rows below `k` were
  written is `G` on that row; and an output block written one joint at a time by pieces that agree with the
  closed form IS the closed form.
-/
import proofs.«160816_j62156766707902_1_alg».proof.Proof.KernelIdealFrame
import proofs.«160816_j62156766707902_1_alg».proof.Proof.KOut
import Idealize.ShloMosaic.Lib.Pipeline.Value
import Idealize.ShloMosaic.Lib.Pipeline.FrameBody
import Idealize.ShloMosaic.Lib.ValueIdx

noncomputable section

namespace Cert.KernelIdeal.Body

open Cert.KernelIdeal Cert.KernelIdeal.Gen Idealize.ShloMosaic Idealize.ShloMosaic.ValueIdx

/-! ## Indices of a one-row rectangle and where the rectangle places them -/

/-- An index of a `[1, 4096]` rectangle is `(0, b)`. -/
theorem row_idx (x : (⟨2, ![1, 4096]⟩ : Shape).Idx) : x = ix2 (0 : Fin 1) (x 1) := by
  funext a
  match a with
  | ⟨0, _⟩ =>
    have h : (x 0).val < 1 := (x 0).isLt
    exact Fin.ext (by show (x 0).val = 0; omega)
  | ⟨1, _⟩ => rfl

/-- Row `j`'s rectangle places `(0, b)` at `(j, b)`. -/
theorem emb_row (j : ℕ) (hj : j < 24)
    (inb : ∀ a, (![j, 0] : Fin S24x4096.rank → ℕ) a + S1x4096.size a ≤ S24x4096.size a) (b : Fin 4096) :
    (Rect.unit (s := S24x4096) ![j, 0] S1x4096.size inb).emb (ix2 (0 : Fin 1) b) = ix2 (⟨j, hj⟩ : Fin 24) b := by
  funext a
  match a with
  | ⟨0, _⟩ => exact Fin.ext (by show j + 1 * 0 = j; omega)
  | ⟨1, _⟩ => exact Fin.ext (by show 0 + 1 * b.val = b.val; omega)

/-- An index of a `[1, 3, 4096]` rectangle is `(0, k, b)`. -/
theorem blk_idx (x : (⟨3, ![1, 3, 4096]⟩ : Shape).Idx) : x = ix3 (0 : Fin 1) (x 1) (x 2) := by
  funext a
  match a with
  | ⟨0, _⟩ =>
    have h : (x 0).val < 1 := (x 0).isLt
    exact Fin.ext (by show (x 0).val = 0; omega)
  | ⟨1, _⟩ => rfl
  | ⟨2, _⟩ => rfl

/-- Joint `j`'s rectangle places `(0, k, b)` at `(j, k, b)`. -/
theorem emb_blk (j : ℕ) (hj : j < 24)
    (inb : ∀ a, (![j, 0, 0] : Fin S24x3x4096.rank → ℕ) a + S1x3x4096.size a ≤ S24x3x4096.size a) (k : Fin 3) (b : Fin 4096) :
    (Rect.unit (s := S24x3x4096) ![j, 0, 0] S1x3x4096.size inb).emb (ix3 (0 : Fin 1) k b) = ix3 (⟨j, hj⟩ : Fin 24) k b := by
  funext a
  match a with
  | ⟨0, _⟩ => exact Fin.ext (by show j + 1 * 0 = j; omega)
  | ⟨1, _⟩ => exact Fin.ext (by show 0 + 1 * k.val = k.val; omega)
  | ⟨2, _⟩ => exact Fin.ext (by show 0 + 1 * b.val = b.val; omega)

/-! ## The scratch buffers: rows written, rows read back -/

/-- Every piece of the list holds `G` at the piece's place. -/
def Pcs (G : S24x4096.Idx → Elt Ideal .f32) (L : List (View.Piece (Elt Ideal) S24x4096 .f32)) : Prop :=
  ∀ p ∈ L, ∀ x : p.1.shape.Idx, p.2 x = G (p.1.emb x)

/-- The pieces of the list cover the rows below `k`. -/
def Cov (k : ℕ) (L : List (View.Piece (Elt Ideal) S24x4096 .f32)) : Prop :=
  ∀ y : S24x4096.Idx, (y 0).val < k → ∃ p ∈ L, y ∈ p.1.set

theorem Pcs.nil (G : S24x4096.Idx → Elt Ideal .f32) : Pcs G [] := by
  intro p hp
  exact absurd hp List.not_mem_nil

theorem Cov.zero : Cov 0 [] := by
  intro y hy
  exact absurd hy (Nat.not_lt_zero _)

/-- One more row, whose payload is `G` on row `j`. -/
theorem Pcs.cons {G : S24x4096.Idx → Elt Ideal .f32} {L : List (View.Piece (Elt Ideal) S24x4096 .f32)} (j : ℕ) (hj : j < 24)
    (inb : ∀ a, (![j, 0] : Fin S24x4096.rank → ℕ) a + S1x4096.size a ≤ S24x4096.size a)
    (w : (Rect.unit (s := S24x4096) ![j, 0] S1x4096.size inb).shape.Idx → Elt Ideal .f32)
    (hw : ∀ b : Fin 4096, w (ix2 (0 : Fin 1) b) = G (ix2 (⟨j, hj⟩ : Fin 24) b)) (hL : Pcs G L) :
    Pcs G (⟨Rect.unit (s := S24x4096) ![j, 0] S1x4096.size inb, w⟩ :: L) := by
  intro p hp
  rcases List.mem_cons.1 hp with rfl | hp'
  · intro x
    obtain ⟨b, rfl⟩ : ∃ b : Fin 4096, x = ix2 (0 : Fin 1) b := ⟨x 1, row_idx x⟩
    show w (ix2 (0 : Fin 1) b) = G ((Rect.unit (s := S24x4096) ![j, 0] S1x4096.size inb).emb (ix2 (0 : Fin 1) b))
    rw [emb_row j hj inb b]
    exact hw b
  · exact hL p hp'

/-- Row `k` written: the rows below `k + 1` are covered. -/
theorem Cov.cons {L : List (View.Piece (Elt Ideal) S24x4096 .f32)} (k : ℕ)
    (inb : ∀ a, (![k, 0] : Fin S24x4096.rank → ℕ) a + S1x4096.size a ≤ S24x4096.size a)
    (w : (Rect.unit (s := S24x4096) ![k, 0] S1x4096.size inb).shape.Idx → Elt Ideal .f32) (hL : Cov k L) :
    Cov (k + 1) (⟨Rect.unit (s := S24x4096) ![k, 0] S1x4096.size inb, w⟩ :: L) := by
  intro y hy
  by_cases h : (y 0).val < k
  · obtain ⟨p, hp, hyp⟩ := hL y h
    exact ⟨p, List.mem_cons_of_mem _ hp, hyp⟩
  · refine ⟨_, List.mem_cons_self, ?_⟩
    show y ∈ (Rect.unit (s := S24x4096) ![k, 0] S1x4096.size inb).set
    rw [Rect.mem_set_unit]
    intro a
    match a with
    | ⟨0, _⟩ => exact ⟨by show k ≤ (y 0).val; omega, by show (y 0).val < k + 1; omega⟩
    | ⟨1, _⟩ =>
      have h1 : (y 1).val < 4096 := (y 1).isLt
      exact ⟨Nat.zero_le _, by show (y 1).val < 0 + 4096; omega⟩

/-- A row below `k` read back is `G` on that row. -/
theorem read_row {G : S24x4096.Idx → Elt Ideal .f32} {L : List (View.Piece (Elt Ideal) S24x4096 .f32)} {k : ℕ}
    (hp : Pcs G L) (hc : Cov k L) {sg : RefSig} {κ : Kind} {sp : Space} (v : View sg κ sp S24x4096 .f32)
    (p : ℕ) (hpk : p < k) (hk : k ≤ 24)
    (inb : ∀ a, (![p, 0] : Fin S24x4096.rank → ℕ) a + S1x4096.size a ≤ S24x4096.size a) (b : Fin 4096) :
    v.readCov L (Rect.unit (s := S24x4096) ![p, 0] S1x4096.size inb).toLoadRect (ix2 (0 : Fin 1) b)
      = G (ix2 (⟨p, by omega⟩ : Fin 24) b) := by
  rw [View.readCov_eq_canon']
  have he : (Rect.unit (s := S24x4096) ![p, 0] S1x4096.size inb).toLoadRect.idx (ix2 (0 : Fin 1) b)
      = ix2 (⟨p, by omega⟩ : Fin 24) b := emb_row p (by omega) inb b
  show View.canon L ((Rect.unit (s := S24x4096) ![p, 0] S1x4096.size inb).toLoadRect.idx (ix2 (0 : Fin 1) b)) = _
  rw [he]
  exact View.canon_apply_of_pieces G L hp _ (hc _ hpk)

/-! ## The output block -/

/-- A joint's piece of the output block that is the closed form on joint `j` agrees with it at the piece's place. -/
theorem out_piece (x0 : Vec Ideal S24x3x4096 .f32) (x1 : Vec Ideal S24x3 .f32) (x2 : Vec Ideal S3x4096 .f32) (j : ℕ) (hj : j < 24)
    (inb : ∀ a, (![j, 0, 0] : Fin S24x3x4096.rank → ℕ) a + S1x3x4096.size a ≤ S24x3x4096.size a)
    (w : (Rect.unit (s := S24x3x4096) ![j, 0, 0] S1x3x4096.size inb).shape.Idx → Elt Ideal .f32)
    (hw : ∀ (k : Fin 3) (b : Fin 4096), w (ix3 (0 : Fin 1) k b) = KOut x0 x1 x2 (ix3 (⟨j, hj⟩ : Fin 24) k b)) :
    ∀ x, w x = KOut x0 x1 x2 ((Rect.unit (s := S24x3x4096) ![j, 0, 0] S1x3x4096.size inb).emb x) := by
  intro x
  obtain ⟨k, b, rfl⟩ : ∃ (k : Fin 3) (b : Fin 4096), x = ix3 (0 : Fin 1) k b := ⟨x 1, x 2, blk_idx x⟩
  rw [emb_blk j hj inb k b]
  exact hw k b

/-- The output block the body leaves is the closed form, if each of its pieces is. -/
theorem out_of_pieces (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole)
    (x0 : Vec Ideal S24x3x4096 .f32) (x1 : Vec Ideal S24x3 .f32) (x2 : Vec Ideal S3x4096 .f32)
    (hp : ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).1, ∀ x : p.1.shape.Idx, p.2 x = KOut x0 x1 x2 (p.1.emb x)) :
    GenP.out0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 = KOut x0 x1 x2 := by
  unfold GenP.out0_A_3
  rw [View.read_writes_junk_eq_canon]
  funext y
  exact View.canon_apply_of_pieces _ _ hp y (GenP.cover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 y)

end Cert.KernelIdeal.Body

end
-- ==== Proof.KLevelDefs.lean ====
/- The twelve scratch buffers hold, row by row, the twelve entries of each joint's world transform. Level k is the state
   after k joints have been stored: per buffer its k row pieces cover the rows below k (cov_S_K), and the bundle LvlK says each
   piece holds the closed form (entry S of the row's joint, on the piece's lanes). -/
import proofs.«160816_j62156766707902_1_alg».proof.Proof.KLevelLib
import Mathlib.Data.Fin.VecNotation

noncomputable section

namespace Cert.KernelIdeal.Body

open Cert.KernelIdeal Cert.KernelIdeal.Gen Idealize.ShloMosaic Idealize.ShloMosaic.ValueIdx

/-- Entry s of a joint's transform, in the order the scratch buffers hold them: the rotation's nine, row by row, then the translation's three. -/
def fld : Fin 12 → Cert.FK.St → EReal
  | 0 => fun s => s.n00 | 1 => fun s => s.n01 | 2 => fun s => s.n02
  | 3 => fun s => s.n10 | 4 => fun s => s.n11 | 5 => fun s => s.n12
  | 6 => fun s => s.n20 | 7 => fun s => s.n21 | 8 => fun s => s.n22
  | 9 => fun s => s.tx | 10 => fun s => s.ty | 11 => fun s => s.tz

/-- What scratch buffer s holds at row j, lane b: entry s of joint j's transform on that lane. -/
def Gs (s : Fin 12) (x0 : Vec Ideal S24x3x4096 .f32) (x1 : Vec Ideal S24x3 .f32) : S24x4096.Idx → Elt Ideal .f32 :=
  fun y => fld s (Cert.FK.kSt (laneV x0 (y 1)) (offT x1) (y 0))

/-! Coordinates of an index built from its coordinates, and a joint's number as a numeral. -/
theorem ix2_c0 {n0 n1 : ℕ} (a : Fin n0) (b : Fin n1) : ix2 a b 0 = a := rfl
theorem ix2_c1 {n0 n1 : ℕ} (a : Fin n0) (b : Fin n1) : ix2 a b 1 = b := rfl
theorem ix3_c0 {n0 n1 n2 : ℕ} (a : Fin n0) (b : Fin n1) (d : Fin n2) : ix3 a b d 0 = a := rfl
theorem ix3_c1 {n0 n1 n2 : ℕ} (a : Fin n0) (b : Fin n1) (d : Fin n2) : ix3 a b d 1 = b := rfl
theorem ix3_c2 {n0 n1 n2 : ℕ} (a : Fin n0) (b : Fin n1) (d : Fin n2) : ix3 a b d 2 = d := rfl
theorem fin24_mk_0 (h : 0 < 24) : (⟨0, h⟩ : Fin 24) = 0 := rfl
theorem fin24_mk_1 (h : 1 < 24) : (⟨1, h⟩ : Fin 24) = 1 := rfl
theorem fin24_mk_2 (h : 2 < 24) : (⟨2, h⟩ : Fin 24) = 2 := rfl
theorem fin24_mk_3 (h : 3 < 24) : (⟨3, h⟩ : Fin 24) = 3 := rfl
theorem fin24_mk_4 (h : 4 < 24) : (⟨4, h⟩ : Fin 24) = 4 := rfl
theorem fin24_mk_5 (h : 5 < 24) : (⟨5, h⟩ : Fin 24) = 5 := rfl
theorem fin24_mk_6 (h : 6 < 24) : (⟨6, h⟩ : Fin 24) = 6 := rfl
theorem fin24_mk_7 (h : 7 < 24) : (⟨7, h⟩ : Fin 24) = 7 := rfl
theorem fin24_mk_8 (h : 8 < 24) : (⟨8, h⟩ : Fin 24) = 8 := rfl
theorem fin24_mk_9 (h : 9 < 24) : (⟨9, h⟩ : Fin 24) = 9 := rfl
theorem fin24_mk_10 (h : 10 < 24) : (⟨10, h⟩ : Fin 24) = 10 := rfl
theorem fin24_mk_11 (h : 11 < 24) : (⟨11, h⟩ : Fin 24) = 11 := rfl
theorem fin24_mk_12 (h : 12 < 24) : (⟨12, h⟩ : Fin 24) = 12 := rfl
theorem fin24_mk_13 (h : 13 < 24) : (⟨13, h⟩ : Fin 24) = 13 := rfl
theorem fin24_mk_14 (h : 14 < 24) : (⟨14, h⟩ : Fin 24) = 14 := rfl
theorem fin24_mk_15 (h : 15 < 24) : (⟨15, h⟩ : Fin 24) = 15 := rfl
theorem fin24_mk_16 (h : 16 < 24) : (⟨16, h⟩ : Fin 24) = 16 := rfl
theorem fin24_mk_17 (h : 17 < 24) : (⟨17, h⟩ : Fin 24) = 17 := rfl
theorem fin24_mk_18 (h : 18 < 24) : (⟨18, h⟩ : Fin 24) = 18 := rfl
theorem fin24_mk_19 (h : 19 < 24) : (⟨19, h⟩ : Fin 24) = 19 := rfl
theorem fin24_mk_20 (h : 20 < 24) : (⟨20, h⟩ : Fin 24) = 20 := rfl
theorem fin24_mk_21 (h : 21 < 24) : (⟨21, h⟩ : Fin 24) = 21 := rfl
theorem fin24_mk_22 (h : 22 < 24) : (⟨22, h⟩ : Fin 24) = 22 := rfl
theorem fin24_mk_23 (h : 23 < 24) : (⟨23, h⟩ : Fin 24) = 23 := rfl
theorem fin3_mk_0 (h : 0 < 3) : (⟨0, h⟩ : Fin 3) = 0 := rfl
theorem fin3_mk_1 (h : 1 < 3) : (⟨1, h⟩ : Fin 3) = 1 := rfl
theorem fin3_mk_2 (h : 2 < 3) : (⟨2, h⟩ : Fin 3) = 2 := rfl

/-! ## The covers -/
theorem cov_0_1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 1 (kernelRun0_A.sl.HS0_1 (F := Ideal) c arg1 harg1 x0) := by
  unfold kernelRun0_A.sl.HS0_1; exact Cov.cons 0 _ _ Cov.zero
theorem cov_0_2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 2 (kernelRun0_A.sl.HS0_2 (F := Ideal) c arg1 harg1 arg5 arg6 arg7 x0) := by
  unfold kernelRun0_A.sl.HS0_2; exact Cov.cons 1 _ _ (cov_0_1 c arg1 harg1 arg2 harg2 arg5 arg6 arg7 arg8 arg9 arg10 arg11 arg12 arg13 arg14 arg15 arg16 x0 x1)
theorem cov_0_3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 3 (kernelRun0_A.sl.HS0_3 (F := Ideal) c arg1 harg1 arg5 arg6 arg7 x0) := by
  unfold kernelRun0_A.sl.HS0_3; exact Cov.cons 2 _ _ (cov_0_2 c arg1 harg1 arg2 harg2 arg5 arg6 arg7 arg8 arg9 arg10 arg11 arg12 arg13 arg14 arg15 arg16 x0 x1)
theorem cov_0_4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 4 (kernelRun0_A.sl.HS0_4 (F := Ideal) c arg1 harg1 arg5 arg6 arg7 x0) := by
  unfold kernelRun0_A.sl.HS0_4; exact Cov.cons 3 _ _ (cov_0_3 c arg1 harg1 arg2 harg2 arg5 arg6 arg7 arg8 arg9 arg10 arg11 arg12 arg13 arg14 arg15 arg16 x0 x1)
theorem cov_0_5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 5 (kernelRun0_A.sl.HS0_5 (F := Ideal) c arg1 harg1 arg5 arg6 arg7 x0) := by
  unfold kernelRun0_A.sl.HS0_5; exact Cov.cons 4 _ _ (cov_0_4 c arg1 harg1 arg2 harg2 arg5 arg6 arg7 arg8 arg9 arg10 arg11 arg12 arg13 arg14 arg15 arg16 x0 x1)
theorem cov_0_6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 6 (kernelRun0_A.sl.HS0_6 (F := Ideal) c arg1 harg1 arg5 arg6 arg7 x0) := by
  unfold kernelRun0_A.sl.HS0_6; exact Cov.cons 5 _ _ (cov_0_5 c arg1 harg1 arg2 harg2 arg5 arg6 arg7 arg8 arg9 arg10 arg11 arg12 arg13 arg14 arg15 arg16 x0 x1)
theorem cov_0_7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 7 (kernelRun0_A.sl.HS0_7 (F := Ideal) c arg1 harg1 arg5 arg6 arg7 x0) := by
  unfold kernelRun0_A.sl.HS0_7; exact Cov.cons 6 _ _ (cov_0_6 c arg1 harg1 arg2 harg2 arg5 arg6 arg7 arg8 arg9 arg10 arg11 arg12 arg13 arg14 arg15 arg16 x0 x1)
theorem cov_0_8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 8 (kernelRun0_A.sl.HS0_8 (F := Ideal) c arg1 harg1 arg5 arg6 arg7 x0) := by
  unfold kernelRun0_A.sl.HS0_8; exact Cov.cons 7 _ _ (cov_0_7 c arg1 harg1 arg2 harg2 arg5 arg6 arg7 arg8 arg9 arg10 arg11 arg12 arg13 arg14 arg15 arg16 x0 x1)
theorem cov_0_9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 9 (kernelRun0_A.sl.HS0_9 (F := Ideal) c arg1 harg1 arg5 arg6 arg7 x0) := by
  unfold kernelRun0_A.sl.HS0_9; exact Cov.cons 8 _ _ (cov_0_8 c arg1 harg1 arg2 harg2 arg5 arg6 arg7 arg8 arg9 arg10 arg11 arg12 arg13 arg14 arg15 arg16 x0 x1)
theorem cov_0_10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 10 (kernelRun0_A.sl.HS0_10 (F := Ideal) c arg1 harg1 arg5 arg6 arg7 x0) := by
  unfold kernelRun0_A.sl.HS0_10; exact Cov.cons 9 _ _ (cov_0_9 c arg1 harg1 arg2 harg2 arg5 arg6 arg7 arg8 arg9 arg10 arg11 arg12 arg13 arg14 arg15 arg16 x0 x1)
theorem cov_0_11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 11 (kernelRun0_A.sl.HS0_11 (F := Ideal) c arg1 harg1 arg5 arg6 arg7 x0) := by
  unfold kernelRun0_A.sl.HS0_11; exact Cov.cons 10 _ _ (cov_0_10 c arg1 harg1 arg2 harg2 arg5 arg6 arg7 arg8 arg9 arg10 arg11 arg12 arg13 arg14 arg15 arg16 x0 x1)
theorem cov_0_12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 12 (kernelRun0_A.sl.HS0_12 (F := Ideal) c arg1 harg1 arg5 arg6 arg7 x0) := by
  unfold kernelRun0_A.sl.HS0_12; exact Cov.cons 11 _ _ (cov_0_11 c arg1 harg1 arg2 harg2 arg5 arg6 arg7 arg8 arg9 arg10 arg11 arg12 arg13 arg14 arg15 arg16 x0 x1)
theorem cov_0_13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 13 (kernelRun0_A.sl.HS0_13 (F := Ideal) c arg1 harg1 arg5 arg6 arg7 x0) := by
  unfold kernelRun0_A.sl.HS0_13; exact Cov.cons 12 _ _ (cov_0_12 c arg1 harg1 arg2 harg2 arg5 arg6 arg7 arg8 arg9 arg10 arg11 arg12 arg13 arg14 arg15 arg16 x0 x1)
theorem cov_0_14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 14 (kernelRun0_A.sl.HS0_14 (F := Ideal) c arg1 harg1 arg5 arg6 arg7 x0) := by
  unfold kernelRun0_A.sl.HS0_14; exact Cov.cons 13 _ _ (cov_0_13 c arg1 harg1 arg2 harg2 arg5 arg6 arg7 arg8 arg9 arg10 arg11 arg12 arg13 arg14 arg15 arg16 x0 x1)
theorem cov_0_15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 15 (kernelRun0_A.sl.HS0_15 (F := Ideal) c arg1 harg1 arg5 arg6 arg7 x0) := by
  unfold kernelRun0_A.sl.HS0_15; exact Cov.cons 14 _ _ (cov_0_14 c arg1 harg1 arg2 harg2 arg5 arg6 arg7 arg8 arg9 arg10 arg11 arg12 arg13 arg14 arg15 arg16 x0 x1)
theorem cov_0_16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 16 (kernelRun0_A.sl.HS0_16 (F := Ideal) c arg1 harg1 arg5 arg6 arg7 x0) := by
  unfold kernelRun0_A.sl.HS0_16; exact Cov.cons 15 _ _ (cov_0_15 c arg1 harg1 arg2 harg2 arg5 arg6 arg7 arg8 arg9 arg10 arg11 arg12 arg13 arg14 arg15 arg16 x0 x1)
theorem cov_0_17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 17 (kernelRun0_A.sl.HS0_17 (F := Ideal) c arg1 harg1 arg5 arg6 arg7 x0) := by
  unfold kernelRun0_A.sl.HS0_17; exact Cov.cons 16 _ _ (cov_0_16 c arg1 harg1 arg2 harg2 arg5 arg6 arg7 arg8 arg9 arg10 arg11 arg12 arg13 arg14 arg15 arg16 x0 x1)
theorem cov_0_18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 18 (kernelRun0_A.sl.HS0_18 (F := Ideal) c arg1 harg1 arg5 arg6 arg7 x0) := by
  unfold kernelRun0_A.sl.HS0_18; exact Cov.cons 17 _ _ (cov_0_17 c arg1 harg1 arg2 harg2 arg5 arg6 arg7 arg8 arg9 arg10 arg11 arg12 arg13 arg14 arg15 arg16 x0 x1)
theorem cov_0_19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 19 (kernelRun0_A.sl.HS0_19 (F := Ideal) c arg1 harg1 arg5 arg6 arg7 x0) := by
  unfold kernelRun0_A.sl.HS0_19; exact Cov.cons 18 _ _ (cov_0_18 c arg1 harg1 arg2 harg2 arg5 arg6 arg7 arg8 arg9 arg10 arg11 arg12 arg13 arg14 arg15 arg16 x0 x1)
theorem cov_0_20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 20 (kernelRun0_A.sl.HS0_20 (F := Ideal) c arg1 harg1 arg5 arg6 arg7 x0) := by
  unfold kernelRun0_A.sl.HS0_20; exact Cov.cons 19 _ _ (cov_0_19 c arg1 harg1 arg2 harg2 arg5 arg6 arg7 arg8 arg9 arg10 arg11 arg12 arg13 arg14 arg15 arg16 x0 x1)
theorem cov_0_21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 21 (kernelRun0_A.sl.HS0_21 (F := Ideal) c arg1 harg1 arg5 arg6 arg7 x0) := by
  unfold kernelRun0_A.sl.HS0_21; exact Cov.cons 20 _ _ (cov_0_20 c arg1 harg1 arg2 harg2 arg5 arg6 arg7 arg8 arg9 arg10 arg11 arg12 arg13 arg14 arg15 arg16 x0 x1)
theorem cov_0_22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 22 (kernelRun0_A.sl.HS0_22 (F := Ideal) c arg1 harg1 arg5 arg6 arg7 x0) := by
  unfold kernelRun0_A.sl.HS0_22; exact Cov.cons 21 _ _ (cov_0_21 c arg1 harg1 arg2 harg2 arg5 arg6 arg7 arg8 arg9 arg10 arg11 arg12 arg13 arg14 arg15 arg16 x0 x1)
theorem cov_0_23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 23 (kernelRun0_A.sl.HS0_23 (F := Ideal) c arg1 harg1 arg5 arg6 arg7 x0) := by
  unfold kernelRun0_A.sl.HS0_23; exact Cov.cons 22 _ _ (cov_0_22 c arg1 harg1 arg2 harg2 arg5 arg6 arg7 arg8 arg9 arg10 arg11 arg12 arg13 arg14 arg15 arg16 x0 x1)
theorem cov_1_1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 1 (kernelRun0_A.sl.HS1_1 (F := Ideal) c arg1 harg1 x0) := by
  unfold kernelRun0_A.sl.HS1_1; exact Cov.cons 0 _ _ Cov.zero
theorem cov_1_2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 2 (kernelRun0_A.sl.HS1_2 (F := Ideal) c arg1 harg1 arg5 arg6 arg7 x0) := by
  unfold kernelRun0_A.sl.HS1_2; exact Cov.cons 1 _ _ (cov_1_1 c arg1 harg1 arg2 harg2 arg5 arg6 arg7 arg8 arg9 arg10 arg11 arg12 arg13 arg14 arg15 arg16 x0 x1)
theorem cov_1_3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 3 (kernelRun0_A.sl.HS1_3 (F := Ideal) c arg1 harg1 arg5 arg6 arg7 x0) := by
  unfold kernelRun0_A.sl.HS1_3; exact Cov.cons 2 _ _ (cov_1_2 c arg1 harg1 arg2 harg2 arg5 arg6 arg7 arg8 arg9 arg10 arg11 arg12 arg13 arg14 arg15 arg16 x0 x1)
theorem cov_1_4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 4 (kernelRun0_A.sl.HS1_4 (F := Ideal) c arg1 harg1 arg5 arg6 arg7 x0) := by
  unfold kernelRun0_A.sl.HS1_4; exact Cov.cons 3 _ _ (cov_1_3 c arg1 harg1 arg2 harg2 arg5 arg6 arg7 arg8 arg9 arg10 arg11 arg12 arg13 arg14 arg15 arg16 x0 x1)
theorem cov_1_5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 5 (kernelRun0_A.sl.HS1_5 (F := Ideal) c arg1 harg1 arg5 arg6 arg7 x0) := by
  unfold kernelRun0_A.sl.HS1_5; exact Cov.cons 4 _ _ (cov_1_4 c arg1 harg1 arg2 harg2 arg5 arg6 arg7 arg8 arg9 arg10 arg11 arg12 arg13 arg14 arg15 arg16 x0 x1)
theorem cov_1_6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 6 (kernelRun0_A.sl.HS1_6 (F := Ideal) c arg1 harg1 arg5 arg6 arg7 x0) := by
  unfold kernelRun0_A.sl.HS1_6; exact Cov.cons 5 _ _ (cov_1_5 c arg1 harg1 arg2 harg2 arg5 arg6 arg7 arg8 arg9 arg10 arg11 arg12 arg13 arg14 arg15 arg16 x0 x1)
theorem cov_1_7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 7 (kernelRun0_A.sl.HS1_7 (F := Ideal) c arg1 harg1 arg5 arg6 arg7 x0) := by
  unfold kernelRun0_A.sl.HS1_7; exact Cov.cons 6 _ _ (cov_1_6 c arg1 harg1 arg2 harg2 arg5 arg6 arg7 arg8 arg9 arg10 arg11 arg12 arg13 arg14 arg15 arg16 x0 x1)
theorem cov_1_8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 8 (kernelRun0_A.sl.HS1_8 (F := Ideal) c arg1 harg1 arg5 arg6 arg7 x0) := by
  unfold kernelRun0_A.sl.HS1_8; exact Cov.cons 7 _ _ (cov_1_7 c arg1 harg1 arg2 harg2 arg5 arg6 arg7 arg8 arg9 arg10 arg11 arg12 arg13 arg14 arg15 arg16 x0 x1)
theorem cov_1_9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 9 (kernelRun0_A.sl.HS1_9 (F := Ideal) c arg1 harg1 arg5 arg6 arg7 x0) := by
  unfold kernelRun0_A.sl.HS1_9; exact Cov.cons 8 _ _ (cov_1_8 c arg1 harg1 arg2 harg2 arg5 arg6 arg7 arg8 arg9 arg10 arg11 arg12 arg13 arg14 arg15 arg16 x0 x1)
theorem cov_1_10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 10 (kernelRun0_A.sl.HS1_10 (F := Ideal) c arg1 harg1 arg5 arg6 arg7 x0) := by
  unfold kernelRun0_A.sl.HS1_10; exact Cov.cons 9 _ _ (cov_1_9 c arg1 harg1 arg2 harg2 arg5 arg6 arg7 arg8 arg9 arg10 arg11 arg12 arg13 arg14 arg15 arg16 x0 x1)
theorem cov_1_11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 11 (kernelRun0_A.sl.HS1_11 (F := Ideal) c arg1 harg1 arg5 arg6 arg7 x0) := by
  unfold kernelRun0_A.sl.HS1_11; exact Cov.cons 10 _ _ (cov_1_10 c arg1 harg1 arg2 harg2 arg5 arg6 arg7 arg8 arg9 arg10 arg11 arg12 arg13 arg14 arg15 arg16 x0 x1)
theorem cov_1_12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 12 (kernelRun0_A.sl.HS1_12 (F := Ideal) c arg1 harg1 arg5 arg6 arg7 x0) := by
  unfold kernelRun0_A.sl.HS1_12; exact Cov.cons 11 _ _ (cov_1_11 c arg1 harg1 arg2 harg2 arg5 arg6 arg7 arg8 arg9 arg10 arg11 arg12 arg13 arg14 arg15 arg16 x0 x1)
theorem cov_1_13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 13 (kernelRun0_A.sl.HS1_13 (F := Ideal) c arg1 harg1 arg5 arg6 arg7 x0) := by
  unfold kernelRun0_A.sl.HS1_13; exact Cov.cons 12 _ _ (cov_1_12 c arg1 harg1 arg2 harg2 arg5 arg6 arg7 arg8 arg9 arg10 arg11 arg12 arg13 arg14 arg15 arg16 x0 x1)
theorem cov_1_14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 14 (kernelRun0_A.sl.HS1_14 (F := Ideal) c arg1 harg1 arg5 arg6 arg7 x0) := by
  unfold kernelRun0_A.sl.HS1_14; exact Cov.cons 13 _ _ (cov_1_13 c arg1 harg1 arg2 harg2 arg5 arg6 arg7 arg8 arg9 arg10 arg11 arg12 arg13 arg14 arg15 arg16 x0 x1)
theorem cov_1_15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 15 (kernelRun0_A.sl.HS1_15 (F := Ideal) c arg1 harg1 arg5 arg6 arg7 x0) := by
  unfold kernelRun0_A.sl.HS1_15; exact Cov.cons 14 _ _ (cov_1_14 c arg1 harg1 arg2 harg2 arg5 arg6 arg7 arg8 arg9 arg10 arg11 arg12 arg13 arg14 arg15 arg16 x0 x1)
theorem cov_1_16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 16 (kernelRun0_A.sl.HS1_16 (F := Ideal) c arg1 harg1 arg5 arg6 arg7 x0) := by
  unfold kernelRun0_A.sl.HS1_16; exact Cov.cons 15 _ _ (cov_1_15 c arg1 harg1 arg2 harg2 arg5 arg6 arg7 arg8 arg9 arg10 arg11 arg12 arg13 arg14 arg15 arg16 x0 x1)
theorem cov_1_17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 17 (kernelRun0_A.sl.HS1_17 (F := Ideal) c arg1 harg1 arg5 arg6 arg7 x0) := by
  unfold kernelRun0_A.sl.HS1_17; exact Cov.cons 16 _ _ (cov_1_16 c arg1 harg1 arg2 harg2 arg5 arg6 arg7 arg8 arg9 arg10 arg11 arg12 arg13 arg14 arg15 arg16 x0 x1)
theorem cov_1_18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 18 (kernelRun0_A.sl.HS1_18 (F := Ideal) c arg1 harg1 arg5 arg6 arg7 x0) := by
  unfold kernelRun0_A.sl.HS1_18; exact Cov.cons 17 _ _ (cov_1_17 c arg1 harg1 arg2 harg2 arg5 arg6 arg7 arg8 arg9 arg10 arg11 arg12 arg13 arg14 arg15 arg16 x0 x1)
theorem cov_1_19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 19 (kernelRun0_A.sl.HS1_19 (F := Ideal) c arg1 harg1 arg5 arg6 arg7 x0) := by
  unfold kernelRun0_A.sl.HS1_19; exact Cov.cons 18 _ _ (cov_1_18 c arg1 harg1 arg2 harg2 arg5 arg6 arg7 arg8 arg9 arg10 arg11 arg12 arg13 arg14 arg15 arg16 x0 x1)
theorem cov_1_20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 20 (kernelRun0_A.sl.HS1_20 (F := Ideal) c arg1 harg1 arg5 arg6 arg7 x0) := by
  unfold kernelRun0_A.sl.HS1_20; exact Cov.cons 19 _ _ (cov_1_19 c arg1 harg1 arg2 harg2 arg5 arg6 arg7 arg8 arg9 arg10 arg11 arg12 arg13 arg14 arg15 arg16 x0 x1)
theorem cov_1_21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 21 (kernelRun0_A.sl.HS1_21 (F := Ideal) c arg1 harg1 arg5 arg6 arg7 x0) := by
  unfold kernelRun0_A.sl.HS1_21; exact Cov.cons 20 _ _ (cov_1_20 c arg1 harg1 arg2 harg2 arg5 arg6 arg7 arg8 arg9 arg10 arg11 arg12 arg13 arg14 arg15 arg16 x0 x1)
theorem cov_1_22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 22 (kernelRun0_A.sl.HS1_22 (F := Ideal) c arg1 harg1 arg5 arg6 arg7 x0) := by
  unfold kernelRun0_A.sl.HS1_22; exact Cov.cons 21 _ _ (cov_1_21 c arg1 harg1 arg2 harg2 arg5 arg6 arg7 arg8 arg9 arg10 arg11 arg12 arg13 arg14 arg15 arg16 x0 x1)
theorem cov_1_23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 23 (kernelRun0_A.sl.HS1_23 (F := Ideal) c arg1 harg1 arg5 arg6 arg7 x0) := by
  unfold kernelRun0_A.sl.HS1_23; exact Cov.cons 22 _ _ (cov_1_22 c arg1 harg1 arg2 harg2 arg5 arg6 arg7 arg8 arg9 arg10 arg11 arg12 arg13 arg14 arg15 arg16 x0 x1)
theorem cov_2_1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 1 (kernelRun0_A.sl.HS2_1 (F := Ideal) c arg1 harg1 x0) := by
  unfold kernelRun0_A.sl.HS2_1; exact Cov.cons 0 _ _ Cov.zero
theorem cov_2_2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 2 (kernelRun0_A.sl.HS2_2 (F := Ideal) c arg1 harg1 arg5 arg6 arg7 x0) := by
  unfold kernelRun0_A.sl.HS2_2; exact Cov.cons 1 _ _ (cov_2_1 c arg1 harg1 arg2 harg2 arg5 arg6 arg7 arg8 arg9 arg10 arg11 arg12 arg13 arg14 arg15 arg16 x0 x1)
theorem cov_2_3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 3 (kernelRun0_A.sl.HS2_3 (F := Ideal) c arg1 harg1 arg5 arg6 arg7 x0) := by
  unfold kernelRun0_A.sl.HS2_3; exact Cov.cons 2 _ _ (cov_2_2 c arg1 harg1 arg2 harg2 arg5 arg6 arg7 arg8 arg9 arg10 arg11 arg12 arg13 arg14 arg15 arg16 x0 x1)
theorem cov_2_4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 4 (kernelRun0_A.sl.HS2_4 (F := Ideal) c arg1 harg1 arg5 arg6 arg7 x0) := by
  unfold kernelRun0_A.sl.HS2_4; exact Cov.cons 3 _ _ (cov_2_3 c arg1 harg1 arg2 harg2 arg5 arg6 arg7 arg8 arg9 arg10 arg11 arg12 arg13 arg14 arg15 arg16 x0 x1)
theorem cov_2_5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 5 (kernelRun0_A.sl.HS2_5 (F := Ideal) c arg1 harg1 arg5 arg6 arg7 x0) := by
  unfold kernelRun0_A.sl.HS2_5; exact Cov.cons 4 _ _ (cov_2_4 c arg1 harg1 arg2 harg2 arg5 arg6 arg7 arg8 arg9 arg10 arg11 arg12 arg13 arg14 arg15 arg16 x0 x1)
theorem cov_2_6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 6 (kernelRun0_A.sl.HS2_6 (F := Ideal) c arg1 harg1 arg5 arg6 arg7 x0) := by
  unfold kernelRun0_A.sl.HS2_6; exact Cov.cons 5 _ _ (cov_2_5 c arg1 harg1 arg2 harg2 arg5 arg6 arg7 arg8 arg9 arg10 arg11 arg12 arg13 arg14 arg15 arg16 x0 x1)
theorem cov_2_7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 7 (kernelRun0_A.sl.HS2_7 (F := Ideal) c arg1 harg1 arg5 arg6 arg7 x0) := by
  unfold kernelRun0_A.sl.HS2_7; exact Cov.cons 6 _ _ (cov_2_6 c arg1 harg1 arg2 harg2 arg5 arg6 arg7 arg8 arg9 arg10 arg11 arg12 arg13 arg14 arg15 arg16 x0 x1)
theorem cov_2_8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 8 (kernelRun0_A.sl.HS2_8 (F := Ideal) c arg1 harg1 arg5 arg6 arg7 x0) := by
  unfold kernelRun0_A.sl.HS2_8; exact Cov.cons 7 _ _ (cov_2_7 c arg1 harg1 arg2 harg2 arg5 arg6 arg7 arg8 arg9 arg10 arg11 arg12 arg13 arg14 arg15 arg16 x0 x1)
theorem cov_2_9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 9 (kernelRun0_A.sl.HS2_9 (F := Ideal) c arg1 harg1 arg5 arg6 arg7 x0) := by
  unfold kernelRun0_A.sl.HS2_9; exact Cov.cons 8 _ _ (cov_2_8 c arg1 harg1 arg2 harg2 arg5 arg6 arg7 arg8 arg9 arg10 arg11 arg12 arg13 arg14 arg15 arg16 x0 x1)
theorem cov_2_10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 10 (kernelRun0_A.sl.HS2_10 (F := Ideal) c arg1 harg1 arg5 arg6 arg7 x0) := by
  unfold kernelRun0_A.sl.HS2_10; exact Cov.cons 9 _ _ (cov_2_9 c arg1 harg1 arg2 harg2 arg5 arg6 arg7 arg8 arg9 arg10 arg11 arg12 arg13 arg14 arg15 arg16 x0 x1)
theorem cov_2_11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 11 (kernelRun0_A.sl.HS2_11 (F := Ideal) c arg1 harg1 arg5 arg6 arg7 x0) := by
  unfold kernelRun0_A.sl.HS2_11; exact Cov.cons 10 _ _ (cov_2_10 c arg1 harg1 arg2 harg2 arg5 arg6 arg7 arg8 arg9 arg10 arg11 arg12 arg13 arg14 arg15 arg16 x0 x1)
theorem cov_2_12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 12 (kernelRun0_A.sl.HS2_12 (F := Ideal) c arg1 harg1 arg5 arg6 arg7 x0) := by
  unfold kernelRun0_A.sl.HS2_12; exact Cov.cons 11 _ _ (cov_2_11 c arg1 harg1 arg2 harg2 arg5 arg6 arg7 arg8 arg9 arg10 arg11 arg12 arg13 arg14 arg15 arg16 x0 x1)
theorem cov_2_13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 13 (kernelRun0_A.sl.HS2_13 (F := Ideal) c arg1 harg1 arg5 arg6 arg7 x0) := by
  unfold kernelRun0_A.sl.HS2_13; exact Cov.cons 12 _ _ (cov_2_12 c arg1 harg1 arg2 harg2 arg5 arg6 arg7 arg8 arg9 arg10 arg11 arg12 arg13 arg14 arg15 arg16 x0 x1)
theorem cov_2_14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 14 (kernelRun0_A.sl.HS2_14 (F := Ideal) c arg1 harg1 arg5 arg6 arg7 x0) := by
  unfold kernelRun0_A.sl.HS2_14; exact Cov.cons 13 _ _ (cov_2_13 c arg1 harg1 arg2 harg2 arg5 arg6 arg7 arg8 arg9 arg10 arg11 arg12 arg13 arg14 arg15 arg16 x0 x1)
theorem cov_2_15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 15 (kernelRun0_A.sl.HS2_15 (F := Ideal) c arg1 harg1 arg5 arg6 arg7 x0) := by
  unfold kernelRun0_A.sl.HS2_15; exact Cov.cons 14 _ _ (cov_2_14 c arg1 harg1 arg2 harg2 arg5 arg6 arg7 arg8 arg9 arg10 arg11 arg12 arg13 arg14 arg15 arg16 x0 x1)
theorem cov_2_16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 16 (kernelRun0_A.sl.HS2_16 (F := Ideal) c arg1 harg1 arg5 arg6 arg7 x0) := by
  unfold kernelRun0_A.sl.HS2_16; exact Cov.cons 15 _ _ (cov_2_15 c arg1 harg1 arg2 harg2 arg5 arg6 arg7 arg8 arg9 arg10 arg11 arg12 arg13 arg14 arg15 arg16 x0 x1)
theorem cov_2_17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 17 (kernelRun0_A.sl.HS2_17 (F := Ideal) c arg1 harg1 arg5 arg6 arg7 x0) := by
  unfold kernelRun0_A.sl.HS2_17; exact Cov.cons 16 _ _ (cov_2_16 c arg1 harg1 arg2 harg2 arg5 arg6 arg7 arg8 arg9 arg10 arg11 arg12 arg13 arg14 arg15 arg16 x0 x1)
theorem cov_2_18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 18 (kernelRun0_A.sl.HS2_18 (F := Ideal) c arg1 harg1 arg5 arg6 arg7 x0) := by
  unfold kernelRun0_A.sl.HS2_18; exact Cov.cons 17 _ _ (cov_2_17 c arg1 harg1 arg2 harg2 arg5 arg6 arg7 arg8 arg9 arg10 arg11 arg12 arg13 arg14 arg15 arg16 x0 x1)
theorem cov_2_19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 19 (kernelRun0_A.sl.HS2_19 (F := Ideal) c arg1 harg1 arg5 arg6 arg7 x0) := by
  unfold kernelRun0_A.sl.HS2_19; exact Cov.cons 18 _ _ (cov_2_18 c arg1 harg1 arg2 harg2 arg5 arg6 arg7 arg8 arg9 arg10 arg11 arg12 arg13 arg14 arg15 arg16 x0 x1)
theorem cov_2_20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 20 (kernelRun0_A.sl.HS2_20 (F := Ideal) c arg1 harg1 arg5 arg6 arg7 x0) := by
  unfold kernelRun0_A.sl.HS2_20; exact Cov.cons 19 _ _ (cov_2_19 c arg1 harg1 arg2 harg2 arg5 arg6 arg7 arg8 arg9 arg10 arg11 arg12 arg13 arg14 arg15 arg16 x0 x1)
theorem cov_2_21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 21 (kernelRun0_A.sl.HS2_21 (F := Ideal) c arg1 harg1 arg5 arg6 arg7 x0) := by
  unfold kernelRun0_A.sl.HS2_21; exact Cov.cons 20 _ _ (cov_2_20 c arg1 harg1 arg2 harg2 arg5 arg6 arg7 arg8 arg9 arg10 arg11 arg12 arg13 arg14 arg15 arg16 x0 x1)
theorem cov_2_22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 22 (kernelRun0_A.sl.HS2_22 (F := Ideal) c arg1 harg1 arg5 arg6 arg7 x0) := by
  unfold kernelRun0_A.sl.HS2_22; exact Cov.cons 21 _ _ (cov_2_21 c arg1 harg1 arg2 harg2 arg5 arg6 arg7 arg8 arg9 arg10 arg11 arg12 arg13 arg14 arg15 arg16 x0 x1)
theorem cov_2_23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 23 (kernelRun0_A.sl.HS2_23 (F := Ideal) c arg1 harg1 arg5 arg6 arg7 x0) := by
  unfold kernelRun0_A.sl.HS2_23; exact Cov.cons 22 _ _ (cov_2_22 c arg1 harg1 arg2 harg2 arg5 arg6 arg7 arg8 arg9 arg10 arg11 arg12 arg13 arg14 arg15 arg16 x0 x1)
theorem cov_3_1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 1 (kernelRun0_A.sl.HS3_1 (F := Ideal) c arg1 harg1 x0) := by
  unfold kernelRun0_A.sl.HS3_1; exact Cov.cons 0 _ _ Cov.zero
theorem cov_3_2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 2 (kernelRun0_A.sl.HS3_2 (F := Ideal) c arg1 harg1 arg8 arg9 arg10 x0) := by
  unfold kernelRun0_A.sl.HS3_2; exact Cov.cons 1 _ _ (cov_3_1 c arg1 harg1 arg2 harg2 arg5 arg6 arg7 arg8 arg9 arg10 arg11 arg12 arg13 arg14 arg15 arg16 x0 x1)
theorem cov_3_3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 3 (kernelRun0_A.sl.HS3_3 (F := Ideal) c arg1 harg1 arg8 arg9 arg10 x0) := by
  unfold kernelRun0_A.sl.HS3_3; exact Cov.cons 2 _ _ (cov_3_2 c arg1 harg1 arg2 harg2 arg5 arg6 arg7 arg8 arg9 arg10 arg11 arg12 arg13 arg14 arg15 arg16 x0 x1)
theorem cov_3_4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 4 (kernelRun0_A.sl.HS3_4 (F := Ideal) c arg1 harg1 arg8 arg9 arg10 x0) := by
  unfold kernelRun0_A.sl.HS3_4; exact Cov.cons 3 _ _ (cov_3_3 c arg1 harg1 arg2 harg2 arg5 arg6 arg7 arg8 arg9 arg10 arg11 arg12 arg13 arg14 arg15 arg16 x0 x1)
theorem cov_3_5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 5 (kernelRun0_A.sl.HS3_5 (F := Ideal) c arg1 harg1 arg8 arg9 arg10 x0) := by
  unfold kernelRun0_A.sl.HS3_5; exact Cov.cons 4 _ _ (cov_3_4 c arg1 harg1 arg2 harg2 arg5 arg6 arg7 arg8 arg9 arg10 arg11 arg12 arg13 arg14 arg15 arg16 x0 x1)
theorem cov_3_6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 6 (kernelRun0_A.sl.HS3_6 (F := Ideal) c arg1 harg1 arg8 arg9 arg10 x0) := by
  unfold kernelRun0_A.sl.HS3_6; exact Cov.cons 5 _ _ (cov_3_5 c arg1 harg1 arg2 harg2 arg5 arg6 arg7 arg8 arg9 arg10 arg11 arg12 arg13 arg14 arg15 arg16 x0 x1)
theorem cov_3_7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 7 (kernelRun0_A.sl.HS3_7 (F := Ideal) c arg1 harg1 arg8 arg9 arg10 x0) := by
  unfold kernelRun0_A.sl.HS3_7; exact Cov.cons 6 _ _ (cov_3_6 c arg1 harg1 arg2 harg2 arg5 arg6 arg7 arg8 arg9 arg10 arg11 arg12 arg13 arg14 arg15 arg16 x0 x1)
theorem cov_3_8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 8 (kernelRun0_A.sl.HS3_8 (F := Ideal) c arg1 harg1 arg8 arg9 arg10 x0) := by
  unfold kernelRun0_A.sl.HS3_8; exact Cov.cons 7 _ _ (cov_3_7 c arg1 harg1 arg2 harg2 arg5 arg6 arg7 arg8 arg9 arg10 arg11 arg12 arg13 arg14 arg15 arg16 x0 x1)
theorem cov_3_9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 9 (kernelRun0_A.sl.HS3_9 (F := Ideal) c arg1 harg1 arg8 arg9 arg10 x0) := by
  unfold kernelRun0_A.sl.HS3_9; exact Cov.cons 8 _ _ (cov_3_8 c arg1 harg1 arg2 harg2 arg5 arg6 arg7 arg8 arg9 arg10 arg11 arg12 arg13 arg14 arg15 arg16 x0 x1)
theorem cov_3_10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 10 (kernelRun0_A.sl.HS3_10 (F := Ideal) c arg1 harg1 arg8 arg9 arg10 x0) := by
  unfold kernelRun0_A.sl.HS3_10; exact Cov.cons 9 _ _ (cov_3_9 c arg1 harg1 arg2 harg2 arg5 arg6 arg7 arg8 arg9 arg10 arg11 arg12 arg13 arg14 arg15 arg16 x0 x1)
theorem cov_3_11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 11 (kernelRun0_A.sl.HS3_11 (F := Ideal) c arg1 harg1 arg8 arg9 arg10 x0) := by
  unfold kernelRun0_A.sl.HS3_11; exact Cov.cons 10 _ _ (cov_3_10 c arg1 harg1 arg2 harg2 arg5 arg6 arg7 arg8 arg9 arg10 arg11 arg12 arg13 arg14 arg15 arg16 x0 x1)
theorem cov_3_12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 12 (kernelRun0_A.sl.HS3_12 (F := Ideal) c arg1 harg1 arg8 arg9 arg10 x0) := by
  unfold kernelRun0_A.sl.HS3_12; exact Cov.cons 11 _ _ (cov_3_11 c arg1 harg1 arg2 harg2 arg5 arg6 arg7 arg8 arg9 arg10 arg11 arg12 arg13 arg14 arg15 arg16 x0 x1)
theorem cov_3_13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 13 (kernelRun0_A.sl.HS3_13 (F := Ideal) c arg1 harg1 arg8 arg9 arg10 x0) := by
  unfold kernelRun0_A.sl.HS3_13; exact Cov.cons 12 _ _ (cov_3_12 c arg1 harg1 arg2 harg2 arg5 arg6 arg7 arg8 arg9 arg10 arg11 arg12 arg13 arg14 arg15 arg16 x0 x1)
theorem cov_3_14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 14 (kernelRun0_A.sl.HS3_14 (F := Ideal) c arg1 harg1 arg8 arg9 arg10 x0) := by
  unfold kernelRun0_A.sl.HS3_14; exact Cov.cons 13 _ _ (cov_3_13 c arg1 harg1 arg2 harg2 arg5 arg6 arg7 arg8 arg9 arg10 arg11 arg12 arg13 arg14 arg15 arg16 x0 x1)
theorem cov_3_15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 15 (kernelRun0_A.sl.HS3_15 (F := Ideal) c arg1 harg1 arg8 arg9 arg10 x0) := by
  unfold kernelRun0_A.sl.HS3_15; exact Cov.cons 14 _ _ (cov_3_14 c arg1 harg1 arg2 harg2 arg5 arg6 arg7 arg8 arg9 arg10 arg11 arg12 arg13 arg14 arg15 arg16 x0 x1)
theorem cov_3_16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 16 (kernelRun0_A.sl.HS3_16 (F := Ideal) c arg1 harg1 arg8 arg9 arg10 x0) := by
  unfold kernelRun0_A.sl.HS3_16; exact Cov.cons 15 _ _ (cov_3_15 c arg1 harg1 arg2 harg2 arg5 arg6 arg7 arg8 arg9 arg10 arg11 arg12 arg13 arg14 arg15 arg16 x0 x1)
theorem cov_3_17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 17 (kernelRun0_A.sl.HS3_17 (F := Ideal) c arg1 harg1 arg8 arg9 arg10 x0) := by
  unfold kernelRun0_A.sl.HS3_17; exact Cov.cons 16 _ _ (cov_3_16 c arg1 harg1 arg2 harg2 arg5 arg6 arg7 arg8 arg9 arg10 arg11 arg12 arg13 arg14 arg15 arg16 x0 x1)
theorem cov_3_18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 18 (kernelRun0_A.sl.HS3_18 (F := Ideal) c arg1 harg1 arg8 arg9 arg10 x0) := by
  unfold kernelRun0_A.sl.HS3_18; exact Cov.cons 17 _ _ (cov_3_17 c arg1 harg1 arg2 harg2 arg5 arg6 arg7 arg8 arg9 arg10 arg11 arg12 arg13 arg14 arg15 arg16 x0 x1)
theorem cov_3_19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 19 (kernelRun0_A.sl.HS3_19 (F := Ideal) c arg1 harg1 arg8 arg9 arg10 x0) := by
  unfold kernelRun0_A.sl.HS3_19; exact Cov.cons 18 _ _ (cov_3_18 c arg1 harg1 arg2 harg2 arg5 arg6 arg7 arg8 arg9 arg10 arg11 arg12 arg13 arg14 arg15 arg16 x0 x1)
theorem cov_3_20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 20 (kernelRun0_A.sl.HS3_20 (F := Ideal) c arg1 harg1 arg8 arg9 arg10 x0) := by
  unfold kernelRun0_A.sl.HS3_20; exact Cov.cons 19 _ _ (cov_3_19 c arg1 harg1 arg2 harg2 arg5 arg6 arg7 arg8 arg9 arg10 arg11 arg12 arg13 arg14 arg15 arg16 x0 x1)
theorem cov_3_21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 21 (kernelRun0_A.sl.HS3_21 (F := Ideal) c arg1 harg1 arg8 arg9 arg10 x0) := by
  unfold kernelRun0_A.sl.HS3_21; exact Cov.cons 20 _ _ (cov_3_20 c arg1 harg1 arg2 harg2 arg5 arg6 arg7 arg8 arg9 arg10 arg11 arg12 arg13 arg14 arg15 arg16 x0 x1)
theorem cov_3_22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 22 (kernelRun0_A.sl.HS3_22 (F := Ideal) c arg1 harg1 arg8 arg9 arg10 x0) := by
  unfold kernelRun0_A.sl.HS3_22; exact Cov.cons 21 _ _ (cov_3_21 c arg1 harg1 arg2 harg2 arg5 arg6 arg7 arg8 arg9 arg10 arg11 arg12 arg13 arg14 arg15 arg16 x0 x1)
theorem cov_3_23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 23 (kernelRun0_A.sl.HS3_23 (F := Ideal) c arg1 harg1 arg8 arg9 arg10 x0) := by
  unfold kernelRun0_A.sl.HS3_23; exact Cov.cons 22 _ _ (cov_3_22 c arg1 harg1 arg2 harg2 arg5 arg6 arg7 arg8 arg9 arg10 arg11 arg12 arg13 arg14 arg15 arg16 x0 x1)
theorem cov_4_1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 1 (kernelRun0_A.sl.HS4_1 (F := Ideal) c arg1 harg1 x0) := by
  unfold kernelRun0_A.sl.HS4_1; exact Cov.cons 0 _ _ Cov.zero
theorem cov_4_2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 2 (kernelRun0_A.sl.HS4_2 (F := Ideal) c arg1 harg1 arg8 arg9 arg10 x0) := by
  unfold kernelRun0_A.sl.HS4_2; exact Cov.cons 1 _ _ (cov_4_1 c arg1 harg1 arg2 harg2 arg5 arg6 arg7 arg8 arg9 arg10 arg11 arg12 arg13 arg14 arg15 arg16 x0 x1)
theorem cov_4_3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 3 (kernelRun0_A.sl.HS4_3 (F := Ideal) c arg1 harg1 arg8 arg9 arg10 x0) := by
  unfold kernelRun0_A.sl.HS4_3; exact Cov.cons 2 _ _ (cov_4_2 c arg1 harg1 arg2 harg2 arg5 arg6 arg7 arg8 arg9 arg10 arg11 arg12 arg13 arg14 arg15 arg16 x0 x1)
theorem cov_4_4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 4 (kernelRun0_A.sl.HS4_4 (F := Ideal) c arg1 harg1 arg8 arg9 arg10 x0) := by
  unfold kernelRun0_A.sl.HS4_4; exact Cov.cons 3 _ _ (cov_4_3 c arg1 harg1 arg2 harg2 arg5 arg6 arg7 arg8 arg9 arg10 arg11 arg12 arg13 arg14 arg15 arg16 x0 x1)
theorem cov_4_5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 5 (kernelRun0_A.sl.HS4_5 (F := Ideal) c arg1 harg1 arg8 arg9 arg10 x0) := by
  unfold kernelRun0_A.sl.HS4_5; exact Cov.cons 4 _ _ (cov_4_4 c arg1 harg1 arg2 harg2 arg5 arg6 arg7 arg8 arg9 arg10 arg11 arg12 arg13 arg14 arg15 arg16 x0 x1)
theorem cov_4_6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 6 (kernelRun0_A.sl.HS4_6 (F := Ideal) c arg1 harg1 arg8 arg9 arg10 x0) := by
  unfold kernelRun0_A.sl.HS4_6; exact Cov.cons 5 _ _ (cov_4_5 c arg1 harg1 arg2 harg2 arg5 arg6 arg7 arg8 arg9 arg10 arg11 arg12 arg13 arg14 arg15 arg16 x0 x1)
theorem cov_4_7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 7 (kernelRun0_A.sl.HS4_7 (F := Ideal) c arg1 harg1 arg8 arg9 arg10 x0) := by
  unfold kernelRun0_A.sl.HS4_7; exact Cov.cons 6 _ _ (cov_4_6 c arg1 harg1 arg2 harg2 arg5 arg6 arg7 arg8 arg9 arg10 arg11 arg12 arg13 arg14 arg15 arg16 x0 x1)
theorem cov_4_8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 8 (kernelRun0_A.sl.HS4_8 (F := Ideal) c arg1 harg1 arg8 arg9 arg10 x0) := by
  unfold kernelRun0_A.sl.HS4_8; exact Cov.cons 7 _ _ (cov_4_7 c arg1 harg1 arg2 harg2 arg5 arg6 arg7 arg8 arg9 arg10 arg11 arg12 arg13 arg14 arg15 arg16 x0 x1)
theorem cov_4_9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 9 (kernelRun0_A.sl.HS4_9 (F := Ideal) c arg1 harg1 arg8 arg9 arg10 x0) := by
  unfold kernelRun0_A.sl.HS4_9; exact Cov.cons 8 _ _ (cov_4_8 c arg1 harg1 arg2 harg2 arg5 arg6 arg7 arg8 arg9 arg10 arg11 arg12 arg13 arg14 arg15 arg16 x0 x1)
theorem cov_4_10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 10 (kernelRun0_A.sl.HS4_10 (F := Ideal) c arg1 harg1 arg8 arg9 arg10 x0) := by
  unfold kernelRun0_A.sl.HS4_10; exact Cov.cons 9 _ _ (cov_4_9 c arg1 harg1 arg2 harg2 arg5 arg6 arg7 arg8 arg9 arg10 arg11 arg12 arg13 arg14 arg15 arg16 x0 x1)
theorem cov_4_11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 11 (kernelRun0_A.sl.HS4_11 (F := Ideal) c arg1 harg1 arg8 arg9 arg10 x0) := by
  unfold kernelRun0_A.sl.HS4_11; exact Cov.cons 10 _ _ (cov_4_10 c arg1 harg1 arg2 harg2 arg5 arg6 arg7 arg8 arg9 arg10 arg11 arg12 arg13 arg14 arg15 arg16 x0 x1)
theorem cov_4_12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 12 (kernelRun0_A.sl.HS4_12 (F := Ideal) c arg1 harg1 arg8 arg9 arg10 x0) := by
  unfold kernelRun0_A.sl.HS4_12; exact Cov.cons 11 _ _ (cov_4_11 c arg1 harg1 arg2 harg2 arg5 arg6 arg7 arg8 arg9 arg10 arg11 arg12 arg13 arg14 arg15 arg16 x0 x1)
theorem cov_4_13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 13 (kernelRun0_A.sl.HS4_13 (F := Ideal) c arg1 harg1 arg8 arg9 arg10 x0) := by
  unfold kernelRun0_A.sl.HS4_13; exact Cov.cons 12 _ _ (cov_4_12 c arg1 harg1 arg2 harg2 arg5 arg6 arg7 arg8 arg9 arg10 arg11 arg12 arg13 arg14 arg15 arg16 x0 x1)
theorem cov_4_14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 14 (kernelRun0_A.sl.HS4_14 (F := Ideal) c arg1 harg1 arg8 arg9 arg10 x0) := by
  unfold kernelRun0_A.sl.HS4_14; exact Cov.cons 13 _ _ (cov_4_13 c arg1 harg1 arg2 harg2 arg5 arg6 arg7 arg8 arg9 arg10 arg11 arg12 arg13 arg14 arg15 arg16 x0 x1)
theorem cov_4_15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 15 (kernelRun0_A.sl.HS4_15 (F := Ideal) c arg1 harg1 arg8 arg9 arg10 x0) := by
  unfold kernelRun0_A.sl.HS4_15; exact Cov.cons 14 _ _ (cov_4_14 c arg1 harg1 arg2 harg2 arg5 arg6 arg7 arg8 arg9 arg10 arg11 arg12 arg13 arg14 arg15 arg16 x0 x1)
theorem cov_4_16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 16 (kernelRun0_A.sl.HS4_16 (F := Ideal) c arg1 harg1 arg8 arg9 arg10 x0) := by
  unfold kernelRun0_A.sl.HS4_16; exact Cov.cons 15 _ _ (cov_4_15 c arg1 harg1 arg2 harg2 arg5 arg6 arg7 arg8 arg9 arg10 arg11 arg12 arg13 arg14 arg15 arg16 x0 x1)
theorem cov_4_17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 17 (kernelRun0_A.sl.HS4_17 (F := Ideal) c arg1 harg1 arg8 arg9 arg10 x0) := by
  unfold kernelRun0_A.sl.HS4_17; exact Cov.cons 16 _ _ (cov_4_16 c arg1 harg1 arg2 harg2 arg5 arg6 arg7 arg8 arg9 arg10 arg11 arg12 arg13 arg14 arg15 arg16 x0 x1)
theorem cov_4_18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 18 (kernelRun0_A.sl.HS4_18 (F := Ideal) c arg1 harg1 arg8 arg9 arg10 x0) := by
  unfold kernelRun0_A.sl.HS4_18; exact Cov.cons 17 _ _ (cov_4_17 c arg1 harg1 arg2 harg2 arg5 arg6 arg7 arg8 arg9 arg10 arg11 arg12 arg13 arg14 arg15 arg16 x0 x1)
theorem cov_4_19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 19 (kernelRun0_A.sl.HS4_19 (F := Ideal) c arg1 harg1 arg8 arg9 arg10 x0) := by
  unfold kernelRun0_A.sl.HS4_19; exact Cov.cons 18 _ _ (cov_4_18 c arg1 harg1 arg2 harg2 arg5 arg6 arg7 arg8 arg9 arg10 arg11 arg12 arg13 arg14 arg15 arg16 x0 x1)
theorem cov_4_20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 20 (kernelRun0_A.sl.HS4_20 (F := Ideal) c arg1 harg1 arg8 arg9 arg10 x0) := by
  unfold kernelRun0_A.sl.HS4_20; exact Cov.cons 19 _ _ (cov_4_19 c arg1 harg1 arg2 harg2 arg5 arg6 arg7 arg8 arg9 arg10 arg11 arg12 arg13 arg14 arg15 arg16 x0 x1)
theorem cov_4_21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 21 (kernelRun0_A.sl.HS4_21 (F := Ideal) c arg1 harg1 arg8 arg9 arg10 x0) := by
  unfold kernelRun0_A.sl.HS4_21; exact Cov.cons 20 _ _ (cov_4_20 c arg1 harg1 arg2 harg2 arg5 arg6 arg7 arg8 arg9 arg10 arg11 arg12 arg13 arg14 arg15 arg16 x0 x1)
theorem cov_4_22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 22 (kernelRun0_A.sl.HS4_22 (F := Ideal) c arg1 harg1 arg8 arg9 arg10 x0) := by
  unfold kernelRun0_A.sl.HS4_22; exact Cov.cons 21 _ _ (cov_4_21 c arg1 harg1 arg2 harg2 arg5 arg6 arg7 arg8 arg9 arg10 arg11 arg12 arg13 arg14 arg15 arg16 x0 x1)
theorem cov_4_23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 23 (kernelRun0_A.sl.HS4_23 (F := Ideal) c arg1 harg1 arg8 arg9 arg10 x0) := by
  unfold kernelRun0_A.sl.HS4_23; exact Cov.cons 22 _ _ (cov_4_22 c arg1 harg1 arg2 harg2 arg5 arg6 arg7 arg8 arg9 arg10 arg11 arg12 arg13 arg14 arg15 arg16 x0 x1)
theorem cov_5_1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 1 (kernelRun0_A.sl.HS5_1 (F := Ideal) c arg1 harg1 x0) := by
  unfold kernelRun0_A.sl.HS5_1; exact Cov.cons 0 _ _ Cov.zero
theorem cov_5_2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 2 (kernelRun0_A.sl.HS5_2 (F := Ideal) c arg1 harg1 arg8 arg9 arg10 x0) := by
  unfold kernelRun0_A.sl.HS5_2; exact Cov.cons 1 _ _ (cov_5_1 c arg1 harg1 arg2 harg2 arg5 arg6 arg7 arg8 arg9 arg10 arg11 arg12 arg13 arg14 arg15 arg16 x0 x1)
theorem cov_5_3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 3 (kernelRun0_A.sl.HS5_3 (F := Ideal) c arg1 harg1 arg8 arg9 arg10 x0) := by
  unfold kernelRun0_A.sl.HS5_3; exact Cov.cons 2 _ _ (cov_5_2 c arg1 harg1 arg2 harg2 arg5 arg6 arg7 arg8 arg9 arg10 arg11 arg12 arg13 arg14 arg15 arg16 x0 x1)
theorem cov_5_4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 4 (kernelRun0_A.sl.HS5_4 (F := Ideal) c arg1 harg1 arg8 arg9 arg10 x0) := by
  unfold kernelRun0_A.sl.HS5_4; exact Cov.cons 3 _ _ (cov_5_3 c arg1 harg1 arg2 harg2 arg5 arg6 arg7 arg8 arg9 arg10 arg11 arg12 arg13 arg14 arg15 arg16 x0 x1)
theorem cov_5_5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 5 (kernelRun0_A.sl.HS5_5 (F := Ideal) c arg1 harg1 arg8 arg9 arg10 x0) := by
  unfold kernelRun0_A.sl.HS5_5; exact Cov.cons 4 _ _ (cov_5_4 c arg1 harg1 arg2 harg2 arg5 arg6 arg7 arg8 arg9 arg10 arg11 arg12 arg13 arg14 arg15 arg16 x0 x1)
theorem cov_5_6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 6 (kernelRun0_A.sl.HS5_6 (F := Ideal) c arg1 harg1 arg8 arg9 arg10 x0) := by
  unfold kernelRun0_A.sl.HS5_6; exact Cov.cons 5 _ _ (cov_5_5 c arg1 harg1 arg2 harg2 arg5 arg6 arg7 arg8 arg9 arg10 arg11 arg12 arg13 arg14 arg15 arg16 x0 x1)
theorem cov_5_7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 7 (kernelRun0_A.sl.HS5_7 (F := Ideal) c arg1 harg1 arg8 arg9 arg10 x0) := by
  unfold kernelRun0_A.sl.HS5_7; exact Cov.cons 6 _ _ (cov_5_6 c arg1 harg1 arg2 harg2 arg5 arg6 arg7 arg8 arg9 arg10 arg11 arg12 arg13 arg14 arg15 arg16 x0 x1)
theorem cov_5_8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 8 (kernelRun0_A.sl.HS5_8 (F := Ideal) c arg1 harg1 arg8 arg9 arg10 x0) := by
  unfold kernelRun0_A.sl.HS5_8; exact Cov.cons 7 _ _ (cov_5_7 c arg1 harg1 arg2 harg2 arg5 arg6 arg7 arg8 arg9 arg10 arg11 arg12 arg13 arg14 arg15 arg16 x0 x1)
theorem cov_5_9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 9 (kernelRun0_A.sl.HS5_9 (F := Ideal) c arg1 harg1 arg8 arg9 arg10 x0) := by
  unfold kernelRun0_A.sl.HS5_9; exact Cov.cons 8 _ _ (cov_5_8 c arg1 harg1 arg2 harg2 arg5 arg6 arg7 arg8 arg9 arg10 arg11 arg12 arg13 arg14 arg15 arg16 x0 x1)
theorem cov_5_10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 10 (kernelRun0_A.sl.HS5_10 (F := Ideal) c arg1 harg1 arg8 arg9 arg10 x0) := by
  unfold kernelRun0_A.sl.HS5_10; exact Cov.cons 9 _ _ (cov_5_9 c arg1 harg1 arg2 harg2 arg5 arg6 arg7 arg8 arg9 arg10 arg11 arg12 arg13 arg14 arg15 arg16 x0 x1)
theorem cov_5_11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 11 (kernelRun0_A.sl.HS5_11 (F := Ideal) c arg1 harg1 arg8 arg9 arg10 x0) := by
  unfold kernelRun0_A.sl.HS5_11; exact Cov.cons 10 _ _ (cov_5_10 c arg1 harg1 arg2 harg2 arg5 arg6 arg7 arg8 arg9 arg10 arg11 arg12 arg13 arg14 arg15 arg16 x0 x1)
theorem cov_5_12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 12 (kernelRun0_A.sl.HS5_12 (F := Ideal) c arg1 harg1 arg8 arg9 arg10 x0) := by
  unfold kernelRun0_A.sl.HS5_12; exact Cov.cons 11 _ _ (cov_5_11 c arg1 harg1 arg2 harg2 arg5 arg6 arg7 arg8 arg9 arg10 arg11 arg12 arg13 arg14 arg15 arg16 x0 x1)
theorem cov_5_13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 13 (kernelRun0_A.sl.HS5_13 (F := Ideal) c arg1 harg1 arg8 arg9 arg10 x0) := by
  unfold kernelRun0_A.sl.HS5_13; exact Cov.cons 12 _ _ (cov_5_12 c arg1 harg1 arg2 harg2 arg5 arg6 arg7 arg8 arg9 arg10 arg11 arg12 arg13 arg14 arg15 arg16 x0 x1)
theorem cov_5_14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 14 (kernelRun0_A.sl.HS5_14 (F := Ideal) c arg1 harg1 arg8 arg9 arg10 x0) := by
  unfold kernelRun0_A.sl.HS5_14; exact Cov.cons 13 _ _ (cov_5_13 c arg1 harg1 arg2 harg2 arg5 arg6 arg7 arg8 arg9 arg10 arg11 arg12 arg13 arg14 arg15 arg16 x0 x1)
theorem cov_5_15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 15 (kernelRun0_A.sl.HS5_15 (F := Ideal) c arg1 harg1 arg8 arg9 arg10 x0) := by
  unfold kernelRun0_A.sl.HS5_15; exact Cov.cons 14 _ _ (cov_5_14 c arg1 harg1 arg2 harg2 arg5 arg6 arg7 arg8 arg9 arg10 arg11 arg12 arg13 arg14 arg15 arg16 x0 x1)
theorem cov_5_16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 16 (kernelRun0_A.sl.HS5_16 (F := Ideal) c arg1 harg1 arg8 arg9 arg10 x0) := by
  unfold kernelRun0_A.sl.HS5_16; exact Cov.cons 15 _ _ (cov_5_15 c arg1 harg1 arg2 harg2 arg5 arg6 arg7 arg8 arg9 arg10 arg11 arg12 arg13 arg14 arg15 arg16 x0 x1)
theorem cov_5_17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 17 (kernelRun0_A.sl.HS5_17 (F := Ideal) c arg1 harg1 arg8 arg9 arg10 x0) := by
  unfold kernelRun0_A.sl.HS5_17; exact Cov.cons 16 _ _ (cov_5_16 c arg1 harg1 arg2 harg2 arg5 arg6 arg7 arg8 arg9 arg10 arg11 arg12 arg13 arg14 arg15 arg16 x0 x1)
theorem cov_5_18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 18 (kernelRun0_A.sl.HS5_18 (F := Ideal) c arg1 harg1 arg8 arg9 arg10 x0) := by
  unfold kernelRun0_A.sl.HS5_18; exact Cov.cons 17 _ _ (cov_5_17 c arg1 harg1 arg2 harg2 arg5 arg6 arg7 arg8 arg9 arg10 arg11 arg12 arg13 arg14 arg15 arg16 x0 x1)
theorem cov_5_19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 19 (kernelRun0_A.sl.HS5_19 (F := Ideal) c arg1 harg1 arg8 arg9 arg10 x0) := by
  unfold kernelRun0_A.sl.HS5_19; exact Cov.cons 18 _ _ (cov_5_18 c arg1 harg1 arg2 harg2 arg5 arg6 arg7 arg8 arg9 arg10 arg11 arg12 arg13 arg14 arg15 arg16 x0 x1)
theorem cov_5_20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 20 (kernelRun0_A.sl.HS5_20 (F := Ideal) c arg1 harg1 arg8 arg9 arg10 x0) := by
  unfold kernelRun0_A.sl.HS5_20; exact Cov.cons 19 _ _ (cov_5_19 c arg1 harg1 arg2 harg2 arg5 arg6 arg7 arg8 arg9 arg10 arg11 arg12 arg13 arg14 arg15 arg16 x0 x1)
theorem cov_5_21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 21 (kernelRun0_A.sl.HS5_21 (F := Ideal) c arg1 harg1 arg8 arg9 arg10 x0) := by
  unfold kernelRun0_A.sl.HS5_21; exact Cov.cons 20 _ _ (cov_5_20 c arg1 harg1 arg2 harg2 arg5 arg6 arg7 arg8 arg9 arg10 arg11 arg12 arg13 arg14 arg15 arg16 x0 x1)
theorem cov_5_22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 22 (kernelRun0_A.sl.HS5_22 (F := Ideal) c arg1 harg1 arg8 arg9 arg10 x0) := by
  unfold kernelRun0_A.sl.HS5_22; exact Cov.cons 21 _ _ (cov_5_21 c arg1 harg1 arg2 harg2 arg5 arg6 arg7 arg8 arg9 arg10 arg11 arg12 arg13 arg14 arg15 arg16 x0 x1)
theorem cov_5_23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 23 (kernelRun0_A.sl.HS5_23 (F := Ideal) c arg1 harg1 arg8 arg9 arg10 x0) := by
  unfold kernelRun0_A.sl.HS5_23; exact Cov.cons 22 _ _ (cov_5_22 c arg1 harg1 arg2 harg2 arg5 arg6 arg7 arg8 arg9 arg10 arg11 arg12 arg13 arg14 arg15 arg16 x0 x1)
theorem cov_6_1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 1 (kernelRun0_A.sl.HS6_1 (F := Ideal) c arg1 harg1 x0) := by
  unfold kernelRun0_A.sl.HS6_1; exact Cov.cons 0 _ _ Cov.zero
theorem cov_6_2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 2 (kernelRun0_A.sl.HS6_2 (F := Ideal) c arg1 harg1 arg11 arg12 arg13 x0) := by
  unfold kernelRun0_A.sl.HS6_2; exact Cov.cons 1 _ _ (cov_6_1 c arg1 harg1 arg2 harg2 arg5 arg6 arg7 arg8 arg9 arg10 arg11 arg12 arg13 arg14 arg15 arg16 x0 x1)
theorem cov_6_3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 3 (kernelRun0_A.sl.HS6_3 (F := Ideal) c arg1 harg1 arg11 arg12 arg13 x0) := by
  unfold kernelRun0_A.sl.HS6_3; exact Cov.cons 2 _ _ (cov_6_2 c arg1 harg1 arg2 harg2 arg5 arg6 arg7 arg8 arg9 arg10 arg11 arg12 arg13 arg14 arg15 arg16 x0 x1)
theorem cov_6_4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 4 (kernelRun0_A.sl.HS6_4 (F := Ideal) c arg1 harg1 arg11 arg12 arg13 x0) := by
  unfold kernelRun0_A.sl.HS6_4; exact Cov.cons 3 _ _ (cov_6_3 c arg1 harg1 arg2 harg2 arg5 arg6 arg7 arg8 arg9 arg10 arg11 arg12 arg13 arg14 arg15 arg16 x0 x1)
theorem cov_6_5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 5 (kernelRun0_A.sl.HS6_5 (F := Ideal) c arg1 harg1 arg11 arg12 arg13 x0) := by
  unfold kernelRun0_A.sl.HS6_5; exact Cov.cons 4 _ _ (cov_6_4 c arg1 harg1 arg2 harg2 arg5 arg6 arg7 arg8 arg9 arg10 arg11 arg12 arg13 arg14 arg15 arg16 x0 x1)
theorem cov_6_6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 6 (kernelRun0_A.sl.HS6_6 (F := Ideal) c arg1 harg1 arg11 arg12 arg13 x0) := by
  unfold kernelRun0_A.sl.HS6_6; exact Cov.cons 5 _ _ (cov_6_5 c arg1 harg1 arg2 harg2 arg5 arg6 arg7 arg8 arg9 arg10 arg11 arg12 arg13 arg14 arg15 arg16 x0 x1)
theorem cov_6_7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 7 (kernelRun0_A.sl.HS6_7 (F := Ideal) c arg1 harg1 arg11 arg12 arg13 x0) := by
  unfold kernelRun0_A.sl.HS6_7; exact Cov.cons 6 _ _ (cov_6_6 c arg1 harg1 arg2 harg2 arg5 arg6 arg7 arg8 arg9 arg10 arg11 arg12 arg13 arg14 arg15 arg16 x0 x1)
theorem cov_6_8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 8 (kernelRun0_A.sl.HS6_8 (F := Ideal) c arg1 harg1 arg11 arg12 arg13 x0) := by
  unfold kernelRun0_A.sl.HS6_8; exact Cov.cons 7 _ _ (cov_6_7 c arg1 harg1 arg2 harg2 arg5 arg6 arg7 arg8 arg9 arg10 arg11 arg12 arg13 arg14 arg15 arg16 x0 x1)
theorem cov_6_9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 9 (kernelRun0_A.sl.HS6_9 (F := Ideal) c arg1 harg1 arg11 arg12 arg13 x0) := by
  unfold kernelRun0_A.sl.HS6_9; exact Cov.cons 8 _ _ (cov_6_8 c arg1 harg1 arg2 harg2 arg5 arg6 arg7 arg8 arg9 arg10 arg11 arg12 arg13 arg14 arg15 arg16 x0 x1)
theorem cov_6_10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 10 (kernelRun0_A.sl.HS6_10 (F := Ideal) c arg1 harg1 arg11 arg12 arg13 x0) := by
  unfold kernelRun0_A.sl.HS6_10; exact Cov.cons 9 _ _ (cov_6_9 c arg1 harg1 arg2 harg2 arg5 arg6 arg7 arg8 arg9 arg10 arg11 arg12 arg13 arg14 arg15 arg16 x0 x1)
theorem cov_6_11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 11 (kernelRun0_A.sl.HS6_11 (F := Ideal) c arg1 harg1 arg11 arg12 arg13 x0) := by
  unfold kernelRun0_A.sl.HS6_11; exact Cov.cons 10 _ _ (cov_6_10 c arg1 harg1 arg2 harg2 arg5 arg6 arg7 arg8 arg9 arg10 arg11 arg12 arg13 arg14 arg15 arg16 x0 x1)
theorem cov_6_12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 12 (kernelRun0_A.sl.HS6_12 (F := Ideal) c arg1 harg1 arg11 arg12 arg13 x0) := by
  unfold kernelRun0_A.sl.HS6_12; exact Cov.cons 11 _ _ (cov_6_11 c arg1 harg1 arg2 harg2 arg5 arg6 arg7 arg8 arg9 arg10 arg11 arg12 arg13 arg14 arg15 arg16 x0 x1)
theorem cov_6_13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 13 (kernelRun0_A.sl.HS6_13 (F := Ideal) c arg1 harg1 arg11 arg12 arg13 x0) := by
  unfold kernelRun0_A.sl.HS6_13; exact Cov.cons 12 _ _ (cov_6_12 c arg1 harg1 arg2 harg2 arg5 arg6 arg7 arg8 arg9 arg10 arg11 arg12 arg13 arg14 arg15 arg16 x0 x1)
theorem cov_6_14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 14 (kernelRun0_A.sl.HS6_14 (F := Ideal) c arg1 harg1 arg11 arg12 arg13 x0) := by
  unfold kernelRun0_A.sl.HS6_14; exact Cov.cons 13 _ _ (cov_6_13 c arg1 harg1 arg2 harg2 arg5 arg6 arg7 arg8 arg9 arg10 arg11 arg12 arg13 arg14 arg15 arg16 x0 x1)
theorem cov_6_15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 15 (kernelRun0_A.sl.HS6_15 (F := Ideal) c arg1 harg1 arg11 arg12 arg13 x0) := by
  unfold kernelRun0_A.sl.HS6_15; exact Cov.cons 14 _ _ (cov_6_14 c arg1 harg1 arg2 harg2 arg5 arg6 arg7 arg8 arg9 arg10 arg11 arg12 arg13 arg14 arg15 arg16 x0 x1)
theorem cov_6_16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 16 (kernelRun0_A.sl.HS6_16 (F := Ideal) c arg1 harg1 arg11 arg12 arg13 x0) := by
  unfold kernelRun0_A.sl.HS6_16; exact Cov.cons 15 _ _ (cov_6_15 c arg1 harg1 arg2 harg2 arg5 arg6 arg7 arg8 arg9 arg10 arg11 arg12 arg13 arg14 arg15 arg16 x0 x1)
theorem cov_6_17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 17 (kernelRun0_A.sl.HS6_17 (F := Ideal) c arg1 harg1 arg11 arg12 arg13 x0) := by
  unfold kernelRun0_A.sl.HS6_17; exact Cov.cons 16 _ _ (cov_6_16 c arg1 harg1 arg2 harg2 arg5 arg6 arg7 arg8 arg9 arg10 arg11 arg12 arg13 arg14 arg15 arg16 x0 x1)
theorem cov_6_18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 18 (kernelRun0_A.sl.HS6_18 (F := Ideal) c arg1 harg1 arg11 arg12 arg13 x0) := by
  unfold kernelRun0_A.sl.HS6_18; exact Cov.cons 17 _ _ (cov_6_17 c arg1 harg1 arg2 harg2 arg5 arg6 arg7 arg8 arg9 arg10 arg11 arg12 arg13 arg14 arg15 arg16 x0 x1)
theorem cov_6_19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 19 (kernelRun0_A.sl.HS6_19 (F := Ideal) c arg1 harg1 arg11 arg12 arg13 x0) := by
  unfold kernelRun0_A.sl.HS6_19; exact Cov.cons 18 _ _ (cov_6_18 c arg1 harg1 arg2 harg2 arg5 arg6 arg7 arg8 arg9 arg10 arg11 arg12 arg13 arg14 arg15 arg16 x0 x1)
theorem cov_6_20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 20 (kernelRun0_A.sl.HS6_20 (F := Ideal) c arg1 harg1 arg11 arg12 arg13 x0) := by
  unfold kernelRun0_A.sl.HS6_20; exact Cov.cons 19 _ _ (cov_6_19 c arg1 harg1 arg2 harg2 arg5 arg6 arg7 arg8 arg9 arg10 arg11 arg12 arg13 arg14 arg15 arg16 x0 x1)
theorem cov_6_21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 21 (kernelRun0_A.sl.HS6_21 (F := Ideal) c arg1 harg1 arg11 arg12 arg13 x0) := by
  unfold kernelRun0_A.sl.HS6_21; exact Cov.cons 20 _ _ (cov_6_20 c arg1 harg1 arg2 harg2 arg5 arg6 arg7 arg8 arg9 arg10 arg11 arg12 arg13 arg14 arg15 arg16 x0 x1)
theorem cov_6_22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 22 (kernelRun0_A.sl.HS6_22 (F := Ideal) c arg1 harg1 arg11 arg12 arg13 x0) := by
  unfold kernelRun0_A.sl.HS6_22; exact Cov.cons 21 _ _ (cov_6_21 c arg1 harg1 arg2 harg2 arg5 arg6 arg7 arg8 arg9 arg10 arg11 arg12 arg13 arg14 arg15 arg16 x0 x1)
theorem cov_6_23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 23 (kernelRun0_A.sl.HS6_23 (F := Ideal) c arg1 harg1 arg11 arg12 arg13 x0) := by
  unfold kernelRun0_A.sl.HS6_23; exact Cov.cons 22 _ _ (cov_6_22 c arg1 harg1 arg2 harg2 arg5 arg6 arg7 arg8 arg9 arg10 arg11 arg12 arg13 arg14 arg15 arg16 x0 x1)
theorem cov_7_1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 1 (kernelRun0_A.sl.HS7_1 (F := Ideal) c arg1 harg1 x0) := by
  unfold kernelRun0_A.sl.HS7_1; exact Cov.cons 0 _ _ Cov.zero
theorem cov_7_2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 2 (kernelRun0_A.sl.HS7_2 (F := Ideal) c arg1 harg1 arg11 arg12 arg13 x0) := by
  unfold kernelRun0_A.sl.HS7_2; exact Cov.cons 1 _ _ (cov_7_1 c arg1 harg1 arg2 harg2 arg5 arg6 arg7 arg8 arg9 arg10 arg11 arg12 arg13 arg14 arg15 arg16 x0 x1)
theorem cov_7_3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 3 (kernelRun0_A.sl.HS7_3 (F := Ideal) c arg1 harg1 arg11 arg12 arg13 x0) := by
  unfold kernelRun0_A.sl.HS7_3; exact Cov.cons 2 _ _ (cov_7_2 c arg1 harg1 arg2 harg2 arg5 arg6 arg7 arg8 arg9 arg10 arg11 arg12 arg13 arg14 arg15 arg16 x0 x1)
theorem cov_7_4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 4 (kernelRun0_A.sl.HS7_4 (F := Ideal) c arg1 harg1 arg11 arg12 arg13 x0) := by
  unfold kernelRun0_A.sl.HS7_4; exact Cov.cons 3 _ _ (cov_7_3 c arg1 harg1 arg2 harg2 arg5 arg6 arg7 arg8 arg9 arg10 arg11 arg12 arg13 arg14 arg15 arg16 x0 x1)
theorem cov_7_5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 5 (kernelRun0_A.sl.HS7_5 (F := Ideal) c arg1 harg1 arg11 arg12 arg13 x0) := by
  unfold kernelRun0_A.sl.HS7_5; exact Cov.cons 4 _ _ (cov_7_4 c arg1 harg1 arg2 harg2 arg5 arg6 arg7 arg8 arg9 arg10 arg11 arg12 arg13 arg14 arg15 arg16 x0 x1)
theorem cov_7_6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 6 (kernelRun0_A.sl.HS7_6 (F := Ideal) c arg1 harg1 arg11 arg12 arg13 x0) := by
  unfold kernelRun0_A.sl.HS7_6; exact Cov.cons 5 _ _ (cov_7_5 c arg1 harg1 arg2 harg2 arg5 arg6 arg7 arg8 arg9 arg10 arg11 arg12 arg13 arg14 arg15 arg16 x0 x1)
theorem cov_7_7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 7 (kernelRun0_A.sl.HS7_7 (F := Ideal) c arg1 harg1 arg11 arg12 arg13 x0) := by
  unfold kernelRun0_A.sl.HS7_7; exact Cov.cons 6 _ _ (cov_7_6 c arg1 harg1 arg2 harg2 arg5 arg6 arg7 arg8 arg9 arg10 arg11 arg12 arg13 arg14 arg15 arg16 x0 x1)
theorem cov_7_8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 8 (kernelRun0_A.sl.HS7_8 (F := Ideal) c arg1 harg1 arg11 arg12 arg13 x0) := by
  unfold kernelRun0_A.sl.HS7_8; exact Cov.cons 7 _ _ (cov_7_7 c arg1 harg1 arg2 harg2 arg5 arg6 arg7 arg8 arg9 arg10 arg11 arg12 arg13 arg14 arg15 arg16 x0 x1)
theorem cov_7_9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 9 (kernelRun0_A.sl.HS7_9 (F := Ideal) c arg1 harg1 arg11 arg12 arg13 x0) := by
  unfold kernelRun0_A.sl.HS7_9; exact Cov.cons 8 _ _ (cov_7_8 c arg1 harg1 arg2 harg2 arg5 arg6 arg7 arg8 arg9 arg10 arg11 arg12 arg13 arg14 arg15 arg16 x0 x1)
theorem cov_7_10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 10 (kernelRun0_A.sl.HS7_10 (F := Ideal) c arg1 harg1 arg11 arg12 arg13 x0) := by
  unfold kernelRun0_A.sl.HS7_10; exact Cov.cons 9 _ _ (cov_7_9 c arg1 harg1 arg2 harg2 arg5 arg6 arg7 arg8 arg9 arg10 arg11 arg12 arg13 arg14 arg15 arg16 x0 x1)
theorem cov_7_11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 11 (kernelRun0_A.sl.HS7_11 (F := Ideal) c arg1 harg1 arg11 arg12 arg13 x0) := by
  unfold kernelRun0_A.sl.HS7_11; exact Cov.cons 10 _ _ (cov_7_10 c arg1 harg1 arg2 harg2 arg5 arg6 arg7 arg8 arg9 arg10 arg11 arg12 arg13 arg14 arg15 arg16 x0 x1)
theorem cov_7_12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 12 (kernelRun0_A.sl.HS7_12 (F := Ideal) c arg1 harg1 arg11 arg12 arg13 x0) := by
  unfold kernelRun0_A.sl.HS7_12; exact Cov.cons 11 _ _ (cov_7_11 c arg1 harg1 arg2 harg2 arg5 arg6 arg7 arg8 arg9 arg10 arg11 arg12 arg13 arg14 arg15 arg16 x0 x1)
theorem cov_7_13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 13 (kernelRun0_A.sl.HS7_13 (F := Ideal) c arg1 harg1 arg11 arg12 arg13 x0) := by
  unfold kernelRun0_A.sl.HS7_13; exact Cov.cons 12 _ _ (cov_7_12 c arg1 harg1 arg2 harg2 arg5 arg6 arg7 arg8 arg9 arg10 arg11 arg12 arg13 arg14 arg15 arg16 x0 x1)
theorem cov_7_14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 14 (kernelRun0_A.sl.HS7_14 (F := Ideal) c arg1 harg1 arg11 arg12 arg13 x0) := by
  unfold kernelRun0_A.sl.HS7_14; exact Cov.cons 13 _ _ (cov_7_13 c arg1 harg1 arg2 harg2 arg5 arg6 arg7 arg8 arg9 arg10 arg11 arg12 arg13 arg14 arg15 arg16 x0 x1)
theorem cov_7_15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 15 (kernelRun0_A.sl.HS7_15 (F := Ideal) c arg1 harg1 arg11 arg12 arg13 x0) := by
  unfold kernelRun0_A.sl.HS7_15; exact Cov.cons 14 _ _ (cov_7_14 c arg1 harg1 arg2 harg2 arg5 arg6 arg7 arg8 arg9 arg10 arg11 arg12 arg13 arg14 arg15 arg16 x0 x1)
theorem cov_7_16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 16 (kernelRun0_A.sl.HS7_16 (F := Ideal) c arg1 harg1 arg11 arg12 arg13 x0) := by
  unfold kernelRun0_A.sl.HS7_16; exact Cov.cons 15 _ _ (cov_7_15 c arg1 harg1 arg2 harg2 arg5 arg6 arg7 arg8 arg9 arg10 arg11 arg12 arg13 arg14 arg15 arg16 x0 x1)
theorem cov_7_17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 17 (kernelRun0_A.sl.HS7_17 (F := Ideal) c arg1 harg1 arg11 arg12 arg13 x0) := by
  unfold kernelRun0_A.sl.HS7_17; exact Cov.cons 16 _ _ (cov_7_16 c arg1 harg1 arg2 harg2 arg5 arg6 arg7 arg8 arg9 arg10 arg11 arg12 arg13 arg14 arg15 arg16 x0 x1)
theorem cov_7_18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 18 (kernelRun0_A.sl.HS7_18 (F := Ideal) c arg1 harg1 arg11 arg12 arg13 x0) := by
  unfold kernelRun0_A.sl.HS7_18; exact Cov.cons 17 _ _ (cov_7_17 c arg1 harg1 arg2 harg2 arg5 arg6 arg7 arg8 arg9 arg10 arg11 arg12 arg13 arg14 arg15 arg16 x0 x1)
theorem cov_7_19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 19 (kernelRun0_A.sl.HS7_19 (F := Ideal) c arg1 harg1 arg11 arg12 arg13 x0) := by
  unfold kernelRun0_A.sl.HS7_19; exact Cov.cons 18 _ _ (cov_7_18 c arg1 harg1 arg2 harg2 arg5 arg6 arg7 arg8 arg9 arg10 arg11 arg12 arg13 arg14 arg15 arg16 x0 x1)
theorem cov_7_20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 20 (kernelRun0_A.sl.HS7_20 (F := Ideal) c arg1 harg1 arg11 arg12 arg13 x0) := by
  unfold kernelRun0_A.sl.HS7_20; exact Cov.cons 19 _ _ (cov_7_19 c arg1 harg1 arg2 harg2 arg5 arg6 arg7 arg8 arg9 arg10 arg11 arg12 arg13 arg14 arg15 arg16 x0 x1)
theorem cov_7_21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 21 (kernelRun0_A.sl.HS7_21 (F := Ideal) c arg1 harg1 arg11 arg12 arg13 x0) := by
  unfold kernelRun0_A.sl.HS7_21; exact Cov.cons 20 _ _ (cov_7_20 c arg1 harg1 arg2 harg2 arg5 arg6 arg7 arg8 arg9 arg10 arg11 arg12 arg13 arg14 arg15 arg16 x0 x1)
theorem cov_7_22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 22 (kernelRun0_A.sl.HS7_22 (F := Ideal) c arg1 harg1 arg11 arg12 arg13 x0) := by
  unfold kernelRun0_A.sl.HS7_22; exact Cov.cons 21 _ _ (cov_7_21 c arg1 harg1 arg2 harg2 arg5 arg6 arg7 arg8 arg9 arg10 arg11 arg12 arg13 arg14 arg15 arg16 x0 x1)
theorem cov_7_23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 23 (kernelRun0_A.sl.HS7_23 (F := Ideal) c arg1 harg1 arg11 arg12 arg13 x0) := by
  unfold kernelRun0_A.sl.HS7_23; exact Cov.cons 22 _ _ (cov_7_22 c arg1 harg1 arg2 harg2 arg5 arg6 arg7 arg8 arg9 arg10 arg11 arg12 arg13 arg14 arg15 arg16 x0 x1)
theorem cov_8_1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 1 (kernelRun0_A.sl.HS8_1 (F := Ideal) c arg1 harg1 x0) := by
  unfold kernelRun0_A.sl.HS8_1; exact Cov.cons 0 _ _ Cov.zero
theorem cov_8_2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 2 (kernelRun0_A.sl.HS8_2 (F := Ideal) c arg1 harg1 arg11 arg12 arg13 x0) := by
  unfold kernelRun0_A.sl.HS8_2; exact Cov.cons 1 _ _ (cov_8_1 c arg1 harg1 arg2 harg2 arg5 arg6 arg7 arg8 arg9 arg10 arg11 arg12 arg13 arg14 arg15 arg16 x0 x1)
theorem cov_8_3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 3 (kernelRun0_A.sl.HS8_3 (F := Ideal) c arg1 harg1 arg11 arg12 arg13 x0) := by
  unfold kernelRun0_A.sl.HS8_3; exact Cov.cons 2 _ _ (cov_8_2 c arg1 harg1 arg2 harg2 arg5 arg6 arg7 arg8 arg9 arg10 arg11 arg12 arg13 arg14 arg15 arg16 x0 x1)
theorem cov_8_4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 4 (kernelRun0_A.sl.HS8_4 (F := Ideal) c arg1 harg1 arg11 arg12 arg13 x0) := by
  unfold kernelRun0_A.sl.HS8_4; exact Cov.cons 3 _ _ (cov_8_3 c arg1 harg1 arg2 harg2 arg5 arg6 arg7 arg8 arg9 arg10 arg11 arg12 arg13 arg14 arg15 arg16 x0 x1)
theorem cov_8_5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 5 (kernelRun0_A.sl.HS8_5 (F := Ideal) c arg1 harg1 arg11 arg12 arg13 x0) := by
  unfold kernelRun0_A.sl.HS8_5; exact Cov.cons 4 _ _ (cov_8_4 c arg1 harg1 arg2 harg2 arg5 arg6 arg7 arg8 arg9 arg10 arg11 arg12 arg13 arg14 arg15 arg16 x0 x1)
theorem cov_8_6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 6 (kernelRun0_A.sl.HS8_6 (F := Ideal) c arg1 harg1 arg11 arg12 arg13 x0) := by
  unfold kernelRun0_A.sl.HS8_6; exact Cov.cons 5 _ _ (cov_8_5 c arg1 harg1 arg2 harg2 arg5 arg6 arg7 arg8 arg9 arg10 arg11 arg12 arg13 arg14 arg15 arg16 x0 x1)
theorem cov_8_7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 7 (kernelRun0_A.sl.HS8_7 (F := Ideal) c arg1 harg1 arg11 arg12 arg13 x0) := by
  unfold kernelRun0_A.sl.HS8_7; exact Cov.cons 6 _ _ (cov_8_6 c arg1 harg1 arg2 harg2 arg5 arg6 arg7 arg8 arg9 arg10 arg11 arg12 arg13 arg14 arg15 arg16 x0 x1)
theorem cov_8_8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 8 (kernelRun0_A.sl.HS8_8 (F := Ideal) c arg1 harg1 arg11 arg12 arg13 x0) := by
  unfold kernelRun0_A.sl.HS8_8; exact Cov.cons 7 _ _ (cov_8_7 c arg1 harg1 arg2 harg2 arg5 arg6 arg7 arg8 arg9 arg10 arg11 arg12 arg13 arg14 arg15 arg16 x0 x1)
theorem cov_8_9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 9 (kernelRun0_A.sl.HS8_9 (F := Ideal) c arg1 harg1 arg11 arg12 arg13 x0) := by
  unfold kernelRun0_A.sl.HS8_9; exact Cov.cons 8 _ _ (cov_8_8 c arg1 harg1 arg2 harg2 arg5 arg6 arg7 arg8 arg9 arg10 arg11 arg12 arg13 arg14 arg15 arg16 x0 x1)
theorem cov_8_10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 10 (kernelRun0_A.sl.HS8_10 (F := Ideal) c arg1 harg1 arg11 arg12 arg13 x0) := by
  unfold kernelRun0_A.sl.HS8_10; exact Cov.cons 9 _ _ (cov_8_9 c arg1 harg1 arg2 harg2 arg5 arg6 arg7 arg8 arg9 arg10 arg11 arg12 arg13 arg14 arg15 arg16 x0 x1)
theorem cov_8_11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 11 (kernelRun0_A.sl.HS8_11 (F := Ideal) c arg1 harg1 arg11 arg12 arg13 x0) := by
  unfold kernelRun0_A.sl.HS8_11; exact Cov.cons 10 _ _ (cov_8_10 c arg1 harg1 arg2 harg2 arg5 arg6 arg7 arg8 arg9 arg10 arg11 arg12 arg13 arg14 arg15 arg16 x0 x1)
theorem cov_8_12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 12 (kernelRun0_A.sl.HS8_12 (F := Ideal) c arg1 harg1 arg11 arg12 arg13 x0) := by
  unfold kernelRun0_A.sl.HS8_12; exact Cov.cons 11 _ _ (cov_8_11 c arg1 harg1 arg2 harg2 arg5 arg6 arg7 arg8 arg9 arg10 arg11 arg12 arg13 arg14 arg15 arg16 x0 x1)
theorem cov_8_13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 13 (kernelRun0_A.sl.HS8_13 (F := Ideal) c arg1 harg1 arg11 arg12 arg13 x0) := by
  unfold kernelRun0_A.sl.HS8_13; exact Cov.cons 12 _ _ (cov_8_12 c arg1 harg1 arg2 harg2 arg5 arg6 arg7 arg8 arg9 arg10 arg11 arg12 arg13 arg14 arg15 arg16 x0 x1)
theorem cov_8_14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 14 (kernelRun0_A.sl.HS8_14 (F := Ideal) c arg1 harg1 arg11 arg12 arg13 x0) := by
  unfold kernelRun0_A.sl.HS8_14; exact Cov.cons 13 _ _ (cov_8_13 c arg1 harg1 arg2 harg2 arg5 arg6 arg7 arg8 arg9 arg10 arg11 arg12 arg13 arg14 arg15 arg16 x0 x1)
theorem cov_8_15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 15 (kernelRun0_A.sl.HS8_15 (F := Ideal) c arg1 harg1 arg11 arg12 arg13 x0) := by
  unfold kernelRun0_A.sl.HS8_15; exact Cov.cons 14 _ _ (cov_8_14 c arg1 harg1 arg2 harg2 arg5 arg6 arg7 arg8 arg9 arg10 arg11 arg12 arg13 arg14 arg15 arg16 x0 x1)
theorem cov_8_16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 16 (kernelRun0_A.sl.HS8_16 (F := Ideal) c arg1 harg1 arg11 arg12 arg13 x0) := by
  unfold kernelRun0_A.sl.HS8_16; exact Cov.cons 15 _ _ (cov_8_15 c arg1 harg1 arg2 harg2 arg5 arg6 arg7 arg8 arg9 arg10 arg11 arg12 arg13 arg14 arg15 arg16 x0 x1)
theorem cov_8_17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 17 (kernelRun0_A.sl.HS8_17 (F := Ideal) c arg1 harg1 arg11 arg12 arg13 x0) := by
  unfold kernelRun0_A.sl.HS8_17; exact Cov.cons 16 _ _ (cov_8_16 c arg1 harg1 arg2 harg2 arg5 arg6 arg7 arg8 arg9 arg10 arg11 arg12 arg13 arg14 arg15 arg16 x0 x1)
theorem cov_8_18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 18 (kernelRun0_A.sl.HS8_18 (F := Ideal) c arg1 harg1 arg11 arg12 arg13 x0) := by
  unfold kernelRun0_A.sl.HS8_18; exact Cov.cons 17 _ _ (cov_8_17 c arg1 harg1 arg2 harg2 arg5 arg6 arg7 arg8 arg9 arg10 arg11 arg12 arg13 arg14 arg15 arg16 x0 x1)
theorem cov_8_19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 19 (kernelRun0_A.sl.HS8_19 (F := Ideal) c arg1 harg1 arg11 arg12 arg13 x0) := by
  unfold kernelRun0_A.sl.HS8_19; exact Cov.cons 18 _ _ (cov_8_18 c arg1 harg1 arg2 harg2 arg5 arg6 arg7 arg8 arg9 arg10 arg11 arg12 arg13 arg14 arg15 arg16 x0 x1)
theorem cov_8_20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 20 (kernelRun0_A.sl.HS8_20 (F := Ideal) c arg1 harg1 arg11 arg12 arg13 x0) := by
  unfold kernelRun0_A.sl.HS8_20; exact Cov.cons 19 _ _ (cov_8_19 c arg1 harg1 arg2 harg2 arg5 arg6 arg7 arg8 arg9 arg10 arg11 arg12 arg13 arg14 arg15 arg16 x0 x1)
theorem cov_8_21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 21 (kernelRun0_A.sl.HS8_21 (F := Ideal) c arg1 harg1 arg11 arg12 arg13 x0) := by
  unfold kernelRun0_A.sl.HS8_21; exact Cov.cons 20 _ _ (cov_8_20 c arg1 harg1 arg2 harg2 arg5 arg6 arg7 arg8 arg9 arg10 arg11 arg12 arg13 arg14 arg15 arg16 x0 x1)
theorem cov_8_22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 22 (kernelRun0_A.sl.HS8_22 (F := Ideal) c arg1 harg1 arg11 arg12 arg13 x0) := by
  unfold kernelRun0_A.sl.HS8_22; exact Cov.cons 21 _ _ (cov_8_21 c arg1 harg1 arg2 harg2 arg5 arg6 arg7 arg8 arg9 arg10 arg11 arg12 arg13 arg14 arg15 arg16 x0 x1)
theorem cov_8_23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 23 (kernelRun0_A.sl.HS8_23 (F := Ideal) c arg1 harg1 arg11 arg12 arg13 x0) := by
  unfold kernelRun0_A.sl.HS8_23; exact Cov.cons 22 _ _ (cov_8_22 c arg1 harg1 arg2 harg2 arg5 arg6 arg7 arg8 arg9 arg10 arg11 arg12 arg13 arg14 arg15 arg16 x0 x1)
theorem cov_9_1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 1 (kernelRun0_A.sl.HS9_1 (F := Ideal) c arg2 harg2 x1) := by
  unfold kernelRun0_A.sl.HS9_1; exact Cov.cons 0 _ _ Cov.zero
theorem cov_9_2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 2 (kernelRun0_A.sl.HS9_2 (F := Ideal) c arg1 harg1 arg2 harg2 arg5 arg6 arg7 arg14 x0 x1) := by
  unfold kernelRun0_A.sl.HS9_2; exact Cov.cons 1 _ _ (cov_9_1 c arg1 harg1 arg2 harg2 arg5 arg6 arg7 arg8 arg9 arg10 arg11 arg12 arg13 arg14 arg15 arg16 x0 x1)
theorem cov_9_3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 3 (kernelRun0_A.sl.HS9_3 (F := Ideal) c arg1 harg1 arg2 harg2 arg5 arg6 arg7 arg14 x0 x1) := by
  unfold kernelRun0_A.sl.HS9_3; exact Cov.cons 2 _ _ (cov_9_2 c arg1 harg1 arg2 harg2 arg5 arg6 arg7 arg8 arg9 arg10 arg11 arg12 arg13 arg14 arg15 arg16 x0 x1)
theorem cov_9_4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 4 (kernelRun0_A.sl.HS9_4 (F := Ideal) c arg1 harg1 arg2 harg2 arg5 arg6 arg7 arg14 x0 x1) := by
  unfold kernelRun0_A.sl.HS9_4; exact Cov.cons 3 _ _ (cov_9_3 c arg1 harg1 arg2 harg2 arg5 arg6 arg7 arg8 arg9 arg10 arg11 arg12 arg13 arg14 arg15 arg16 x0 x1)
theorem cov_9_5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 5 (kernelRun0_A.sl.HS9_5 (F := Ideal) c arg1 harg1 arg2 harg2 arg5 arg6 arg7 arg14 x0 x1) := by
  unfold kernelRun0_A.sl.HS9_5; exact Cov.cons 4 _ _ (cov_9_4 c arg1 harg1 arg2 harg2 arg5 arg6 arg7 arg8 arg9 arg10 arg11 arg12 arg13 arg14 arg15 arg16 x0 x1)
theorem cov_9_6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 6 (kernelRun0_A.sl.HS9_6 (F := Ideal) c arg1 harg1 arg2 harg2 arg5 arg6 arg7 arg14 x0 x1) := by
  unfold kernelRun0_A.sl.HS9_6; exact Cov.cons 5 _ _ (cov_9_5 c arg1 harg1 arg2 harg2 arg5 arg6 arg7 arg8 arg9 arg10 arg11 arg12 arg13 arg14 arg15 arg16 x0 x1)
theorem cov_9_7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 7 (kernelRun0_A.sl.HS9_7 (F := Ideal) c arg1 harg1 arg2 harg2 arg5 arg6 arg7 arg14 x0 x1) := by
  unfold kernelRun0_A.sl.HS9_7; exact Cov.cons 6 _ _ (cov_9_6 c arg1 harg1 arg2 harg2 arg5 arg6 arg7 arg8 arg9 arg10 arg11 arg12 arg13 arg14 arg15 arg16 x0 x1)
theorem cov_9_8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 8 (kernelRun0_A.sl.HS9_8 (F := Ideal) c arg1 harg1 arg2 harg2 arg5 arg6 arg7 arg14 x0 x1) := by
  unfold kernelRun0_A.sl.HS9_8; exact Cov.cons 7 _ _ (cov_9_7 c arg1 harg1 arg2 harg2 arg5 arg6 arg7 arg8 arg9 arg10 arg11 arg12 arg13 arg14 arg15 arg16 x0 x1)
theorem cov_9_9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 9 (kernelRun0_A.sl.HS9_9 (F := Ideal) c arg1 harg1 arg2 harg2 arg5 arg6 arg7 arg14 x0 x1) := by
  unfold kernelRun0_A.sl.HS9_9; exact Cov.cons 8 _ _ (cov_9_8 c arg1 harg1 arg2 harg2 arg5 arg6 arg7 arg8 arg9 arg10 arg11 arg12 arg13 arg14 arg15 arg16 x0 x1)
theorem cov_9_10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 10 (kernelRun0_A.sl.HS9_10 (F := Ideal) c arg1 harg1 arg2 harg2 arg5 arg6 arg7 arg14 x0 x1) := by
  unfold kernelRun0_A.sl.HS9_10; exact Cov.cons 9 _ _ (cov_9_9 c arg1 harg1 arg2 harg2 arg5 arg6 arg7 arg8 arg9 arg10 arg11 arg12 arg13 arg14 arg15 arg16 x0 x1)
theorem cov_9_11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 11 (kernelRun0_A.sl.HS9_11 (F := Ideal) c arg1 harg1 arg2 harg2 arg5 arg6 arg7 arg14 x0 x1) := by
  unfold kernelRun0_A.sl.HS9_11; exact Cov.cons 10 _ _ (cov_9_10 c arg1 harg1 arg2 harg2 arg5 arg6 arg7 arg8 arg9 arg10 arg11 arg12 arg13 arg14 arg15 arg16 x0 x1)
theorem cov_9_12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 12 (kernelRun0_A.sl.HS9_12 (F := Ideal) c arg1 harg1 arg2 harg2 arg5 arg6 arg7 arg14 x0 x1) := by
  unfold kernelRun0_A.sl.HS9_12; exact Cov.cons 11 _ _ (cov_9_11 c arg1 harg1 arg2 harg2 arg5 arg6 arg7 arg8 arg9 arg10 arg11 arg12 arg13 arg14 arg15 arg16 x0 x1)
theorem cov_9_13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 13 (kernelRun0_A.sl.HS9_13 (F := Ideal) c arg1 harg1 arg2 harg2 arg5 arg6 arg7 arg14 x0 x1) := by
  unfold kernelRun0_A.sl.HS9_13; exact Cov.cons 12 _ _ (cov_9_12 c arg1 harg1 arg2 harg2 arg5 arg6 arg7 arg8 arg9 arg10 arg11 arg12 arg13 arg14 arg15 arg16 x0 x1)
theorem cov_9_14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 14 (kernelRun0_A.sl.HS9_14 (F := Ideal) c arg1 harg1 arg2 harg2 arg5 arg6 arg7 arg14 x0 x1) := by
  unfold kernelRun0_A.sl.HS9_14; exact Cov.cons 13 _ _ (cov_9_13 c arg1 harg1 arg2 harg2 arg5 arg6 arg7 arg8 arg9 arg10 arg11 arg12 arg13 arg14 arg15 arg16 x0 x1)
theorem cov_9_15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 15 (kernelRun0_A.sl.HS9_15 (F := Ideal) c arg1 harg1 arg2 harg2 arg5 arg6 arg7 arg14 x0 x1) := by
  unfold kernelRun0_A.sl.HS9_15; exact Cov.cons 14 _ _ (cov_9_14 c arg1 harg1 arg2 harg2 arg5 arg6 arg7 arg8 arg9 arg10 arg11 arg12 arg13 arg14 arg15 arg16 x0 x1)
theorem cov_9_16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 16 (kernelRun0_A.sl.HS9_16 (F := Ideal) c arg1 harg1 arg2 harg2 arg5 arg6 arg7 arg14 x0 x1) := by
  unfold kernelRun0_A.sl.HS9_16; exact Cov.cons 15 _ _ (cov_9_15 c arg1 harg1 arg2 harg2 arg5 arg6 arg7 arg8 arg9 arg10 arg11 arg12 arg13 arg14 arg15 arg16 x0 x1)
theorem cov_9_17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 17 (kernelRun0_A.sl.HS9_17 (F := Ideal) c arg1 harg1 arg2 harg2 arg5 arg6 arg7 arg14 x0 x1) := by
  unfold kernelRun0_A.sl.HS9_17; exact Cov.cons 16 _ _ (cov_9_16 c arg1 harg1 arg2 harg2 arg5 arg6 arg7 arg8 arg9 arg10 arg11 arg12 arg13 arg14 arg15 arg16 x0 x1)
theorem cov_9_18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 18 (kernelRun0_A.sl.HS9_18 (F := Ideal) c arg1 harg1 arg2 harg2 arg5 arg6 arg7 arg14 x0 x1) := by
  unfold kernelRun0_A.sl.HS9_18; exact Cov.cons 17 _ _ (cov_9_17 c arg1 harg1 arg2 harg2 arg5 arg6 arg7 arg8 arg9 arg10 arg11 arg12 arg13 arg14 arg15 arg16 x0 x1)
theorem cov_9_19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 19 (kernelRun0_A.sl.HS9_19 (F := Ideal) c arg1 harg1 arg2 harg2 arg5 arg6 arg7 arg14 x0 x1) := by
  unfold kernelRun0_A.sl.HS9_19; exact Cov.cons 18 _ _ (cov_9_18 c arg1 harg1 arg2 harg2 arg5 arg6 arg7 arg8 arg9 arg10 arg11 arg12 arg13 arg14 arg15 arg16 x0 x1)
theorem cov_9_20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 20 (kernelRun0_A.sl.HS9_20 (F := Ideal) c arg1 harg1 arg2 harg2 arg5 arg6 arg7 arg14 x0 x1) := by
  unfold kernelRun0_A.sl.HS9_20; exact Cov.cons 19 _ _ (cov_9_19 c arg1 harg1 arg2 harg2 arg5 arg6 arg7 arg8 arg9 arg10 arg11 arg12 arg13 arg14 arg15 arg16 x0 x1)
theorem cov_9_21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 21 (kernelRun0_A.sl.HS9_21 (F := Ideal) c arg1 harg1 arg2 harg2 arg5 arg6 arg7 arg14 x0 x1) := by
  unfold kernelRun0_A.sl.HS9_21; exact Cov.cons 20 _ _ (cov_9_20 c arg1 harg1 arg2 harg2 arg5 arg6 arg7 arg8 arg9 arg10 arg11 arg12 arg13 arg14 arg15 arg16 x0 x1)
theorem cov_9_22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 22 (kernelRun0_A.sl.HS9_22 (F := Ideal) c arg1 harg1 arg2 harg2 arg5 arg6 arg7 arg14 x0 x1) := by
  unfold kernelRun0_A.sl.HS9_22; exact Cov.cons 21 _ _ (cov_9_21 c arg1 harg1 arg2 harg2 arg5 arg6 arg7 arg8 arg9 arg10 arg11 arg12 arg13 arg14 arg15 arg16 x0 x1)
theorem cov_9_23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 23 (kernelRun0_A.sl.HS9_23 (F := Ideal) c arg1 harg1 arg2 harg2 arg5 arg6 arg7 arg14 x0 x1) := by
  unfold kernelRun0_A.sl.HS9_23; exact Cov.cons 22 _ _ (cov_9_22 c arg1 harg1 arg2 harg2 arg5 arg6 arg7 arg8 arg9 arg10 arg11 arg12 arg13 arg14 arg15 arg16 x0 x1)
theorem cov_10_1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 1 (kernelRun0_A.sl.HS10_1 (F := Ideal) c arg2 harg2 x1) := by
  unfold kernelRun0_A.sl.HS10_1; exact Cov.cons 0 _ _ Cov.zero
theorem cov_10_2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 2 (kernelRun0_A.sl.HS10_2 (F := Ideal) c arg1 harg1 arg2 harg2 arg8 arg9 arg10 arg15 x0 x1) := by
  unfold kernelRun0_A.sl.HS10_2; exact Cov.cons 1 _ _ (cov_10_1 c arg1 harg1 arg2 harg2 arg5 arg6 arg7 arg8 arg9 arg10 arg11 arg12 arg13 arg14 arg15 arg16 x0 x1)
theorem cov_10_3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 3 (kernelRun0_A.sl.HS10_3 (F := Ideal) c arg1 harg1 arg2 harg2 arg8 arg9 arg10 arg15 x0 x1) := by
  unfold kernelRun0_A.sl.HS10_3; exact Cov.cons 2 _ _ (cov_10_2 c arg1 harg1 arg2 harg2 arg5 arg6 arg7 arg8 arg9 arg10 arg11 arg12 arg13 arg14 arg15 arg16 x0 x1)
theorem cov_10_4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 4 (kernelRun0_A.sl.HS10_4 (F := Ideal) c arg1 harg1 arg2 harg2 arg8 arg9 arg10 arg15 x0 x1) := by
  unfold kernelRun0_A.sl.HS10_4; exact Cov.cons 3 _ _ (cov_10_3 c arg1 harg1 arg2 harg2 arg5 arg6 arg7 arg8 arg9 arg10 arg11 arg12 arg13 arg14 arg15 arg16 x0 x1)
theorem cov_10_5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 5 (kernelRun0_A.sl.HS10_5 (F := Ideal) c arg1 harg1 arg2 harg2 arg8 arg9 arg10 arg15 x0 x1) := by
  unfold kernelRun0_A.sl.HS10_5; exact Cov.cons 4 _ _ (cov_10_4 c arg1 harg1 arg2 harg2 arg5 arg6 arg7 arg8 arg9 arg10 arg11 arg12 arg13 arg14 arg15 arg16 x0 x1)
theorem cov_10_6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 6 (kernelRun0_A.sl.HS10_6 (F := Ideal) c arg1 harg1 arg2 harg2 arg8 arg9 arg10 arg15 x0 x1) := by
  unfold kernelRun0_A.sl.HS10_6; exact Cov.cons 5 _ _ (cov_10_5 c arg1 harg1 arg2 harg2 arg5 arg6 arg7 arg8 arg9 arg10 arg11 arg12 arg13 arg14 arg15 arg16 x0 x1)
theorem cov_10_7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 7 (kernelRun0_A.sl.HS10_7 (F := Ideal) c arg1 harg1 arg2 harg2 arg8 arg9 arg10 arg15 x0 x1) := by
  unfold kernelRun0_A.sl.HS10_7; exact Cov.cons 6 _ _ (cov_10_6 c arg1 harg1 arg2 harg2 arg5 arg6 arg7 arg8 arg9 arg10 arg11 arg12 arg13 arg14 arg15 arg16 x0 x1)
theorem cov_10_8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 8 (kernelRun0_A.sl.HS10_8 (F := Ideal) c arg1 harg1 arg2 harg2 arg8 arg9 arg10 arg15 x0 x1) := by
  unfold kernelRun0_A.sl.HS10_8; exact Cov.cons 7 _ _ (cov_10_7 c arg1 harg1 arg2 harg2 arg5 arg6 arg7 arg8 arg9 arg10 arg11 arg12 arg13 arg14 arg15 arg16 x0 x1)
theorem cov_10_9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 9 (kernelRun0_A.sl.HS10_9 (F := Ideal) c arg1 harg1 arg2 harg2 arg8 arg9 arg10 arg15 x0 x1) := by
  unfold kernelRun0_A.sl.HS10_9; exact Cov.cons 8 _ _ (cov_10_8 c arg1 harg1 arg2 harg2 arg5 arg6 arg7 arg8 arg9 arg10 arg11 arg12 arg13 arg14 arg15 arg16 x0 x1)
theorem cov_10_10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 10 (kernelRun0_A.sl.HS10_10 (F := Ideal) c arg1 harg1 arg2 harg2 arg8 arg9 arg10 arg15 x0 x1) := by
  unfold kernelRun0_A.sl.HS10_10; exact Cov.cons 9 _ _ (cov_10_9 c arg1 harg1 arg2 harg2 arg5 arg6 arg7 arg8 arg9 arg10 arg11 arg12 arg13 arg14 arg15 arg16 x0 x1)
theorem cov_10_11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 11 (kernelRun0_A.sl.HS10_11 (F := Ideal) c arg1 harg1 arg2 harg2 arg8 arg9 arg10 arg15 x0 x1) := by
  unfold kernelRun0_A.sl.HS10_11; exact Cov.cons 10 _ _ (cov_10_10 c arg1 harg1 arg2 harg2 arg5 arg6 arg7 arg8 arg9 arg10 arg11 arg12 arg13 arg14 arg15 arg16 x0 x1)
theorem cov_10_12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 12 (kernelRun0_A.sl.HS10_12 (F := Ideal) c arg1 harg1 arg2 harg2 arg8 arg9 arg10 arg15 x0 x1) := by
  unfold kernelRun0_A.sl.HS10_12; exact Cov.cons 11 _ _ (cov_10_11 c arg1 harg1 arg2 harg2 arg5 arg6 arg7 arg8 arg9 arg10 arg11 arg12 arg13 arg14 arg15 arg16 x0 x1)
theorem cov_10_13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 13 (kernelRun0_A.sl.HS10_13 (F := Ideal) c arg1 harg1 arg2 harg2 arg8 arg9 arg10 arg15 x0 x1) := by
  unfold kernelRun0_A.sl.HS10_13; exact Cov.cons 12 _ _ (cov_10_12 c arg1 harg1 arg2 harg2 arg5 arg6 arg7 arg8 arg9 arg10 arg11 arg12 arg13 arg14 arg15 arg16 x0 x1)
theorem cov_10_14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 14 (kernelRun0_A.sl.HS10_14 (F := Ideal) c arg1 harg1 arg2 harg2 arg8 arg9 arg10 arg15 x0 x1) := by
  unfold kernelRun0_A.sl.HS10_14; exact Cov.cons 13 _ _ (cov_10_13 c arg1 harg1 arg2 harg2 arg5 arg6 arg7 arg8 arg9 arg10 arg11 arg12 arg13 arg14 arg15 arg16 x0 x1)
theorem cov_10_15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 15 (kernelRun0_A.sl.HS10_15 (F := Ideal) c arg1 harg1 arg2 harg2 arg8 arg9 arg10 arg15 x0 x1) := by
  unfold kernelRun0_A.sl.HS10_15; exact Cov.cons 14 _ _ (cov_10_14 c arg1 harg1 arg2 harg2 arg5 arg6 arg7 arg8 arg9 arg10 arg11 arg12 arg13 arg14 arg15 arg16 x0 x1)
theorem cov_10_16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 16 (kernelRun0_A.sl.HS10_16 (F := Ideal) c arg1 harg1 arg2 harg2 arg8 arg9 arg10 arg15 x0 x1) := by
  unfold kernelRun0_A.sl.HS10_16; exact Cov.cons 15 _ _ (cov_10_15 c arg1 harg1 arg2 harg2 arg5 arg6 arg7 arg8 arg9 arg10 arg11 arg12 arg13 arg14 arg15 arg16 x0 x1)
theorem cov_10_17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 17 (kernelRun0_A.sl.HS10_17 (F := Ideal) c arg1 harg1 arg2 harg2 arg8 arg9 arg10 arg15 x0 x1) := by
  unfold kernelRun0_A.sl.HS10_17; exact Cov.cons 16 _ _ (cov_10_16 c arg1 harg1 arg2 harg2 arg5 arg6 arg7 arg8 arg9 arg10 arg11 arg12 arg13 arg14 arg15 arg16 x0 x1)
theorem cov_10_18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 18 (kernelRun0_A.sl.HS10_18 (F := Ideal) c arg1 harg1 arg2 harg2 arg8 arg9 arg10 arg15 x0 x1) := by
  unfold kernelRun0_A.sl.HS10_18; exact Cov.cons 17 _ _ (cov_10_17 c arg1 harg1 arg2 harg2 arg5 arg6 arg7 arg8 arg9 arg10 arg11 arg12 arg13 arg14 arg15 arg16 x0 x1)
theorem cov_10_19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 19 (kernelRun0_A.sl.HS10_19 (F := Ideal) c arg1 harg1 arg2 harg2 arg8 arg9 arg10 arg15 x0 x1) := by
  unfold kernelRun0_A.sl.HS10_19; exact Cov.cons 18 _ _ (cov_10_18 c arg1 harg1 arg2 harg2 arg5 arg6 arg7 arg8 arg9 arg10 arg11 arg12 arg13 arg14 arg15 arg16 x0 x1)
theorem cov_10_20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 20 (kernelRun0_A.sl.HS10_20 (F := Ideal) c arg1 harg1 arg2 harg2 arg8 arg9 arg10 arg15 x0 x1) := by
  unfold kernelRun0_A.sl.HS10_20; exact Cov.cons 19 _ _ (cov_10_19 c arg1 harg1 arg2 harg2 arg5 arg6 arg7 arg8 arg9 arg10 arg11 arg12 arg13 arg14 arg15 arg16 x0 x1)
theorem cov_10_21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 21 (kernelRun0_A.sl.HS10_21 (F := Ideal) c arg1 harg1 arg2 harg2 arg8 arg9 arg10 arg15 x0 x1) := by
  unfold kernelRun0_A.sl.HS10_21; exact Cov.cons 20 _ _ (cov_10_20 c arg1 harg1 arg2 harg2 arg5 arg6 arg7 arg8 arg9 arg10 arg11 arg12 arg13 arg14 arg15 arg16 x0 x1)
theorem cov_10_22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 22 (kernelRun0_A.sl.HS10_22 (F := Ideal) c arg1 harg1 arg2 harg2 arg8 arg9 arg10 arg15 x0 x1) := by
  unfold kernelRun0_A.sl.HS10_22; exact Cov.cons 21 _ _ (cov_10_21 c arg1 harg1 arg2 harg2 arg5 arg6 arg7 arg8 arg9 arg10 arg11 arg12 arg13 arg14 arg15 arg16 x0 x1)
theorem cov_10_23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 23 (kernelRun0_A.sl.HS10_23 (F := Ideal) c arg1 harg1 arg2 harg2 arg8 arg9 arg10 arg15 x0 x1) := by
  unfold kernelRun0_A.sl.HS10_23; exact Cov.cons 22 _ _ (cov_10_22 c arg1 harg1 arg2 harg2 arg5 arg6 arg7 arg8 arg9 arg10 arg11 arg12 arg13 arg14 arg15 arg16 x0 x1)
theorem cov_11_1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 1 (kernelRun0_A.sl.HS11_1 (F := Ideal) c arg2 harg2 x1) := by
  unfold kernelRun0_A.sl.HS11_1; exact Cov.cons 0 _ _ Cov.zero
theorem cov_11_2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 2 (kernelRun0_A.sl.HS11_2 (F := Ideal) c arg1 harg1 arg2 harg2 arg11 arg12 arg13 arg16 x0 x1) := by
  unfold kernelRun0_A.sl.HS11_2; exact Cov.cons 1 _ _ (cov_11_1 c arg1 harg1 arg2 harg2 arg5 arg6 arg7 arg8 arg9 arg10 arg11 arg12 arg13 arg14 arg15 arg16 x0 x1)
theorem cov_11_3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 3 (kernelRun0_A.sl.HS11_3 (F := Ideal) c arg1 harg1 arg2 harg2 arg11 arg12 arg13 arg16 x0 x1) := by
  unfold kernelRun0_A.sl.HS11_3; exact Cov.cons 2 _ _ (cov_11_2 c arg1 harg1 arg2 harg2 arg5 arg6 arg7 arg8 arg9 arg10 arg11 arg12 arg13 arg14 arg15 arg16 x0 x1)
theorem cov_11_4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 4 (kernelRun0_A.sl.HS11_4 (F := Ideal) c arg1 harg1 arg2 harg2 arg11 arg12 arg13 arg16 x0 x1) := by
  unfold kernelRun0_A.sl.HS11_4; exact Cov.cons 3 _ _ (cov_11_3 c arg1 harg1 arg2 harg2 arg5 arg6 arg7 arg8 arg9 arg10 arg11 arg12 arg13 arg14 arg15 arg16 x0 x1)
theorem cov_11_5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 5 (kernelRun0_A.sl.HS11_5 (F := Ideal) c arg1 harg1 arg2 harg2 arg11 arg12 arg13 arg16 x0 x1) := by
  unfold kernelRun0_A.sl.HS11_5; exact Cov.cons 4 _ _ (cov_11_4 c arg1 harg1 arg2 harg2 arg5 arg6 arg7 arg8 arg9 arg10 arg11 arg12 arg13 arg14 arg15 arg16 x0 x1)
theorem cov_11_6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 6 (kernelRun0_A.sl.HS11_6 (F := Ideal) c arg1 harg1 arg2 harg2 arg11 arg12 arg13 arg16 x0 x1) := by
  unfold kernelRun0_A.sl.HS11_6; exact Cov.cons 5 _ _ (cov_11_5 c arg1 harg1 arg2 harg2 arg5 arg6 arg7 arg8 arg9 arg10 arg11 arg12 arg13 arg14 arg15 arg16 x0 x1)
theorem cov_11_7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 7 (kernelRun0_A.sl.HS11_7 (F := Ideal) c arg1 harg1 arg2 harg2 arg11 arg12 arg13 arg16 x0 x1) := by
  unfold kernelRun0_A.sl.HS11_7; exact Cov.cons 6 _ _ (cov_11_6 c arg1 harg1 arg2 harg2 arg5 arg6 arg7 arg8 arg9 arg10 arg11 arg12 arg13 arg14 arg15 arg16 x0 x1)
theorem cov_11_8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 8 (kernelRun0_A.sl.HS11_8 (F := Ideal) c arg1 harg1 arg2 harg2 arg11 arg12 arg13 arg16 x0 x1) := by
  unfold kernelRun0_A.sl.HS11_8; exact Cov.cons 7 _ _ (cov_11_7 c arg1 harg1 arg2 harg2 arg5 arg6 arg7 arg8 arg9 arg10 arg11 arg12 arg13 arg14 arg15 arg16 x0 x1)
theorem cov_11_9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 9 (kernelRun0_A.sl.HS11_9 (F := Ideal) c arg1 harg1 arg2 harg2 arg11 arg12 arg13 arg16 x0 x1) := by
  unfold kernelRun0_A.sl.HS11_9; exact Cov.cons 8 _ _ (cov_11_8 c arg1 harg1 arg2 harg2 arg5 arg6 arg7 arg8 arg9 arg10 arg11 arg12 arg13 arg14 arg15 arg16 x0 x1)
theorem cov_11_10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 10 (kernelRun0_A.sl.HS11_10 (F := Ideal) c arg1 harg1 arg2 harg2 arg11 arg12 arg13 arg16 x0 x1) := by
  unfold kernelRun0_A.sl.HS11_10; exact Cov.cons 9 _ _ (cov_11_9 c arg1 harg1 arg2 harg2 arg5 arg6 arg7 arg8 arg9 arg10 arg11 arg12 arg13 arg14 arg15 arg16 x0 x1)
theorem cov_11_11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 11 (kernelRun0_A.sl.HS11_11 (F := Ideal) c arg1 harg1 arg2 harg2 arg11 arg12 arg13 arg16 x0 x1) := by
  unfold kernelRun0_A.sl.HS11_11; exact Cov.cons 10 _ _ (cov_11_10 c arg1 harg1 arg2 harg2 arg5 arg6 arg7 arg8 arg9 arg10 arg11 arg12 arg13 arg14 arg15 arg16 x0 x1)
theorem cov_11_12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 12 (kernelRun0_A.sl.HS11_12 (F := Ideal) c arg1 harg1 arg2 harg2 arg11 arg12 arg13 arg16 x0 x1) := by
  unfold kernelRun0_A.sl.HS11_12; exact Cov.cons 11 _ _ (cov_11_11 c arg1 harg1 arg2 harg2 arg5 arg6 arg7 arg8 arg9 arg10 arg11 arg12 arg13 arg14 arg15 arg16 x0 x1)
theorem cov_11_13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 13 (kernelRun0_A.sl.HS11_13 (F := Ideal) c arg1 harg1 arg2 harg2 arg11 arg12 arg13 arg16 x0 x1) := by
  unfold kernelRun0_A.sl.HS11_13; exact Cov.cons 12 _ _ (cov_11_12 c arg1 harg1 arg2 harg2 arg5 arg6 arg7 arg8 arg9 arg10 arg11 arg12 arg13 arg14 arg15 arg16 x0 x1)
theorem cov_11_14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 14 (kernelRun0_A.sl.HS11_14 (F := Ideal) c arg1 harg1 arg2 harg2 arg11 arg12 arg13 arg16 x0 x1) := by
  unfold kernelRun0_A.sl.HS11_14; exact Cov.cons 13 _ _ (cov_11_13 c arg1 harg1 arg2 harg2 arg5 arg6 arg7 arg8 arg9 arg10 arg11 arg12 arg13 arg14 arg15 arg16 x0 x1)
theorem cov_11_15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 15 (kernelRun0_A.sl.HS11_15 (F := Ideal) c arg1 harg1 arg2 harg2 arg11 arg12 arg13 arg16 x0 x1) := by
  unfold kernelRun0_A.sl.HS11_15; exact Cov.cons 14 _ _ (cov_11_14 c arg1 harg1 arg2 harg2 arg5 arg6 arg7 arg8 arg9 arg10 arg11 arg12 arg13 arg14 arg15 arg16 x0 x1)
theorem cov_11_16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 16 (kernelRun0_A.sl.HS11_16 (F := Ideal) c arg1 harg1 arg2 harg2 arg11 arg12 arg13 arg16 x0 x1) := by
  unfold kernelRun0_A.sl.HS11_16; exact Cov.cons 15 _ _ (cov_11_15 c arg1 harg1 arg2 harg2 arg5 arg6 arg7 arg8 arg9 arg10 arg11 arg12 arg13 arg14 arg15 arg16 x0 x1)
theorem cov_11_17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 17 (kernelRun0_A.sl.HS11_17 (F := Ideal) c arg1 harg1 arg2 harg2 arg11 arg12 arg13 arg16 x0 x1) := by
  unfold kernelRun0_A.sl.HS11_17; exact Cov.cons 16 _ _ (cov_11_16 c arg1 harg1 arg2 harg2 arg5 arg6 arg7 arg8 arg9 arg10 arg11 arg12 arg13 arg14 arg15 arg16 x0 x1)
theorem cov_11_18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 18 (kernelRun0_A.sl.HS11_18 (F := Ideal) c arg1 harg1 arg2 harg2 arg11 arg12 arg13 arg16 x0 x1) := by
  unfold kernelRun0_A.sl.HS11_18; exact Cov.cons 17 _ _ (cov_11_17 c arg1 harg1 arg2 harg2 arg5 arg6 arg7 arg8 arg9 arg10 arg11 arg12 arg13 arg14 arg15 arg16 x0 x1)
theorem cov_11_19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 19 (kernelRun0_A.sl.HS11_19 (F := Ideal) c arg1 harg1 arg2 harg2 arg11 arg12 arg13 arg16 x0 x1) := by
  unfold kernelRun0_A.sl.HS11_19; exact Cov.cons 18 _ _ (cov_11_18 c arg1 harg1 arg2 harg2 arg5 arg6 arg7 arg8 arg9 arg10 arg11 arg12 arg13 arg14 arg15 arg16 x0 x1)
theorem cov_11_20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 20 (kernelRun0_A.sl.HS11_20 (F := Ideal) c arg1 harg1 arg2 harg2 arg11 arg12 arg13 arg16 x0 x1) := by
  unfold kernelRun0_A.sl.HS11_20; exact Cov.cons 19 _ _ (cov_11_19 c arg1 harg1 arg2 harg2 arg5 arg6 arg7 arg8 arg9 arg10 arg11 arg12 arg13 arg14 arg15 arg16 x0 x1)
theorem cov_11_21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 21 (kernelRun0_A.sl.HS11_21 (F := Ideal) c arg1 harg1 arg2 harg2 arg11 arg12 arg13 arg16 x0 x1) := by
  unfold kernelRun0_A.sl.HS11_21; exact Cov.cons 20 _ _ (cov_11_20 c arg1 harg1 arg2 harg2 arg5 arg6 arg7 arg8 arg9 arg10 arg11 arg12 arg13 arg14 arg15 arg16 x0 x1)
theorem cov_11_22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 22 (kernelRun0_A.sl.HS11_22 (F := Ideal) c arg1 harg1 arg2 harg2 arg11 arg12 arg13 arg16 x0 x1) := by
  unfold kernelRun0_A.sl.HS11_22; exact Cov.cons 21 _ _ (cov_11_21 c arg1 harg1 arg2 harg2 arg5 arg6 arg7 arg8 arg9 arg10 arg11 arg12 arg13 arg14 arg15 arg16 x0 x1)
theorem cov_11_23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Cov 23 (kernelRun0_A.sl.HS11_23 (F := Ideal) c arg1 harg1 arg2 harg2 arg11 arg12 arg13 arg16 x0 x1) := by
  unfold kernelRun0_A.sl.HS11_23; exact Cov.cons 22 _ _ (cov_11_22 c arg1 harg1 arg2 harg2 arg5 arg6 arg7 arg8 arg9 arg10 arg11 arg12 arg13 arg14 arg15 arg16 x0 x1)

/-! ## The levels -/
/-- Before any joint is stored nothing is claimed. -/
structure Lvl0 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  triv : True
/-- After 1 joints: every piece of every scratch buffer holds its entry of the closed form. -/
structure Lvl1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_1 (F := Ideal) c arg1 harg1 x0)
  p1 : Pcs (Gs 1 x0 x1) (kernelRun0_A.sl.HS1_1 (F := Ideal) c arg1 harg1 x0)
  p2 : Pcs (Gs 2 x0 x1) (kernelRun0_A.sl.HS2_1 (F := Ideal) c arg1 harg1 x0)
  p3 : Pcs (Gs 3 x0 x1) (kernelRun0_A.sl.HS3_1 (F := Ideal) c arg1 harg1 x0)
  p4 : Pcs (Gs 4 x0 x1) (kernelRun0_A.sl.HS4_1 (F := Ideal) c arg1 harg1 x0)
  p5 : Pcs (Gs 5 x0 x1) (kernelRun0_A.sl.HS5_1 (F := Ideal) c arg1 harg1 x0)
  p6 : Pcs (Gs 6 x0 x1) (kernelRun0_A.sl.HS6_1 (F := Ideal) c arg1 harg1 x0)
  p7 : Pcs (Gs 7 x0 x1) (kernelRun0_A.sl.HS7_1 (F := Ideal) c arg1 harg1 x0)
  p8 : Pcs (Gs 8 x0 x1) (kernelRun0_A.sl.HS8_1 (F := Ideal) c arg1 harg1 x0)
  p9 : Pcs (Gs 9 x0 x1) (kernelRun0_A.sl.HS9_1 (F := Ideal) c arg2 harg2 x1)
  p10 : Pcs (Gs 10 x0 x1) (kernelRun0_A.sl.HS10_1 (F := Ideal) c arg2 harg2 x1)
  p11 : Pcs (Gs 11 x0 x1) (kernelRun0_A.sl.HS11_1 (F := Ideal) c arg2 harg2 x1)
/-- After 2 joints: every piece of every scratch buffer holds its entry of the closed form. -/
structure Lvl2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_2 (F := Ideal) c arg1 harg1 arg5 arg6 arg7 x0)
  p1 : Pcs (Gs 1 x0 x1) (kernelRun0_A.sl.HS1_2 (F := Ideal) c arg1 harg1 arg5 arg6 arg7 x0)
  p2 : Pcs (Gs 2 x0 x1) (kernelRun0_A.sl.HS2_2 (F := Ideal) c arg1 harg1 arg5 arg6 arg7 x0)
  p3 : Pcs (Gs 3 x0 x1) (kernelRun0_A.sl.HS3_2 (F := Ideal) c arg1 harg1 arg8 arg9 arg10 x0)
  p4 : Pcs (Gs 4 x0 x1) (kernelRun0_A.sl.HS4_2 (F := Ideal) c arg1 harg1 arg8 arg9 arg10 x0)
  p5 : Pcs (Gs 5 x0 x1) (kernelRun0_A.sl.HS5_2 (F := Ideal) c arg1 harg1 arg8 arg9 arg10 x0)
  p6 : Pcs (Gs 6 x0 x1) (kernelRun0_A.sl.HS6_2 (F := Ideal) c arg1 harg1 arg11 arg12 arg13 x0)
  p7 : Pcs (Gs 7 x0 x1) (kernelRun0_A.sl.HS7_2 (F := Ideal) c arg1 harg1 arg11 arg12 arg13 x0)
  p8 : Pcs (Gs 8 x0 x1) (kernelRun0_A.sl.HS8_2 (F := Ideal) c arg1 harg1 arg11 arg12 arg13 x0)
  p9 : Pcs (Gs 9 x0 x1) (kernelRun0_A.sl.HS9_2 (F := Ideal) c arg1 harg1 arg2 harg2 arg5 arg6 arg7 arg14 x0 x1)
  p10 : Pcs (Gs 10 x0 x1) (kernelRun0_A.sl.HS10_2 (F := Ideal) c arg1 harg1 arg2 harg2 arg8 arg9 arg10 arg15 x0 x1)
  p11 : Pcs (Gs 11 x0 x1) (kernelRun0_A.sl.HS11_2 (F := Ideal) c arg1 harg1 arg2 harg2 arg11 arg12 arg13 arg16 x0 x1)
/-- After 3 joints: every piece of every scratch buffer holds its entry of the closed form. -/
structure Lvl3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_3 (F := Ideal) c arg1 harg1 arg5 arg6 arg7 x0)
  p1 : Pcs (Gs 1 x0 x1) (kernelRun0_A.sl.HS1_3 (F := Ideal) c arg1 harg1 arg5 arg6 arg7 x0)
  p2 : Pcs (Gs 2 x0 x1) (kernelRun0_A.sl.HS2_3 (F := Ideal) c arg1 harg1 arg5 arg6 arg7 x0)
  p3 : Pcs (Gs 3 x0 x1) (kernelRun0_A.sl.HS3_3 (F := Ideal) c arg1 harg1 arg8 arg9 arg10 x0)
  p4 : Pcs (Gs 4 x0 x1) (kernelRun0_A.sl.HS4_3 (F := Ideal) c arg1 harg1 arg8 arg9 arg10 x0)
  p5 : Pcs (Gs 5 x0 x1) (kernelRun0_A.sl.HS5_3 (F := Ideal) c arg1 harg1 arg8 arg9 arg10 x0)
  p6 : Pcs (Gs 6 x0 x1) (kernelRun0_A.sl.HS6_3 (F := Ideal) c arg1 harg1 arg11 arg12 arg13 x0)
  p7 : Pcs (Gs 7 x0 x1) (kernelRun0_A.sl.HS7_3 (F := Ideal) c arg1 harg1 arg11 arg12 arg13 x0)
  p8 : Pcs (Gs 8 x0 x1) (kernelRun0_A.sl.HS8_3 (F := Ideal) c arg1 harg1 arg11 arg12 arg13 x0)
  p9 : Pcs (Gs 9 x0 x1) (kernelRun0_A.sl.HS9_3 (F := Ideal) c arg1 harg1 arg2 harg2 arg5 arg6 arg7 arg14 x0 x1)
  p10 : Pcs (Gs 10 x0 x1) (kernelRun0_A.sl.HS10_3 (F := Ideal) c arg1 harg1 arg2 harg2 arg8 arg9 arg10 arg15 x0 x1)
  p11 : Pcs (Gs 11 x0 x1) (kernelRun0_A.sl.HS11_3 (F := Ideal) c arg1 harg1 arg2 harg2 arg11 arg12 arg13 arg16 x0 x1)
/-- After 4 joints: every piece of every scratch buffer holds its entry of the closed form. -/
structure Lvl4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_4 (F := Ideal) c arg1 harg1 arg5 arg6 arg7 x0)
  p1 : Pcs (Gs 1 x0 x1) (kernelRun0_A.sl.HS1_4 (F := Ideal) c arg1 harg1 arg5 arg6 arg7 x0)
  p2 : Pcs (Gs 2 x0 x1) (kernelRun0_A.sl.HS2_4 (F := Ideal) c arg1 harg1 arg5 arg6 arg7 x0)
  p3 : Pcs (Gs 3 x0 x1) (kernelRun0_A.sl.HS3_4 (F := Ideal) c arg1 harg1 arg8 arg9 arg10 x0)
  p4 : Pcs (Gs 4 x0 x1) (kernelRun0_A.sl.HS4_4 (F := Ideal) c arg1 harg1 arg8 arg9 arg10 x0)
  p5 : Pcs (Gs 5 x0 x1) (kernelRun0_A.sl.HS5_4 (F := Ideal) c arg1 harg1 arg8 arg9 arg10 x0)
  p6 : Pcs (Gs 6 x0 x1) (kernelRun0_A.sl.HS6_4 (F := Ideal) c arg1 harg1 arg11 arg12 arg13 x0)
  p7 : Pcs (Gs 7 x0 x1) (kernelRun0_A.sl.HS7_4 (F := Ideal) c arg1 harg1 arg11 arg12 arg13 x0)
  p8 : Pcs (Gs 8 x0 x1) (kernelRun0_A.sl.HS8_4 (F := Ideal) c arg1 harg1 arg11 arg12 arg13 x0)
  p9 : Pcs (Gs 9 x0 x1) (kernelRun0_A.sl.HS9_4 (F := Ideal) c arg1 harg1 arg2 harg2 arg5 arg6 arg7 arg14 x0 x1)
  p10 : Pcs (Gs 10 x0 x1) (kernelRun0_A.sl.HS10_4 (F := Ideal) c arg1 harg1 arg2 harg2 arg8 arg9 arg10 arg15 x0 x1)
  p11 : Pcs (Gs 11 x0 x1) (kernelRun0_A.sl.HS11_4 (F := Ideal) c arg1 harg1 arg2 harg2 arg11 arg12 arg13 arg16 x0 x1)
/-- After 5 joints: every piece of every scratch buffer holds its entry of the closed form. -/
structure Lvl5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_5 (F := Ideal) c arg1 harg1 arg5 arg6 arg7 x0)
  p1 : Pcs (Gs 1 x0 x1) (kernelRun0_A.sl.HS1_5 (F := Ideal) c arg1 harg1 arg5 arg6 arg7 x0)
  p2 : Pcs (Gs 2 x0 x1) (kernelRun0_A.sl.HS2_5 (F := Ideal) c arg1 harg1 arg5 arg6 arg7 x0)
  p3 : Pcs (Gs 3 x0 x1) (kernelRun0_A.sl.HS3_5 (F := Ideal) c arg1 harg1 arg8 arg9 arg10 x0)
  p4 : Pcs (Gs 4 x0 x1) (kernelRun0_A.sl.HS4_5 (F := Ideal) c arg1 harg1 arg8 arg9 arg10 x0)
  p5 : Pcs (Gs 5 x0 x1) (kernelRun0_A.sl.HS5_5 (F := Ideal) c arg1 harg1 arg8 arg9 arg10 x0)
  p6 : Pcs (Gs 6 x0 x1) (kernelRun0_A.sl.HS6_5 (F := Ideal) c arg1 harg1 arg11 arg12 arg13 x0)
  p7 : Pcs (Gs 7 x0 x1) (kernelRun0_A.sl.HS7_5 (F := Ideal) c arg1 harg1 arg11 arg12 arg13 x0)
  p8 : Pcs (Gs 8 x0 x1) (kernelRun0_A.sl.HS8_5 (F := Ideal) c arg1 harg1 arg11 arg12 arg13 x0)
  p9 : Pcs (Gs 9 x0 x1) (kernelRun0_A.sl.HS9_5 (F := Ideal) c arg1 harg1 arg2 harg2 arg5 arg6 arg7 arg14 x0 x1)
  p10 : Pcs (Gs 10 x0 x1) (kernelRun0_A.sl.HS10_5 (F := Ideal) c arg1 harg1 arg2 harg2 arg8 arg9 arg10 arg15 x0 x1)
  p11 : Pcs (Gs 11 x0 x1) (kernelRun0_A.sl.HS11_5 (F := Ideal) c arg1 harg1 arg2 harg2 arg11 arg12 arg13 arg16 x0 x1)
/-- After 6 joints: every piece of every scratch buffer holds its entry of the closed form. -/
structure Lvl6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_6 (F := Ideal) c arg1 harg1 arg5 arg6 arg7 x0)
  p1 : Pcs (Gs 1 x0 x1) (kernelRun0_A.sl.HS1_6 (F := Ideal) c arg1 harg1 arg5 arg6 arg7 x0)
  p2 : Pcs (Gs 2 x0 x1) (kernelRun0_A.sl.HS2_6 (F := Ideal) c arg1 harg1 arg5 arg6 arg7 x0)
  p3 : Pcs (Gs 3 x0 x1) (kernelRun0_A.sl.HS3_6 (F := Ideal) c arg1 harg1 arg8 arg9 arg10 x0)
  p4 : Pcs (Gs 4 x0 x1) (kernelRun0_A.sl.HS4_6 (F := Ideal) c arg1 harg1 arg8 arg9 arg10 x0)
  p5 : Pcs (Gs 5 x0 x1) (kernelRun0_A.sl.HS5_6 (F := Ideal) c arg1 harg1 arg8 arg9 arg10 x0)
  p6 : Pcs (Gs 6 x0 x1) (kernelRun0_A.sl.HS6_6 (F := Ideal) c arg1 harg1 arg11 arg12 arg13 x0)
  p7 : Pcs (Gs 7 x0 x1) (kernelRun0_A.sl.HS7_6 (F := Ideal) c arg1 harg1 arg11 arg12 arg13 x0)
  p8 : Pcs (Gs 8 x0 x1) (kernelRun0_A.sl.HS8_6 (F := Ideal) c arg1 harg1 arg11 arg12 arg13 x0)
  p9 : Pcs (Gs 9 x0 x1) (kernelRun0_A.sl.HS9_6 (F := Ideal) c arg1 harg1 arg2 harg2 arg5 arg6 arg7 arg14 x0 x1)
  p10 : Pcs (Gs 10 x0 x1) (kernelRun0_A.sl.HS10_6 (F := Ideal) c arg1 harg1 arg2 harg2 arg8 arg9 arg10 arg15 x0 x1)
  p11 : Pcs (Gs 11 x0 x1) (kernelRun0_A.sl.HS11_6 (F := Ideal) c arg1 harg1 arg2 harg2 arg11 arg12 arg13 arg16 x0 x1)
/-- After 7 joints: every piece of every scratch buffer holds its entry of the closed form. -/
structure Lvl7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_7 (F := Ideal) c arg1 harg1 arg5 arg6 arg7 x0)
  p1 : Pcs (Gs 1 x0 x1) (kernelRun0_A.sl.HS1_7 (F := Ideal) c arg1 harg1 arg5 arg6 arg7 x0)
  p2 : Pcs (Gs 2 x0 x1) (kernelRun0_A.sl.HS2_7 (F := Ideal) c arg1 harg1 arg5 arg6 arg7 x0)
  p3 : Pcs (Gs 3 x0 x1) (kernelRun0_A.sl.HS3_7 (F := Ideal) c arg1 harg1 arg8 arg9 arg10 x0)
  p4 : Pcs (Gs 4 x0 x1) (kernelRun0_A.sl.HS4_7 (F := Ideal) c arg1 harg1 arg8 arg9 arg10 x0)
  p5 : Pcs (Gs 5 x0 x1) (kernelRun0_A.sl.HS5_7 (F := Ideal) c arg1 harg1 arg8 arg9 arg10 x0)
  p6 : Pcs (Gs 6 x0 x1) (kernelRun0_A.sl.HS6_7 (F := Ideal) c arg1 harg1 arg11 arg12 arg13 x0)
  p7 : Pcs (Gs 7 x0 x1) (kernelRun0_A.sl.HS7_7 (F := Ideal) c arg1 harg1 arg11 arg12 arg13 x0)
  p8 : Pcs (Gs 8 x0 x1) (kernelRun0_A.sl.HS8_7 (F := Ideal) c arg1 harg1 arg11 arg12 arg13 x0)
  p9 : Pcs (Gs 9 x0 x1) (kernelRun0_A.sl.HS9_7 (F := Ideal) c arg1 harg1 arg2 harg2 arg5 arg6 arg7 arg14 x0 x1)
  p10 : Pcs (Gs 10 x0 x1) (kernelRun0_A.sl.HS10_7 (F := Ideal) c arg1 harg1 arg2 harg2 arg8 arg9 arg10 arg15 x0 x1)
  p11 : Pcs (Gs 11 x0 x1) (kernelRun0_A.sl.HS11_7 (F := Ideal) c arg1 harg1 arg2 harg2 arg11 arg12 arg13 arg16 x0 x1)
/-- After 8 joints: every piece of every scratch buffer holds its entry of the closed form. -/
structure Lvl8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_8 (F := Ideal) c arg1 harg1 arg5 arg6 arg7 x0)
  p1 : Pcs (Gs 1 x0 x1) (kernelRun0_A.sl.HS1_8 (F := Ideal) c arg1 harg1 arg5 arg6 arg7 x0)
  p2 : Pcs (Gs 2 x0 x1) (kernelRun0_A.sl.HS2_8 (F := Ideal) c arg1 harg1 arg5 arg6 arg7 x0)
  p3 : Pcs (Gs 3 x0 x1) (kernelRun0_A.sl.HS3_8 (F := Ideal) c arg1 harg1 arg8 arg9 arg10 x0)
  p4 : Pcs (Gs 4 x0 x1) (kernelRun0_A.sl.HS4_8 (F := Ideal) c arg1 harg1 arg8 arg9 arg10 x0)
  p5 : Pcs (Gs 5 x0 x1) (kernelRun0_A.sl.HS5_8 (F := Ideal) c arg1 harg1 arg8 arg9 arg10 x0)
  p6 : Pcs (Gs 6 x0 x1) (kernelRun0_A.sl.HS6_8 (F := Ideal) c arg1 harg1 arg11 arg12 arg13 x0)
  p7 : Pcs (Gs 7 x0 x1) (kernelRun0_A.sl.HS7_8 (F := Ideal) c arg1 harg1 arg11 arg12 arg13 x0)
  p8 : Pcs (Gs 8 x0 x1) (kernelRun0_A.sl.HS8_8 (F := Ideal) c arg1 harg1 arg11 arg12 arg13 x0)
  p9 : Pcs (Gs 9 x0 x1) (kernelRun0_A.sl.HS9_8 (F := Ideal) c arg1 harg1 arg2 harg2 arg5 arg6 arg7 arg14 x0 x1)
  p10 : Pcs (Gs 10 x0 x1) (kernelRun0_A.sl.HS10_8 (F := Ideal) c arg1 harg1 arg2 harg2 arg8 arg9 arg10 arg15 x0 x1)
  p11 : Pcs (Gs 11 x0 x1) (kernelRun0_A.sl.HS11_8 (F := Ideal) c arg1 harg1 arg2 harg2 arg11 arg12 arg13 arg16 x0 x1)
/-- After 9 joints: every piece of every scratch buffer holds its entry of the closed form. -/
structure Lvl9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_9 (F := Ideal) c arg1 harg1 arg5 arg6 arg7 x0)
  p1 : Pcs (Gs 1 x0 x1) (kernelRun0_A.sl.HS1_9 (F := Ideal) c arg1 harg1 arg5 arg6 arg7 x0)
  p2 : Pcs (Gs 2 x0 x1) (kernelRun0_A.sl.HS2_9 (F := Ideal) c arg1 harg1 arg5 arg6 arg7 x0)
  p3 : Pcs (Gs 3 x0 x1) (kernelRun0_A.sl.HS3_9 (F := Ideal) c arg1 harg1 arg8 arg9 arg10 x0)
  p4 : Pcs (Gs 4 x0 x1) (kernelRun0_A.sl.HS4_9 (F := Ideal) c arg1 harg1 arg8 arg9 arg10 x0)
  p5 : Pcs (Gs 5 x0 x1) (kernelRun0_A.sl.HS5_9 (F := Ideal) c arg1 harg1 arg8 arg9 arg10 x0)
  p6 : Pcs (Gs 6 x0 x1) (kernelRun0_A.sl.HS6_9 (F := Ideal) c arg1 harg1 arg11 arg12 arg13 x0)
  p7 : Pcs (Gs 7 x0 x1) (kernelRun0_A.sl.HS7_9 (F := Ideal) c arg1 harg1 arg11 arg12 arg13 x0)
  p8 : Pcs (Gs 8 x0 x1) (kernelRun0_A.sl.HS8_9 (F := Ideal) c arg1 harg1 arg11 arg12 arg13 x0)
  p9 : Pcs (Gs 9 x0 x1) (kernelRun0_A.sl.HS9_9 (F := Ideal) c arg1 harg1 arg2 harg2 arg5 arg6 arg7 arg14 x0 x1)
  p10 : Pcs (Gs 10 x0 x1) (kernelRun0_A.sl.HS10_9 (F := Ideal) c arg1 harg1 arg2 harg2 arg8 arg9 arg10 arg15 x0 x1)
  p11 : Pcs (Gs 11 x0 x1) (kernelRun0_A.sl.HS11_9 (F := Ideal) c arg1 harg1 arg2 harg2 arg11 arg12 arg13 arg16 x0 x1)
/-- After 10 joints: every piece of every scratch buffer holds its entry of the closed form. -/
structure Lvl10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_10 (F := Ideal) c arg1 harg1 arg5 arg6 arg7 x0)
  p1 : Pcs (Gs 1 x0 x1) (kernelRun0_A.sl.HS1_10 (F := Ideal) c arg1 harg1 arg5 arg6 arg7 x0)
  p2 : Pcs (Gs 2 x0 x1) (kernelRun0_A.sl.HS2_10 (F := Ideal) c arg1 harg1 arg5 arg6 arg7 x0)
  p3 : Pcs (Gs 3 x0 x1) (kernelRun0_A.sl.HS3_10 (F := Ideal) c arg1 harg1 arg8 arg9 arg10 x0)
  p4 : Pcs (Gs 4 x0 x1) (kernelRun0_A.sl.HS4_10 (F := Ideal) c arg1 harg1 arg8 arg9 arg10 x0)
  p5 : Pcs (Gs 5 x0 x1) (kernelRun0_A.sl.HS5_10 (F := Ideal) c arg1 harg1 arg8 arg9 arg10 x0)
  p6 : Pcs (Gs 6 x0 x1) (kernelRun0_A.sl.HS6_10 (F := Ideal) c arg1 harg1 arg11 arg12 arg13 x0)
  p7 : Pcs (Gs 7 x0 x1) (kernelRun0_A.sl.HS7_10 (F := Ideal) c arg1 harg1 arg11 arg12 arg13 x0)
  p8 : Pcs (Gs 8 x0 x1) (kernelRun0_A.sl.HS8_10 (F := Ideal) c arg1 harg1 arg11 arg12 arg13 x0)
  p9 : Pcs (Gs 9 x0 x1) (kernelRun0_A.sl.HS9_10 (F := Ideal) c arg1 harg1 arg2 harg2 arg5 arg6 arg7 arg14 x0 x1)
  p10 : Pcs (Gs 10 x0 x1) (kernelRun0_A.sl.HS10_10 (F := Ideal) c arg1 harg1 arg2 harg2 arg8 arg9 arg10 arg15 x0 x1)
  p11 : Pcs (Gs 11 x0 x1) (kernelRun0_A.sl.HS11_10 (F := Ideal) c arg1 harg1 arg2 harg2 arg11 arg12 arg13 arg16 x0 x1)
/-- After 11 joints: every piece of every scratch buffer holds its entry of the closed form. -/
structure Lvl11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_11 (F := Ideal) c arg1 harg1 arg5 arg6 arg7 x0)
  p1 : Pcs (Gs 1 x0 x1) (kernelRun0_A.sl.HS1_11 (F := Ideal) c arg1 harg1 arg5 arg6 arg7 x0)
  p2 : Pcs (Gs 2 x0 x1) (kernelRun0_A.sl.HS2_11 (F := Ideal) c arg1 harg1 arg5 arg6 arg7 x0)
  p3 : Pcs (Gs 3 x0 x1) (kernelRun0_A.sl.HS3_11 (F := Ideal) c arg1 harg1 arg8 arg9 arg10 x0)
  p4 : Pcs (Gs 4 x0 x1) (kernelRun0_A.sl.HS4_11 (F := Ideal) c arg1 harg1 arg8 arg9 arg10 x0)
  p5 : Pcs (Gs 5 x0 x1) (kernelRun0_A.sl.HS5_11 (F := Ideal) c arg1 harg1 arg8 arg9 arg10 x0)
  p6 : Pcs (Gs 6 x0 x1) (kernelRun0_A.sl.HS6_11 (F := Ideal) c arg1 harg1 arg11 arg12 arg13 x0)
  p7 : Pcs (Gs 7 x0 x1) (kernelRun0_A.sl.HS7_11 (F := Ideal) c arg1 harg1 arg11 arg12 arg13 x0)
  p8 : Pcs (Gs 8 x0 x1) (kernelRun0_A.sl.HS8_11 (F := Ideal) c arg1 harg1 arg11 arg12 arg13 x0)
  p9 : Pcs (Gs 9 x0 x1) (kernelRun0_A.sl.HS9_11 (F := Ideal) c arg1 harg1 arg2 harg2 arg5 arg6 arg7 arg14 x0 x1)
  p10 : Pcs (Gs 10 x0 x1) (kernelRun0_A.sl.HS10_11 (F := Ideal) c arg1 harg1 arg2 harg2 arg8 arg9 arg10 arg15 x0 x1)
  p11 : Pcs (Gs 11 x0 x1) (kernelRun0_A.sl.HS11_11 (F := Ideal) c arg1 harg1 arg2 harg2 arg11 arg12 arg13 arg16 x0 x1)
/-- After 12 joints: every piece of every scratch buffer holds its entry of the closed form. -/
structure Lvl12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_12 (F := Ideal) c arg1 harg1 arg5 arg6 arg7 x0)
  p1 : Pcs (Gs 1 x0 x1) (kernelRun0_A.sl.HS1_12 (F := Ideal) c arg1 harg1 arg5 arg6 arg7 x0)
  p2 : Pcs (Gs 2 x0 x1) (kernelRun0_A.sl.HS2_12 (F := Ideal) c arg1 harg1 arg5 arg6 arg7 x0)
  p3 : Pcs (Gs 3 x0 x1) (kernelRun0_A.sl.HS3_12 (F := Ideal) c arg1 harg1 arg8 arg9 arg10 x0)
  p4 : Pcs (Gs 4 x0 x1) (kernelRun0_A.sl.HS4_12 (F := Ideal) c arg1 harg1 arg8 arg9 arg10 x0)
  p5 : Pcs (Gs 5 x0 x1) (kernelRun0_A.sl.HS5_12 (F := Ideal) c arg1 harg1 arg8 arg9 arg10 x0)
  p6 : Pcs (Gs 6 x0 x1) (kernelRun0_A.sl.HS6_12 (F := Ideal) c arg1 harg1 arg11 arg12 arg13 x0)
  p7 : Pcs (Gs 7 x0 x1) (kernelRun0_A.sl.HS7_12 (F := Ideal) c arg1 harg1 arg11 arg12 arg13 x0)
  p8 : Pcs (Gs 8 x0 x1) (kernelRun0_A.sl.HS8_12 (F := Ideal) c arg1 harg1 arg11 arg12 arg13 x0)
  p9 : Pcs (Gs 9 x0 x1) (kernelRun0_A.sl.HS9_12 (F := Ideal) c arg1 harg1 arg2 harg2 arg5 arg6 arg7 arg14 x0 x1)
  p10 : Pcs (Gs 10 x0 x1) (kernelRun0_A.sl.HS10_12 (F := Ideal) c arg1 harg1 arg2 harg2 arg8 arg9 arg10 arg15 x0 x1)
  p11 : Pcs (Gs 11 x0 x1) (kernelRun0_A.sl.HS11_12 (F := Ideal) c arg1 harg1 arg2 harg2 arg11 arg12 arg13 arg16 x0 x1)
/-- After 13 joints: every piece of every scratch buffer holds its entry of the closed form. -/
structure Lvl13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_13 (F := Ideal) c arg1 harg1 arg5 arg6 arg7 x0)
  p1 : Pcs (Gs 1 x0 x1) (kernelRun0_A.sl.HS1_13 (F := Ideal) c arg1 harg1 arg5 arg6 arg7 x0)
  p2 : Pcs (Gs 2 x0 x1) (kernelRun0_A.sl.HS2_13 (F := Ideal) c arg1 harg1 arg5 arg6 arg7 x0)
  p3 : Pcs (Gs 3 x0 x1) (kernelRun0_A.sl.HS3_13 (F := Ideal) c arg1 harg1 arg8 arg9 arg10 x0)
  p4 : Pcs (Gs 4 x0 x1) (kernelRun0_A.sl.HS4_13 (F := Ideal) c arg1 harg1 arg8 arg9 arg10 x0)
  p5 : Pcs (Gs 5 x0 x1) (kernelRun0_A.sl.HS5_13 (F := Ideal) c arg1 harg1 arg8 arg9 arg10 x0)
  p6 : Pcs (Gs 6 x0 x1) (kernelRun0_A.sl.HS6_13 (F := Ideal) c arg1 harg1 arg11 arg12 arg13 x0)
  p7 : Pcs (Gs 7 x0 x1) (kernelRun0_A.sl.HS7_13 (F := Ideal) c arg1 harg1 arg11 arg12 arg13 x0)
  p8 : Pcs (Gs 8 x0 x1) (kernelRun0_A.sl.HS8_13 (F := Ideal) c arg1 harg1 arg11 arg12 arg13 x0)
  p9 : Pcs (Gs 9 x0 x1) (kernelRun0_A.sl.HS9_13 (F := Ideal) c arg1 harg1 arg2 harg2 arg5 arg6 arg7 arg14 x0 x1)
  p10 : Pcs (Gs 10 x0 x1) (kernelRun0_A.sl.HS10_13 (F := Ideal) c arg1 harg1 arg2 harg2 arg8 arg9 arg10 arg15 x0 x1)
  p11 : Pcs (Gs 11 x0 x1) (kernelRun0_A.sl.HS11_13 (F := Ideal) c arg1 harg1 arg2 harg2 arg11 arg12 arg13 arg16 x0 x1)
/-- After 14 joints: every piece of every scratch buffer holds its entry of the closed form. -/
structure Lvl14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_14 (F := Ideal) c arg1 harg1 arg5 arg6 arg7 x0)
  p1 : Pcs (Gs 1 x0 x1) (kernelRun0_A.sl.HS1_14 (F := Ideal) c arg1 harg1 arg5 arg6 arg7 x0)
  p2 : Pcs (Gs 2 x0 x1) (kernelRun0_A.sl.HS2_14 (F := Ideal) c arg1 harg1 arg5 arg6 arg7 x0)
  p3 : Pcs (Gs 3 x0 x1) (kernelRun0_A.sl.HS3_14 (F := Ideal) c arg1 harg1 arg8 arg9 arg10 x0)
  p4 : Pcs (Gs 4 x0 x1) (kernelRun0_A.sl.HS4_14 (F := Ideal) c arg1 harg1 arg8 arg9 arg10 x0)
  p5 : Pcs (Gs 5 x0 x1) (kernelRun0_A.sl.HS5_14 (F := Ideal) c arg1 harg1 arg8 arg9 arg10 x0)
  p6 : Pcs (Gs 6 x0 x1) (kernelRun0_A.sl.HS6_14 (F := Ideal) c arg1 harg1 arg11 arg12 arg13 x0)
  p7 : Pcs (Gs 7 x0 x1) (kernelRun0_A.sl.HS7_14 (F := Ideal) c arg1 harg1 arg11 arg12 arg13 x0)
  p8 : Pcs (Gs 8 x0 x1) (kernelRun0_A.sl.HS8_14 (F := Ideal) c arg1 harg1 arg11 arg12 arg13 x0)
  p9 : Pcs (Gs 9 x0 x1) (kernelRun0_A.sl.HS9_14 (F := Ideal) c arg1 harg1 arg2 harg2 arg5 arg6 arg7 arg14 x0 x1)
  p10 : Pcs (Gs 10 x0 x1) (kernelRun0_A.sl.HS10_14 (F := Ideal) c arg1 harg1 arg2 harg2 arg8 arg9 arg10 arg15 x0 x1)
  p11 : Pcs (Gs 11 x0 x1) (kernelRun0_A.sl.HS11_14 (F := Ideal) c arg1 harg1 arg2 harg2 arg11 arg12 arg13 arg16 x0 x1)
/-- After 15 joints: every piece of every scratch buffer holds its entry of the closed form. -/
structure Lvl15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_15 (F := Ideal) c arg1 harg1 arg5 arg6 arg7 x0)
  p1 : Pcs (Gs 1 x0 x1) (kernelRun0_A.sl.HS1_15 (F := Ideal) c arg1 harg1 arg5 arg6 arg7 x0)
  p2 : Pcs (Gs 2 x0 x1) (kernelRun0_A.sl.HS2_15 (F := Ideal) c arg1 harg1 arg5 arg6 arg7 x0)
  p3 : Pcs (Gs 3 x0 x1) (kernelRun0_A.sl.HS3_15 (F := Ideal) c arg1 harg1 arg8 arg9 arg10 x0)
  p4 : Pcs (Gs 4 x0 x1) (kernelRun0_A.sl.HS4_15 (F := Ideal) c arg1 harg1 arg8 arg9 arg10 x0)
  p5 : Pcs (Gs 5 x0 x1) (kernelRun0_A.sl.HS5_15 (F := Ideal) c arg1 harg1 arg8 arg9 arg10 x0)
  p6 : Pcs (Gs 6 x0 x1) (kernelRun0_A.sl.HS6_15 (F := Ideal) c arg1 harg1 arg11 arg12 arg13 x0)
  p7 : Pcs (Gs 7 x0 x1) (kernelRun0_A.sl.HS7_15 (F := Ideal) c arg1 harg1 arg11 arg12 arg13 x0)
  p8 : Pcs (Gs 8 x0 x1) (kernelRun0_A.sl.HS8_15 (F := Ideal) c arg1 harg1 arg11 arg12 arg13 x0)
  p9 : Pcs (Gs 9 x0 x1) (kernelRun0_A.sl.HS9_15 (F := Ideal) c arg1 harg1 arg2 harg2 arg5 arg6 arg7 arg14 x0 x1)
  p10 : Pcs (Gs 10 x0 x1) (kernelRun0_A.sl.HS10_15 (F := Ideal) c arg1 harg1 arg2 harg2 arg8 arg9 arg10 arg15 x0 x1)
  p11 : Pcs (Gs 11 x0 x1) (kernelRun0_A.sl.HS11_15 (F := Ideal) c arg1 harg1 arg2 harg2 arg11 arg12 arg13 arg16 x0 x1)
/-- After 16 joints: every piece of every scratch buffer holds its entry of the closed form. -/
structure Lvl16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_16 (F := Ideal) c arg1 harg1 arg5 arg6 arg7 x0)
  p1 : Pcs (Gs 1 x0 x1) (kernelRun0_A.sl.HS1_16 (F := Ideal) c arg1 harg1 arg5 arg6 arg7 x0)
  p2 : Pcs (Gs 2 x0 x1) (kernelRun0_A.sl.HS2_16 (F := Ideal) c arg1 harg1 arg5 arg6 arg7 x0)
  p3 : Pcs (Gs 3 x0 x1) (kernelRun0_A.sl.HS3_16 (F := Ideal) c arg1 harg1 arg8 arg9 arg10 x0)
  p4 : Pcs (Gs 4 x0 x1) (kernelRun0_A.sl.HS4_16 (F := Ideal) c arg1 harg1 arg8 arg9 arg10 x0)
  p5 : Pcs (Gs 5 x0 x1) (kernelRun0_A.sl.HS5_16 (F := Ideal) c arg1 harg1 arg8 arg9 arg10 x0)
  p6 : Pcs (Gs 6 x0 x1) (kernelRun0_A.sl.HS6_16 (F := Ideal) c arg1 harg1 arg11 arg12 arg13 x0)
  p7 : Pcs (Gs 7 x0 x1) (kernelRun0_A.sl.HS7_16 (F := Ideal) c arg1 harg1 arg11 arg12 arg13 x0)
  p8 : Pcs (Gs 8 x0 x1) (kernelRun0_A.sl.HS8_16 (F := Ideal) c arg1 harg1 arg11 arg12 arg13 x0)
  p9 : Pcs (Gs 9 x0 x1) (kernelRun0_A.sl.HS9_16 (F := Ideal) c arg1 harg1 arg2 harg2 arg5 arg6 arg7 arg14 x0 x1)
  p10 : Pcs (Gs 10 x0 x1) (kernelRun0_A.sl.HS10_16 (F := Ideal) c arg1 harg1 arg2 harg2 arg8 arg9 arg10 arg15 x0 x1)
  p11 : Pcs (Gs 11 x0 x1) (kernelRun0_A.sl.HS11_16 (F := Ideal) c arg1 harg1 arg2 harg2 arg11 arg12 arg13 arg16 x0 x1)
/-- After 17 joints: every piece of every scratch buffer holds its entry of the closed form. -/
structure Lvl17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_17 (F := Ideal) c arg1 harg1 arg5 arg6 arg7 x0)
  p1 : Pcs (Gs 1 x0 x1) (kernelRun0_A.sl.HS1_17 (F := Ideal) c arg1 harg1 arg5 arg6 arg7 x0)
  p2 : Pcs (Gs 2 x0 x1) (kernelRun0_A.sl.HS2_17 (F := Ideal) c arg1 harg1 arg5 arg6 arg7 x0)
  p3 : Pcs (Gs 3 x0 x1) (kernelRun0_A.sl.HS3_17 (F := Ideal) c arg1 harg1 arg8 arg9 arg10 x0)
  p4 : Pcs (Gs 4 x0 x1) (kernelRun0_A.sl.HS4_17 (F := Ideal) c arg1 harg1 arg8 arg9 arg10 x0)
  p5 : Pcs (Gs 5 x0 x1) (kernelRun0_A.sl.HS5_17 (F := Ideal) c arg1 harg1 arg8 arg9 arg10 x0)
  p6 : Pcs (Gs 6 x0 x1) (kernelRun0_A.sl.HS6_17 (F := Ideal) c arg1 harg1 arg11 arg12 arg13 x0)
  p7 : Pcs (Gs 7 x0 x1) (kernelRun0_A.sl.HS7_17 (F := Ideal) c arg1 harg1 arg11 arg12 arg13 x0)
  p8 : Pcs (Gs 8 x0 x1) (kernelRun0_A.sl.HS8_17 (F := Ideal) c arg1 harg1 arg11 arg12 arg13 x0)
  p9 : Pcs (Gs 9 x0 x1) (kernelRun0_A.sl.HS9_17 (F := Ideal) c arg1 harg1 arg2 harg2 arg5 arg6 arg7 arg14 x0 x1)
  p10 : Pcs (Gs 10 x0 x1) (kernelRun0_A.sl.HS10_17 (F := Ideal) c arg1 harg1 arg2 harg2 arg8 arg9 arg10 arg15 x0 x1)
  p11 : Pcs (Gs 11 x0 x1) (kernelRun0_A.sl.HS11_17 (F := Ideal) c arg1 harg1 arg2 harg2 arg11 arg12 arg13 arg16 x0 x1)
/-- After 18 joints: every piece of every scratch buffer holds its entry of the closed form. -/
structure Lvl18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_18 (F := Ideal) c arg1 harg1 arg5 arg6 arg7 x0)
  p1 : Pcs (Gs 1 x0 x1) (kernelRun0_A.sl.HS1_18 (F := Ideal) c arg1 harg1 arg5 arg6 arg7 x0)
  p2 : Pcs (Gs 2 x0 x1) (kernelRun0_A.sl.HS2_18 (F := Ideal) c arg1 harg1 arg5 arg6 arg7 x0)
  p3 : Pcs (Gs 3 x0 x1) (kernelRun0_A.sl.HS3_18 (F := Ideal) c arg1 harg1 arg8 arg9 arg10 x0)
  p4 : Pcs (Gs 4 x0 x1) (kernelRun0_A.sl.HS4_18 (F := Ideal) c arg1 harg1 arg8 arg9 arg10 x0)
  p5 : Pcs (Gs 5 x0 x1) (kernelRun0_A.sl.HS5_18 (F := Ideal) c arg1 harg1 arg8 arg9 arg10 x0)
  p6 : Pcs (Gs 6 x0 x1) (kernelRun0_A.sl.HS6_18 (F := Ideal) c arg1 harg1 arg11 arg12 arg13 x0)
  p7 : Pcs (Gs 7 x0 x1) (kernelRun0_A.sl.HS7_18 (F := Ideal) c arg1 harg1 arg11 arg12 arg13 x0)
  p8 : Pcs (Gs 8 x0 x1) (kernelRun0_A.sl.HS8_18 (F := Ideal) c arg1 harg1 arg11 arg12 arg13 x0)
  p9 : Pcs (Gs 9 x0 x1) (kernelRun0_A.sl.HS9_18 (F := Ideal) c arg1 harg1 arg2 harg2 arg5 arg6 arg7 arg14 x0 x1)
  p10 : Pcs (Gs 10 x0 x1) (kernelRun0_A.sl.HS10_18 (F := Ideal) c arg1 harg1 arg2 harg2 arg8 arg9 arg10 arg15 x0 x1)
  p11 : Pcs (Gs 11 x0 x1) (kernelRun0_A.sl.HS11_18 (F := Ideal) c arg1 harg1 arg2 harg2 arg11 arg12 arg13 arg16 x0 x1)
/-- After 19 joints: every piece of every scratch buffer holds its entry of the closed form. -/
structure Lvl19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_19 (F := Ideal) c arg1 harg1 arg5 arg6 arg7 x0)
  p1 : Pcs (Gs 1 x0 x1) (kernelRun0_A.sl.HS1_19 (F := Ideal) c arg1 harg1 arg5 arg6 arg7 x0)
  p2 : Pcs (Gs 2 x0 x1) (kernelRun0_A.sl.HS2_19 (F := Ideal) c arg1 harg1 arg5 arg6 arg7 x0)
  p3 : Pcs (Gs 3 x0 x1) (kernelRun0_A.sl.HS3_19 (F := Ideal) c arg1 harg1 arg8 arg9 arg10 x0)
  p4 : Pcs (Gs 4 x0 x1) (kernelRun0_A.sl.HS4_19 (F := Ideal) c arg1 harg1 arg8 arg9 arg10 x0)
  p5 : Pcs (Gs 5 x0 x1) (kernelRun0_A.sl.HS5_19 (F := Ideal) c arg1 harg1 arg8 arg9 arg10 x0)
  p6 : Pcs (Gs 6 x0 x1) (kernelRun0_A.sl.HS6_19 (F := Ideal) c arg1 harg1 arg11 arg12 arg13 x0)
  p7 : Pcs (Gs 7 x0 x1) (kernelRun0_A.sl.HS7_19 (F := Ideal) c arg1 harg1 arg11 arg12 arg13 x0)
  p8 : Pcs (Gs 8 x0 x1) (kernelRun0_A.sl.HS8_19 (F := Ideal) c arg1 harg1 arg11 arg12 arg13 x0)
  p9 : Pcs (Gs 9 x0 x1) (kernelRun0_A.sl.HS9_19 (F := Ideal) c arg1 harg1 arg2 harg2 arg5 arg6 arg7 arg14 x0 x1)
  p10 : Pcs (Gs 10 x0 x1) (kernelRun0_A.sl.HS10_19 (F := Ideal) c arg1 harg1 arg2 harg2 arg8 arg9 arg10 arg15 x0 x1)
  p11 : Pcs (Gs 11 x0 x1) (kernelRun0_A.sl.HS11_19 (F := Ideal) c arg1 harg1 arg2 harg2 arg11 arg12 arg13 arg16 x0 x1)
/-- After 20 joints: every piece of every scratch buffer holds its entry of the closed form. -/
structure Lvl20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_20 (F := Ideal) c arg1 harg1 arg5 arg6 arg7 x0)
  p1 : Pcs (Gs 1 x0 x1) (kernelRun0_A.sl.HS1_20 (F := Ideal) c arg1 harg1 arg5 arg6 arg7 x0)
  p2 : Pcs (Gs 2 x0 x1) (kernelRun0_A.sl.HS2_20 (F := Ideal) c arg1 harg1 arg5 arg6 arg7 x0)
  p3 : Pcs (Gs 3 x0 x1) (kernelRun0_A.sl.HS3_20 (F := Ideal) c arg1 harg1 arg8 arg9 arg10 x0)
  p4 : Pcs (Gs 4 x0 x1) (kernelRun0_A.sl.HS4_20 (F := Ideal) c arg1 harg1 arg8 arg9 arg10 x0)
  p5 : Pcs (Gs 5 x0 x1) (kernelRun0_A.sl.HS5_20 (F := Ideal) c arg1 harg1 arg8 arg9 arg10 x0)
  p6 : Pcs (Gs 6 x0 x1) (kernelRun0_A.sl.HS6_20 (F := Ideal) c arg1 harg1 arg11 arg12 arg13 x0)
  p7 : Pcs (Gs 7 x0 x1) (kernelRun0_A.sl.HS7_20 (F := Ideal) c arg1 harg1 arg11 arg12 arg13 x0)
  p8 : Pcs (Gs 8 x0 x1) (kernelRun0_A.sl.HS8_20 (F := Ideal) c arg1 harg1 arg11 arg12 arg13 x0)
  p9 : Pcs (Gs 9 x0 x1) (kernelRun0_A.sl.HS9_20 (F := Ideal) c arg1 harg1 arg2 harg2 arg5 arg6 arg7 arg14 x0 x1)
  p10 : Pcs (Gs 10 x0 x1) (kernelRun0_A.sl.HS10_20 (F := Ideal) c arg1 harg1 arg2 harg2 arg8 arg9 arg10 arg15 x0 x1)
  p11 : Pcs (Gs 11 x0 x1) (kernelRun0_A.sl.HS11_20 (F := Ideal) c arg1 harg1 arg2 harg2 arg11 arg12 arg13 arg16 x0 x1)
/-- After 21 joints: every piece of every scratch buffer holds its entry of the closed form. -/
structure Lvl21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_21 (F := Ideal) c arg1 harg1 arg5 arg6 arg7 x0)
  p1 : Pcs (Gs 1 x0 x1) (kernelRun0_A.sl.HS1_21 (F := Ideal) c arg1 harg1 arg5 arg6 arg7 x0)
  p2 : Pcs (Gs 2 x0 x1) (kernelRun0_A.sl.HS2_21 (F := Ideal) c arg1 harg1 arg5 arg6 arg7 x0)
  p3 : Pcs (Gs 3 x0 x1) (kernelRun0_A.sl.HS3_21 (F := Ideal) c arg1 harg1 arg8 arg9 arg10 x0)
  p4 : Pcs (Gs 4 x0 x1) (kernelRun0_A.sl.HS4_21 (F := Ideal) c arg1 harg1 arg8 arg9 arg10 x0)
  p5 : Pcs (Gs 5 x0 x1) (kernelRun0_A.sl.HS5_21 (F := Ideal) c arg1 harg1 arg8 arg9 arg10 x0)
  p6 : Pcs (Gs 6 x0 x1) (kernelRun0_A.sl.HS6_21 (F := Ideal) c arg1 harg1 arg11 arg12 arg13 x0)
  p7 : Pcs (Gs 7 x0 x1) (kernelRun0_A.sl.HS7_21 (F := Ideal) c arg1 harg1 arg11 arg12 arg13 x0)
  p8 : Pcs (Gs 8 x0 x1) (kernelRun0_A.sl.HS8_21 (F := Ideal) c arg1 harg1 arg11 arg12 arg13 x0)
  p9 : Pcs (Gs 9 x0 x1) (kernelRun0_A.sl.HS9_21 (F := Ideal) c arg1 harg1 arg2 harg2 arg5 arg6 arg7 arg14 x0 x1)
  p10 : Pcs (Gs 10 x0 x1) (kernelRun0_A.sl.HS10_21 (F := Ideal) c arg1 harg1 arg2 harg2 arg8 arg9 arg10 arg15 x0 x1)
  p11 : Pcs (Gs 11 x0 x1) (kernelRun0_A.sl.HS11_21 (F := Ideal) c arg1 harg1 arg2 harg2 arg11 arg12 arg13 arg16 x0 x1)
/-- After 22 joints: every piece of every scratch buffer holds its entry of the closed form. -/
structure Lvl22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_22 (F := Ideal) c arg1 harg1 arg5 arg6 arg7 x0)
  p1 : Pcs (Gs 1 x0 x1) (kernelRun0_A.sl.HS1_22 (F := Ideal) c arg1 harg1 arg5 arg6 arg7 x0)
  p2 : Pcs (Gs 2 x0 x1) (kernelRun0_A.sl.HS2_22 (F := Ideal) c arg1 harg1 arg5 arg6 arg7 x0)
  p3 : Pcs (Gs 3 x0 x1) (kernelRun0_A.sl.HS3_22 (F := Ideal) c arg1 harg1 arg8 arg9 arg10 x0)
  p4 : Pcs (Gs 4 x0 x1) (kernelRun0_A.sl.HS4_22 (F := Ideal) c arg1 harg1 arg8 arg9 arg10 x0)
  p5 : Pcs (Gs 5 x0 x1) (kernelRun0_A.sl.HS5_22 (F := Ideal) c arg1 harg1 arg8 arg9 arg10 x0)
  p6 : Pcs (Gs 6 x0 x1) (kernelRun0_A.sl.HS6_22 (F := Ideal) c arg1 harg1 arg11 arg12 arg13 x0)
  p7 : Pcs (Gs 7 x0 x1) (kernelRun0_A.sl.HS7_22 (F := Ideal) c arg1 harg1 arg11 arg12 arg13 x0)
  p8 : Pcs (Gs 8 x0 x1) (kernelRun0_A.sl.HS8_22 (F := Ideal) c arg1 harg1 arg11 arg12 arg13 x0)
  p9 : Pcs (Gs 9 x0 x1) (kernelRun0_A.sl.HS9_22 (F := Ideal) c arg1 harg1 arg2 harg2 arg5 arg6 arg7 arg14 x0 x1)
  p10 : Pcs (Gs 10 x0 x1) (kernelRun0_A.sl.HS10_22 (F := Ideal) c arg1 harg1 arg2 harg2 arg8 arg9 arg10 arg15 x0 x1)
  p11 : Pcs (Gs 11 x0 x1) (kernelRun0_A.sl.HS11_22 (F := Ideal) c arg1 harg1 arg2 harg2 arg11 arg12 arg13 arg16 x0 x1)
/-- After 23 joints: every piece of every scratch buffer holds its entry of the closed form. -/
structure Lvl23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) : Prop where
  p0 : Pcs (Gs 0 x0 x1) (kernelRun0_A.sl.HS0_23 (F := Ideal) c arg1 harg1 arg5 arg6 arg7 x0)
  p1 : Pcs (Gs 1 x0 x1) (kernelRun0_A.sl.HS1_23 (F := Ideal) c arg1 harg1 arg5 arg6 arg7 x0)
  p2 : Pcs (Gs 2 x0 x1) (kernelRun0_A.sl.HS2_23 (F := Ideal) c arg1 harg1 arg5 arg6 arg7 x0)
  p3 : Pcs (Gs 3 x0 x1) (kernelRun0_A.sl.HS3_23 (F := Ideal) c arg1 harg1 arg8 arg9 arg10 x0)
  p4 : Pcs (Gs 4 x0 x1) (kernelRun0_A.sl.HS4_23 (F := Ideal) c arg1 harg1 arg8 arg9 arg10 x0)
  p5 : Pcs (Gs 5 x0 x1) (kernelRun0_A.sl.HS5_23 (F := Ideal) c arg1 harg1 arg8 arg9 arg10 x0)
  p6 : Pcs (Gs 6 x0 x1) (kernelRun0_A.sl.HS6_23 (F := Ideal) c arg1 harg1 arg11 arg12 arg13 x0)
  p7 : Pcs (Gs 7 x0 x1) (kernelRun0_A.sl.HS7_23 (F := Ideal) c arg1 harg1 arg11 arg12 arg13 x0)
  p8 : Pcs (Gs 8 x0 x1) (kernelRun0_A.sl.HS8_23 (F := Ideal) c arg1 harg1 arg11 arg12 arg13 x0)
  p9 : Pcs (Gs 9 x0 x1) (kernelRun0_A.sl.HS9_23 (F := Ideal) c arg1 harg1 arg2 harg2 arg5 arg6 arg7 arg14 x0 x1)
  p10 : Pcs (Gs 10 x0 x1) (kernelRun0_A.sl.HS10_23 (F := Ideal) c arg1 harg1 arg2 harg2 arg8 arg9 arg10 arg15 x0 x1)
  p11 : Pcs (Gs 11 x0 x1) (kernelRun0_A.sl.HS11_23 (F := Ideal) c arg1 harg1 arg2 harg2 arg11 arg12 arg13 arg16 x0 x1)

/-! ## The output block's pieces -/
/-- The run leaves 24 pieces in the output block, one per joint, the last joint's first. -/
theorem out_len (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).1.length = 24 := by
  unfold kernelRun0_A; rfl
/-- The piece at place n of the list: joint 23 - n's. -/
def outPiece (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (n : ℕ) (hn : n < 24) : View.Piece (Elt Ideal) S24x3x4096 .f32 :=
  (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).1.get ⟨n, by rw [out_len]; exact hn⟩

end Cert.KernelIdeal.Body

end
-- ==== Proof.KLemmas.lean ====
/-
  Vector operations of the kernel's shapes read at ONE index: a shape cast, a broadcast along the rows, a row slice, the
  sum over the three rows, an entry of the offsets table, three rows laid end to end, the elementwise functions and the
  scalar constants; and a load of one row of a whole buffer read at a lane, with the rectangle's placement of that lane
  and the rows it covers. Each lemma rewrites the operation applied at an index written with `ix1`/`ix2`/`ix3` to its
  operand at an index written the same way, whatever proof of the shape fact the operation carries. A row offset is a
  numeral `n` in the `_n` forms (the row index of the right-hand side is `⟨n, _⟩`, its bound read off the shape fact
  carried) and `j.val` for `j` of the row type in the unsuffixed forms.
-/
import proofs.«160816_j62156766707902_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Pipeline.Frame

noncomputable section

namespace Cert.KernelIdeal.KL

open Cert.KernelIdeal Cert.KernelIdeal.Gen Idealize.ShloMosaic Idealize.ShloMosaic.ValueIdx

variable {α : Type}

/-! ### Shape casts and the broadcast along the rows -/

theorem sc_1x4096 (v : S1x4096.Idx → α) (h : S1x4096.ShapeCasts S1x4096) (i : S1x4096.Idx) :
    shapeCast S1x4096 v h i = v i := by
  rw [shapeCast_self]

theorem sc_4096_1x4096 (v : S4096.Idx → α) (h : S4096.ShapeCasts S1x4096) (b : Fin 4096) :
    shapeCast S1x4096 v h (ix2 0 b) = v (ix1 b) :=
  shapeCast_apply v h _ _ (by rw [Shape.rowMajor_val_one, Shape.rowMajor_val_two]; simp)

theorem sc_1x3x4096_3x4096 (v : S1x3x4096.Idx → α) (h : S1x3x4096.ShapeCasts S3x4096) (k : Fin 3) (b : Fin 4096) :
    shapeCast S3x4096 v h (ix2 k b) = v (ix3 0 k b) :=
  shapeCast_apply v h _ _ (by rw [Shape.rowMajor_val_three, Shape.rowMajor_val_two]; simp)

theorem sc_3x4096_1x3x4096 (v : S3x4096.Idx → α) (h : S3x4096.ShapeCasts S1x3x4096) (k : Fin 3) (b : Fin 4096) :
    shapeCast S1x3x4096 v h (ix3 0 k b) = v (ix2 k b) :=
  shapeCast_apply v h _ _ (by rw [Shape.rowMajor_val_three, Shape.rowMajor_val_two]; simp)

theorem bt_1x4096_3x4096 (v : S1x4096.Idx → α) (h : S1x4096.Broadcasts S3x4096) (k : Fin 3) (b : Fin 4096) :
    broadcastTo S3x4096 v h (ix2 k b) = v (ix2 0 b) :=
  broadcastTo_apply v h _ _ (fun a => match a with | ⟨0, _⟩ => rfl | ⟨1, _⟩ => rfl)

/-! ### Slices -/

theorem ess_3x4096_n (v : S3x4096.Idx → α) (n : Nat) (h : S3x4096.Slices ![n, 0] S1x4096) (b : Fin 4096) :
    extractStridedSlice S1x4096 ![n, 0] v h (ix2 0 b) = v (ix2 ⟨n, by have := h.2 0; simpa using this⟩ b) :=
  extractStridedSlice_apply _ v h _ _ (fun a => match a with | ⟨0, _⟩ => rfl | ⟨1, _⟩ => by simp)

theorem ess_3x4096 (v : S3x4096.Idx → α) (r : Fin 3) (h : S3x4096.Slices ![r.val, 0] S1x4096) (b : Fin 4096) :
    extractStridedSlice S1x4096 ![r.val, 0] v h (ix2 0 b) = v (ix2 r b) :=
  ess_3x4096_n v r.val h b

theorem off_at_n (v : S24x3.Idx → α) (n m : Nat) (h1 : S24x3.Slices ![n, m] S1x1) (h2 : ∀ a, (![0, 0] : Fin 2 → Nat) a < S1x1.size a) :
    extractAt ![0, 0] (extractStridedSlice S1x1 ![n, m] v h1) h2
      = v (ix2 ⟨n, by have := h1.2 0; simpa using this⟩ ⟨m, by have := h1.2 1; simpa using this⟩) := by
  unfold extractAt
  exact extractStridedSlice_apply _ v h1 _ _ (fun a => match a with | ⟨0, _⟩ => rfl | ⟨1, _⟩ => rfl)

theorem off_at (v : S24x3.Idx → α) (j : Fin 24) (k : Fin 3) (h1 : S24x3.Slices ![j.val, k.val] S1x1)
    (h2 : ∀ a, (![0, 0] : Fin 2 → Nat) a < S1x1.size a) :
    extractAt ![0, 0] (extractStridedSlice S1x1 ![j.val, k.val] v h1) h2 = v (ix2 j k) :=
  off_at_n v j.val k.val h1 h2

/-! ### The sum over the three rows -/

theorem lift_3x4096 (h : S3x4096.Reduces [0] S4096) (b : Fin 4096) (k : Fin 3) :
    h.lift (ix1 b) (k : Fin (S3x4096.size 0)) = ix2 k b := by
  funext c
  apply Fin.ext
  show h.liftVal (ix1 b) k.val c = (ix2 k b c).val
  match c with
  | ⟨0, _⟩ => simp [Shape.Reduces.liftVal]
  | ⟨1, _⟩ => simp [Shape.Reduces.liftVal]

theorem mr_3x4096_acc (v : FVec Ideal S3x4096 .f32) (acc : BitVec 32) (h : S3x4096.Reduces [0] S4096)
    (hφ : FKind.Formats .f32) (hacc : acc = FKind.add.neutral .f32 hφ) (b : Fin 4096) :
    multiReduction .add [0] S4096 v acc h hφ hacc (ix1 b) = ∑ k : Fin 3, v (ix2 k b) := by
  rw [Ideal.multiReduction_add_single]
  show ∑ k : Fin 3, v (h.lift (ix1 b) k) = _
  exact Finset.sum_congr rfl (fun k _ => congrArg v (lift_3x4096 h b k))

/-- The same over an axes list equal to `[0]`, the accumulator's equation stated against the zero pattern itself. -/
theorem mr_3x4096 (v : FVec Ideal S3x4096 .f32) (ax : List (Fin S3x4096.rank)) (acc : BitVec 32) (h : S3x4096.Reduces ax S4096)
    (hφ : FKind.Formats .f32) (hacc : acc = 0x00000000#32) (b : Fin 4096) (hax : ax = [0]) :
    multiReduction .add ax S4096 v acc h hφ hacc (ix1 b) = ∑ k : Fin 3, v (ix2 k b) := by
  subst hax; exact mr_3x4096_acc v acc h hφ hacc b

/-! ### Three rows laid end to end -/

theorem cat3 (a b c : S1x4096.Idx → α) (h : Shape.Concatenates [S1x4096, S1x4096, S1x4096] S3x4096 0)
    (k : Fin 3) (b' : Fin 4096) :
    concatenate S3x4096 0 [⟨S1x4096, a⟩, ⟨S1x4096, b⟩, ⟨S1x4096, c⟩] h (ix2 k b')
      = ![a (ix2 0 b'), b (ix2 0 b'), c (ix2 0 b')] k := by
  match k with
  | ⟨0, _⟩ =>
    exact concatenate_apply_piece (0 : Fin S3x4096.rank) [⟨S1x4096, a⟩, ⟨S1x4096, b⟩, ⟨S1x4096, c⟩] h _ 0 (by simp)
      S1x4096 a rfl rfl 0 rfl (ix2 0 b')
      (fun d hd => match d with | ⟨0, _⟩ => absurd rfl hd | ⟨1, _⟩ => rfl) rfl
  | ⟨1, _⟩ =>
    exact concatenate_apply_piece (0 : Fin S3x4096.rank) [⟨S1x4096, a⟩, ⟨S1x4096, b⟩, ⟨S1x4096, c⟩] h _ 1 (by simp)
      S1x4096 b rfl rfl 1 rfl (ix2 0 b')
      (fun d hd => match d with | ⟨0, _⟩ => absurd rfl hd | ⟨1, _⟩ => rfl) rfl
  | ⟨2, _⟩ =>
    exact concatenate_apply_piece (0 : Fin S3x4096.rank) [⟨S1x4096, a⟩, ⟨S1x4096, b⟩, ⟨S1x4096, c⟩] h _ 2 (by simp)
      S1x4096 c rfl rfl 2 rfl (ix2 0 b')
      (fun d hd => match d with | ⟨0, _⟩ => absurd rfl hd | ⟨1, _⟩ => rfl) rfl

/-! ### Elementwise functions and constants -/

theorem sqrt_at {s : Shape} (v : FVec Ideal s .f32) (i : s.Idx) : sqrt v i = Ideal.sqrt (v i) := rfl
theorem sin_at {s : Shape} (v : FVec Ideal s .f32) (i : s.Idx) : sin v i = Ideal.sin (v i) := rfl
theorem cos_at {s : Shape} (v : FVec Ideal s .f32) (i : s.Idx) : cos v i = Ideal.cos (v i) := rfl
theorem bc_at {s : Shape} (x : α) (i : s.Idx) : broadcast s x i = x := rfl
theorem scalar_ofBits (w : BitVec 32) : Scalar.ofBits (F := Ideal) .f32 w = Ideal.ofBits .f32 w := rfl
theorem float_ofBits (w : BitVec 32) : FloatOps.ofBits (F := Ideal) .f32 w = Ideal.ofBits .f32 w := rfl

/-! ### Loads of one row of a whole buffer -/

section Reads
variable {sig : RefSig}

theorem idx_row3_n (n : Nat) (inb : ∀ a, (![n, 0, 0] : Fin 3 → Nat) a + (![1, 3, 4096] : Fin 3 → Nat) a ≤ S24x3x4096.size a)
    (k : Fin 3) (b : Fin 4096) :
    (Rect.unit (s := S24x3x4096) ![n, 0, 0] ![1, 3, 4096] inb).toLoadRect.idx (ix3 0 k b)
      = ix3 ⟨n, by have := inb 0; simp at this; omega⟩ k b := by
  funext a
  apply Fin.ext
  rw [LoadRect.idx_apply]
  match a with
  | ⟨0, _⟩ => simp
  | ⟨1, _⟩ => simp
  | ⟨2, _⟩ => simp

theorem emb_row3_n (n : Nat) (inb : ∀ a, (![n, 0, 0] : Fin 3 → Nat) a + (![1, 3, 4096] : Fin 3 → Nat) a ≤ S24x3x4096.size a)
    (k : Fin 3) (b : Fin 4096) :
    (Rect.unit (s := S24x3x4096) ![n, 0, 0] ![1, 3, 4096] inb).emb (ix3 0 k b)
      = ix3 ⟨n, by have := inb 0; simp at this; omega⟩ k b :=
  idx_row3_n n inb k b

theorem emb_row3 (j : Fin 24) (inb : ∀ a, (![j.val, 0, 0] : Fin 3 → Nat) a + (![1, 3, 4096] : Fin 3 → Nat) a ≤ S24x3x4096.size a)
    (k : Fin 3) (b : Fin 4096) :
    (Rect.unit (s := S24x3x4096) ![j.val, 0, 0] ![1, 3, 4096] inb).emb (ix3 0 k b) = ix3 j k b :=
  idx_row3_n j.val inb k b

theorem idx_row_n {R : Nat} (n : Nat) (inb : ∀ a, (![n, 0] : Fin 2 → Nat) a + (![1, 4096] : Fin 2 → Nat) a ≤ (⟨2, ![R, 4096]⟩ : Shape).size a)
    (b : Fin 4096) :
    (Rect.unit (s := ⟨2, ![R, 4096]⟩) ![n, 0] ![1, 4096] inb).toLoadRect.idx (ix2 0 b)
      = ix2 ⟨n, by have := inb 0; simp at this; omega⟩ b := by
  funext a
  apply Fin.ext
  rw [LoadRect.idx_apply]
  match a with
  | ⟨0, _⟩ => simp
  | ⟨1, _⟩ => simp

theorem emb_row_n (n : Nat) (inb : ∀ a, (![n, 0] : Fin 2 → Nat) a + (![1, 4096] : Fin 2 → Nat) a ≤ S24x4096.size a) (b : Fin 4096) :
    (Rect.unit (s := S24x4096) ![n, 0] ![1, 4096] inb).emb (ix2 0 b) = ix2 ⟨n, by have := inb 0; simp at this; omega⟩ b :=
  idx_row_n n inb b

theorem emb_row (j : Fin 24) (inb : ∀ a, (![j.val, 0] : Fin 2 → Nat) a + (![1, 4096] : Fin 2 → Nat) a ≤ S24x4096.size a) (b : Fin 4096) :
    (Rect.unit (s := S24x4096) ![j.val, 0] ![1, 4096] inb).emb (ix2 0 b) = ix2 j b :=
  idx_row_n j.val inb b

theorem mem_row_n (n : Nat) (inb : ∀ a, (![n, 0] : Fin 2 → Nat) a + (![1, 4096] : Fin 2 → Nat) a ≤ S24x4096.size a) (y : S24x4096.Idx) :
    y ∈ (Rect.unit (s := S24x4096) ![n, 0] ![1, 4096] inb).set ↔ (y 0).val = n := by
  rw [Rect.mem_set_unit]
  constructor
  · intro h; have := h 0; simp at this; omega
  · intro h a
    match a with
    | ⟨0, _⟩ => simp; omega
    | ⟨1, _⟩ => simp; exact (y 1).isLt

theorem mem_row (j : Fin 24) (inb : ∀ a, (![j.val, 0] : Fin 2 → Nat) a + (![1, 4096] : Fin 2 → Nat) a ≤ S24x4096.size a) (y : S24x4096.Idx) :
    y ∈ (Rect.unit (s := S24x4096) ![j.val, 0] ![1, 4096] inb).set ↔ (y 0).val = j.val :=
  mem_row_n j.val inb y

theorem rd_pose_n (arg1 : Memref sig .tc .vmem S24x3x4096 .f32) (harg1 : arg1.IsWhole) (x0 : Vec Ideal S24x3x4096 .f32)
    (n : Nat) (inb : ∀ a, (![n, 0, 0] : Fin 3 → Nat) a + (![1, 3, 4096] : Fin 3 → Nat) a ≤ S24x3x4096.size a)
    (k : Fin 3) (b : Fin 4096) :
    View.readAt (Elt Ideal) arg1.view (Rect.unit (s := S24x3x4096) ![n, 0, 0] ![1, 3, 4096] inb).toLoadRect (harg1.unread x0) (ix3 0 k b)
      = x0 (ix3 ⟨n, by have := inb 0; simp at this; omega⟩ k b) := by
  rw [View.readAt_apply, harg1.read_unread, idx_row3_n]

theorem rd_pose (arg1 : Memref sig .tc .vmem S24x3x4096 .f32) (harg1 : arg1.IsWhole) (x0 : Vec Ideal S24x3x4096 .f32)
    (j : Fin 24) (inb : ∀ a, (![j.val, 0, 0] : Fin 3 → Nat) a + (![1, 3, 4096] : Fin 3 → Nat) a ≤ S24x3x4096.size a)
    (k : Fin 3) (b : Fin 4096) :
    View.readAt (Elt Ideal) arg1.view (Rect.unit (s := S24x3x4096) ![j.val, 0, 0] ![1, 3, 4096] inb).toLoadRect (harg1.unread x0) (ix3 0 k b)
      = x0 (ix3 j k b) :=
  rd_pose_n arg1 harg1 x0 j.val inb k b

theorem rd_row_n {R : Nat} (arg : Memref sig .tc .vmem ⟨2, ![R, 4096]⟩ .f32) (harg : arg.IsWhole) (x : Vec Ideal ⟨2, ![R, 4096]⟩ .f32)
    (n : Nat) (inb : ∀ a, (![n, 0] : Fin 2 → Nat) a + (![1, 4096] : Fin 2 → Nat) a ≤ (⟨2, ![R, 4096]⟩ : Shape).size a) (b : Fin 4096) :
    View.readAt (Elt Ideal) arg.view (Rect.unit (s := ⟨2, ![R, 4096]⟩) ![n, 0] ![1, 4096] inb).toLoadRect (harg.unread x) (ix2 0 b)
      = x (ix2 ⟨n, by have := inb 0; simp at this; omega⟩ b) := by
  rw [View.readAt_apply, harg.read_unread, idx_row_n]

theorem rd_trans_n (arg3 : Memref sig .tc .vmem S3x4096 .f32) (harg3 : arg3.IsWhole) (x2 : Vec Ideal S3x4096 .f32)
    (n : Nat) (inb : ∀ a, (![n, 0] : Fin 2 → Nat) a + (![1, 4096] : Fin 2 → Nat) a ≤ S3x4096.size a) (b : Fin 4096) :
    View.readAt (Elt Ideal) arg3.view (Rect.unit (s := S3x4096) ![n, 0] ![1, 4096] inb).toLoadRect (harg3.unread x2) (ix2 0 b)
      = x2 (ix2 ⟨n, by have := inb 0; simp at this; omega⟩ b) :=
  rd_row_n arg3 harg3 x2 n inb b

theorem rd_trans (arg3 : Memref sig .tc .vmem S3x4096 .f32) (harg3 : arg3.IsWhole) (x2 : Vec Ideal S3x4096 .f32)
    (k : Fin 3) (inb : ∀ a, (![k.val, 0] : Fin 2 → Nat) a + (![1, 4096] : Fin 2 → Nat) a ≤ S3x4096.size a) (b : Fin 4096) :
    View.readAt (Elt Ideal) arg3.view (Rect.unit (s := S3x4096) ![k.val, 0] ![1, 4096] inb).toLoadRect (harg3.unread x2) (ix2 0 b)
      = x2 (ix2 k b) :=
  rd_row_n arg3 harg3 x2 k.val inb b

theorem rd_off_fn (arg2 : Memref sig .tc .vmem S24x3 .f32) (harg2 : arg2.IsWhole) (x1 : Vec Ideal S24x3 .f32)
    (inb : ∀ a, (![0, 0] : Fin 2 → Nat) a + (![24, 3] : Fin 2 → Nat) a ≤ S24x3.size a) :
    View.readAt (Elt Ideal) arg2.view (Rect.unit (s := S24x3) ![0, 0] ![24, 3] inb).toLoadRect (harg2.unread x1) = x1 := by
  rw [View.readAt_eq_ld, harg2.read_unread]
  exact View.ld_unit_zero (S := S24x3) (funext fun a => match a with | ⟨0, _⟩ => rfl | ⟨1, _⟩ => rfl) inb x1

theorem rd_off (arg2 : Memref sig .tc .vmem S24x3 .f32) (harg2 : arg2.IsWhole) (x1 : Vec Ideal S24x3 .f32)
    (inb : ∀ a, (![0, 0] : Fin 2 → Nat) a + (![24, 3] : Fin 2 → Nat) a ≤ S24x3.size a) (i : S24x3.Idx) :
    View.readAt (Elt Ideal) arg2.view (Rect.unit (s := S24x3) ![0, 0] ![24, 3] inb).toLoadRect (harg2.unread x1) i = x1 i :=
  congrFun (rd_off_fn arg2 harg2 x1 inb) i

end Reads

/-! ### A row index given by its numeral

The `_n` lemmas above leave a row index as `⟨n, _⟩`; these rewrite it to the numeral of the row type. -/

theorem fin3_0 (h : 0 < 3) : (⟨0, h⟩ : Fin 3) = 0 := rfl
theorem fin3_1 (h : 1 < 3) : (⟨1, h⟩ : Fin 3) = 1 := rfl
theorem fin3_2 (h : 2 < 3) : (⟨2, h⟩ : Fin 3) = 2 := rfl
theorem fin24_0 (h : 0 < 24) : (⟨0, h⟩ : Fin 24) = 0 := rfl
theorem fin24_1 (h : 1 < 24) : (⟨1, h⟩ : Fin 24) = 1 := rfl
theorem fin24_2 (h : 2 < 24) : (⟨2, h⟩ : Fin 24) = 2 := rfl
theorem fin24_3 (h : 3 < 24) : (⟨3, h⟩ : Fin 24) = 3 := rfl
theorem fin24_4 (h : 4 < 24) : (⟨4, h⟩ : Fin 24) = 4 := rfl
theorem fin24_5 (h : 5 < 24) : (⟨5, h⟩ : Fin 24) = 5 := rfl
theorem fin24_6 (h : 6 < 24) : (⟨6, h⟩ : Fin 24) = 6 := rfl
theorem fin24_7 (h : 7 < 24) : (⟨7, h⟩ : Fin 24) = 7 := rfl
theorem fin24_8 (h : 8 < 24) : (⟨8, h⟩ : Fin 24) = 8 := rfl
theorem fin24_9 (h : 9 < 24) : (⟨9, h⟩ : Fin 24) = 9 := rfl
theorem fin24_10 (h : 10 < 24) : (⟨10, h⟩ : Fin 24) = 10 := rfl
theorem fin24_11 (h : 11 < 24) : (⟨11, h⟩ : Fin 24) = 11 := rfl
theorem fin24_12 (h : 12 < 24) : (⟨12, h⟩ : Fin 24) = 12 := rfl
theorem fin24_13 (h : 13 < 24) : (⟨13, h⟩ : Fin 24) = 13 := rfl
theorem fin24_14 (h : 14 < 24) : (⟨14, h⟩ : Fin 24) = 14 := rfl
theorem fin24_15 (h : 15 < 24) : (⟨15, h⟩ : Fin 24) = 15 := rfl
theorem fin24_16 (h : 16 < 24) : (⟨16, h⟩ : Fin 24) = 16 := rfl
theorem fin24_17 (h : 17 < 24) : (⟨17, h⟩ : Fin 24) = 17 := rfl
theorem fin24_18 (h : 18 < 24) : (⟨18, h⟩ : Fin 24) = 18 := rfl
theorem fin24_19 (h : 19 < 24) : (⟨19, h⟩ : Fin 24) = 19 := rfl
theorem fin24_20 (h : 20 < 24) : (⟨20, h⟩ : Fin 24) = 20 := rfl
theorem fin24_21 (h : 21 < 24) : (⟨21, h⟩ : Fin 24) = 21 := rfl
theorem fin24_22 (h : 22 < 24) : (⟨22, h⟩ : Fin 24) = 22 := rfl
theorem fin24_23 (h : 23 < 24) : (⟨23, h⟩ : Fin 24) = 23 := rfl

end Cert.KernelIdeal.KL

end
-- ==== Proof.KUnfoldAttr.lean ====
/-
  A rewrite set for the defining equations of the body's named intermediate values (each stored or loaded vector the
  body's run names, and each pure payload of the skeleton): evaluating a stored value at one lane opens exactly these.
-/
import Lean.Meta.Tactic.Simp.RegisterCommand

/-- The defining equations of the body's named values and payloads. -/
register_simp_attr fk_unfold
-- ==== Proof.KUnfoldSet.lean ====
/- (scratch/sl_binders.txt is written by scratch/Probe4.lean: the names of the auxiliary definitions of the body's run.)
   The rewrite set of the body's named values: 1213 values the run names and 1148 payloads of the skeleton. -/
import proofs.«160816_j62156766707902_1_alg».proof.Proof.Gen.KernelIdeal.Frame.RunA
import proofs.«160816_j62156766707902_1_alg».proof.Proof.KUnfoldAttr

open Cert.KernelIdeal.Gen in
attribute [fk_unfold]
  k0_pay1
  k0_pay2
  k0_pay3
  k0_pay4
  k0_pay5
  k0_pay6
  k0_pay7
  k0_pay8
  k0_pay9
  k0_pay10
  k0_pay11
  k0_pay12
  k0_pay13
  k0_pay14
  k0_pay15
  k0_pay16
  k0_pay17
  k0_pay18
  k0_pay19
  k0_pay20
  k0_pay21
  k0_pay22
  k0_pay23
  k0_pay24
  k0_pay25
  k0_pay26
  k0_pay27
  k0_pay28
  k0_pay29
  k0_pay30
  k0_pay31
  k0_pay32
  k0_pay33
  k0_pay34
  k0_pay35
  k0_pay36
  k0_pay37
  k0_pay38
  k0_pay39
  k0_pay40
  k0_pay41
  k0_pay42
  k0_pay43
  k0_pay44
  k0_pay45
  k0_pay46
  k0_pay47
  k0_pay48
  k0_pay49
  k0_pay50
  k0_pay51
  k0_pay52
  k0_pay53
  k0_pay54
  k0_pay55
  k0_pay56
  k0_pay57
  k0_pay58
  k0_pay59
  k0_pay60
  k0_pay61
  k0_pay62
  k0_pay63
  k0_pay64
  k0_pay65
  k0_pay66
  k0_pay67
  k0_pay68
  k0_pay69
  k0_pay70
  k0_pay71
  k0_pay72
  k0_pay73
  k0_pay74
  k0_pay75
  k0_pay76
  k0_pay77
  k0_pay78
  k0_pay79
  k0_pay80
  k0_pay81
  k0_pay82
  k0_pay83
  k0_pay84
  k0_pay85
  k0_pay86
  k0_pay87
  k0_pay88
  k0_pay89
  k0_pay90
  k0_pay91
  k0_pay92
  k0_pay93
  k0_pay94
  k0_pay95
  k0_pay96
  k0_pay97
  k0_pay98
  k0_pay99
  k0_pay100
  k0_pay101
  k0_pay102
  k0_pay103
  k0_pay104
  k0_pay105
  k0_pay106
  k0_pay107
  k0_pay108
  k0_pay109
  k0_pay110
  k0_pay111
  k0_pay112
  k0_pay113
  k0_pay114
  k0_pay115
  k0_pay116
  k0_pay117
  k0_pay118
  k0_pay119
  k0_pay120
  k0_pay121
  k0_pay122
  k0_pay123
  k0_pay124
  k0_pay125
  k0_pay126
  k0_pay127
  k0_pay128
  k0_pay129
  k0_pay130
  k0_pay131
  k0_pay132
  k0_pay133
  k0_pay134
  k0_pay135
  k0_pay136
  k0_pay137
  k0_pay138
  k0_pay139
  k0_pay140
  k0_pay141
  k0_pay142
  k0_pay143
  k0_pay144
  k0_pay145
  k0_pay146
  k0_pay147
  k0_pay148
  k0_pay149
  k0_pay150
  k0_pay151
  k0_pay152
  k0_pay153
  k0_pay154
  k0_pay155
  k0_pay156
  k0_pay157
  k0_pay158
  k0_pay159
  k0_pay160
  k0_pay161
  k0_pay162
  k0_pay163
  k0_pay164
  k0_pay165
  k0_pay166
  k0_pay167
  k0_pay168
  k0_pay169
  k0_pay170
  k0_pay171
  k0_pay172
  k0_pay173
  k0_pay174
  k0_pay175
  k0_pay176
  k0_pay177
  k0_pay178
  k0_pay179
  k0_pay180
  k0_pay181
  k0_pay182
  k0_pay183
  k0_pay184
  k0_pay185
  k0_pay186
  k0_pay187
  k0_pay188
  k0_pay189
  k0_pay190
  k0_pay191
  k0_pay192
  k0_pay193
  k0_pay194
  k0_pay195
  k0_pay196
  k0_pay197
  k0_pay198
  k0_pay199
  k0_pay200
  k0_pay201
  k0_pay202
  k0_pay203
  k0_pay204
  k0_pay205
  k0_pay206
  k0_pay207
  k0_pay208
  k0_pay209
  k0_pay210
  k0_pay211
  k0_pay212
  k0_pay213
  k0_pay214
  k0_pay215
  k0_pay216
  k0_pay217
  k0_pay218
  k0_pay219
  k0_pay220
  k0_pay221
  k0_pay222
  k0_pay223
  k0_pay224
  k0_pay225
  k0_pay226
  k0_pay227
  k0_pay228
  k0_pay229
  k0_pay230
  k0_pay231
  k0_pay232
  k0_pay233
  k0_pay234
  k0_pay235
  k0_pay236
  k0_pay237
  k0_pay238
  k0_pay239
  k0_pay240
  k0_pay241
  k0_pay242
  k0_pay243
  k0_pay244
  k0_pay245
  k0_pay246
  k0_pay247
  k0_pay248
  k0_pay249
  k0_pay250
  k0_pay251
  k0_pay252
  k0_pay253
  k0_pay254
  k0_pay255
  k0_pay256
  k0_pay257
  k0_pay258
  k0_pay259
  k0_pay260
  k0_pay261
  k0_pay262
  k0_pay263
  k0_pay264
  k0_pay265
  k0_pay266
  k0_pay267
  k0_pay268
  k0_pay269
  k0_pay270
  k0_pay271
  k0_pay272
  k0_pay273
  k0_pay274
  k0_pay275
  k0_pay276
  k0_pay277
  k0_pay278
  k0_pay279
  k0_pay280
  k0_pay281
  k0_pay282
  k0_pay283
  k0_pay284
  k0_pay285
  k0_pay286
  k0_pay287
  k0_pay288
  k0_pay289
  k0_pay290
  k0_pay291
  k0_pay292
  k0_pay293
  k0_pay294
  k0_pay295
  k0_pay296
  k0_pay297
  k0_pay298
  k0_pay299
  k0_pay300
  k0_pay301
  k0_pay302
  k0_pay303
  k0_pay304
  k0_pay305
  k0_pay306
  k0_pay307
  k0_pay308
  k0_pay309
  k0_pay310
  k0_pay311
  k0_pay312
  k0_pay313
  k0_pay314
  k0_pay315
  k0_pay316
  k0_pay317
  k0_pay318
  k0_pay319
  k0_pay320
  k0_pay321
  k0_pay322
  k0_pay323
  k0_pay324
  k0_pay325
  k0_pay326
  k0_pay327
  k0_pay328
  k0_pay329
  k0_pay330
  k0_pay331
  k0_pay332
  k0_pay333
  k0_pay334
  k0_pay335
  k0_pay336
  k0_pay337
  k0_pay338
  k0_pay339
  k0_pay340
  k0_pay341
  k0_pay342
  k0_pay343
  k0_pay344
  k0_pay345
  k0_pay346
  k0_pay347
  k0_pay348
  k0_pay349
  k0_pay350
  k0_pay351
  k0_pay352
  k0_pay353
  k0_pay354
  k0_pay355
  k0_pay356
  k0_pay357
  k0_pay358
  k0_pay359
  k0_pay360
  k0_pay361
  k0_pay362
  k0_pay363
  k0_pay364
  k0_pay365
  k0_pay366
  k0_pay367
  k0_pay368
  k0_pay369
  k0_pay370
  k0_pay371
  k0_pay372
  k0_pay373
  k0_pay374
  k0_pay375
  k0_pay376
  k0_pay377
  k0_pay378
  k0_pay379
  k0_pay380
  k0_pay381
  k0_pay382
  k0_pay383
  k0_pay384
  k0_pay385
  k0_pay386
  k0_pay387
  k0_pay388
  k0_pay389
  k0_pay390
  k0_pay391
  k0_pay392
  k0_pay393
  k0_pay394
  k0_pay395
  k0_pay396
  k0_pay397
  k0_pay398
  k0_pay399
  k0_pay400
  k0_pay401
  k0_pay402
  k0_pay403
  k0_pay404
  k0_pay405
  k0_pay406
  k0_pay407
  k0_pay408
  k0_pay409
  k0_pay410
  k0_pay411
  k0_pay412
  k0_pay413
  k0_pay414
  k0_pay415
  k0_pay416
  k0_pay417
  k0_pay418
  k0_pay419
  k0_pay420
  k0_pay421
  k0_pay422
  k0_pay423
  k0_pay424
  k0_pay425
  k0_pay426
  k0_pay427
  k0_pay428
  k0_pay429
  k0_pay430
  k0_pay431
  k0_pay432
  k0_pay433
  k0_pay434
  k0_pay435
  k0_pay436
  k0_pay437
  k0_pay438
  k0_pay439
  k0_pay440
  k0_pay441
  k0_pay442
  k0_pay443
  k0_pay444
  k0_pay445
  k0_pay446
  k0_pay447
  k0_pay448
  k0_pay449
  k0_pay450
  k0_pay451
  k0_pay452
  k0_pay453
  k0_pay454
  k0_pay455
  k0_pay456
  k0_pay457
  k0_pay458
  k0_pay459
  k0_pay460
  k0_pay461
  k0_pay462
  k0_pay463
  k0_pay464
  k0_pay465
  k0_pay466
  k0_pay467
  k0_pay468
  k0_pay469
  k0_pay470
  k0_pay471
  k0_pay472
  k0_pay473
  k0_pay474
  k0_pay475
  k0_pay476
  k0_pay477
  k0_pay478
  k0_pay479
  k0_pay480
  k0_pay481
  k0_pay482
  k0_pay483
  k0_pay484
  k0_pay485
  k0_pay486
  k0_pay487
  k0_pay488
  k0_pay489
  k0_pay490
  k0_pay491
  k0_pay492
  k0_pay493
  k0_pay494
  k0_pay495
  k0_pay496
  k0_pay497
  k0_pay498
  k0_pay499
  k0_pay500
  k0_pay501
  k0_pay502
  k0_pay503
  k0_pay504
  k0_pay505
  k0_pay506
  k0_pay507
  k0_pay508
  k0_pay509
  k0_pay510
  k0_pay511
  k0_pay512
  k0_pay513
  k0_pay514
  k0_pay515
  k0_pay516
  k0_pay517
  k0_pay518
  k0_pay519
  k0_pay520
  k0_pay521
  k0_pay522
  k0_pay523
  k0_pay524
  k0_pay525
  k0_pay526
  k0_pay527
  k0_pay528
  k0_pay529
  k0_pay530
  k0_pay531
  k0_pay532
  k0_pay533
  k0_pay534
  k0_pay535
  k0_pay536
  k0_pay537
  k0_pay538
  k0_pay539
  k0_pay540
  k0_pay541
  k0_pay542
  k0_pay543
  k0_pay544
  k0_pay545
  k0_pay546
  k0_pay547
  k0_pay548
  k0_pay549
  k0_pay550
  k0_pay551
  k0_pay552
  k0_pay553
  k0_pay554
  k0_pay555
  k0_pay556
  k0_pay557
  k0_pay558
  k0_pay559
  k0_pay560
  k0_pay561
  k0_pay562
  k0_pay563
  k0_pay564
  k0_pay565
  k0_pay566
  k0_pay567
  k0_pay568
  k0_pay569
  k0_pay570
  k0_pay571
  k0_pay572
  k0_pay573
  k0_pay574
  k0_pay575
  k0_pay576
  k0_pay577
  k0_pay578
  k0_pay579
  k0_pay580
  k0_pay581
  k0_pay582
  k0_pay583
  k0_pay584
  k0_pay585
  k0_pay586
  k0_pay587
  k0_pay588
  k0_pay589
  k0_pay590
  k0_pay591
  k0_pay592
  k0_pay593
  k0_pay594
  k0_pay595
  k0_pay596
  k0_pay597
  k0_pay598
  k0_pay599
  k0_pay600
  k0_pay601
  k0_pay602
  k0_pay603
  k0_pay604
  k0_pay605
  k0_pay606
  k0_pay607
  k0_pay608
  k0_pay609
  k0_pay610
  k0_pay611
  k0_pay612
  k0_pay613
  k0_pay614
  k0_pay615
  k0_pay616
  k0_pay617
  k0_pay618
  k0_pay619
  k0_pay620
  k0_pay621
  k0_pay622
  k0_pay623
  k0_pay624
  k0_pay625
  k0_pay626
  k0_pay627
  k0_pay628
  k0_pay629
  k0_pay630
  k0_pay631
  k0_pay632
  k0_pay633
  k0_pay634
  k0_pay635
  k0_pay636
  k0_pay637
  k0_pay638
  k0_pay639
  k0_pay640
  k0_pay641
  k0_pay642
  k0_pay643
  k0_pay644
  k0_pay645
  k0_pay646
  k0_pay647
  k0_pay648
  k0_pay649
  k0_pay650
  k0_pay651
  k0_pay652
  k0_pay653
  k0_pay654
  k0_pay655
  k0_pay656
  k0_pay657
  k0_pay658
  k0_pay659
  k0_pay660
  k0_pay661
  k0_pay662
  k0_pay663
  k0_pay664
  k0_pay665
  k0_pay666
  k0_pay667
  k0_pay668
  k0_pay669
  k0_pay670
  k0_pay671
  k0_pay672
  k0_pay673
  k0_pay674
  k0_pay675
  k0_pay676
  k0_pay677
  k0_pay678
  k0_pay679
  k0_pay680
  k0_pay681
  k0_pay682
  k0_pay683
  k0_pay684
  k0_pay685
  k0_pay686
  k0_pay687
  k0_pay688
  k0_pay689
  k0_pay690
  k0_pay691
  k0_pay692
  k0_pay693
  k0_pay694
  k0_pay695
  k0_pay696
  k0_pay697
  k0_pay698
  k0_pay699
  k0_pay700
  k0_pay701
  k0_pay702
  k0_pay703
  k0_pay704
  k0_pay705
  k0_pay706
  k0_pay707
  k0_pay708
  k0_pay709
  k0_pay710
  k0_pay711
  k0_pay712
  k0_pay713
  k0_pay714
  k0_pay715
  k0_pay716
  k0_pay717
  k0_pay718
  k0_pay719
  k0_pay720
  k0_pay721
  k0_pay722
  k0_pay723
  k0_pay724
  k0_pay725
  k0_pay726
  k0_pay727
  k0_pay728
  k0_pay729
  k0_pay730
  k0_pay731
  k0_pay732
  k0_pay733
  k0_pay734
  k0_pay735
  k0_pay736
  k0_pay737
  k0_pay738
  k0_pay739
  k0_pay740
  k0_pay741
  k0_pay742
  k0_pay743
  k0_pay744
  k0_pay745
  k0_pay746
  k0_pay747
  k0_pay748
  k0_pay749
  k0_pay750
  k0_pay751
  k0_pay752
  k0_pay753
  k0_pay754
  k0_pay755
  k0_pay756
  k0_pay757
  k0_pay758
  k0_pay759
  k0_pay760
  k0_pay761
  k0_pay762
  k0_pay763
  k0_pay764
  k0_pay765
  k0_pay766
  k0_pay767
  k0_pay768
  k0_pay769
  k0_pay770
  k0_pay771
  k0_pay772
  k0_pay773
  k0_pay774
  k0_pay775
  k0_pay776
  k0_pay777
  k0_pay778
  k0_pay779
  k0_pay780
  k0_pay781
  k0_pay782
  k0_pay783
  k0_pay784
  k0_pay785
  k0_pay786
  k0_pay787
  k0_pay788
  k0_pay789
  k0_pay790
  k0_pay791
  k0_pay792
  k0_pay793
  k0_pay794
  k0_pay795
  k0_pay796
  k0_pay797
  k0_pay798
  k0_pay799
  k0_pay800
  k0_pay801
  k0_pay802
  k0_pay803
  k0_pay804
  k0_pay805
  k0_pay806
  k0_pay807
  k0_pay808
  k0_pay809
  k0_pay810
  k0_pay811
  k0_pay812
  k0_pay813
  k0_pay814
  k0_pay815
  k0_pay816
  k0_pay817
  k0_pay818
  k0_pay819
  k0_pay820
  k0_pay821
  k0_pay822
  k0_pay823
  k0_pay824
  k0_pay825
  k0_pay826
  k0_pay827
  k0_pay828
  k0_pay829
  k0_pay830
  k0_pay831
  k0_pay832
  k0_pay833
  k0_pay834
  k0_pay835
  k0_pay836
  k0_pay837
  k0_pay838
  k0_pay839
  k0_pay840
  k0_pay841
  k0_pay842
  k0_pay843
  k0_pay844
  k0_pay845
  k0_pay846
  k0_pay847
  k0_pay848
  k0_pay849
  k0_pay850
  k0_pay851
  k0_pay852
  k0_pay853
  k0_pay854
  k0_pay855
  k0_pay856
  k0_pay857
  k0_pay858
  k0_pay859
  k0_pay860
  k0_pay861
  k0_pay862
  k0_pay863
  k0_pay864
  k0_pay865
  k0_pay866
  k0_pay867
  k0_pay868
  k0_pay869
  k0_pay870
  k0_pay871
  k0_pay872
  k0_pay873
  k0_pay874
  k0_pay875
  k0_pay876
  k0_pay877
  k0_pay878
  k0_pay879
  k0_pay880
  k0_pay881
  k0_pay882
  k0_pay883
  k0_pay884
  k0_pay885
  k0_pay886
  k0_pay887
  k0_pay888
  k0_pay889
  k0_pay890
  k0_pay891
  k0_pay892
  k0_pay893
  k0_pay894
  k0_pay895
  k0_pay896
  k0_pay897
  k0_pay898
  k0_pay899
  k0_pay900
  k0_pay901
  k0_pay902
  k0_pay903
  k0_pay904
  k0_pay905
  k0_pay906
  k0_pay907
  k0_pay908
  k0_pay909
  k0_pay910
  k0_pay911
  k0_pay912
  k0_pay913
  k0_pay914
  k0_pay915
  k0_pay916
  k0_pay917
  k0_pay918
  k0_pay919
  k0_pay920
  k0_pay921
  k0_pay922
  k0_pay923
  k0_pay924
  k0_pay925
  k0_pay926
  k0_pay927
  k0_pay928
  k0_pay929
  k0_pay930
  k0_pay931
  k0_pay932
  k0_pay933
  k0_pay934
  k0_pay935
  k0_pay936
  k0_pay937
  k0_pay938
  k0_pay939
  k0_pay940
  k0_pay941
  k0_pay942
  k0_pay943
  k0_pay944
  k0_pay945
  k0_pay946
  k0_pay947
  k0_pay948
  k0_pay949
  k0_pay950
  k0_pay951
  k0_pay952
  k0_pay953
  k0_pay954
  k0_pay955
  k0_pay956
  k0_pay957
  k0_pay958
  k0_pay959
  k0_pay960
  k0_pay961
  k0_pay962
  k0_pay963
  k0_pay964
  k0_pay965
  k0_pay966
  k0_pay967
  k0_pay968
  k0_pay969
  k0_pay970
  k0_pay971
  k0_pay972
  k0_pay973
  k0_pay974
  k0_pay975
  k0_pay976
  k0_pay977
  k0_pay978
  k0_pay979
  k0_pay980
  k0_pay981
  k0_pay982
  k0_pay983
  k0_pay984
  k0_pay985
  k0_pay986
  k0_pay987
  k0_pay988
  k0_pay989
  k0_pay990
  k0_pay991
  k0_pay992
  k0_pay993
  k0_pay994
  k0_pay995
  k0_pay996
  k0_pay997
  k0_pay998
  k0_pay999
  k0_pay1000
  k0_pay1001
  k0_pay1002
  k0_pay1003
  k0_pay1004
  k0_pay1005
  k0_pay1006
  k0_pay1007
  k0_pay1008
  k0_pay1009
  k0_pay1010
  k0_pay1011
  k0_pay1012
  k0_pay1013
  k0_pay1014
  k0_pay1015
  k0_pay1016
  k0_pay1017
  k0_pay1018
  k0_pay1019
  k0_pay1020
  k0_pay1021
  k0_pay1022
  k0_pay1023
  k0_pay1024
  k0_pay1025
  k0_pay1026
  k0_pay1027
  k0_pay1028
  k0_pay1029
  k0_pay1030
  k0_pay1031
  k0_pay1032
  k0_pay1033
  k0_pay1034
  k0_pay1035
  k0_pay1036
  k0_pay1037
  k0_pay1038
  k0_pay1039
  k0_pay1040
  k0_pay1041
  k0_pay1042
  k0_pay1043
  k0_pay1044
  k0_pay1045
  k0_pay1046
  k0_pay1047
  k0_pay1048
  k0_pay1049
  k0_pay1050
  k0_pay1051
  k0_pay1052
  k0_pay1053
  k0_pay1054
  k0_pay1055
  k0_pay1056
  k0_pay1057
  k0_pay1058
  k0_pay1059
  k0_pay1060
  k0_pay1061
  k0_pay1062
  k0_pay1063
  k0_pay1064
  k0_pay1065
  k0_pay1066
  k0_pay1067
  k0_pay1068
  k0_pay1069
  k0_pay1070
  k0_pay1071
  k0_pay1072
  k0_pay1073
  k0_pay1074
  k0_pay1075
  k0_pay1076
  k0_pay1077
  k0_pay1078
  k0_pay1079
  k0_pay1080
  k0_pay1081
  k0_pay1082
  k0_pay1083
  k0_pay1084
  k0_pay1085
  k0_pay1086
  k0_pay1087
  k0_pay1088
  k0_pay1089
  k0_pay1090
  k0_pay1091
  k0_pay1092
  k0_pay1093
  k0_pay1094
  k0_pay1095
  k0_pay1096
  k0_pay1097
  k0_pay1098
  k0_pay1099
  k0_pay1100
  k0_pay1101
  k0_pay1102
  k0_pay1103
  k0_pay1104
  k0_pay1105
  k0_pay1106
  k0_pay1107
  k0_pay1108
  k0_pay1109
  k0_pay1110
  k0_pay1111
  k0_pay1112
  k0_pay1113
  k0_pay1114
  k0_pay1115
  k0_pay1116
  k0_pay1117
  k0_pay1118
  k0_pay1119
  k0_pay1120
  k0_pay1121
  k0_pay1122
  k0_pay1123
  k0_pay1124
  k0_pay1125
  k0_pay1126
  k0_pay1127
  k0_pay1128
  k0_pay1129
  k0_pay1130
  k0_pay1131
  k0_pay1132
  k0_pay1133
  k0_pay1134
  k0_pay1135
  k0_pay1136
  k0_pay1137
  k0_pay1138
  k0_pay1139
  k0_pay1140
  k0_pay1141
  k0_pay1142
  k0_pay1143
  k0_pay1144
  k0_pay1145
  k0_pay1146
  k0_pay1147
  k0_pay1148
  Cert.KernelIdeal.Gen.kernelRun0_A.sl.cst_1209
  Cert.KernelIdeal.Gen.kernelRun0_A.sl.cst_735
  Cert.KernelIdeal.Gen.kernelRun0_A.sl.r
  Cert.KernelIdeal.Gen.kernelRun0_A.sl.r_1
  Cert.KernelIdeal.Gen.kernelRun0_A.sl.r_10
  Cert.KernelIdeal.Gen.kernelRun0_A.sl.r_100
  Cert.KernelIdeal.Gen.kernelRun0_A.sl.r_101
  Cert.KernelIdeal.Gen.kernelRun0_A.sl.r_102
  Cert.KernelIdeal.Gen.kernelRun0_A.sl.r_103
  Cert.KernelIdeal.Gen.kernelRun0_A.sl.r_104
  Cert.KernelIdeal.Gen.kernelRun0_A.sl.r_105
  Cert.KernelIdeal.Gen.kernelRun0_A.sl.r_106
  Cert.KernelIdeal.Gen.kernelRun0_A.sl.r_107
  Cert.KernelIdeal.Gen.kernelRun0_A.sl.r_108
  Cert.KernelIdeal.Gen.kernelRun0_A.sl.r_109
  Cert.KernelIdeal.Gen.kernelRun0_A.sl.r_11
  Cert.KernelIdeal.Gen.kernelRun0_A.sl.r_110
  Cert.KernelIdeal.Gen.kernelRun0_A.sl.r_111
  Cert.KernelIdeal.Gen.kernelRun0_A.sl.r_112
  Cert.KernelIdeal.Gen.kernelRun0_A.sl.r_113
  Cert.KernelIdeal.Gen.kernelRun0_A.sl.r_114
  Cert.KernelIdeal.Gen.kernelRun0_A.sl.r_115
  Cert.KernelIdeal.Gen.kernelRun0_A.sl.r_116
  Cert.KernelIdeal.Gen.kernelRun0_A.sl.r_117
  Cert.KernelIdeal.Gen.kernelRun0_A.sl.r_118
  Cert.KernelIdeal.Gen.kernelRun0_A.sl.r_119
  Cert.KernelIdeal.Gen.kernelRun0_A.sl.r_12
  Cert.KernelIdeal.Gen.kernelRun0_A.sl.r_120
  Cert.KernelIdeal.Gen.kernelRun0_A.sl.r_121
  Cert.KernelIdeal.Gen.kernelRun0_A.sl.r_122
  Cert.KernelIdeal.Gen.kernelRun0_A.sl.r_123
  Cert.KernelIdeal.Gen.kernelRun0_A.sl.r_124
  Cert.KernelIdeal.Gen.kernelRun0_A.sl.r_125
  Cert.KernelIdeal.Gen.kernelRun0_A.sl.r_126
  Cert.KernelIdeal.Gen.kernelRun0_A.sl.r_127
  Cert.KernelIdeal.Gen.kernelRun0_A.sl.r_128
  Cert.KernelIdeal.Gen.kernelRun0_A.sl.r_129
  Cert.KernelIdeal.Gen.kernelRun0_A.sl.r_13
  Cert.KernelIdeal.Gen.kernelRun0_A.sl.r_130
  Cert.KernelIdeal.Gen.kernelRun0_A.sl.r_131
  Cert.KernelIdeal.Gen.kernelRun0_A.sl.r_132
  Cert.KernelIdeal.Gen.kernelRun0_A.sl.r_133
  Cert.KernelIdeal.Gen.kernelRun0_A.sl.r_134
  Cert.KernelIdeal.Gen.kernelRun0_A.sl.r_135
  Cert.KernelIdeal.Gen.kernelRun0_A.sl.r_136
  Cert.KernelIdeal.Gen.kernelRun0_A.sl.r_137
  Cert.KernelIdeal.Gen.kernelRun0_A.sl.r_138
  Cert.KernelIdeal.Gen.kernelRun0_A.sl.r_139
  Cert.KernelIdeal.Gen.kernelRun0_A.sl.r_14
  Cert.KernelIdeal.Gen.kernelRun0_A.sl.r_140
  Cert.KernelIdeal.Gen.kernelRun0_A.sl.r_141
  Cert.KernelIdeal.Gen.kernelRun0_A.sl.r_142
  Cert.KernelIdeal.Gen.kernelRun0_A.sl.r_143
  Cert.KernelIdeal.Gen.kernelRun0_A.sl.r_144
  Cert.KernelIdeal.Gen.kernelRun0_A.sl.r_145
  Cert.KernelIdeal.Gen.kernelRun0_A.sl.r_146
  Cert.KernelIdeal.Gen.kernelRun0_A.sl.r_147
  Cert.KernelIdeal.Gen.kernelRun0_A.sl.r_148
  Cert.KernelIdeal.Gen.kernelRun0_A.sl.r_149
  Cert.KernelIdeal.Gen.kernelRun0_A.sl.r_15
  Cert.KernelIdeal.Gen.kernelRun0_A.sl.r_150
  Cert.KernelIdeal.Gen.kernelRun0_A.sl.r_151
  Cert.KernelIdeal.Gen.kernelRun0_A.sl.r_152
  Cert.KernelIdeal.Gen.kernelRun0_A.sl.r_153
  Cert.KernelIdeal.Gen.kernelRun0_A.sl.r_154
  Cert.KernelIdeal.Gen.kernelRun0_A.sl.r_155
  Cert.KernelIdeal.Gen.kernelRun0_A.sl.r_156
  Cert.KernelIdeal.Gen.kernelRun0_A.sl.r_157
  Cert.KernelIdeal.Gen.kernelRun0_A.sl.r_158
  Cert.KernelIdeal.Gen.kernelRun0_A.sl.r_159
  Cert.KernelIdeal.Gen.kernelRun0_A.sl.r_16
  Cert.KernelIdeal.Gen.kernelRun0_A.sl.r_160
  Cert.KernelIdeal.Gen.kernelRun0_A.sl.r_161
  Cert.KernelIdeal.Gen.kernelRun0_A.sl.r_162
  Cert.KernelIdeal.Gen.kernelRun0_A.sl.r_163
  Cert.KernelIdeal.Gen.kernelRun0_A.sl.r_164
  Cert.KernelIdeal.Gen.kernelRun0_A.sl.r_165
  Cert.KernelIdeal.Gen.kernelRun0_A.sl.r_166
  Cert.KernelIdeal.Gen.kernelRun0_A.sl.r_167
  Cert.KernelIdeal.Gen.kernelRun0_A.sl.r_168
  Cert.KernelIdeal.Gen.kernelRun0_A.sl.r_169
  Cert.KernelIdeal.Gen.kernelRun0_A.sl.r_17
  Cert.KernelIdeal.Gen.kernelRun0_A.sl.r_170
  Cert.KernelIdeal.Gen.kernelRun0_A.sl.r_171
  Cert.KernelIdeal.Gen.kernelRun0_A.sl.r_172
  Cert.KernelIdeal.Gen.kernelRun0_A.sl.r_173
  Cert.KernelIdeal.Gen.kernelRun0_A.sl.r_174
  Cert.KernelIdeal.Gen.kernelRun0_A.sl.r_175
  Cert.KernelIdeal.Gen.kernelRun0_A.sl.r_176
  Cert.KernelIdeal.Gen.kernelRun0_A.sl.r_177
  Cert.KernelIdeal.Gen.kernelRun0_A.sl.r_178
  Cert.KernelIdeal.Gen.kernelRun0_A.sl.r_179
  Cert.KernelIdeal.Gen.kernelRun0_A.sl.r_18
  Cert.KernelIdeal.Gen.kernelRun0_A.sl.r_180
  Cert.KernelIdeal.Gen.kernelRun0_A.sl.r_181
  Cert.KernelIdeal.Gen.kernelRun0_A.sl.r_182
  Cert.KernelIdeal.Gen.kernelRun0_A.sl.r_183
  Cert.KernelIdeal.Gen.kernelRun0_A.sl.r_184
  Cert.KernelIdeal.Gen.kernelRun0_A.sl.r_185
  Cert.KernelIdeal.Gen.kernelRun0_A.sl.r_186
  Cert.KernelIdeal.Gen.kernelRun0_A.sl.r_187
  Cert.KernelIdeal.Gen.kernelRun0_A.sl.r_188
  Cert.KernelIdeal.Gen.kernelRun0_A.sl.r_189
  Cert.KernelIdeal.Gen.kernelRun0_A.sl.r_19
  Cert.KernelIdeal.Gen.kernelRun0_A.sl.r_190
  Cert.KernelIdeal.Gen.kernelRun0_A.sl.r_191
  Cert.KernelIdeal.Gen.kernelRun0_A.sl.r_192
  Cert.KernelIdeal.Gen.kernelRun0_A.sl.r_193
  Cert.KernelIdeal.Gen.kernelRun0_A.sl.r_194
  Cert.KernelIdeal.Gen.kernelRun0_A.sl.r_195
  Cert.KernelIdeal.Gen.kernelRun0_A.sl.r_196
  Cert.KernelIdeal.Gen.kernelRun0_A.sl.r_197
  Cert.KernelIdeal.Gen.kernelRun0_A.sl.r_198
  Cert.KernelIdeal.Gen.kernelRun0_A.sl.r_199
  Cert.KernelIdeal.Gen.kernelRun0_A.sl.r_2
  Cert.KernelIdeal.Gen.kernelRun0_A.sl.r_20
  Cert.KernelIdeal.Gen.kernelRun0_A.sl.r_200
  Cert.KernelIdeal.Gen.kernelRun0_A.sl.r_201
  Cert.KernelIdeal.Gen.kernelRun0_A.sl.r_202
  Cert.KernelIdeal.Gen.kernelRun0_A.sl.r_203
  Cert.KernelIdeal.Gen.kernelRun0_A.sl.r_204
  Cert.KernelIdeal.Gen.kernelRun0_A.sl.r_205
  Cert.KernelIdeal.Gen.kernelRun0_A.sl.r_206
  Cert.KernelIdeal.Gen.kernelRun0_A.sl.r_207
  Cert.KernelIdeal.Gen.kernelRun0_A.sl.r_208
  Cert.KernelIdeal.Gen.kernelRun0_A.sl.r_209
  Cert.KernelIdeal.Gen.kernelRun0_A.sl.r_21
  Cert.KernelIdeal.Gen.kernelRun0_A.sl.r_210
  Cert.KernelIdeal.Gen.kernelRun0_A.sl.r_211
  Cert.KernelIdeal.Gen.kernelRun0_A.sl.r_212
  Cert.KernelIdeal.Gen.kernelRun0_A.sl.r_213
  Cert.KernelIdeal.Gen.kernelRun0_A.sl.r_214
  Cert.KernelIdeal.Gen.kernelRun0_A.sl.r_215
  Cert.KernelIdeal.Gen.kernelRun0_A.sl.r_216
  Cert.KernelIdeal.Gen.kernelRun0_A.sl.r_217
  Cert.KernelIdeal.Gen.kernelRun0_A.sl.r_218
  Cert.KernelIdeal.Gen.kernelRun0_A.sl.r_219
  Cert.KernelIdeal.Gen.kernelRun0_A.sl.r_22
  Cert.KernelIdeal.Gen.kernelRun0_A.sl.r_220
  Cert.KernelIdeal.Gen.kernelRun0_A.sl.r_221
  Cert.KernelIdeal.Gen.kernelRun0_A.sl.r_222
  Cert.KernelIdeal.Gen.kernelRun0_A.sl.r_223
  Cert.KernelIdeal.Gen.kernelRun0_A.sl.r_224
  Cert.KernelIdeal.Gen.kernelRun0_A.sl.r_225
  Cert.KernelIdeal.Gen.kernelRun0_A.sl.r_226
  Cert.KernelIdeal.Gen.kernelRun0_A.sl.r_227
  Cert.KernelIdeal.Gen.kernelRun0_A.sl.r_228
  Cert.KernelIdeal.Gen.kernelRun0_A.sl.r_229
  Cert.KernelIdeal.Gen.kernelRun0_A.sl.r_23
  Cert.KernelIdeal.Gen.kernelRun0_A.sl.r_230
  Cert.KernelIdeal.Gen.kernelRun0_A.sl.r_231
  Cert.KernelIdeal.Gen.kernelRun0_A.sl.r_232
  Cert.KernelIdeal.Gen.kernelRun0_A.sl.r_233
  Cert.KernelIdeal.Gen.kernelRun0_A.sl.r_234
  Cert.KernelIdeal.Gen.kernelRun0_A.sl.r_235
  Cert.KernelIdeal.Gen.kernelRun0_A.sl.r_236
  Cert.KernelIdeal.Gen.kernelRun0_A.sl.r_237
  Cert.KernelIdeal.Gen.kernelRun0_A.sl.r_238
  Cert.KernelIdeal.Gen.kernelRun0_A.sl.r_239
  Cert.KernelIdeal.Gen.kernelRun0_A.sl.r_24
  Cert.KernelIdeal.Gen.kernelRun0_A.sl.r_240
  Cert.KernelIdeal.Gen.kernelRun0_A.sl.r_241
  Cert.KernelIdeal.Gen.kernelRun0_A.sl.r_242
  Cert.KernelIdeal.Gen.kernelRun0_A.sl.r_243
  Cert.KernelIdeal.Gen.kernelRun0_A.sl.r_244
  Cert.KernelIdeal.Gen.kernelRun0_A.sl.r_245
  Cert.KernelIdeal.Gen.kernelRun0_A.sl.r_246
  Cert.KernelIdeal.Gen.kernelRun0_A.sl.r_247
  Cert.KernelIdeal.Gen.kernelRun0_A.sl.r_248
  Cert.KernelIdeal.Gen.kernelRun0_A.sl.r_249
  Cert.KernelIdeal.Gen.kernelRun0_A.sl.r_25
  Cert.KernelIdeal.Gen.kernelRun0_A.sl.r_250
  Cert.KernelIdeal.Gen.kernelRun0_A.sl.r_251
  Cert.KernelIdeal.Gen.kernelRun0_A.sl.r_252
  Cert.KernelIdeal.Gen.kernelRun0_A.sl.r_253
  Cert.KernelIdeal.Gen.kernelRun0_A.sl.r_254
  Cert.KernelIdeal.Gen.kernelRun0_A.sl.r_255
  Cert.KernelIdeal.Gen.kernelRun0_A.sl.r_256
  Cert.KernelIdeal.Gen.kernelRun0_A.sl.r_257
  Cert.KernelIdeal.Gen.kernelRun0_A.sl.r_258
  Cert.KernelIdeal.Gen.kernelRun0_A.sl.r_259
  Cert.KernelIdeal.Gen.kernelRun0_A.sl.r_26
  Cert.KernelIdeal.Gen.kernelRun0_A.sl.r_260
  Cert.KernelIdeal.Gen.kernelRun0_A.sl.r_261
  Cert.KernelIdeal.Gen.kernelRun0_A.sl.r_262
  Cert.KernelIdeal.Gen.kernelRun0_A.sl.r_263
  Cert.KernelIdeal.Gen.kernelRun0_A.sl.r_264
  Cert.KernelIdeal.Gen.kernelRun0_A.sl.r_265
  Cert.KernelIdeal.Gen.kernelRun0_A.sl.r_266
  Cert.KernelIdeal.Gen.kernelRun0_A.sl.r_267
  Cert.KernelIdeal.Gen.kernelRun0_A.sl.r_268
  Cert.KernelIdeal.Gen.kernelRun0_A.sl.r_269
  Cert.KernelIdeal.Gen.kernelRun0_A.sl.r_27
  Cert.KernelIdeal.Gen.kernelRun0_A.sl.r_270
  Cert.KernelIdeal.Gen.kernelRun0_A.sl.r_271
  Cert.KernelIdeal.Gen.kernelRun0_A.sl.r_272
  Cert.KernelIdeal.Gen.kernelRun0_A.sl.r_273
  Cert.KernelIdeal.Gen.kernelRun0_A.sl.r_274
  Cert.KernelIdeal.Gen.kernelRun0_A.sl.r_275
  Cert.KernelIdeal.Gen.kernelRun0_A.sl.r_276
  Cert.KernelIdeal.Gen.kernelRun0_A.sl.r_277
  Cert.KernelIdeal.Gen.kernelRun0_A.sl.r_278
  Cert.KernelIdeal.Gen.kernelRun0_A.sl.r_279
  Cert.KernelIdeal.Gen.kernelRun0_A.sl.r_28
  Cert.KernelIdeal.Gen.kernelRun0_A.sl.r_280
  Cert.KernelIdeal.Gen.kernelRun0_A.sl.r_281
  Cert.KernelIdeal.Gen.kernelRun0_A.sl.r_282
  Cert.KernelIdeal.Gen.kernelRun0_A.sl.r_283
  Cert.KernelIdeal.Gen.kernelRun0_A.sl.r_284
  Cert.KernelIdeal.Gen.kernelRun0_A.sl.r_285
  Cert.KernelIdeal.Gen.kernelRun0_A.sl.r_286
  Cert.KernelIdeal.Gen.kernelRun0_A.sl.r_287
  Cert.KernelIdeal.Gen.kernelRun0_A.sl.r_288
  Cert.KernelIdeal.Gen.kernelRun0_A.sl.r_289
  Cert.KernelIdeal.Gen.kernelRun0_A.sl.r_29
  Cert.KernelIdeal.Gen.kernelRun0_A.sl.r_290
  Cert.KernelIdeal.Gen.kernelRun0_A.sl.r_291
  Cert.KernelIdeal.Gen.kernelRun0_A.sl.r_292
  Cert.KernelIdeal.Gen.kernelRun0_A.sl.r_293
  Cert.KernelIdeal.Gen.kernelRun0_A.sl.r_294
  Cert.KernelIdeal.Gen.kernelRun0_A.sl.r_295
  Cert.KernelIdeal.Gen.kernelRun0_A.sl.r_296
  Cert.KernelIdeal.Gen.kernelRun0_A.sl.r_297
  Cert.KernelIdeal.Gen.kernelRun0_A.sl.r_298
  Cert.KernelIdeal.Gen.kernelRun0_A.sl.r_299
  Cert.KernelIdeal.Gen.kernelRun0_A.sl.r_3
  Cert.KernelIdeal.Gen.kernelRun0_A.sl.r_30
  Cert.KernelIdeal.Gen.kernelRun0_A.sl.r_300
  Cert.KernelIdeal.Gen.kernelRun0_A.sl.r_301
  Cert.KernelIdeal.Gen.kernelRun0_A.sl.r_302
  Cert.KernelIdeal.Gen.kernelRun0_A.sl.r_303
  Cert.KernelIdeal.Gen.kernelRun0_A.sl.r_304
  Cert.KernelIdeal.Gen.kernelRun0_A.sl.r_305
  Cert.KernelIdeal.Gen.kernelRun0_A.sl.r_306
  Cert.KernelIdeal.Gen.kernelRun0_A.sl.r_307
  Cert.KernelIdeal.Gen.kernelRun0_A.sl.r_308
  Cert.KernelIdeal.Gen.kernelRun0_A.sl.r_309
  Cert.KernelIdeal.Gen.kernelRun0_A.sl.r_31
  Cert.KernelIdeal.Gen.kernelRun0_A.sl.r_310
  Cert.KernelIdeal.Gen.kernelRun0_A.sl.r_311
  Cert.KernelIdeal.Gen.kernelRun0_A.sl.r_312
  Cert.KernelIdeal.Gen.kernelRun0_A.sl.r_313
  Cert.KernelIdeal.Gen.kernelRun0_A.sl.r_314
  Cert.KernelIdeal.Gen.kernelRun0_A.sl.r_315
  Cert.KernelIdeal.Gen.kernelRun0_A.sl.r_316
  Cert.KernelIdeal.Gen.kernelRun0_A.sl.r_317
  Cert.KernelIdeal.Gen.kernelRun0_A.sl.r_318
  Cert.KernelIdeal.Gen.kernelRun0_A.sl.r_319
  Cert.KernelIdeal.Gen.kernelRun0_A.sl.r_32
  Cert.KernelIdeal.Gen.kernelRun0_A.sl.r_320
  Cert.KernelIdeal.Gen.kernelRun0_A.sl.r_321
  Cert.KernelIdeal.Gen.kernelRun0_A.sl.r_322
  Cert.KernelIdeal.Gen.kernelRun0_A.sl.r_323
  Cert.KernelIdeal.Gen.kernelRun0_A.sl.r_324
  Cert.KernelIdeal.Gen.kernelRun0_A.sl.r_325
  Cert.KernelIdeal.Gen.kernelRun0_A.sl.r_326
  Cert.KernelIdeal.Gen.kernelRun0_A.sl.r_327
  Cert.KernelIdeal.Gen.kernelRun0_A.sl.r_328
  Cert.KernelIdeal.Gen.kernelRun0_A.sl.r_329
  Cert.KernelIdeal.Gen.kernelRun0_A.sl.r_33
  Cert.KernelIdeal.Gen.kernelRun0_A.sl.r_330
  Cert.KernelIdeal.Gen.kernelRun0_A.sl.r_331
  Cert.KernelIdeal.Gen.kernelRun0_A.sl.r_332
  Cert.KernelIdeal.Gen.kernelRun0_A.sl.r_333
  Cert.KernelIdeal.Gen.kernelRun0_A.sl.r_334
  Cert.KernelIdeal.Gen.kernelRun0_A.sl.r_335
  Cert.KernelIdeal.Gen.kernelRun0_A.sl.r_336
  Cert.KernelIdeal.Gen.kernelRun0_A.sl.r_337
  Cert.KernelIdeal.Gen.kernelRun0_A.sl.r_338
  Cert.KernelIdeal.Gen.kernelRun0_A.sl.r_339
  Cert.KernelIdeal.Gen.kernelRun0_A.sl.r_34
  Cert.KernelIdeal.Gen.kernelRun0_A.sl.r_340
  Cert.KernelIdeal.Gen.kernelRun0_A.sl.r_341
  Cert.KernelIdeal.Gen.kernelRun0_A.sl.r_342
  Cert.KernelIdeal.Gen.kernelRun0_A.sl.r_343
  Cert.KernelIdeal.Gen.kernelRun0_A.sl.r_344
  Cert.KernelIdeal.Gen.kernelRun0_A.sl.r_345
  Cert.KernelIdeal.Gen.kernelRun0_A.sl.r_346
  Cert.KernelIdeal.Gen.kernelRun0_A.sl.r_347
  Cert.KernelIdeal.Gen.kernelRun0_A.sl.r_348
  Cert.KernelIdeal.Gen.kernelRun0_A.sl.r_349
  Cert.KernelIdeal.Gen.kernelRun0_A.sl.r_35
  Cert.KernelIdeal.Gen.kernelRun0_A.sl.r_350
  Cert.KernelIdeal.Gen.kernelRun0_A.sl.r_351
  Cert.KernelIdeal.Gen.kernelRun0_A.sl.r_352
  Cert.KernelIdeal.Gen.kernelRun0_A.sl.r_353
  Cert.KernelIdeal.Gen.kernelRun0_A.sl.r_354
  Cert.KernelIdeal.Gen.kernelRun0_A.sl.r_355
  Cert.KernelIdeal.Gen.kernelRun0_A.sl.r_356
  Cert.KernelIdeal.Gen.kernelRun0_A.sl.r_357
  Cert.KernelIdeal.Gen.kernelRun0_A.sl.r_358
  Cert.KernelIdeal.Gen.kernelRun0_A.sl.r_359
  Cert.KernelIdeal.Gen.kernelRun0_A.sl.r_36
  Cert.KernelIdeal.Gen.kernelRun0_A.sl.r_360
  Cert.KernelIdeal.Gen.kernelRun0_A.sl.r_361
  Cert.KernelIdeal.Gen.kernelRun0_A.sl.r_362
  Cert.KernelIdeal.Gen.kernelRun0_A.sl.r_363
  Cert.KernelIdeal.Gen.kernelRun0_A.sl.r_364
  Cert.KernelIdeal.Gen.kernelRun0_A.sl.r_365
  Cert.KernelIdeal.Gen.kernelRun0_A.sl.r_366
  Cert.KernelIdeal.Gen.kernelRun0_A.sl.r_367
  Cert.KernelIdeal.Gen.kernelRun0_A.sl.r_368
  Cert.KernelIdeal.Gen.kernelRun0_A.sl.r_369
  Cert.KernelIdeal.Gen.kernelRun0_A.sl.r_37
  Cert.KernelIdeal.Gen.kernelRun0_A.sl.r_370
  Cert.KernelIdeal.Gen.kernelRun0_A.sl.r_371
  Cert.KernelIdeal.Gen.kernelRun0_A.sl.r_372
  Cert.KernelIdeal.Gen.kernelRun0_A.sl.r_373
  Cert.KernelIdeal.Gen.kernelRun0_A.sl.r_374
  Cert.KernelIdeal.Gen.kernelRun0_A.sl.r_375
  Cert.KernelIdeal.Gen.kernelRun0_A.sl.r_376
  Cert.KernelIdeal.Gen.kernelRun0_A.sl.r_377
  Cert.KernelIdeal.Gen.kernelRun0_A.sl.r_378
  Cert.KernelIdeal.Gen.kernelRun0_A.sl.r_379
  Cert.KernelIdeal.Gen.kernelRun0_A.sl.r_38
  Cert.KernelIdeal.Gen.kernelRun0_A.sl.r_380
  Cert.KernelIdeal.Gen.kernelRun0_A.sl.r_381
  Cert.KernelIdeal.Gen.kernelRun0_A.sl.r_382
  Cert.KernelIdeal.Gen.kernelRun0_A.sl.r_383
  Cert.KernelIdeal.Gen.kernelRun0_A.sl.r_384
  Cert.KernelIdeal.Gen.kernelRun0_A.sl.r_385
  Cert.KernelIdeal.Gen.kernelRun0_A.sl.r_386
  Cert.KernelIdeal.Gen.kernelRun0_A.sl.r_387
  Cert.KernelIdeal.Gen.kernelRun0_A.sl.r_388
  Cert.KernelIdeal.Gen.kernelRun0_A.sl.r_389
  Cert.KernelIdeal.Gen.kernelRun0_A.sl.r_39
  Cert.KernelIdeal.Gen.kernelRun0_A.sl.r_390
  Cert.KernelIdeal.Gen.kernelRun0_A.sl.r_391
  Cert.KernelIdeal.Gen.kernelRun0_A.sl.r_392
  Cert.KernelIdeal.Gen.kernelRun0_A.sl.r_393
  Cert.KernelIdeal.Gen.kernelRun0_A.sl.r_394
  Cert.KernelIdeal.Gen.kernelRun0_A.sl.r_395
  Cert.KernelIdeal.Gen.kernelRun0_A.sl.r_396
  Cert.KernelIdeal.Gen.kernelRun0_A.sl.r_397
  Cert.KernelIdeal.Gen.kernelRun0_A.sl.r_398
  Cert.KernelIdeal.Gen.kernelRun0_A.sl.r_399
  Cert.KernelIdeal.Gen.kernelRun0_A.sl.r_4
  Cert.KernelIdeal.Gen.kernelRun0_A.sl.r_40
  Cert.KernelIdeal.Gen.kernelRun0_A.sl.r_400
  Cert.KernelIdeal.Gen.kernelRun0_A.sl.r_401
  Cert.KernelIdeal.Gen.kernelRun0_A.sl.r_402
  Cert.KernelIdeal.Gen.kernelRun0_A.sl.r_403
  Cert.KernelIdeal.Gen.kernelRun0_A.sl.r_404
  Cert.KernelIdeal.Gen.kernelRun0_A.sl.r_405
  Cert.KernelIdeal.Gen.kernelRun0_A.sl.r_406
  Cert.KernelIdeal.Gen.kernelRun0_A.sl.r_407
  Cert.KernelIdeal.Gen.kernelRun0_A.sl.r_408
  Cert.KernelIdeal.Gen.kernelRun0_A.sl.r_409
  Cert.KernelIdeal.Gen.kernelRun0_A.sl.r_41
  Cert.KernelIdeal.Gen.kernelRun0_A.sl.r_410
  Cert.KernelIdeal.Gen.kernelRun0_A.sl.r_411
  Cert.KernelIdeal.Gen.kernelRun0_A.sl.r_412
  Cert.KernelIdeal.Gen.kernelRun0_A.sl.r_413
  Cert.KernelIdeal.Gen.kernelRun0_A.sl.r_414
  Cert.KernelIdeal.Gen.kernelRun0_A.sl.r_415
  Cert.KernelIdeal.Gen.kernelRun0_A.sl.r_416
  Cert.KernelIdeal.Gen.kernelRun0_A.sl.r_417
  Cert.KernelIdeal.Gen.kernelRun0_A.sl.r_418
  Cert.KernelIdeal.Gen.kernelRun0_A.sl.r_419
  Cert.KernelIdeal.Gen.kernelRun0_A.sl.r_42
  Cert.KernelIdeal.Gen.kernelRun0_A.sl.r_420
  Cert.KernelIdeal.Gen.kernelRun0_A.sl.r_421
  Cert.KernelIdeal.Gen.kernelRun0_A.sl.r_422
  Cert.KernelIdeal.Gen.kernelRun0_A.sl.r_423
  Cert.KernelIdeal.Gen.kernelRun0_A.sl.r_424
  Cert.KernelIdeal.Gen.kernelRun0_A.sl.r_425
  Cert.KernelIdeal.Gen.kernelRun0_A.sl.r_426
  Cert.KernelIdeal.Gen.kernelRun0_A.sl.r_427
  Cert.KernelIdeal.Gen.kernelRun0_A.sl.r_428
  Cert.KernelIdeal.Gen.kernelRun0_A.sl.r_429
  Cert.KernelIdeal.Gen.kernelRun0_A.sl.r_43
  Cert.KernelIdeal.Gen.kernelRun0_A.sl.r_430
  Cert.KernelIdeal.Gen.kernelRun0_A.sl.r_431
  Cert.KernelIdeal.Gen.kernelRun0_A.sl.r_432
  Cert.KernelIdeal.Gen.kernelRun0_A.sl.r_433
  Cert.KernelIdeal.Gen.kernelRun0_A.sl.r_434
  Cert.KernelIdeal.Gen.kernelRun0_A.sl.r_435
  Cert.KernelIdeal.Gen.kernelRun0_A.sl.r_436
  Cert.KernelIdeal.Gen.kernelRun0_A.sl.r_437
  Cert.KernelIdeal.Gen.kernelRun0_A.sl.r_438
  Cert.KernelIdeal.Gen.kernelRun0_A.sl.r_439
  Cert.KernelIdeal.Gen.kernelRun0_A.sl.r_44
  Cert.KernelIdeal.Gen.kernelRun0_A.sl.r_440
  Cert.KernelIdeal.Gen.kernelRun0_A.sl.r_441
  Cert.KernelIdeal.Gen.kernelRun0_A.sl.r_442
  Cert.KernelIdeal.Gen.kernelRun0_A.sl.r_443
  Cert.KernelIdeal.Gen.kernelRun0_A.sl.r_444
  Cert.KernelIdeal.Gen.kernelRun0_A.sl.r_445
  Cert.KernelIdeal.Gen.kernelRun0_A.sl.r_446
  Cert.KernelIdeal.Gen.kernelRun0_A.sl.r_447
  Cert.KernelIdeal.Gen.kernelRun0_A.sl.r_448
  Cert.KernelIdeal.Gen.kernelRun0_A.sl.r_449
  Cert.KernelIdeal.Gen.kernelRun0_A.sl.r_45
  Cert.KernelIdeal.Gen.kernelRun0_A.sl.r_450
  Cert.KernelIdeal.Gen.kernelRun0_A.sl.r_451
  Cert.KernelIdeal.Gen.kernelRun0_A.sl.r_452
  Cert.KernelIdeal.Gen.kernelRun0_A.sl.r_453
  Cert.KernelIdeal.Gen.kernelRun0_A.sl.r_454
  Cert.KernelIdeal.Gen.kernelRun0_A.sl.r_455
  Cert.KernelIdeal.Gen.kernelRun0_A.sl.r_456
  Cert.KernelIdeal.Gen.kernelRun0_A.sl.r_457
  Cert.KernelIdeal.Gen.kernelRun0_A.sl.r_458
  Cert.KernelIdeal.Gen.kernelRun0_A.sl.r_459
  Cert.KernelIdeal.Gen.kernelRun0_A.sl.r_46
  Cert.KernelIdeal.Gen.kernelRun0_A.sl.r_460
  Cert.KernelIdeal.Gen.kernelRun0_A.sl.r_461
  Cert.KernelIdeal.Gen.kernelRun0_A.sl.r_462
  Cert.KernelIdeal.Gen.kernelRun0_A.sl.r_463
  Cert.KernelIdeal.Gen.kernelRun0_A.sl.r_464
  Cert.KernelIdeal.Gen.kernelRun0_A.sl.r_465
  Cert.KernelIdeal.Gen.kernelRun0_A.sl.r_466
  Cert.KernelIdeal.Gen.kernelRun0_A.sl.r_467
  Cert.KernelIdeal.Gen.kernelRun0_A.sl.r_468
  Cert.KernelIdeal.Gen.kernelRun0_A.sl.r_469
  Cert.KernelIdeal.Gen.kernelRun0_A.sl.r_47
  Cert.KernelIdeal.Gen.kernelRun0_A.sl.r_470
  Cert.KernelIdeal.Gen.kernelRun0_A.sl.r_471
  Cert.KernelIdeal.Gen.kernelRun0_A.sl.r_472
  Cert.KernelIdeal.Gen.kernelRun0_A.sl.r_473
  Cert.KernelIdeal.Gen.kernelRun0_A.sl.r_474
  Cert.KernelIdeal.Gen.kernelRun0_A.sl.r_475
  Cert.KernelIdeal.Gen.kernelRun0_A.sl.r_476
  Cert.KernelIdeal.Gen.kernelRun0_A.sl.r_477
  Cert.KernelIdeal.Gen.kernelRun0_A.sl.r_478
  Cert.KernelIdeal.Gen.kernelRun0_A.sl.r_479
  Cert.KernelIdeal.Gen.kernelRun0_A.sl.r_48
  Cert.KernelIdeal.Gen.kernelRun0_A.sl.r_480
  Cert.KernelIdeal.Gen.kernelRun0_A.sl.r_481
  Cert.KernelIdeal.Gen.kernelRun0_A.sl.r_482
  Cert.KernelIdeal.Gen.kernelRun0_A.sl.r_483
  Cert.KernelIdeal.Gen.kernelRun0_A.sl.r_484
  Cert.KernelIdeal.Gen.kernelRun0_A.sl.r_485
  Cert.KernelIdeal.Gen.kernelRun0_A.sl.r_486
  Cert.KernelIdeal.Gen.kernelRun0_A.sl.r_487
  Cert.KernelIdeal.Gen.kernelRun0_A.sl.r_488
  Cert.KernelIdeal.Gen.kernelRun0_A.sl.r_489
  Cert.KernelIdeal.Gen.kernelRun0_A.sl.r_49
  Cert.KernelIdeal.Gen.kernelRun0_A.sl.r_490
  Cert.KernelIdeal.Gen.kernelRun0_A.sl.r_491
  Cert.KernelIdeal.Gen.kernelRun0_A.sl.r_492
  Cert.KernelIdeal.Gen.kernelRun0_A.sl.r_493
  Cert.KernelIdeal.Gen.kernelRun0_A.sl.r_494
  Cert.KernelIdeal.Gen.kernelRun0_A.sl.r_495
  Cert.KernelIdeal.Gen.kernelRun0_A.sl.r_496
  Cert.KernelIdeal.Gen.kernelRun0_A.sl.r_497
  Cert.KernelIdeal.Gen.kernelRun0_A.sl.r_498
  Cert.KernelIdeal.Gen.kernelRun0_A.sl.r_499
  Cert.KernelIdeal.Gen.kernelRun0_A.sl.r_5
  Cert.KernelIdeal.Gen.kernelRun0_A.sl.r_50
  Cert.KernelIdeal.Gen.kernelRun0_A.sl.r_500
  Cert.KernelIdeal.Gen.kernelRun0_A.sl.r_501
  Cert.KernelIdeal.Gen.kernelRun0_A.sl.r_502
  Cert.KernelIdeal.Gen.kernelRun0_A.sl.r_503
  Cert.KernelIdeal.Gen.kernelRun0_A.sl.r_504
  Cert.KernelIdeal.Gen.kernelRun0_A.sl.r_505
  Cert.KernelIdeal.Gen.kernelRun0_A.sl.r_506
  Cert.KernelIdeal.Gen.kernelRun0_A.sl.r_507
  Cert.KernelIdeal.Gen.kernelRun0_A.sl.r_508
  Cert.KernelIdeal.Gen.kernelRun0_A.sl.r_509
  Cert.KernelIdeal.Gen.kernelRun0_A.sl.r_51
  Cert.KernelIdeal.Gen.kernelRun0_A.sl.r_510
  Cert.KernelIdeal.Gen.kernelRun0_A.sl.r_511
  Cert.KernelIdeal.Gen.kernelRun0_A.sl.r_512
  Cert.KernelIdeal.Gen.kernelRun0_A.sl.r_513
  Cert.KernelIdeal.Gen.kernelRun0_A.sl.r_514
  Cert.KernelIdeal.Gen.kernelRun0_A.sl.r_515
  Cert.KernelIdeal.Gen.kernelRun0_A.sl.r_516
  Cert.KernelIdeal.Gen.kernelRun0_A.sl.r_517
  Cert.KernelIdeal.Gen.kernelRun0_A.sl.r_518
  Cert.KernelIdeal.Gen.kernelRun0_A.sl.r_519
  Cert.KernelIdeal.Gen.kernelRun0_A.sl.r_52
  Cert.KernelIdeal.Gen.kernelRun0_A.sl.r_520
  Cert.KernelIdeal.Gen.kernelRun0_A.sl.r_521
  Cert.KernelIdeal.Gen.kernelRun0_A.sl.r_522
  Cert.KernelIdeal.Gen.kernelRun0_A.sl.r_523
  Cert.KernelIdeal.Gen.kernelRun0_A.sl.r_524
  Cert.KernelIdeal.Gen.kernelRun0_A.sl.r_525
  Cert.KernelIdeal.Gen.kernelRun0_A.sl.r_526
  Cert.KernelIdeal.Gen.kernelRun0_A.sl.r_527
  Cert.KernelIdeal.Gen.kernelRun0_A.sl.r_528
  Cert.KernelIdeal.Gen.kernelRun0_A.sl.r_529
  Cert.KernelIdeal.Gen.kernelRun0_A.sl.r_53
  Cert.KernelIdeal.Gen.kernelRun0_A.sl.r_530
  Cert.KernelIdeal.Gen.kernelRun0_A.sl.r_531
  Cert.KernelIdeal.Gen.kernelRun0_A.sl.r_532
  Cert.KernelIdeal.Gen.kernelRun0_A.sl.r_533
  Cert.KernelIdeal.Gen.kernelRun0_A.sl.r_534
  Cert.KernelIdeal.Gen.kernelRun0_A.sl.r_535
  Cert.KernelIdeal.Gen.kernelRun0_A.sl.r_536
  Cert.KernelIdeal.Gen.kernelRun0_A.sl.r_537
  Cert.KernelIdeal.Gen.kernelRun0_A.sl.r_538
  Cert.KernelIdeal.Gen.kernelRun0_A.sl.r_539
  Cert.KernelIdeal.Gen.kernelRun0_A.sl.r_54
  Cert.KernelIdeal.Gen.kernelRun0_A.sl.r_540
  Cert.KernelIdeal.Gen.kernelRun0_A.sl.r_541
  Cert.KernelIdeal.Gen.kernelRun0_A.sl.r_542
  Cert.KernelIdeal.Gen.kernelRun0_A.sl.r_543
  Cert.KernelIdeal.Gen.kernelRun0_A.sl.r_544
  Cert.KernelIdeal.Gen.kernelRun0_A.sl.r_545
  Cert.KernelIdeal.Gen.kernelRun0_A.sl.r_546
  Cert.KernelIdeal.Gen.kernelRun0_A.sl.r_547
  Cert.KernelIdeal.Gen.kernelRun0_A.sl.r_548
  Cert.KernelIdeal.Gen.kernelRun0_A.sl.r_549
  Cert.KernelIdeal.Gen.kernelRun0_A.sl.r_55
  Cert.KernelIdeal.Gen.kernelRun0_A.sl.r_550
  Cert.KernelIdeal.Gen.kernelRun0_A.sl.r_551
  Cert.KernelIdeal.Gen.kernelRun0_A.sl.r_552
  Cert.KernelIdeal.Gen.kernelRun0_A.sl.r_553
  Cert.KernelIdeal.Gen.kernelRun0_A.sl.r_554
  Cert.KernelIdeal.Gen.kernelRun0_A.sl.r_555
  Cert.KernelIdeal.Gen.kernelRun0_A.sl.r_556
  Cert.KernelIdeal.Gen.kernelRun0_A.sl.r_557
  Cert.KernelIdeal.Gen.kernelRun0_A.sl.r_558
  Cert.KernelIdeal.Gen.kernelRun0_A.sl.r_559
  Cert.KernelIdeal.Gen.kernelRun0_A.sl.r_56
  Cert.KernelIdeal.Gen.kernelRun0_A.sl.r_560
  Cert.KernelIdeal.Gen.kernelRun0_A.sl.r_561
  Cert.KernelIdeal.Gen.kernelRun0_A.sl.r_562
  Cert.KernelIdeal.Gen.kernelRun0_A.sl.r_563
  Cert.KernelIdeal.Gen.kernelRun0_A.sl.r_564
  Cert.KernelIdeal.Gen.kernelRun0_A.sl.r_565
  Cert.KernelIdeal.Gen.kernelRun0_A.sl.r_566
  Cert.KernelIdeal.Gen.kernelRun0_A.sl.r_567
  Cert.KernelIdeal.Gen.kernelRun0_A.sl.r_568
  Cert.KernelIdeal.Gen.kernelRun0_A.sl.r_569
  Cert.KernelIdeal.Gen.kernelRun0_A.sl.r_57
  Cert.KernelIdeal.Gen.kernelRun0_A.sl.r_570
  Cert.KernelIdeal.Gen.kernelRun0_A.sl.r_571
  Cert.KernelIdeal.Gen.kernelRun0_A.sl.r_572
  Cert.KernelIdeal.Gen.kernelRun0_A.sl.r_573
  Cert.KernelIdeal.Gen.kernelRun0_A.sl.r_574
  Cert.KernelIdeal.Gen.kernelRun0_A.sl.r_575
  Cert.KernelIdeal.Gen.kernelRun0_A.sl.r_576
  Cert.KernelIdeal.Gen.kernelRun0_A.sl.r_577
  Cert.KernelIdeal.Gen.kernelRun0_A.sl.r_578
  Cert.KernelIdeal.Gen.kernelRun0_A.sl.r_579
  Cert.KernelIdeal.Gen.kernelRun0_A.sl.r_58
  Cert.KernelIdeal.Gen.kernelRun0_A.sl.r_580
  Cert.KernelIdeal.Gen.kernelRun0_A.sl.r_581
  Cert.KernelIdeal.Gen.kernelRun0_A.sl.r_582
  Cert.KernelIdeal.Gen.kernelRun0_A.sl.r_583
  Cert.KernelIdeal.Gen.kernelRun0_A.sl.r_584
  Cert.KernelIdeal.Gen.kernelRun0_A.sl.r_585
  Cert.KernelIdeal.Gen.kernelRun0_A.sl.r_586
  Cert.KernelIdeal.Gen.kernelRun0_A.sl.r_587
  Cert.KernelIdeal.Gen.kernelRun0_A.sl.r_588
  Cert.KernelIdeal.Gen.kernelRun0_A.sl.r_589
  Cert.KernelIdeal.Gen.kernelRun0_A.sl.r_59
  Cert.KernelIdeal.Gen.kernelRun0_A.sl.r_590
  Cert.KernelIdeal.Gen.kernelRun0_A.sl.r_591
  Cert.KernelIdeal.Gen.kernelRun0_A.sl.r_592
  Cert.KernelIdeal.Gen.kernelRun0_A.sl.r_593
  Cert.KernelIdeal.Gen.kernelRun0_A.sl.r_594
  Cert.KernelIdeal.Gen.kernelRun0_A.sl.r_595
  Cert.KernelIdeal.Gen.kernelRun0_A.sl.r_596
  Cert.KernelIdeal.Gen.kernelRun0_A.sl.r_597
  Cert.KernelIdeal.Gen.kernelRun0_A.sl.r_598
  Cert.KernelIdeal.Gen.kernelRun0_A.sl.r_599
  Cert.KernelIdeal.Gen.kernelRun0_A.sl.r_6
  Cert.KernelIdeal.Gen.kernelRun0_A.sl.r_60
  Cert.KernelIdeal.Gen.kernelRun0_A.sl.r_600
  Cert.KernelIdeal.Gen.kernelRun0_A.sl.r_601
  Cert.KernelIdeal.Gen.kernelRun0_A.sl.r_602
  Cert.KernelIdeal.Gen.kernelRun0_A.sl.r_603
  Cert.KernelIdeal.Gen.kernelRun0_A.sl.r_604
  Cert.KernelIdeal.Gen.kernelRun0_A.sl.r_605
  Cert.KernelIdeal.Gen.kernelRun0_A.sl.r_606
  Cert.KernelIdeal.Gen.kernelRun0_A.sl.r_607
  Cert.KernelIdeal.Gen.kernelRun0_A.sl.r_608
  Cert.KernelIdeal.Gen.kernelRun0_A.sl.r_609
  Cert.KernelIdeal.Gen.kernelRun0_A.sl.r_61
  Cert.KernelIdeal.Gen.kernelRun0_A.sl.r_610
  Cert.KernelIdeal.Gen.kernelRun0_A.sl.r_611
  Cert.KernelIdeal.Gen.kernelRun0_A.sl.r_612
  Cert.KernelIdeal.Gen.kernelRun0_A.sl.r_613
  Cert.KernelIdeal.Gen.kernelRun0_A.sl.r_614
  Cert.KernelIdeal.Gen.kernelRun0_A.sl.r_615
  Cert.KernelIdeal.Gen.kernelRun0_A.sl.r_616
  Cert.KernelIdeal.Gen.kernelRun0_A.sl.r_617
  Cert.KernelIdeal.Gen.kernelRun0_A.sl.r_618
  Cert.KernelIdeal.Gen.kernelRun0_A.sl.r_619
  Cert.KernelIdeal.Gen.kernelRun0_A.sl.r_62
  Cert.KernelIdeal.Gen.kernelRun0_A.sl.r_620
  Cert.KernelIdeal.Gen.kernelRun0_A.sl.r_621
  Cert.KernelIdeal.Gen.kernelRun0_A.sl.r_622
  Cert.KernelIdeal.Gen.kernelRun0_A.sl.r_623
  Cert.KernelIdeal.Gen.kernelRun0_A.sl.r_624
  Cert.KernelIdeal.Gen.kernelRun0_A.sl.r_625
  Cert.KernelIdeal.Gen.kernelRun0_A.sl.r_626
  Cert.KernelIdeal.Gen.kernelRun0_A.sl.r_627
  Cert.KernelIdeal.Gen.kernelRun0_A.sl.r_628
  Cert.KernelIdeal.Gen.kernelRun0_A.sl.r_629
  Cert.KernelIdeal.Gen.kernelRun0_A.sl.r_63
  Cert.KernelIdeal.Gen.kernelRun0_A.sl.r_630
  Cert.KernelIdeal.Gen.kernelRun0_A.sl.r_631
  Cert.KernelIdeal.Gen.kernelRun0_A.sl.r_632
  Cert.KernelIdeal.Gen.kernelRun0_A.sl.r_633
  Cert.KernelIdeal.Gen.kernelRun0_A.sl.r_634
  Cert.KernelIdeal.Gen.kernelRun0_A.sl.r_635
  Cert.KernelIdeal.Gen.kernelRun0_A.sl.r_636
  Cert.KernelIdeal.Gen.kernelRun0_A.sl.r_637
  Cert.KernelIdeal.Gen.kernelRun0_A.sl.r_638
  Cert.KernelIdeal.Gen.kernelRun0_A.sl.r_639
  Cert.KernelIdeal.Gen.kernelRun0_A.sl.r_64
  Cert.KernelIdeal.Gen.kernelRun0_A.sl.r_640
  Cert.KernelIdeal.Gen.kernelRun0_A.sl.r_641
  Cert.KernelIdeal.Gen.kernelRun0_A.sl.r_642
  Cert.KernelIdeal.Gen.kernelRun0_A.sl.r_643
  Cert.KernelIdeal.Gen.kernelRun0_A.sl.r_644
  Cert.KernelIdeal.Gen.kernelRun0_A.sl.r_645
  Cert.KernelIdeal.Gen.kernelRun0_A.sl.r_646
  Cert.KernelIdeal.Gen.kernelRun0_A.sl.r_647
  Cert.KernelIdeal.Gen.kernelRun0_A.sl.r_648
  Cert.KernelIdeal.Gen.kernelRun0_A.sl.r_649
  Cert.KernelIdeal.Gen.kernelRun0_A.sl.r_65
  Cert.KernelIdeal.Gen.kernelRun0_A.sl.r_650
  Cert.KernelIdeal.Gen.kernelRun0_A.sl.r_651
  Cert.KernelIdeal.Gen.kernelRun0_A.sl.r_652
  Cert.KernelIdeal.Gen.kernelRun0_A.sl.r_653
  Cert.KernelIdeal.Gen.kernelRun0_A.sl.r_654
  Cert.KernelIdeal.Gen.kernelRun0_A.sl.r_655
  Cert.KernelIdeal.Gen.kernelRun0_A.sl.r_656
  Cert.KernelIdeal.Gen.kernelRun0_A.sl.r_657
  Cert.KernelIdeal.Gen.kernelRun0_A.sl.r_658
  Cert.KernelIdeal.Gen.kernelRun0_A.sl.r_659
  Cert.KernelIdeal.Gen.kernelRun0_A.sl.r_66
  Cert.KernelIdeal.Gen.kernelRun0_A.sl.r_660
  Cert.KernelIdeal.Gen.kernelRun0_A.sl.r_661
  Cert.KernelIdeal.Gen.kernelRun0_A.sl.r_662
  Cert.KernelIdeal.Gen.kernelRun0_A.sl.r_663
  Cert.KernelIdeal.Gen.kernelRun0_A.sl.r_664
  Cert.KernelIdeal.Gen.kernelRun0_A.sl.r_665
  Cert.KernelIdeal.Gen.kernelRun0_A.sl.r_666
  Cert.KernelIdeal.Gen.kernelRun0_A.sl.r_667
  Cert.KernelIdeal.Gen.kernelRun0_A.sl.r_668
  Cert.KernelIdeal.Gen.kernelRun0_A.sl.r_669
  Cert.KernelIdeal.Gen.kernelRun0_A.sl.r_67
  Cert.KernelIdeal.Gen.kernelRun0_A.sl.r_670
  Cert.KernelIdeal.Gen.kernelRun0_A.sl.r_671
  Cert.KernelIdeal.Gen.kernelRun0_A.sl.r_672
  Cert.KernelIdeal.Gen.kernelRun0_A.sl.r_673
  Cert.KernelIdeal.Gen.kernelRun0_A.sl.r_674
  Cert.KernelIdeal.Gen.kernelRun0_A.sl.r_675
  Cert.KernelIdeal.Gen.kernelRun0_A.sl.r_676
  Cert.KernelIdeal.Gen.kernelRun0_A.sl.r_677
  Cert.KernelIdeal.Gen.kernelRun0_A.sl.r_678
  Cert.KernelIdeal.Gen.kernelRun0_A.sl.r_679
  Cert.KernelIdeal.Gen.kernelRun0_A.sl.r_68
  Cert.KernelIdeal.Gen.kernelRun0_A.sl.r_680
  Cert.KernelIdeal.Gen.kernelRun0_A.sl.r_681
  Cert.KernelIdeal.Gen.kernelRun0_A.sl.r_682
  Cert.KernelIdeal.Gen.kernelRun0_A.sl.r_683
  Cert.KernelIdeal.Gen.kernelRun0_A.sl.r_684
  Cert.KernelIdeal.Gen.kernelRun0_A.sl.r_685
  Cert.KernelIdeal.Gen.kernelRun0_A.sl.r_686
  Cert.KernelIdeal.Gen.kernelRun0_A.sl.r_687
  Cert.KernelIdeal.Gen.kernelRun0_A.sl.r_688
  Cert.KernelIdeal.Gen.kernelRun0_A.sl.r_689
  Cert.KernelIdeal.Gen.kernelRun0_A.sl.r_69
  Cert.KernelIdeal.Gen.kernelRun0_A.sl.r_690
  Cert.KernelIdeal.Gen.kernelRun0_A.sl.r_691
  Cert.KernelIdeal.Gen.kernelRun0_A.sl.r_692
  Cert.KernelIdeal.Gen.kernelRun0_A.sl.r_693
  Cert.KernelIdeal.Gen.kernelRun0_A.sl.r_694
  Cert.KernelIdeal.Gen.kernelRun0_A.sl.r_695
  Cert.KernelIdeal.Gen.kernelRun0_A.sl.r_696
  Cert.KernelIdeal.Gen.kernelRun0_A.sl.r_697
  Cert.KernelIdeal.Gen.kernelRun0_A.sl.r_698
  Cert.KernelIdeal.Gen.kernelRun0_A.sl.r_699
  Cert.KernelIdeal.Gen.kernelRun0_A.sl.r_7
  Cert.KernelIdeal.Gen.kernelRun0_A.sl.r_70
  Cert.KernelIdeal.Gen.kernelRun0_A.sl.r_700
  Cert.KernelIdeal.Gen.kernelRun0_A.sl.r_701
  Cert.KernelIdeal.Gen.kernelRun0_A.sl.r_702
  Cert.KernelIdeal.Gen.kernelRun0_A.sl.r_703
  Cert.KernelIdeal.Gen.kernelRun0_A.sl.r_704
  Cert.KernelIdeal.Gen.kernelRun0_A.sl.r_705
  Cert.KernelIdeal.Gen.kernelRun0_A.sl.r_706
  Cert.KernelIdeal.Gen.kernelRun0_A.sl.r_707
  Cert.KernelIdeal.Gen.kernelRun0_A.sl.r_708
  Cert.KernelIdeal.Gen.kernelRun0_A.sl.r_709
  Cert.KernelIdeal.Gen.kernelRun0_A.sl.r_71
  Cert.KernelIdeal.Gen.kernelRun0_A.sl.r_710
  Cert.KernelIdeal.Gen.kernelRun0_A.sl.r_711
  Cert.KernelIdeal.Gen.kernelRun0_A.sl.r_712
  Cert.KernelIdeal.Gen.kernelRun0_A.sl.r_713
  Cert.KernelIdeal.Gen.kernelRun0_A.sl.r_714
  Cert.KernelIdeal.Gen.kernelRun0_A.sl.r_715
  Cert.KernelIdeal.Gen.kernelRun0_A.sl.r_716
  Cert.KernelIdeal.Gen.kernelRun0_A.sl.r_717
  Cert.KernelIdeal.Gen.kernelRun0_A.sl.r_718
  Cert.KernelIdeal.Gen.kernelRun0_A.sl.r_719
  Cert.KernelIdeal.Gen.kernelRun0_A.sl.r_72
  Cert.KernelIdeal.Gen.kernelRun0_A.sl.r_720
  Cert.KernelIdeal.Gen.kernelRun0_A.sl.r_721
  Cert.KernelIdeal.Gen.kernelRun0_A.sl.r_722
  Cert.KernelIdeal.Gen.kernelRun0_A.sl.r_723
  Cert.KernelIdeal.Gen.kernelRun0_A.sl.r_724
  Cert.KernelIdeal.Gen.kernelRun0_A.sl.r_725
  Cert.KernelIdeal.Gen.kernelRun0_A.sl.r_726
  Cert.KernelIdeal.Gen.kernelRun0_A.sl.r_727
  Cert.KernelIdeal.Gen.kernelRun0_A.sl.r_728
  Cert.KernelIdeal.Gen.kernelRun0_A.sl.r_729
  Cert.KernelIdeal.Gen.kernelRun0_A.sl.r_73
  Cert.KernelIdeal.Gen.kernelRun0_A.sl.r_730
  Cert.KernelIdeal.Gen.kernelRun0_A.sl.r_731
  Cert.KernelIdeal.Gen.kernelRun0_A.sl.r_732
  Cert.KernelIdeal.Gen.kernelRun0_A.sl.r_733
  Cert.KernelIdeal.Gen.kernelRun0_A.sl.r_734
  Cert.KernelIdeal.Gen.kernelRun0_A.sl.r_735
  Cert.KernelIdeal.Gen.kernelRun0_A.sl.r_736
  Cert.KernelIdeal.Gen.kernelRun0_A.sl.r_737
  Cert.KernelIdeal.Gen.kernelRun0_A.sl.r_738
  Cert.KernelIdeal.Gen.kernelRun0_A.sl.r_739
  Cert.KernelIdeal.Gen.kernelRun0_A.sl.r_74
  Cert.KernelIdeal.Gen.kernelRun0_A.sl.r_740
  Cert.KernelIdeal.Gen.kernelRun0_A.sl.r_741
  Cert.KernelIdeal.Gen.kernelRun0_A.sl.r_742
  Cert.KernelIdeal.Gen.kernelRun0_A.sl.r_743
  Cert.KernelIdeal.Gen.kernelRun0_A.sl.r_744
  Cert.KernelIdeal.Gen.kernelRun0_A.sl.r_745
  Cert.KernelIdeal.Gen.kernelRun0_A.sl.r_746
  Cert.KernelIdeal.Gen.kernelRun0_A.sl.r_747
  Cert.KernelIdeal.Gen.kernelRun0_A.sl.r_748
  Cert.KernelIdeal.Gen.kernelRun0_A.sl.r_749
  Cert.KernelIdeal.Gen.kernelRun0_A.sl.r_75
  Cert.KernelIdeal.Gen.kernelRun0_A.sl.r_750
  Cert.KernelIdeal.Gen.kernelRun0_A.sl.r_751
  Cert.KernelIdeal.Gen.kernelRun0_A.sl.r_752
  Cert.KernelIdeal.Gen.kernelRun0_A.sl.r_753
  Cert.KernelIdeal.Gen.kernelRun0_A.sl.r_76
  Cert.KernelIdeal.Gen.kernelRun0_A.sl.r_77
  Cert.KernelIdeal.Gen.kernelRun0_A.sl.r_78
  Cert.KernelIdeal.Gen.kernelRun0_A.sl.r_79
  Cert.KernelIdeal.Gen.kernelRun0_A.sl.r_8
  Cert.KernelIdeal.Gen.kernelRun0_A.sl.r_80
  Cert.KernelIdeal.Gen.kernelRun0_A.sl.r_81
  Cert.KernelIdeal.Gen.kernelRun0_A.sl.r_82
  Cert.KernelIdeal.Gen.kernelRun0_A.sl.r_83
  Cert.KernelIdeal.Gen.kernelRun0_A.sl.r_84
  Cert.KernelIdeal.Gen.kernelRun0_A.sl.r_85
  Cert.KernelIdeal.Gen.kernelRun0_A.sl.r_86
  Cert.KernelIdeal.Gen.kernelRun0_A.sl.r_87
  Cert.KernelIdeal.Gen.kernelRun0_A.sl.r_88
  Cert.KernelIdeal.Gen.kernelRun0_A.sl.r_89
  Cert.KernelIdeal.Gen.kernelRun0_A.sl.r_9
  Cert.KernelIdeal.Gen.kernelRun0_A.sl.r_90
  Cert.KernelIdeal.Gen.kernelRun0_A.sl.r_91
  Cert.KernelIdeal.Gen.kernelRun0_A.sl.r_92
  Cert.KernelIdeal.Gen.kernelRun0_A.sl.r_93
  Cert.KernelIdeal.Gen.kernelRun0_A.sl.r_94
  Cert.KernelIdeal.Gen.kernelRun0_A.sl.r_95
  Cert.KernelIdeal.Gen.kernelRun0_A.sl.r_96
  Cert.KernelIdeal.Gen.kernelRun0_A.sl.r_97
  Cert.KernelIdeal.Gen.kernelRun0_A.sl.r_98
  Cert.KernelIdeal.Gen.kernelRun0_A.sl.r_99
  Cert.KernelIdeal.Gen.kernelRun0_A.sl.v1011
  Cert.KernelIdeal.Gen.kernelRun0_A.sl.v1012
  Cert.KernelIdeal.Gen.kernelRun0_A.sl.v1013
  Cert.KernelIdeal.Gen.kernelRun0_A.sl.v1014
  Cert.KernelIdeal.Gen.kernelRun0_A.sl.v1015
  Cert.KernelIdeal.Gen.kernelRun0_A.sl.v1016
  Cert.KernelIdeal.Gen.kernelRun0_A.sl.v1017
  Cert.KernelIdeal.Gen.kernelRun0_A.sl.v1018
  Cert.KernelIdeal.Gen.kernelRun0_A.sl.v1019
  Cert.KernelIdeal.Gen.kernelRun0_A.sl.v1020
  Cert.KernelIdeal.Gen.kernelRun0_A.sl.v1021
  Cert.KernelIdeal.Gen.kernelRun0_A.sl.v1022
  Cert.KernelIdeal.Gen.kernelRun0_A.sl.v1215
  Cert.KernelIdeal.Gen.kernelRun0_A.sl.v1216
  Cert.KernelIdeal.Gen.kernelRun0_A.sl.v1217
  Cert.KernelIdeal.Gen.kernelRun0_A.sl.v1218
  Cert.KernelIdeal.Gen.kernelRun0_A.sl.v1219
  Cert.KernelIdeal.Gen.kernelRun0_A.sl.v1220
  Cert.KernelIdeal.Gen.kernelRun0_A.sl.v1221
  Cert.KernelIdeal.Gen.kernelRun0_A.sl.v1222
  Cert.KernelIdeal.Gen.kernelRun0_A.sl.v1223
  Cert.KernelIdeal.Gen.kernelRun0_A.sl.v1224
  Cert.KernelIdeal.Gen.kernelRun0_A.sl.v1225
  Cert.KernelIdeal.Gen.kernelRun0_A.sl.v1226
  Cert.KernelIdeal.Gen.kernelRun0_A.sl.v1419
  Cert.KernelIdeal.Gen.kernelRun0_A.sl.v1420
  Cert.KernelIdeal.Gen.kernelRun0_A.sl.v1421
  Cert.KernelIdeal.Gen.kernelRun0_A.sl.v1422
  Cert.KernelIdeal.Gen.kernelRun0_A.sl.v1423
  Cert.KernelIdeal.Gen.kernelRun0_A.sl.v1424
  Cert.KernelIdeal.Gen.kernelRun0_A.sl.v1425
  Cert.KernelIdeal.Gen.kernelRun0_A.sl.v1426
  Cert.KernelIdeal.Gen.kernelRun0_A.sl.v1427
  Cert.KernelIdeal.Gen.kernelRun0_A.sl.v1428
  Cert.KernelIdeal.Gen.kernelRun0_A.sl.v1429
  Cert.KernelIdeal.Gen.kernelRun0_A.sl.v1430
  Cert.KernelIdeal.Gen.kernelRun0_A.sl.v1506
  Cert.KernelIdeal.Gen.kernelRun0_A.sl.v1507
  Cert.KernelIdeal.Gen.kernelRun0_A.sl.v1508
  Cert.KernelIdeal.Gen.kernelRun0_A.sl.v1509
  Cert.KernelIdeal.Gen.kernelRun0_A.sl.v1510
  Cert.KernelIdeal.Gen.kernelRun0_A.sl.v1511
  Cert.KernelIdeal.Gen.kernelRun0_A.sl.v1512
  Cert.KernelIdeal.Gen.kernelRun0_A.sl.v1513
  Cert.KernelIdeal.Gen.kernelRun0_A.sl.v1514
  Cert.KernelIdeal.Gen.kernelRun0_A.sl.v1515
  Cert.KernelIdeal.Gen.kernelRun0_A.sl.v1516
  Cert.KernelIdeal.Gen.kernelRun0_A.sl.v1517
  Cert.KernelIdeal.Gen.kernelRun0_A.sl.v1518
  Cert.KernelIdeal.Gen.kernelRun0_A.sl.v1519
  Cert.KernelIdeal.Gen.kernelRun0_A.sl.v1520
  Cert.KernelIdeal.Gen.kernelRun0_A.sl.v1521
  Cert.KernelIdeal.Gen.kernelRun0_A.sl.v1522
  Cert.KernelIdeal.Gen.kernelRun0_A.sl.v1523
  Cert.KernelIdeal.Gen.kernelRun0_A.sl.v1524
  Cert.KernelIdeal.Gen.kernelRun0_A.sl.v1525
  Cert.KernelIdeal.Gen.kernelRun0_A.sl.v1526
  Cert.KernelIdeal.Gen.kernelRun0_A.sl.v1527
  Cert.KernelIdeal.Gen.kernelRun0_A.sl.v1528
  Cert.KernelIdeal.Gen.kernelRun0_A.sl.v1529
  Cert.KernelIdeal.Gen.kernelRun0_A.sl.v1530
  Cert.KernelIdeal.Gen.kernelRun0_A.sl.v1531
  Cert.KernelIdeal.Gen.kernelRun0_A.sl.v1532
  Cert.KernelIdeal.Gen.kernelRun0_A.sl.v1533
  Cert.KernelIdeal.Gen.kernelRun0_A.sl.v1534
  Cert.KernelIdeal.Gen.kernelRun0_A.sl.v1535
  Cert.KernelIdeal.Gen.kernelRun0_A.sl.v1623
  Cert.KernelIdeal.Gen.kernelRun0_A.sl.v1624
  Cert.KernelIdeal.Gen.kernelRun0_A.sl.v1625
  Cert.KernelIdeal.Gen.kernelRun0_A.sl.v1626
  Cert.KernelIdeal.Gen.kernelRun0_A.sl.v1627
  Cert.KernelIdeal.Gen.kernelRun0_A.sl.v1628
  Cert.KernelIdeal.Gen.kernelRun0_A.sl.v1629
  Cert.KernelIdeal.Gen.kernelRun0_A.sl.v1630
  Cert.KernelIdeal.Gen.kernelRun0_A.sl.v1631
  Cert.KernelIdeal.Gen.kernelRun0_A.sl.v1632
  Cert.KernelIdeal.Gen.kernelRun0_A.sl.v1633
  Cert.KernelIdeal.Gen.kernelRun0_A.sl.v1634
  Cert.KernelIdeal.Gen.kernelRun0_A.sl.v1827
  Cert.KernelIdeal.Gen.kernelRun0_A.sl.v1828
  Cert.KernelIdeal.Gen.kernelRun0_A.sl.v1829
  Cert.KernelIdeal.Gen.kernelRun0_A.sl.v1830
  Cert.KernelIdeal.Gen.kernelRun0_A.sl.v1831
  Cert.KernelIdeal.Gen.kernelRun0_A.sl.v1832
  Cert.KernelIdeal.Gen.kernelRun0_A.sl.v1833
  Cert.KernelIdeal.Gen.kernelRun0_A.sl.v1834
  Cert.KernelIdeal.Gen.kernelRun0_A.sl.v1835
  Cert.KernelIdeal.Gen.kernelRun0_A.sl.v1836
  Cert.KernelIdeal.Gen.kernelRun0_A.sl.v1837
  Cert.KernelIdeal.Gen.kernelRun0_A.sl.v1838
  Cert.KernelIdeal.Gen.kernelRun0_A.sl.v195
  Cert.KernelIdeal.Gen.kernelRun0_A.sl.v196
  Cert.KernelIdeal.Gen.kernelRun0_A.sl.v197
  Cert.KernelIdeal.Gen.kernelRun0_A.sl.v198
  Cert.KernelIdeal.Gen.kernelRun0_A.sl.v199
  Cert.KernelIdeal.Gen.kernelRun0_A.sl.v200
  Cert.KernelIdeal.Gen.kernelRun0_A.sl.v201
  Cert.KernelIdeal.Gen.kernelRun0_A.sl.v202
  Cert.KernelIdeal.Gen.kernelRun0_A.sl.v203
  Cert.KernelIdeal.Gen.kernelRun0_A.sl.v2031
  Cert.KernelIdeal.Gen.kernelRun0_A.sl.v2032
  Cert.KernelIdeal.Gen.kernelRun0_A.sl.v2033
  Cert.KernelIdeal.Gen.kernelRun0_A.sl.v2034
  Cert.KernelIdeal.Gen.kernelRun0_A.sl.v2035
  Cert.KernelIdeal.Gen.kernelRun0_A.sl.v2036
  Cert.KernelIdeal.Gen.kernelRun0_A.sl.v2037
  Cert.KernelIdeal.Gen.kernelRun0_A.sl.v2038
  Cert.KernelIdeal.Gen.kernelRun0_A.sl.v2039
  Cert.KernelIdeal.Gen.kernelRun0_A.sl.v204
  Cert.KernelIdeal.Gen.kernelRun0_A.sl.v2040
  Cert.KernelIdeal.Gen.kernelRun0_A.sl.v2041
  Cert.KernelIdeal.Gen.kernelRun0_A.sl.v2042
  Cert.KernelIdeal.Gen.kernelRun0_A.sl.v205
  Cert.KernelIdeal.Gen.kernelRun0_A.sl.v206
  Cert.KernelIdeal.Gen.kernelRun0_A.sl.v2235
  Cert.KernelIdeal.Gen.kernelRun0_A.sl.v2236
  Cert.KernelIdeal.Gen.kernelRun0_A.sl.v2237
  Cert.KernelIdeal.Gen.kernelRun0_A.sl.v2238
  Cert.KernelIdeal.Gen.kernelRun0_A.sl.v2239
  Cert.KernelIdeal.Gen.kernelRun0_A.sl.v2240
  Cert.KernelIdeal.Gen.kernelRun0_A.sl.v2241
  Cert.KernelIdeal.Gen.kernelRun0_A.sl.v2242
  Cert.KernelIdeal.Gen.kernelRun0_A.sl.v2243
  Cert.KernelIdeal.Gen.kernelRun0_A.sl.v2244
  Cert.KernelIdeal.Gen.kernelRun0_A.sl.v2245
  Cert.KernelIdeal.Gen.kernelRun0_A.sl.v2246
  Cert.KernelIdeal.Gen.kernelRun0_A.sl.v2321
  Cert.KernelIdeal.Gen.kernelRun0_A.sl.v2322
  Cert.KernelIdeal.Gen.kernelRun0_A.sl.v2323
  Cert.KernelIdeal.Gen.kernelRun0_A.sl.v2324
  Cert.KernelIdeal.Gen.kernelRun0_A.sl.v2325
  Cert.KernelIdeal.Gen.kernelRun0_A.sl.v2326
  Cert.KernelIdeal.Gen.kernelRun0_A.sl.v2327
  Cert.KernelIdeal.Gen.kernelRun0_A.sl.v2328
  Cert.KernelIdeal.Gen.kernelRun0_A.sl.v2329
  Cert.KernelIdeal.Gen.kernelRun0_A.sl.v2330
  Cert.KernelIdeal.Gen.kernelRun0_A.sl.v2331
  Cert.KernelIdeal.Gen.kernelRun0_A.sl.v2332
  Cert.KernelIdeal.Gen.kernelRun0_A.sl.v2333
  Cert.KernelIdeal.Gen.kernelRun0_A.sl.v2334
  Cert.KernelIdeal.Gen.kernelRun0_A.sl.v2335
  Cert.KernelIdeal.Gen.kernelRun0_A.sl.v2336
  Cert.KernelIdeal.Gen.kernelRun0_A.sl.v2337
  Cert.KernelIdeal.Gen.kernelRun0_A.sl.v2338
  Cert.KernelIdeal.Gen.kernelRun0_A.sl.v2339
  Cert.KernelIdeal.Gen.kernelRun0_A.sl.v2340
  Cert.KernelIdeal.Gen.kernelRun0_A.sl.v2341
  Cert.KernelIdeal.Gen.kernelRun0_A.sl.v2342
  Cert.KernelIdeal.Gen.kernelRun0_A.sl.v2343
  Cert.KernelIdeal.Gen.kernelRun0_A.sl.v2344
  Cert.KernelIdeal.Gen.kernelRun0_A.sl.v2345
  Cert.KernelIdeal.Gen.kernelRun0_A.sl.v2346
  Cert.KernelIdeal.Gen.kernelRun0_A.sl.v2347
  Cert.KernelIdeal.Gen.kernelRun0_A.sl.v2348
  Cert.KernelIdeal.Gen.kernelRun0_A.sl.v2349
  Cert.KernelIdeal.Gen.kernelRun0_A.sl.v2350
  Cert.KernelIdeal.Gen.kernelRun0_A.sl.v2439
  Cert.KernelIdeal.Gen.kernelRun0_A.sl.v2440
  Cert.KernelIdeal.Gen.kernelRun0_A.sl.v2441
  Cert.KernelIdeal.Gen.kernelRun0_A.sl.v2442
  Cert.KernelIdeal.Gen.kernelRun0_A.sl.v2443
  Cert.KernelIdeal.Gen.kernelRun0_A.sl.v2444
  Cert.KernelIdeal.Gen.kernelRun0_A.sl.v2445
  Cert.KernelIdeal.Gen.kernelRun0_A.sl.v2446
  Cert.KernelIdeal.Gen.kernelRun0_A.sl.v2447
  Cert.KernelIdeal.Gen.kernelRun0_A.sl.v2448
  Cert.KernelIdeal.Gen.kernelRun0_A.sl.v2449
  Cert.KernelIdeal.Gen.kernelRun0_A.sl.v2450
  Cert.KernelIdeal.Gen.kernelRun0_A.sl.v2643
  Cert.KernelIdeal.Gen.kernelRun0_A.sl.v2644
  Cert.KernelIdeal.Gen.kernelRun0_A.sl.v2645
  Cert.KernelIdeal.Gen.kernelRun0_A.sl.v2646
  Cert.KernelIdeal.Gen.kernelRun0_A.sl.v2647
  Cert.KernelIdeal.Gen.kernelRun0_A.sl.v2648
  Cert.KernelIdeal.Gen.kernelRun0_A.sl.v2649
  Cert.KernelIdeal.Gen.kernelRun0_A.sl.v2650
  Cert.KernelIdeal.Gen.kernelRun0_A.sl.v2651
  Cert.KernelIdeal.Gen.kernelRun0_A.sl.v2652
  Cert.KernelIdeal.Gen.kernelRun0_A.sl.v2653
  Cert.KernelIdeal.Gen.kernelRun0_A.sl.v2654
  Cert.KernelIdeal.Gen.kernelRun0_A.sl.v2773
  Cert.KernelIdeal.Gen.kernelRun0_A.sl.v2847
  Cert.KernelIdeal.Gen.kernelRun0_A.sl.v2848
  Cert.KernelIdeal.Gen.kernelRun0_A.sl.v2849
  Cert.KernelIdeal.Gen.kernelRun0_A.sl.v2850
  Cert.KernelIdeal.Gen.kernelRun0_A.sl.v2851
  Cert.KernelIdeal.Gen.kernelRun0_A.sl.v2852
  Cert.KernelIdeal.Gen.kernelRun0_A.sl.v2853
  Cert.KernelIdeal.Gen.kernelRun0_A.sl.v2854
  Cert.KernelIdeal.Gen.kernelRun0_A.sl.v2855
  Cert.KernelIdeal.Gen.kernelRun0_A.sl.v2856
  Cert.KernelIdeal.Gen.kernelRun0_A.sl.v2857
  Cert.KernelIdeal.Gen.kernelRun0_A.sl.v2858
  Cert.KernelIdeal.Gen.kernelRun0_A.sl.v3051
  Cert.KernelIdeal.Gen.kernelRun0_A.sl.v3052
  Cert.KernelIdeal.Gen.kernelRun0_A.sl.v3053
  Cert.KernelIdeal.Gen.kernelRun0_A.sl.v3054
  Cert.KernelIdeal.Gen.kernelRun0_A.sl.v3055
  Cert.KernelIdeal.Gen.kernelRun0_A.sl.v3056
  Cert.KernelIdeal.Gen.kernelRun0_A.sl.v3057
  Cert.KernelIdeal.Gen.kernelRun0_A.sl.v3058
  Cert.KernelIdeal.Gen.kernelRun0_A.sl.v3059
  Cert.KernelIdeal.Gen.kernelRun0_A.sl.v3060
  Cert.KernelIdeal.Gen.kernelRun0_A.sl.v3061
  Cert.KernelIdeal.Gen.kernelRun0_A.sl.v3062
  Cert.KernelIdeal.Gen.kernelRun0_A.sl.v3135
  Cert.KernelIdeal.Gen.kernelRun0_A.sl.v3136
  Cert.KernelIdeal.Gen.kernelRun0_A.sl.v3137
  Cert.KernelIdeal.Gen.kernelRun0_A.sl.v3138
  Cert.KernelIdeal.Gen.kernelRun0_A.sl.v3139
  Cert.KernelIdeal.Gen.kernelRun0_A.sl.v3140
  Cert.KernelIdeal.Gen.kernelRun0_A.sl.v3141
  Cert.KernelIdeal.Gen.kernelRun0_A.sl.v3142
  Cert.KernelIdeal.Gen.kernelRun0_A.sl.v3143
  Cert.KernelIdeal.Gen.kernelRun0_A.sl.v3144
  Cert.KernelIdeal.Gen.kernelRun0_A.sl.v3145
  Cert.KernelIdeal.Gen.kernelRun0_A.sl.v3146
  Cert.KernelIdeal.Gen.kernelRun0_A.sl.v3147
  Cert.KernelIdeal.Gen.kernelRun0_A.sl.v3148
  Cert.KernelIdeal.Gen.kernelRun0_A.sl.v3149
  Cert.KernelIdeal.Gen.kernelRun0_A.sl.v3150
  Cert.KernelIdeal.Gen.kernelRun0_A.sl.v3151
  Cert.KernelIdeal.Gen.kernelRun0_A.sl.v3152
  Cert.KernelIdeal.Gen.kernelRun0_A.sl.v3153
  Cert.KernelIdeal.Gen.kernelRun0_A.sl.v3154
  Cert.KernelIdeal.Gen.kernelRun0_A.sl.v3155
  Cert.KernelIdeal.Gen.kernelRun0_A.sl.v3156
  Cert.KernelIdeal.Gen.kernelRun0_A.sl.v3157
  Cert.KernelIdeal.Gen.kernelRun0_A.sl.v3158
  Cert.KernelIdeal.Gen.kernelRun0_A.sl.v3159
  Cert.KernelIdeal.Gen.kernelRun0_A.sl.v3160
  Cert.KernelIdeal.Gen.kernelRun0_A.sl.v3161
  Cert.KernelIdeal.Gen.kernelRun0_A.sl.v3162
  Cert.KernelIdeal.Gen.kernelRun0_A.sl.v3163
  Cert.KernelIdeal.Gen.kernelRun0_A.sl.v3164
  Cert.KernelIdeal.Gen.kernelRun0_A.sl.v3255
  Cert.KernelIdeal.Gen.kernelRun0_A.sl.v3256
  Cert.KernelIdeal.Gen.kernelRun0_A.sl.v3257
  Cert.KernelIdeal.Gen.kernelRun0_A.sl.v3258
  Cert.KernelIdeal.Gen.kernelRun0_A.sl.v3259
  Cert.KernelIdeal.Gen.kernelRun0_A.sl.v3260
  Cert.KernelIdeal.Gen.kernelRun0_A.sl.v3261
  Cert.KernelIdeal.Gen.kernelRun0_A.sl.v3262
  Cert.KernelIdeal.Gen.kernelRun0_A.sl.v3263
  Cert.KernelIdeal.Gen.kernelRun0_A.sl.v3264
  Cert.KernelIdeal.Gen.kernelRun0_A.sl.v3265
  Cert.KernelIdeal.Gen.kernelRun0_A.sl.v3266
  Cert.KernelIdeal.Gen.kernelRun0_A.sl.v3345
  Cert.KernelIdeal.Gen.kernelRun0_A.sl.v3346
  Cert.KernelIdeal.Gen.kernelRun0_A.sl.v3347
  Cert.KernelIdeal.Gen.kernelRun0_A.sl.v3348
  Cert.KernelIdeal.Gen.kernelRun0_A.sl.v3349
  Cert.KernelIdeal.Gen.kernelRun0_A.sl.v3350
  Cert.KernelIdeal.Gen.kernelRun0_A.sl.v3351
  Cert.KernelIdeal.Gen.kernelRun0_A.sl.v3352
  Cert.KernelIdeal.Gen.kernelRun0_A.sl.v3353
  Cert.KernelIdeal.Gen.kernelRun0_A.sl.v3354
  Cert.KernelIdeal.Gen.kernelRun0_A.sl.v3355
  Cert.KernelIdeal.Gen.kernelRun0_A.sl.v3356
  Cert.KernelIdeal.Gen.kernelRun0_A.sl.v3357
  Cert.KernelIdeal.Gen.kernelRun0_A.sl.v3358
  Cert.KernelIdeal.Gen.kernelRun0_A.sl.v3359
  Cert.KernelIdeal.Gen.kernelRun0_A.sl.v3360
  Cert.KernelIdeal.Gen.kernelRun0_A.sl.v3361
  Cert.KernelIdeal.Gen.kernelRun0_A.sl.v3362
  Cert.KernelIdeal.Gen.kernelRun0_A.sl.v3363
  Cert.KernelIdeal.Gen.kernelRun0_A.sl.v3364
  Cert.KernelIdeal.Gen.kernelRun0_A.sl.v3365
  Cert.KernelIdeal.Gen.kernelRun0_A.sl.v3366
  Cert.KernelIdeal.Gen.kernelRun0_A.sl.v3367
  Cert.KernelIdeal.Gen.kernelRun0_A.sl.v3368
  Cert.KernelIdeal.Gen.kernelRun0_A.sl.v3369
  Cert.KernelIdeal.Gen.kernelRun0_A.sl.v3370
  Cert.KernelIdeal.Gen.kernelRun0_A.sl.v3371
  Cert.KernelIdeal.Gen.kernelRun0_A.sl.v3372
  Cert.KernelIdeal.Gen.kernelRun0_A.sl.v3373
  Cert.KernelIdeal.Gen.kernelRun0_A.sl.v3374
  Cert.KernelIdeal.Gen.kernelRun0_A.sl.v3459
  Cert.KernelIdeal.Gen.kernelRun0_A.sl.v3460
  Cert.KernelIdeal.Gen.kernelRun0_A.sl.v3461
  Cert.KernelIdeal.Gen.kernelRun0_A.sl.v3462
  Cert.KernelIdeal.Gen.kernelRun0_A.sl.v3463
  Cert.KernelIdeal.Gen.kernelRun0_A.sl.v3464
  Cert.KernelIdeal.Gen.kernelRun0_A.sl.v3465
  Cert.KernelIdeal.Gen.kernelRun0_A.sl.v3466
  Cert.KernelIdeal.Gen.kernelRun0_A.sl.v3467
  Cert.KernelIdeal.Gen.kernelRun0_A.sl.v3468
  Cert.KernelIdeal.Gen.kernelRun0_A.sl.v3469
  Cert.KernelIdeal.Gen.kernelRun0_A.sl.v3470
  Cert.KernelIdeal.Gen.kernelRun0_A.sl.v3663
  Cert.KernelIdeal.Gen.kernelRun0_A.sl.v3664
  Cert.KernelIdeal.Gen.kernelRun0_A.sl.v3665
  Cert.KernelIdeal.Gen.kernelRun0_A.sl.v3666
  Cert.KernelIdeal.Gen.kernelRun0_A.sl.v3667
  Cert.KernelIdeal.Gen.kernelRun0_A.sl.v3668
  Cert.KernelIdeal.Gen.kernelRun0_A.sl.v3669
  Cert.KernelIdeal.Gen.kernelRun0_A.sl.v3670
  Cert.KernelIdeal.Gen.kernelRun0_A.sl.v3671
  Cert.KernelIdeal.Gen.kernelRun0_A.sl.v3672
  Cert.KernelIdeal.Gen.kernelRun0_A.sl.v3673
  Cert.KernelIdeal.Gen.kernelRun0_A.sl.v3674
  Cert.KernelIdeal.Gen.kernelRun0_A.sl.v3867
  Cert.KernelIdeal.Gen.kernelRun0_A.sl.v3868
  Cert.KernelIdeal.Gen.kernelRun0_A.sl.v3869
  Cert.KernelIdeal.Gen.kernelRun0_A.sl.v3870
  Cert.KernelIdeal.Gen.kernelRun0_A.sl.v3871
  Cert.KernelIdeal.Gen.kernelRun0_A.sl.v3872
  Cert.KernelIdeal.Gen.kernelRun0_A.sl.v3873
  Cert.KernelIdeal.Gen.kernelRun0_A.sl.v3874
  Cert.KernelIdeal.Gen.kernelRun0_A.sl.v3875
  Cert.KernelIdeal.Gen.kernelRun0_A.sl.v3876
  Cert.KernelIdeal.Gen.kernelRun0_A.sl.v3877
  Cert.KernelIdeal.Gen.kernelRun0_A.sl.v3878
  Cert.KernelIdeal.Gen.kernelRun0_A.sl.v399
  Cert.KernelIdeal.Gen.kernelRun0_A.sl.v400
  Cert.KernelIdeal.Gen.kernelRun0_A.sl.v401
  Cert.KernelIdeal.Gen.kernelRun0_A.sl.v402
  Cert.KernelIdeal.Gen.kernelRun0_A.sl.v403
  Cert.KernelIdeal.Gen.kernelRun0_A.sl.v404
  Cert.KernelIdeal.Gen.kernelRun0_A.sl.v405
  Cert.KernelIdeal.Gen.kernelRun0_A.sl.v406
  Cert.KernelIdeal.Gen.kernelRun0_A.sl.v407
  Cert.KernelIdeal.Gen.kernelRun0_A.sl.v4071
  Cert.KernelIdeal.Gen.kernelRun0_A.sl.v4072
  Cert.KernelIdeal.Gen.kernelRun0_A.sl.v4073
  Cert.KernelIdeal.Gen.kernelRun0_A.sl.v4074
  Cert.KernelIdeal.Gen.kernelRun0_A.sl.v4075
  Cert.KernelIdeal.Gen.kernelRun0_A.sl.v4076
  Cert.KernelIdeal.Gen.kernelRun0_A.sl.v4077
  Cert.KernelIdeal.Gen.kernelRun0_A.sl.v4078
  Cert.KernelIdeal.Gen.kernelRun0_A.sl.v4079
  Cert.KernelIdeal.Gen.kernelRun0_A.sl.v408
  Cert.KernelIdeal.Gen.kernelRun0_A.sl.v4080
  Cert.KernelIdeal.Gen.kernelRun0_A.sl.v4081
  Cert.KernelIdeal.Gen.kernelRun0_A.sl.v4082
  Cert.KernelIdeal.Gen.kernelRun0_A.sl.v409
  Cert.KernelIdeal.Gen.kernelRun0_A.sl.v410
  Cert.KernelIdeal.Gen.kernelRun0_A.sl.v4160
  Cert.KernelIdeal.Gen.kernelRun0_A.sl.v4161
  Cert.KernelIdeal.Gen.kernelRun0_A.sl.v4162
  Cert.KernelIdeal.Gen.kernelRun0_A.sl.v4163
  Cert.KernelIdeal.Gen.kernelRun0_A.sl.v4164
  Cert.KernelIdeal.Gen.kernelRun0_A.sl.v4165
  Cert.KernelIdeal.Gen.kernelRun0_A.sl.v4166
  Cert.KernelIdeal.Gen.kernelRun0_A.sl.v4167
  Cert.KernelIdeal.Gen.kernelRun0_A.sl.v4168
  Cert.KernelIdeal.Gen.kernelRun0_A.sl.v4169
  Cert.KernelIdeal.Gen.kernelRun0_A.sl.v4170
  Cert.KernelIdeal.Gen.kernelRun0_A.sl.v4171
  Cert.KernelIdeal.Gen.kernelRun0_A.sl.v4172
  Cert.KernelIdeal.Gen.kernelRun0_A.sl.v4173
  Cert.KernelIdeal.Gen.kernelRun0_A.sl.v4174
  Cert.KernelIdeal.Gen.kernelRun0_A.sl.v4175
  Cert.KernelIdeal.Gen.kernelRun0_A.sl.v4176
  Cert.KernelIdeal.Gen.kernelRun0_A.sl.v4177
  Cert.KernelIdeal.Gen.kernelRun0_A.sl.v4178
  Cert.KernelIdeal.Gen.kernelRun0_A.sl.v4179
  Cert.KernelIdeal.Gen.kernelRun0_A.sl.v4180
  Cert.KernelIdeal.Gen.kernelRun0_A.sl.v4181
  Cert.KernelIdeal.Gen.kernelRun0_A.sl.v4182
  Cert.KernelIdeal.Gen.kernelRun0_A.sl.v4183
  Cert.KernelIdeal.Gen.kernelRun0_A.sl.v4184
  Cert.KernelIdeal.Gen.kernelRun0_A.sl.v4185
  Cert.KernelIdeal.Gen.kernelRun0_A.sl.v4186
  Cert.KernelIdeal.Gen.kernelRun0_A.sl.v4187
  Cert.KernelIdeal.Gen.kernelRun0_A.sl.v4188
  Cert.KernelIdeal.Gen.kernelRun0_A.sl.v4189
  Cert.KernelIdeal.Gen.kernelRun0_A.sl.v4275
  Cert.KernelIdeal.Gen.kernelRun0_A.sl.v4276
  Cert.KernelIdeal.Gen.kernelRun0_A.sl.v4277
  Cert.KernelIdeal.Gen.kernelRun0_A.sl.v4278
  Cert.KernelIdeal.Gen.kernelRun0_A.sl.v4279
  Cert.KernelIdeal.Gen.kernelRun0_A.sl.v4280
  Cert.KernelIdeal.Gen.kernelRun0_A.sl.v4281
  Cert.KernelIdeal.Gen.kernelRun0_A.sl.v4282
  Cert.KernelIdeal.Gen.kernelRun0_A.sl.v4283
  Cert.KernelIdeal.Gen.kernelRun0_A.sl.v4284
  Cert.KernelIdeal.Gen.kernelRun0_A.sl.v4285
  Cert.KernelIdeal.Gen.kernelRun0_A.sl.v4286
  Cert.KernelIdeal.Gen.kernelRun0_A.sl.v4479
  Cert.KernelIdeal.Gen.kernelRun0_A.sl.v4480
  Cert.KernelIdeal.Gen.kernelRun0_A.sl.v4481
  Cert.KernelIdeal.Gen.kernelRun0_A.sl.v4482
  Cert.KernelIdeal.Gen.kernelRun0_A.sl.v4483
  Cert.KernelIdeal.Gen.kernelRun0_A.sl.v4484
  Cert.KernelIdeal.Gen.kernelRun0_A.sl.v4485
  Cert.KernelIdeal.Gen.kernelRun0_A.sl.v4486
  Cert.KernelIdeal.Gen.kernelRun0_A.sl.v4487
  Cert.KernelIdeal.Gen.kernelRun0_A.sl.v4488
  Cert.KernelIdeal.Gen.kernelRun0_A.sl.v4489
  Cert.KernelIdeal.Gen.kernelRun0_A.sl.v4490
  Cert.KernelIdeal.Gen.kernelRun0_A.sl.v4683
  Cert.KernelIdeal.Gen.kernelRun0_A.sl.v4684
  Cert.KernelIdeal.Gen.kernelRun0_A.sl.v4685
  Cert.KernelIdeal.Gen.kernelRun0_A.sl.v4686
  Cert.KernelIdeal.Gen.kernelRun0_A.sl.v4687
  Cert.KernelIdeal.Gen.kernelRun0_A.sl.v4688
  Cert.KernelIdeal.Gen.kernelRun0_A.sl.v4689
  Cert.KernelIdeal.Gen.kernelRun0_A.sl.v4690
  Cert.KernelIdeal.Gen.kernelRun0_A.sl.v4691
  Cert.KernelIdeal.Gen.kernelRun0_A.sl.v4692
  Cert.KernelIdeal.Gen.kernelRun0_A.sl.v4693
  Cert.KernelIdeal.Gen.kernelRun0_A.sl.v4694
  Cert.KernelIdeal.Gen.kernelRun0_A.sl.v603
  Cert.KernelIdeal.Gen.kernelRun0_A.sl.v604
  Cert.KernelIdeal.Gen.kernelRun0_A.sl.v605
  Cert.KernelIdeal.Gen.kernelRun0_A.sl.v606
  Cert.KernelIdeal.Gen.kernelRun0_A.sl.v607
  Cert.KernelIdeal.Gen.kernelRun0_A.sl.v608
  Cert.KernelIdeal.Gen.kernelRun0_A.sl.v609
  Cert.KernelIdeal.Gen.kernelRun0_A.sl.v610
  Cert.KernelIdeal.Gen.kernelRun0_A.sl.v611
  Cert.KernelIdeal.Gen.kernelRun0_A.sl.v612
  Cert.KernelIdeal.Gen.kernelRun0_A.sl.v613
  Cert.KernelIdeal.Gen.kernelRun0_A.sl.v614
  Cert.KernelIdeal.Gen.kernelRun0_A.sl.v693
  Cert.KernelIdeal.Gen.kernelRun0_A.sl.v694
  Cert.KernelIdeal.Gen.kernelRun0_A.sl.v695
  Cert.KernelIdeal.Gen.kernelRun0_A.sl.v696
  Cert.KernelIdeal.Gen.kernelRun0_A.sl.v697
  Cert.KernelIdeal.Gen.kernelRun0_A.sl.v698
  Cert.KernelIdeal.Gen.kernelRun0_A.sl.v699
  Cert.KernelIdeal.Gen.kernelRun0_A.sl.v700
  Cert.KernelIdeal.Gen.kernelRun0_A.sl.v701
  Cert.KernelIdeal.Gen.kernelRun0_A.sl.v702
  Cert.KernelIdeal.Gen.kernelRun0_A.sl.v703
  Cert.KernelIdeal.Gen.kernelRun0_A.sl.v704
  Cert.KernelIdeal.Gen.kernelRun0_A.sl.v705
  Cert.KernelIdeal.Gen.kernelRun0_A.sl.v706
  Cert.KernelIdeal.Gen.kernelRun0_A.sl.v707
  Cert.KernelIdeal.Gen.kernelRun0_A.sl.v708
  Cert.KernelIdeal.Gen.kernelRun0_A.sl.v709
  Cert.KernelIdeal.Gen.kernelRun0_A.sl.v710
  Cert.KernelIdeal.Gen.kernelRun0_A.sl.v711
  Cert.KernelIdeal.Gen.kernelRun0_A.sl.v712
  Cert.KernelIdeal.Gen.kernelRun0_A.sl.v713
  Cert.KernelIdeal.Gen.kernelRun0_A.sl.v714
  Cert.KernelIdeal.Gen.kernelRun0_A.sl.v715
  Cert.KernelIdeal.Gen.kernelRun0_A.sl.v716
  Cert.KernelIdeal.Gen.kernelRun0_A.sl.v717
  Cert.KernelIdeal.Gen.kernelRun0_A.sl.v718
  Cert.KernelIdeal.Gen.kernelRun0_A.sl.v719
  Cert.KernelIdeal.Gen.kernelRun0_A.sl.v720
  Cert.KernelIdeal.Gen.kernelRun0_A.sl.v721
  Cert.KernelIdeal.Gen.kernelRun0_A.sl.v722
  Cert.KernelIdeal.Gen.kernelRun0_A.sl.v807
  Cert.KernelIdeal.Gen.kernelRun0_A.sl.v808
  Cert.KernelIdeal.Gen.kernelRun0_A.sl.v809
  Cert.KernelIdeal.Gen.kernelRun0_A.sl.v810
  Cert.KernelIdeal.Gen.kernelRun0_A.sl.v811
  Cert.KernelIdeal.Gen.kernelRun0_A.sl.v812
  Cert.KernelIdeal.Gen.kernelRun0_A.sl.v813
  Cert.KernelIdeal.Gen.kernelRun0_A.sl.v814
  Cert.KernelIdeal.Gen.kernelRun0_A.sl.v815
  Cert.KernelIdeal.Gen.kernelRun0_A.sl.v816
  Cert.KernelIdeal.Gen.kernelRun0_A.sl.v817
  Cert.KernelIdeal.Gen.kernelRun0_A.sl.v818
-- ==== Proof.KJ0.lean ====
/- Joint 0, the root: what the body stores for it in the twelve scratch rows 0 is its own rotation and its offset, and its
   piece of the output block is its offset plus the lane's root translation: both sides evaluated at one lane. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 0 hold its transform's entries. -/
theorem lvl1 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl0 c arg1 harg1 arg2 harg2 arg5 arg6 arg7 arg8 arg9 arg10 arg11 arg12 arg13 arg14 arg15 arg16 x0 x1) : Lvl1 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_1
    refine Pcs.cons 0 (by decide) _ _ (fun b => ?_) (Pcs.nil _)
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_1
    refine Pcs.cons 0 (by decide) _ _ (fun b => ?_) (Pcs.nil _)
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_1
    refine Pcs.cons 0 (by decide) _ _ (fun b => ?_) (Pcs.nil _)
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_1
    refine Pcs.cons 0 (by decide) _ _ (fun b => ?_) (Pcs.nil _)
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_1
    refine Pcs.cons 0 (by decide) _ _ (fun b => ?_) (Pcs.nil _)
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_1
    refine Pcs.cons 0 (by decide) _ _ (fun b => ?_) (Pcs.nil _)
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_1
    refine Pcs.cons 0 (by decide) _ _ (fun b => ?_) (Pcs.nil _)
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_1
    refine Pcs.cons 0 (by decide) _ _ (fun b => ?_) (Pcs.nil _)
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_1
    refine Pcs.cons 0 (by decide) _ _ (fun b => ?_) (Pcs.nil _)
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_1
    refine Pcs.cons 0 (by decide) _ _ (fun b => ?_) (Pcs.nil _)
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_1
    refine Pcs.cons 0 (by decide) _ _ (fun b => ?_) (Pcs.nil _)
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_1
    refine Pcs.cons 0 (by decide) _ _ (fun b => ?_) (Pcs.nil _)
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 0's piece of the output block holds its position. -/
theorem outp0 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl0 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 23 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 23 (by decide)).1.emb x) := by
  unfold outPiece kernelRun0_A
  simp only [List.get_eq_getElem, List.getElem_cons_succ, List.getElem_cons_zero]
  refine out_piece x0 x1 x2 0 (by decide) inb_S24x3x4096_S1x3x4096_0_0_0 _ (fun k b => ?_)
  fin_cases k <;>
    simp (disch := decide) only [fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS0,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ1.lean ====
/- Joint 1 (parent 0): what the body stores for it in the twelve scratch rows 1 is the parent's transform, read back from
   rows 0, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 1 hold its transform's entries. -/
theorem lvl2 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl1 c arg1 harg1 arg2 harg2 arg5 arg6 arg7 arg8 arg9 arg10 arg11 arg12 arg13 arg14 arg15 arg16 x0 x1) : Lvl2 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_2
    refine Pcs.cons 1 (by decide) _ _ (fun b => ?_) h.p0
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_2
    refine Pcs.cons 1 (by decide) _ _ (fun b => ?_) h.p1
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_2
    refine Pcs.cons 1 (by decide) _ _ (fun b => ?_) h.p2
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_2
    refine Pcs.cons 1 (by decide) _ _ (fun b => ?_) h.p3
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_2
    refine Pcs.cons 1 (by decide) _ _ (fun b => ?_) h.p4
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_2
    refine Pcs.cons 1 (by decide) _ _ (fun b => ?_) h.p5
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_2
    refine Pcs.cons 1 (by decide) _ _ (fun b => ?_) h.p6
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_2
    refine Pcs.cons 1 (by decide) _ _ (fun b => ?_) h.p7
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_2
    refine Pcs.cons 1 (by decide) _ _ (fun b => ?_) h.p8
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_2
    refine Pcs.cons 1 (by decide) _ _ (fun b => ?_) h.p9
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_2
    refine Pcs.cons 1 (by decide) _ _ (fun b => ?_) h.p10
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_2
    refine Pcs.cons 1 (by decide) _ _ (fun b => ?_) h.p11
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 1's piece of the output block holds its position. -/
theorem outp1 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl1 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 22 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 22 (by decide)).1.emb x) := by
  unfold outPiece kernelRun0_A
  simp only [List.get_eq_getElem, List.getElem_cons_succ, List.getElem_cons_zero]
  refine out_piece x0 x1 x2 1 (by decide) inb_S24x3x4096_S1x3x4096_1_0_0 _ (fun k b => ?_)
  fin_cases k <;>
    simp (disch := decide) only [read_row h.p0 (cov_0_1 c arg1 harg1 arg2 harg2 arg5 arg6 arg7 arg8 arg9 arg10 arg11 arg12 arg13 arg14 arg15 arg16 x0 x1), read_row h.p1 (cov_1_1 c arg1 harg1 arg2 harg2 arg5 arg6 arg7 arg8 arg9 arg10 arg11 arg12 arg13 arg14 arg15 arg16 x0 x1), read_row h.p2 (cov_2_1 c arg1 harg1 arg2 harg2 arg5 arg6 arg7 arg8 arg9 arg10 arg11 arg12 arg13 arg14 arg15 arg16 x0 x1), read_row h.p3 (cov_3_1 c arg1 harg1 arg2 harg2 arg5 arg6 arg7 arg8 arg9 arg10 arg11 arg12 arg13 arg14 arg15 arg16 x0 x1), read_row h.p4 (cov_4_1 c arg1 harg1 arg2 harg2 arg5 arg6 arg7 arg8 arg9 arg10 arg11 arg12 arg13 arg14 arg15 arg16 x0 x1), read_row h.p5 (cov_5_1 c arg1 harg1 arg2 harg2 arg5 arg6 arg7 arg8 arg9 arg10 arg11 arg12 arg13 arg14 arg15 arg16 x0 x1), read_row h.p6 (cov_6_1 c arg1 harg1 arg2 harg2 arg5 arg6 arg7 arg8 arg9 arg10 arg11 arg12 arg13 arg14 arg15 arg16 x0 x1), read_row h.p7 (cov_7_1 c arg1 harg1 arg2 harg2 arg5 arg6 arg7 arg8 arg9 arg10 arg11 arg12 arg13 arg14 arg15 arg16 x0 x1), read_row h.p8 (cov_8_1 c arg1 harg1 arg2 harg2 arg5 arg6 arg7 arg8 arg9 arg10 arg11 arg12 arg13 arg14 arg15 arg16 x0 x1), read_row h.p9 (cov_9_1 c arg1 harg1 arg2 harg2 arg5 arg6 arg7 arg8 arg9 arg10 arg11 arg12 arg13 arg14 arg15 arg16 x0 x1), read_row h.p10 (cov_10_1 c arg1 harg1 arg2 harg2 arg5 arg6 arg7 arg8 arg9 arg10 arg11 arg12 arg13 arg14 arg15 arg16 x0 x1), read_row h.p11 (cov_11_1 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS1,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ2.lean ====
/- Joint 2 (parent 0): what the body stores for it in the twelve scratch rows 2 is the parent's transform, read back from
   rows 0, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 2 hold its transform's entries. -/
theorem lvl3 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl2 c arg1 harg1 arg2 harg2 arg5 arg6 arg7 arg8 arg9 arg10 arg11 arg12 arg13 arg14 arg15 arg16 x0 x1) : Lvl3 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_3
    refine Pcs.cons 2 (by decide) _ _ (fun b => ?_) h.p0
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_3
    refine Pcs.cons 2 (by decide) _ _ (fun b => ?_) h.p1
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_3
    refine Pcs.cons 2 (by decide) _ _ (fun b => ?_) h.p2
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_3
    refine Pcs.cons 2 (by decide) _ _ (fun b => ?_) h.p3
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_3
    refine Pcs.cons 2 (by decide) _ _ (fun b => ?_) h.p4
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_3
    refine Pcs.cons 2 (by decide) _ _ (fun b => ?_) h.p5
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_3
    refine Pcs.cons 2 (by decide) _ _ (fun b => ?_) h.p6
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_3
    refine Pcs.cons 2 (by decide) _ _ (fun b => ?_) h.p7
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_3
    refine Pcs.cons 2 (by decide) _ _ (fun b => ?_) h.p8
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_3
    refine Pcs.cons 2 (by decide) _ _ (fun b => ?_) h.p9
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_3
    refine Pcs.cons 2 (by decide) _ _ (fun b => ?_) h.p10
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_3
    refine Pcs.cons 2 (by decide) _ _ (fun b => ?_) h.p11
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 2's piece of the output block holds its position. -/
theorem outp2 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl2 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 21 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 21 (by decide)).1.emb x) := by
  unfold outPiece kernelRun0_A
  simp only [List.get_eq_getElem, List.getElem_cons_succ, List.getElem_cons_zero]
  refine out_piece x0 x1 x2 2 (by decide) inb_S24x3x4096_S1x3x4096_2_0_0 _ (fun k b => ?_)
  fin_cases k <;>
    simp (disch := decide) only [read_row h.p0 (cov_0_2 c arg1 harg1 arg2 harg2 arg5 arg6 arg7 arg8 arg9 arg10 arg11 arg12 arg13 arg14 arg15 arg16 x0 x1), read_row h.p1 (cov_1_2 c arg1 harg1 arg2 harg2 arg5 arg6 arg7 arg8 arg9 arg10 arg11 arg12 arg13 arg14 arg15 arg16 x0 x1), read_row h.p2 (cov_2_2 c arg1 harg1 arg2 harg2 arg5 arg6 arg7 arg8 arg9 arg10 arg11 arg12 arg13 arg14 arg15 arg16 x0 x1), read_row h.p3 (cov_3_2 c arg1 harg1 arg2 harg2 arg5 arg6 arg7 arg8 arg9 arg10 arg11 arg12 arg13 arg14 arg15 arg16 x0 x1), read_row h.p4 (cov_4_2 c arg1 harg1 arg2 harg2 arg5 arg6 arg7 arg8 arg9 arg10 arg11 arg12 arg13 arg14 arg15 arg16 x0 x1), read_row h.p5 (cov_5_2 c arg1 harg1 arg2 harg2 arg5 arg6 arg7 arg8 arg9 arg10 arg11 arg12 arg13 arg14 arg15 arg16 x0 x1), read_row h.p6 (cov_6_2 c arg1 harg1 arg2 harg2 arg5 arg6 arg7 arg8 arg9 arg10 arg11 arg12 arg13 arg14 arg15 arg16 x0 x1), read_row h.p7 (cov_7_2 c arg1 harg1 arg2 harg2 arg5 arg6 arg7 arg8 arg9 arg10 arg11 arg12 arg13 arg14 arg15 arg16 x0 x1), read_row h.p8 (cov_8_2 c arg1 harg1 arg2 harg2 arg5 arg6 arg7 arg8 arg9 arg10 arg11 arg12 arg13 arg14 arg15 arg16 x0 x1), read_row h.p9 (cov_9_2 c arg1 harg1 arg2 harg2 arg5 arg6 arg7 arg8 arg9 arg10 arg11 arg12 arg13 arg14 arg15 arg16 x0 x1), read_row h.p10 (cov_10_2 c arg1 harg1 arg2 harg2 arg5 arg6 arg7 arg8 arg9 arg10 arg11 arg12 arg13 arg14 arg15 arg16 x0 x1), read_row h.p11 (cov_11_2 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS2,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ3.lean ====
/- Joint 3 (parent 0): what the body stores for it in the twelve scratch rows 3 is the parent's transform, read back from
   rows 0, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 3 hold its transform's entries. -/
theorem lvl4 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl3 c arg1 harg1 arg2 harg2 arg5 arg6 arg7 arg8 arg9 arg10 arg11 arg12 arg13 arg14 arg15 arg16 x0 x1) : Lvl4 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_4
    refine Pcs.cons 3 (by decide) _ _ (fun b => ?_) h.p0
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_4
    refine Pcs.cons 3 (by decide) _ _ (fun b => ?_) h.p1
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_4
    refine Pcs.cons 3 (by decide) _ _ (fun b => ?_) h.p2
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_4
    refine Pcs.cons 3 (by decide) _ _ (fun b => ?_) h.p3
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_4
    refine Pcs.cons 3 (by decide) _ _ (fun b => ?_) h.p4
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_4
    refine Pcs.cons 3 (by decide) _ _ (fun b => ?_) h.p5
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_4
    refine Pcs.cons 3 (by decide) _ _ (fun b => ?_) h.p6
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_4
    refine Pcs.cons 3 (by decide) _ _ (fun b => ?_) h.p7
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_4
    refine Pcs.cons 3 (by decide) _ _ (fun b => ?_) h.p8
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_4
    refine Pcs.cons 3 (by decide) _ _ (fun b => ?_) h.p9
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_4
    refine Pcs.cons 3 (by decide) _ _ (fun b => ?_) h.p10
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_4
    refine Pcs.cons 3 (by decide) _ _ (fun b => ?_) h.p11
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 3's piece of the output block holds its position. -/
theorem outp3 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl3 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 20 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 20 (by decide)).1.emb x) := by
  unfold outPiece kernelRun0_A
  simp only [List.get_eq_getElem, List.getElem_cons_succ, List.getElem_cons_zero]
  refine out_piece x0 x1 x2 3 (by decide) inb_S24x3x4096_S1x3x4096_3_0_0 _ (fun k b => ?_)
  fin_cases k <;>
    simp (disch := decide) only [read_row h.p0 (cov_0_3 c arg1 harg1 arg2 harg2 arg5 arg6 arg7 arg8 arg9 arg10 arg11 arg12 arg13 arg14 arg15 arg16 x0 x1), read_row h.p1 (cov_1_3 c arg1 harg1 arg2 harg2 arg5 arg6 arg7 arg8 arg9 arg10 arg11 arg12 arg13 arg14 arg15 arg16 x0 x1), read_row h.p2 (cov_2_3 c arg1 harg1 arg2 harg2 arg5 arg6 arg7 arg8 arg9 arg10 arg11 arg12 arg13 arg14 arg15 arg16 x0 x1), read_row h.p3 (cov_3_3 c arg1 harg1 arg2 harg2 arg5 arg6 arg7 arg8 arg9 arg10 arg11 arg12 arg13 arg14 arg15 arg16 x0 x1), read_row h.p4 (cov_4_3 c arg1 harg1 arg2 harg2 arg5 arg6 arg7 arg8 arg9 arg10 arg11 arg12 arg13 arg14 arg15 arg16 x0 x1), read_row h.p5 (cov_5_3 c arg1 harg1 arg2 harg2 arg5 arg6 arg7 arg8 arg9 arg10 arg11 arg12 arg13 arg14 arg15 arg16 x0 x1), read_row h.p6 (cov_6_3 c arg1 harg1 arg2 harg2 arg5 arg6 arg7 arg8 arg9 arg10 arg11 arg12 arg13 arg14 arg15 arg16 x0 x1), read_row h.p7 (cov_7_3 c arg1 harg1 arg2 harg2 arg5 arg6 arg7 arg8 arg9 arg10 arg11 arg12 arg13 arg14 arg15 arg16 x0 x1), read_row h.p8 (cov_8_3 c arg1 harg1 arg2 harg2 arg5 arg6 arg7 arg8 arg9 arg10 arg11 arg12 arg13 arg14 arg15 arg16 x0 x1), read_row h.p9 (cov_9_3 c arg1 harg1 arg2 harg2 arg5 arg6 arg7 arg8 arg9 arg10 arg11 arg12 arg13 arg14 arg15 arg16 x0 x1), read_row h.p10 (cov_10_3 c arg1 harg1 arg2 harg2 arg5 arg6 arg7 arg8 arg9 arg10 arg11 arg12 arg13 arg14 arg15 arg16 x0 x1), read_row h.p11 (cov_11_3 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS3,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ4.lean ====
/- Joint 4 (parent 1): what the body stores for it in the twelve scratch rows 4 is the parent's transform, read back from
   rows 1, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 4 hold its transform's entries. -/
theorem lvl5 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl4 c arg1 harg1 arg2 harg2 arg5 arg6 arg7 arg8 arg9 arg10 arg11 arg12 arg13 arg14 arg15 arg16 x0 x1) : Lvl5 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_5
    refine Pcs.cons 4 (by decide) _ _ (fun b => ?_) h.p0
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_5
    refine Pcs.cons 4 (by decide) _ _ (fun b => ?_) h.p1
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_5
    refine Pcs.cons 4 (by decide) _ _ (fun b => ?_) h.p2
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_5
    refine Pcs.cons 4 (by decide) _ _ (fun b => ?_) h.p3
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_5
    refine Pcs.cons 4 (by decide) _ _ (fun b => ?_) h.p4
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_5
    refine Pcs.cons 4 (by decide) _ _ (fun b => ?_) h.p5
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_5
    refine Pcs.cons 4 (by decide) _ _ (fun b => ?_) h.p6
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_5
    refine Pcs.cons 4 (by decide) _ _ (fun b => ?_) h.p7
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_5
    refine Pcs.cons 4 (by decide) _ _ (fun b => ?_) h.p8
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_5
    refine Pcs.cons 4 (by decide) _ _ (fun b => ?_) h.p9
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_5
    refine Pcs.cons 4 (by decide) _ _ (fun b => ?_) h.p10
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_5
    refine Pcs.cons 4 (by decide) _ _ (fun b => ?_) h.p11
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 4's piece of the output block holds its position. -/
theorem outp4 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl4 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 19 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 19 (by decide)).1.emb x) := by
  unfold outPiece kernelRun0_A
  simp only [List.get_eq_getElem, List.getElem_cons_succ, List.getElem_cons_zero]
  refine out_piece x0 x1 x2 4 (by decide) inb_S24x3x4096_S1x3x4096_4_0_0 _ (fun k b => ?_)
  fin_cases k <;>
    simp (disch := decide) only [read_row h.p0 (cov_0_4 c arg1 harg1 arg2 harg2 arg5 arg6 arg7 arg8 arg9 arg10 arg11 arg12 arg13 arg14 arg15 arg16 x0 x1), read_row h.p1 (cov_1_4 c arg1 harg1 arg2 harg2 arg5 arg6 arg7 arg8 arg9 arg10 arg11 arg12 arg13 arg14 arg15 arg16 x0 x1), read_row h.p2 (cov_2_4 c arg1 harg1 arg2 harg2 arg5 arg6 arg7 arg8 arg9 arg10 arg11 arg12 arg13 arg14 arg15 arg16 x0 x1), read_row h.p3 (cov_3_4 c arg1 harg1 arg2 harg2 arg5 arg6 arg7 arg8 arg9 arg10 arg11 arg12 arg13 arg14 arg15 arg16 x0 x1), read_row h.p4 (cov_4_4 c arg1 harg1 arg2 harg2 arg5 arg6 arg7 arg8 arg9 arg10 arg11 arg12 arg13 arg14 arg15 arg16 x0 x1), read_row h.p5 (cov_5_4 c arg1 harg1 arg2 harg2 arg5 arg6 arg7 arg8 arg9 arg10 arg11 arg12 arg13 arg14 arg15 arg16 x0 x1), read_row h.p6 (cov_6_4 c arg1 harg1 arg2 harg2 arg5 arg6 arg7 arg8 arg9 arg10 arg11 arg12 arg13 arg14 arg15 arg16 x0 x1), read_row h.p7 (cov_7_4 c arg1 harg1 arg2 harg2 arg5 arg6 arg7 arg8 arg9 arg10 arg11 arg12 arg13 arg14 arg15 arg16 x0 x1), read_row h.p8 (cov_8_4 c arg1 harg1 arg2 harg2 arg5 arg6 arg7 arg8 arg9 arg10 arg11 arg12 arg13 arg14 arg15 arg16 x0 x1), read_row h.p9 (cov_9_4 c arg1 harg1 arg2 harg2 arg5 arg6 arg7 arg8 arg9 arg10 arg11 arg12 arg13 arg14 arg15 arg16 x0 x1), read_row h.p10 (cov_10_4 c arg1 harg1 arg2 harg2 arg5 arg6 arg7 arg8 arg9 arg10 arg11 arg12 arg13 arg14 arg15 arg16 x0 x1), read_row h.p11 (cov_11_4 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS4,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ5.lean ====
/- Joint 5 (parent 2): what the body stores for it in the twelve scratch rows 5 is the parent's transform, read back from
   rows 2, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 5 hold its transform's entries. -/
theorem lvl6 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl5 c arg1 harg1 arg2 harg2 arg5 arg6 arg7 arg8 arg9 arg10 arg11 arg12 arg13 arg14 arg15 arg16 x0 x1) : Lvl6 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_6
    refine Pcs.cons 5 (by decide) _ _ (fun b => ?_) h.p0
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_6
    refine Pcs.cons 5 (by decide) _ _ (fun b => ?_) h.p1
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_6
    refine Pcs.cons 5 (by decide) _ _ (fun b => ?_) h.p2
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_6
    refine Pcs.cons 5 (by decide) _ _ (fun b => ?_) h.p3
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_6
    refine Pcs.cons 5 (by decide) _ _ (fun b => ?_) h.p4
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_6
    refine Pcs.cons 5 (by decide) _ _ (fun b => ?_) h.p5
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_6
    refine Pcs.cons 5 (by decide) _ _ (fun b => ?_) h.p6
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_6
    refine Pcs.cons 5 (by decide) _ _ (fun b => ?_) h.p7
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_6
    refine Pcs.cons 5 (by decide) _ _ (fun b => ?_) h.p8
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_6
    refine Pcs.cons 5 (by decide) _ _ (fun b => ?_) h.p9
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_6
    refine Pcs.cons 5 (by decide) _ _ (fun b => ?_) h.p10
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_6
    refine Pcs.cons 5 (by decide) _ _ (fun b => ?_) h.p11
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 5's piece of the output block holds its position. -/
theorem outp5 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl5 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 18 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 18 (by decide)).1.emb x) := by
  unfold outPiece kernelRun0_A
  simp only [List.get_eq_getElem, List.getElem_cons_succ, List.getElem_cons_zero]
  refine out_piece x0 x1 x2 5 (by decide) inb_S24x3x4096_S1x3x4096_5_0_0 _ (fun k b => ?_)
  fin_cases k <;>
    simp (disch := decide) only [read_row h.p0 (cov_0_5 c arg1 harg1 arg2 harg2 arg5 arg6 arg7 arg8 arg9 arg10 arg11 arg12 arg13 arg14 arg15 arg16 x0 x1), read_row h.p1 (cov_1_5 c arg1 harg1 arg2 harg2 arg5 arg6 arg7 arg8 arg9 arg10 arg11 arg12 arg13 arg14 arg15 arg16 x0 x1), read_row h.p2 (cov_2_5 c arg1 harg1 arg2 harg2 arg5 arg6 arg7 arg8 arg9 arg10 arg11 arg12 arg13 arg14 arg15 arg16 x0 x1), read_row h.p3 (cov_3_5 c arg1 harg1 arg2 harg2 arg5 arg6 arg7 arg8 arg9 arg10 arg11 arg12 arg13 arg14 arg15 arg16 x0 x1), read_row h.p4 (cov_4_5 c arg1 harg1 arg2 harg2 arg5 arg6 arg7 arg8 arg9 arg10 arg11 arg12 arg13 arg14 arg15 arg16 x0 x1), read_row h.p5 (cov_5_5 c arg1 harg1 arg2 harg2 arg5 arg6 arg7 arg8 arg9 arg10 arg11 arg12 arg13 arg14 arg15 arg16 x0 x1), read_row h.p6 (cov_6_5 c arg1 harg1 arg2 harg2 arg5 arg6 arg7 arg8 arg9 arg10 arg11 arg12 arg13 arg14 arg15 arg16 x0 x1), read_row h.p7 (cov_7_5 c arg1 harg1 arg2 harg2 arg5 arg6 arg7 arg8 arg9 arg10 arg11 arg12 arg13 arg14 arg15 arg16 x0 x1), read_row h.p8 (cov_8_5 c arg1 harg1 arg2 harg2 arg5 arg6 arg7 arg8 arg9 arg10 arg11 arg12 arg13 arg14 arg15 arg16 x0 x1), read_row h.p9 (cov_9_5 c arg1 harg1 arg2 harg2 arg5 arg6 arg7 arg8 arg9 arg10 arg11 arg12 arg13 arg14 arg15 arg16 x0 x1), read_row h.p10 (cov_10_5 c arg1 harg1 arg2 harg2 arg5 arg6 arg7 arg8 arg9 arg10 arg11 arg12 arg13 arg14 arg15 arg16 x0 x1), read_row h.p11 (cov_11_5 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS5,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ6.lean ====
/- Joint 6 (parent 3): what the body stores for it in the twelve scratch rows 6 is the parent's transform, read back from
   rows 3, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 6 hold its transform's entries. -/
theorem lvl7 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl6 c arg1 harg1 arg2 harg2 arg5 arg6 arg7 arg8 arg9 arg10 arg11 arg12 arg13 arg14 arg15 arg16 x0 x1) : Lvl7 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_7
    refine Pcs.cons 6 (by decide) _ _ (fun b => ?_) h.p0
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_7
    refine Pcs.cons 6 (by decide) _ _ (fun b => ?_) h.p1
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_7
    refine Pcs.cons 6 (by decide) _ _ (fun b => ?_) h.p2
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_7
    refine Pcs.cons 6 (by decide) _ _ (fun b => ?_) h.p3
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_7
    refine Pcs.cons 6 (by decide) _ _ (fun b => ?_) h.p4
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_7
    refine Pcs.cons 6 (by decide) _ _ (fun b => ?_) h.p5
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_7
    refine Pcs.cons 6 (by decide) _ _ (fun b => ?_) h.p6
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_7
    refine Pcs.cons 6 (by decide) _ _ (fun b => ?_) h.p7
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_7
    refine Pcs.cons 6 (by decide) _ _ (fun b => ?_) h.p8
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_7
    refine Pcs.cons 6 (by decide) _ _ (fun b => ?_) h.p9
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_7
    refine Pcs.cons 6 (by decide) _ _ (fun b => ?_) h.p10
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_7
    refine Pcs.cons 6 (by decide) _ _ (fun b => ?_) h.p11
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 6's piece of the output block holds its position. -/
theorem outp6 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl6 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 17 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 17 (by decide)).1.emb x) := by
  unfold outPiece kernelRun0_A
  simp only [List.get_eq_getElem, List.getElem_cons_succ, List.getElem_cons_zero]
  refine out_piece x0 x1 x2 6 (by decide) inb_S24x3x4096_S1x3x4096_6_0_0 _ (fun k b => ?_)
  fin_cases k <;>
    simp (disch := decide) only [read_row h.p0 (cov_0_6 c arg1 harg1 arg2 harg2 arg5 arg6 arg7 arg8 arg9 arg10 arg11 arg12 arg13 arg14 arg15 arg16 x0 x1), read_row h.p1 (cov_1_6 c arg1 harg1 arg2 harg2 arg5 arg6 arg7 arg8 arg9 arg10 arg11 arg12 arg13 arg14 arg15 arg16 x0 x1), read_row h.p2 (cov_2_6 c arg1 harg1 arg2 harg2 arg5 arg6 arg7 arg8 arg9 arg10 arg11 arg12 arg13 arg14 arg15 arg16 x0 x1), read_row h.p3 (cov_3_6 c arg1 harg1 arg2 harg2 arg5 arg6 arg7 arg8 arg9 arg10 arg11 arg12 arg13 arg14 arg15 arg16 x0 x1), read_row h.p4 (cov_4_6 c arg1 harg1 arg2 harg2 arg5 arg6 arg7 arg8 arg9 arg10 arg11 arg12 arg13 arg14 arg15 arg16 x0 x1), read_row h.p5 (cov_5_6 c arg1 harg1 arg2 harg2 arg5 arg6 arg7 arg8 arg9 arg10 arg11 arg12 arg13 arg14 arg15 arg16 x0 x1), read_row h.p6 (cov_6_6 c arg1 harg1 arg2 harg2 arg5 arg6 arg7 arg8 arg9 arg10 arg11 arg12 arg13 arg14 arg15 arg16 x0 x1), read_row h.p7 (cov_7_6 c arg1 harg1 arg2 harg2 arg5 arg6 arg7 arg8 arg9 arg10 arg11 arg12 arg13 arg14 arg15 arg16 x0 x1), read_row h.p8 (cov_8_6 c arg1 harg1 arg2 harg2 arg5 arg6 arg7 arg8 arg9 arg10 arg11 arg12 arg13 arg14 arg15 arg16 x0 x1), read_row h.p9 (cov_9_6 c arg1 harg1 arg2 harg2 arg5 arg6 arg7 arg8 arg9 arg10 arg11 arg12 arg13 arg14 arg15 arg16 x0 x1), read_row h.p10 (cov_10_6 c arg1 harg1 arg2 harg2 arg5 arg6 arg7 arg8 arg9 arg10 arg11 arg12 arg13 arg14 arg15 arg16 x0 x1), read_row h.p11 (cov_11_6 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS6,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ7.lean ====
/- Joint 7 (parent 4): what the body stores for it in the twelve scratch rows 7 is the parent's transform, read back from
   rows 4, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 7 hold its transform's entries. -/
theorem lvl8 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl7 c arg1 harg1 arg2 harg2 arg5 arg6 arg7 arg8 arg9 arg10 arg11 arg12 arg13 arg14 arg15 arg16 x0 x1) : Lvl8 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_8
    refine Pcs.cons 7 (by decide) _ _ (fun b => ?_) h.p0
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_8
    refine Pcs.cons 7 (by decide) _ _ (fun b => ?_) h.p1
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_8
    refine Pcs.cons 7 (by decide) _ _ (fun b => ?_) h.p2
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_8
    refine Pcs.cons 7 (by decide) _ _ (fun b => ?_) h.p3
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_8
    refine Pcs.cons 7 (by decide) _ _ (fun b => ?_) h.p4
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_8
    refine Pcs.cons 7 (by decide) _ _ (fun b => ?_) h.p5
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_8
    refine Pcs.cons 7 (by decide) _ _ (fun b => ?_) h.p6
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_8
    refine Pcs.cons 7 (by decide) _ _ (fun b => ?_) h.p7
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_8
    refine Pcs.cons 7 (by decide) _ _ (fun b => ?_) h.p8
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_8
    refine Pcs.cons 7 (by decide) _ _ (fun b => ?_) h.p9
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_8
    refine Pcs.cons 7 (by decide) _ _ (fun b => ?_) h.p10
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_8
    refine Pcs.cons 7 (by decide) _ _ (fun b => ?_) h.p11
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 7's piece of the output block holds its position. -/
theorem outp7 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl7 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 16 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 16 (by decide)).1.emb x) := by
  unfold outPiece kernelRun0_A
  simp only [List.get_eq_getElem, List.getElem_cons_succ, List.getElem_cons_zero]
  refine out_piece x0 x1 x2 7 (by decide) inb_S24x3x4096_S1x3x4096_7_0_0 _ (fun k b => ?_)
  fin_cases k <;>
    simp (disch := decide) only [read_row h.p0 (cov_0_7 c arg1 harg1 arg2 harg2 arg5 arg6 arg7 arg8 arg9 arg10 arg11 arg12 arg13 arg14 arg15 arg16 x0 x1), read_row h.p1 (cov_1_7 c arg1 harg1 arg2 harg2 arg5 arg6 arg7 arg8 arg9 arg10 arg11 arg12 arg13 arg14 arg15 arg16 x0 x1), read_row h.p2 (cov_2_7 c arg1 harg1 arg2 harg2 arg5 arg6 arg7 arg8 arg9 arg10 arg11 arg12 arg13 arg14 arg15 arg16 x0 x1), read_row h.p3 (cov_3_7 c arg1 harg1 arg2 harg2 arg5 arg6 arg7 arg8 arg9 arg10 arg11 arg12 arg13 arg14 arg15 arg16 x0 x1), read_row h.p4 (cov_4_7 c arg1 harg1 arg2 harg2 arg5 arg6 arg7 arg8 arg9 arg10 arg11 arg12 arg13 arg14 arg15 arg16 x0 x1), read_row h.p5 (cov_5_7 c arg1 harg1 arg2 harg2 arg5 arg6 arg7 arg8 arg9 arg10 arg11 arg12 arg13 arg14 arg15 arg16 x0 x1), read_row h.p6 (cov_6_7 c arg1 harg1 arg2 harg2 arg5 arg6 arg7 arg8 arg9 arg10 arg11 arg12 arg13 arg14 arg15 arg16 x0 x1), read_row h.p7 (cov_7_7 c arg1 harg1 arg2 harg2 arg5 arg6 arg7 arg8 arg9 arg10 arg11 arg12 arg13 arg14 arg15 arg16 x0 x1), read_row h.p8 (cov_8_7 c arg1 harg1 arg2 harg2 arg5 arg6 arg7 arg8 arg9 arg10 arg11 arg12 arg13 arg14 arg15 arg16 x0 x1), read_row h.p9 (cov_9_7 c arg1 harg1 arg2 harg2 arg5 arg6 arg7 arg8 arg9 arg10 arg11 arg12 arg13 arg14 arg15 arg16 x0 x1), read_row h.p10 (cov_10_7 c arg1 harg1 arg2 harg2 arg5 arg6 arg7 arg8 arg9 arg10 arg11 arg12 arg13 arg14 arg15 arg16 x0 x1), read_row h.p11 (cov_11_7 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS7,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ8.lean ====
/- Joint 8 (parent 5): what the body stores for it in the twelve scratch rows 8 is the parent's transform, read back from
   rows 5, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 8 hold its transform's entries. -/
theorem lvl9 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl8 c arg1 harg1 arg2 harg2 arg5 arg6 arg7 arg8 arg9 arg10 arg11 arg12 arg13 arg14 arg15 arg16 x0 x1) : Lvl9 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_9
    refine Pcs.cons 8 (by decide) _ _ (fun b => ?_) h.p0
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_9
    refine Pcs.cons 8 (by decide) _ _ (fun b => ?_) h.p1
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_9
    refine Pcs.cons 8 (by decide) _ _ (fun b => ?_) h.p2
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_9
    refine Pcs.cons 8 (by decide) _ _ (fun b => ?_) h.p3
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_9
    refine Pcs.cons 8 (by decide) _ _ (fun b => ?_) h.p4
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_9
    refine Pcs.cons 8 (by decide) _ _ (fun b => ?_) h.p5
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_9
    refine Pcs.cons 8 (by decide) _ _ (fun b => ?_) h.p6
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_9
    refine Pcs.cons 8 (by decide) _ _ (fun b => ?_) h.p7
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_9
    refine Pcs.cons 8 (by decide) _ _ (fun b => ?_) h.p8
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_9
    refine Pcs.cons 8 (by decide) _ _ (fun b => ?_) h.p9
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_9
    refine Pcs.cons 8 (by decide) _ _ (fun b => ?_) h.p10
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_9
    refine Pcs.cons 8 (by decide) _ _ (fun b => ?_) h.p11
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 8's piece of the output block holds its position. -/
theorem outp8 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl8 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 15 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 15 (by decide)).1.emb x) := by
  unfold outPiece kernelRun0_A
  simp only [List.get_eq_getElem, List.getElem_cons_succ, List.getElem_cons_zero]
  refine out_piece x0 x1 x2 8 (by decide) inb_S24x3x4096_S1x3x4096_8_0_0 _ (fun k b => ?_)
  fin_cases k <;>
    simp (disch := decide) only [read_row h.p0 (cov_0_8 c arg1 harg1 arg2 harg2 arg5 arg6 arg7 arg8 arg9 arg10 arg11 arg12 arg13 arg14 arg15 arg16 x0 x1), read_row h.p1 (cov_1_8 c arg1 harg1 arg2 harg2 arg5 arg6 arg7 arg8 arg9 arg10 arg11 arg12 arg13 arg14 arg15 arg16 x0 x1), read_row h.p2 (cov_2_8 c arg1 harg1 arg2 harg2 arg5 arg6 arg7 arg8 arg9 arg10 arg11 arg12 arg13 arg14 arg15 arg16 x0 x1), read_row h.p3 (cov_3_8 c arg1 harg1 arg2 harg2 arg5 arg6 arg7 arg8 arg9 arg10 arg11 arg12 arg13 arg14 arg15 arg16 x0 x1), read_row h.p4 (cov_4_8 c arg1 harg1 arg2 harg2 arg5 arg6 arg7 arg8 arg9 arg10 arg11 arg12 arg13 arg14 arg15 arg16 x0 x1), read_row h.p5 (cov_5_8 c arg1 harg1 arg2 harg2 arg5 arg6 arg7 arg8 arg9 arg10 arg11 arg12 arg13 arg14 arg15 arg16 x0 x1), read_row h.p6 (cov_6_8 c arg1 harg1 arg2 harg2 arg5 arg6 arg7 arg8 arg9 arg10 arg11 arg12 arg13 arg14 arg15 arg16 x0 x1), read_row h.p7 (cov_7_8 c arg1 harg1 arg2 harg2 arg5 arg6 arg7 arg8 arg9 arg10 arg11 arg12 arg13 arg14 arg15 arg16 x0 x1), read_row h.p8 (cov_8_8 c arg1 harg1 arg2 harg2 arg5 arg6 arg7 arg8 arg9 arg10 arg11 arg12 arg13 arg14 arg15 arg16 x0 x1), read_row h.p9 (cov_9_8 c arg1 harg1 arg2 harg2 arg5 arg6 arg7 arg8 arg9 arg10 arg11 arg12 arg13 arg14 arg15 arg16 x0 x1), read_row h.p10 (cov_10_8 c arg1 harg1 arg2 harg2 arg5 arg6 arg7 arg8 arg9 arg10 arg11 arg12 arg13 arg14 arg15 arg16 x0 x1), read_row h.p11 (cov_11_8 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS8,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ9.lean ====
/- Joint 9 (parent 6): what the body stores for it in the twelve scratch rows 9 is the parent's transform, read back from
   rows 6, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 9 hold its transform's entries. -/
theorem lvl10 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl9 c arg1 harg1 arg2 harg2 arg5 arg6 arg7 arg8 arg9 arg10 arg11 arg12 arg13 arg14 arg15 arg16 x0 x1) : Lvl10 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_10
    refine Pcs.cons 9 (by decide) _ _ (fun b => ?_) h.p0
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_10
    refine Pcs.cons 9 (by decide) _ _ (fun b => ?_) h.p1
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_10
    refine Pcs.cons 9 (by decide) _ _ (fun b => ?_) h.p2
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_10
    refine Pcs.cons 9 (by decide) _ _ (fun b => ?_) h.p3
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_10
    refine Pcs.cons 9 (by decide) _ _ (fun b => ?_) h.p4
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_10
    refine Pcs.cons 9 (by decide) _ _ (fun b => ?_) h.p5
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_10
    refine Pcs.cons 9 (by decide) _ _ (fun b => ?_) h.p6
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_10
    refine Pcs.cons 9 (by decide) _ _ (fun b => ?_) h.p7
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_10
    refine Pcs.cons 9 (by decide) _ _ (fun b => ?_) h.p8
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_10
    refine Pcs.cons 9 (by decide) _ _ (fun b => ?_) h.p9
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_10
    refine Pcs.cons 9 (by decide) _ _ (fun b => ?_) h.p10
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_10
    refine Pcs.cons 9 (by decide) _ _ (fun b => ?_) h.p11
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 9's piece of the output block holds its position. -/
theorem outp9 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl9 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 14 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 14 (by decide)).1.emb x) := by
  unfold outPiece kernelRun0_A
  simp only [List.get_eq_getElem, List.getElem_cons_succ, List.getElem_cons_zero]
  refine out_piece x0 x1 x2 9 (by decide) inb_S24x3x4096_S1x3x4096_9_0_0 _ (fun k b => ?_)
  fin_cases k <;>
    simp (disch := decide) only [read_row h.p0 (cov_0_9 c arg1 harg1 arg2 harg2 arg5 arg6 arg7 arg8 arg9 arg10 arg11 arg12 arg13 arg14 arg15 arg16 x0 x1), read_row h.p1 (cov_1_9 c arg1 harg1 arg2 harg2 arg5 arg6 arg7 arg8 arg9 arg10 arg11 arg12 arg13 arg14 arg15 arg16 x0 x1), read_row h.p2 (cov_2_9 c arg1 harg1 arg2 harg2 arg5 arg6 arg7 arg8 arg9 arg10 arg11 arg12 arg13 arg14 arg15 arg16 x0 x1), read_row h.p3 (cov_3_9 c arg1 harg1 arg2 harg2 arg5 arg6 arg7 arg8 arg9 arg10 arg11 arg12 arg13 arg14 arg15 arg16 x0 x1), read_row h.p4 (cov_4_9 c arg1 harg1 arg2 harg2 arg5 arg6 arg7 arg8 arg9 arg10 arg11 arg12 arg13 arg14 arg15 arg16 x0 x1), read_row h.p5 (cov_5_9 c arg1 harg1 arg2 harg2 arg5 arg6 arg7 arg8 arg9 arg10 arg11 arg12 arg13 arg14 arg15 arg16 x0 x1), read_row h.p6 (cov_6_9 c arg1 harg1 arg2 harg2 arg5 arg6 arg7 arg8 arg9 arg10 arg11 arg12 arg13 arg14 arg15 arg16 x0 x1), read_row h.p7 (cov_7_9 c arg1 harg1 arg2 harg2 arg5 arg6 arg7 arg8 arg9 arg10 arg11 arg12 arg13 arg14 arg15 arg16 x0 x1), read_row h.p8 (cov_8_9 c arg1 harg1 arg2 harg2 arg5 arg6 arg7 arg8 arg9 arg10 arg11 arg12 arg13 arg14 arg15 arg16 x0 x1), read_row h.p9 (cov_9_9 c arg1 harg1 arg2 harg2 arg5 arg6 arg7 arg8 arg9 arg10 arg11 arg12 arg13 arg14 arg15 arg16 x0 x1), read_row h.p10 (cov_10_9 c arg1 harg1 arg2 harg2 arg5 arg6 arg7 arg8 arg9 arg10 arg11 arg12 arg13 arg14 arg15 arg16 x0 x1), read_row h.p11 (cov_11_9 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS9,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ10.lean ====
/- Joint 10 (parent 7): what the body stores for it in the twelve scratch rows 10 is the parent's transform, read back from
   rows 7, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 10 hold its transform's entries. -/
theorem lvl11 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl10 c arg1 harg1 arg2 harg2 arg5 arg6 arg7 arg8 arg9 arg10 arg11 arg12 arg13 arg14 arg15 arg16 x0 x1) : Lvl11 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_11
    refine Pcs.cons 10 (by decide) _ _ (fun b => ?_) h.p0
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_11
    refine Pcs.cons 10 (by decide) _ _ (fun b => ?_) h.p1
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_11
    refine Pcs.cons 10 (by decide) _ _ (fun b => ?_) h.p2
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_11
    refine Pcs.cons 10 (by decide) _ _ (fun b => ?_) h.p3
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_11
    refine Pcs.cons 10 (by decide) _ _ (fun b => ?_) h.p4
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_11
    refine Pcs.cons 10 (by decide) _ _ (fun b => ?_) h.p5
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_11
    refine Pcs.cons 10 (by decide) _ _ (fun b => ?_) h.p6
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_11
    refine Pcs.cons 10 (by decide) _ _ (fun b => ?_) h.p7
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_11
    refine Pcs.cons 10 (by decide) _ _ (fun b => ?_) h.p8
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_11
    refine Pcs.cons 10 (by decide) _ _ (fun b => ?_) h.p9
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_11
    refine Pcs.cons 10 (by decide) _ _ (fun b => ?_) h.p10
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_11
    refine Pcs.cons 10 (by decide) _ _ (fun b => ?_) h.p11
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 10's piece of the output block holds its position. -/
theorem outp10 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl10 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 13 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 13 (by decide)).1.emb x) := by
  unfold outPiece kernelRun0_A
  simp only [List.get_eq_getElem, List.getElem_cons_succ, List.getElem_cons_zero]
  refine out_piece x0 x1 x2 10 (by decide) inb_S24x3x4096_S1x3x4096_10_0_0 _ (fun k b => ?_)
  fin_cases k <;>
    simp (disch := decide) only [read_row h.p0 (cov_0_10 c arg1 harg1 arg2 harg2 arg5 arg6 arg7 arg8 arg9 arg10 arg11 arg12 arg13 arg14 arg15 arg16 x0 x1), read_row h.p1 (cov_1_10 c arg1 harg1 arg2 harg2 arg5 arg6 arg7 arg8 arg9 arg10 arg11 arg12 arg13 arg14 arg15 arg16 x0 x1), read_row h.p2 (cov_2_10 c arg1 harg1 arg2 harg2 arg5 arg6 arg7 arg8 arg9 arg10 arg11 arg12 arg13 arg14 arg15 arg16 x0 x1), read_row h.p3 (cov_3_10 c arg1 harg1 arg2 harg2 arg5 arg6 arg7 arg8 arg9 arg10 arg11 arg12 arg13 arg14 arg15 arg16 x0 x1), read_row h.p4 (cov_4_10 c arg1 harg1 arg2 harg2 arg5 arg6 arg7 arg8 arg9 arg10 arg11 arg12 arg13 arg14 arg15 arg16 x0 x1), read_row h.p5 (cov_5_10 c arg1 harg1 arg2 harg2 arg5 arg6 arg7 arg8 arg9 arg10 arg11 arg12 arg13 arg14 arg15 arg16 x0 x1), read_row h.p6 (cov_6_10 c arg1 harg1 arg2 harg2 arg5 arg6 arg7 arg8 arg9 arg10 arg11 arg12 arg13 arg14 arg15 arg16 x0 x1), read_row h.p7 (cov_7_10 c arg1 harg1 arg2 harg2 arg5 arg6 arg7 arg8 arg9 arg10 arg11 arg12 arg13 arg14 arg15 arg16 x0 x1), read_row h.p8 (cov_8_10 c arg1 harg1 arg2 harg2 arg5 arg6 arg7 arg8 arg9 arg10 arg11 arg12 arg13 arg14 arg15 arg16 x0 x1), read_row h.p9 (cov_9_10 c arg1 harg1 arg2 harg2 arg5 arg6 arg7 arg8 arg9 arg10 arg11 arg12 arg13 arg14 arg15 arg16 x0 x1), read_row h.p10 (cov_10_10 c arg1 harg1 arg2 harg2 arg5 arg6 arg7 arg8 arg9 arg10 arg11 arg12 arg13 arg14 arg15 arg16 x0 x1), read_row h.p11 (cov_11_10 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS10,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ11.lean ====
/- Joint 11 (parent 8): what the body stores for it in the twelve scratch rows 11 is the parent's transform, read back from
   rows 8, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 11 hold its transform's entries. -/
theorem lvl12 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl11 c arg1 harg1 arg2 harg2 arg5 arg6 arg7 arg8 arg9 arg10 arg11 arg12 arg13 arg14 arg15 arg16 x0 x1) : Lvl12 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_12
    refine Pcs.cons 11 (by decide) _ _ (fun b => ?_) h.p0
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_12
    refine Pcs.cons 11 (by decide) _ _ (fun b => ?_) h.p1
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_12
    refine Pcs.cons 11 (by decide) _ _ (fun b => ?_) h.p2
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_12
    refine Pcs.cons 11 (by decide) _ _ (fun b => ?_) h.p3
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_12
    refine Pcs.cons 11 (by decide) _ _ (fun b => ?_) h.p4
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_12
    refine Pcs.cons 11 (by decide) _ _ (fun b => ?_) h.p5
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_12
    refine Pcs.cons 11 (by decide) _ _ (fun b => ?_) h.p6
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_12
    refine Pcs.cons 11 (by decide) _ _ (fun b => ?_) h.p7
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_12
    refine Pcs.cons 11 (by decide) _ _ (fun b => ?_) h.p8
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_12
    refine Pcs.cons 11 (by decide) _ _ (fun b => ?_) h.p9
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_12
    refine Pcs.cons 11 (by decide) _ _ (fun b => ?_) h.p10
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_12
    refine Pcs.cons 11 (by decide) _ _ (fun b => ?_) h.p11
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 11's piece of the output block holds its position. -/
theorem outp11 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl11 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 12 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 12 (by decide)).1.emb x) := by
  unfold outPiece kernelRun0_A
  simp only [List.get_eq_getElem, List.getElem_cons_succ, List.getElem_cons_zero]
  refine out_piece x0 x1 x2 11 (by decide) inb_S24x3x4096_S1x3x4096_11_0_0 _ (fun k b => ?_)
  fin_cases k <;>
    simp (disch := decide) only [read_row h.p0 (cov_0_11 c arg1 harg1 arg2 harg2 arg5 arg6 arg7 arg8 arg9 arg10 arg11 arg12 arg13 arg14 arg15 arg16 x0 x1), read_row h.p1 (cov_1_11 c arg1 harg1 arg2 harg2 arg5 arg6 arg7 arg8 arg9 arg10 arg11 arg12 arg13 arg14 arg15 arg16 x0 x1), read_row h.p2 (cov_2_11 c arg1 harg1 arg2 harg2 arg5 arg6 arg7 arg8 arg9 arg10 arg11 arg12 arg13 arg14 arg15 arg16 x0 x1), read_row h.p3 (cov_3_11 c arg1 harg1 arg2 harg2 arg5 arg6 arg7 arg8 arg9 arg10 arg11 arg12 arg13 arg14 arg15 arg16 x0 x1), read_row h.p4 (cov_4_11 c arg1 harg1 arg2 harg2 arg5 arg6 arg7 arg8 arg9 arg10 arg11 arg12 arg13 arg14 arg15 arg16 x0 x1), read_row h.p5 (cov_5_11 c arg1 harg1 arg2 harg2 arg5 arg6 arg7 arg8 arg9 arg10 arg11 arg12 arg13 arg14 arg15 arg16 x0 x1), read_row h.p6 (cov_6_11 c arg1 harg1 arg2 harg2 arg5 arg6 arg7 arg8 arg9 arg10 arg11 arg12 arg13 arg14 arg15 arg16 x0 x1), read_row h.p7 (cov_7_11 c arg1 harg1 arg2 harg2 arg5 arg6 arg7 arg8 arg9 arg10 arg11 arg12 arg13 arg14 arg15 arg16 x0 x1), read_row h.p8 (cov_8_11 c arg1 harg1 arg2 harg2 arg5 arg6 arg7 arg8 arg9 arg10 arg11 arg12 arg13 arg14 arg15 arg16 x0 x1), read_row h.p9 (cov_9_11 c arg1 harg1 arg2 harg2 arg5 arg6 arg7 arg8 arg9 arg10 arg11 arg12 arg13 arg14 arg15 arg16 x0 x1), read_row h.p10 (cov_10_11 c arg1 harg1 arg2 harg2 arg5 arg6 arg7 arg8 arg9 arg10 arg11 arg12 arg13 arg14 arg15 arg16 x0 x1), read_row h.p11 (cov_11_11 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS11,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ12.lean ====
/- Joint 12 (parent 9): what the body stores for it in the twelve scratch rows 12 is the parent's transform, read back from
   rows 9, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 12 hold its transform's entries. -/
theorem lvl13 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl12 c arg1 harg1 arg2 harg2 arg5 arg6 arg7 arg8 arg9 arg10 arg11 arg12 arg13 arg14 arg15 arg16 x0 x1) : Lvl13 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_13
    refine Pcs.cons 12 (by decide) _ _ (fun b => ?_) h.p0
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_13
    refine Pcs.cons 12 (by decide) _ _ (fun b => ?_) h.p1
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_13
    refine Pcs.cons 12 (by decide) _ _ (fun b => ?_) h.p2
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_13
    refine Pcs.cons 12 (by decide) _ _ (fun b => ?_) h.p3
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_13
    refine Pcs.cons 12 (by decide) _ _ (fun b => ?_) h.p4
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_13
    refine Pcs.cons 12 (by decide) _ _ (fun b => ?_) h.p5
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_13
    refine Pcs.cons 12 (by decide) _ _ (fun b => ?_) h.p6
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_13
    refine Pcs.cons 12 (by decide) _ _ (fun b => ?_) h.p7
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_13
    refine Pcs.cons 12 (by decide) _ _ (fun b => ?_) h.p8
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_13
    refine Pcs.cons 12 (by decide) _ _ (fun b => ?_) h.p9
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_13
    refine Pcs.cons 12 (by decide) _ _ (fun b => ?_) h.p10
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_13
    refine Pcs.cons 12 (by decide) _ _ (fun b => ?_) h.p11
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 12's piece of the output block holds its position. -/
theorem outp12 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl12 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 11 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 11 (by decide)).1.emb x) := by
  unfold outPiece kernelRun0_A
  simp only [List.get_eq_getElem, List.getElem_cons_succ, List.getElem_cons_zero]
  refine out_piece x0 x1 x2 12 (by decide) inb_S24x3x4096_S1x3x4096_12_0_0 _ (fun k b => ?_)
  fin_cases k <;>
    simp (disch := decide) only [read_row h.p0 (cov_0_12 c arg1 harg1 arg2 harg2 arg5 arg6 arg7 arg8 arg9 arg10 arg11 arg12 arg13 arg14 arg15 arg16 x0 x1), read_row h.p1 (cov_1_12 c arg1 harg1 arg2 harg2 arg5 arg6 arg7 arg8 arg9 arg10 arg11 arg12 arg13 arg14 arg15 arg16 x0 x1), read_row h.p2 (cov_2_12 c arg1 harg1 arg2 harg2 arg5 arg6 arg7 arg8 arg9 arg10 arg11 arg12 arg13 arg14 arg15 arg16 x0 x1), read_row h.p3 (cov_3_12 c arg1 harg1 arg2 harg2 arg5 arg6 arg7 arg8 arg9 arg10 arg11 arg12 arg13 arg14 arg15 arg16 x0 x1), read_row h.p4 (cov_4_12 c arg1 harg1 arg2 harg2 arg5 arg6 arg7 arg8 arg9 arg10 arg11 arg12 arg13 arg14 arg15 arg16 x0 x1), read_row h.p5 (cov_5_12 c arg1 harg1 arg2 harg2 arg5 arg6 arg7 arg8 arg9 arg10 arg11 arg12 arg13 arg14 arg15 arg16 x0 x1), read_row h.p6 (cov_6_12 c arg1 harg1 arg2 harg2 arg5 arg6 arg7 arg8 arg9 arg10 arg11 arg12 arg13 arg14 arg15 arg16 x0 x1), read_row h.p7 (cov_7_12 c arg1 harg1 arg2 harg2 arg5 arg6 arg7 arg8 arg9 arg10 arg11 arg12 arg13 arg14 arg15 arg16 x0 x1), read_row h.p8 (cov_8_12 c arg1 harg1 arg2 harg2 arg5 arg6 arg7 arg8 arg9 arg10 arg11 arg12 arg13 arg14 arg15 arg16 x0 x1), read_row h.p9 (cov_9_12 c arg1 harg1 arg2 harg2 arg5 arg6 arg7 arg8 arg9 arg10 arg11 arg12 arg13 arg14 arg15 arg16 x0 x1), read_row h.p10 (cov_10_12 c arg1 harg1 arg2 harg2 arg5 arg6 arg7 arg8 arg9 arg10 arg11 arg12 arg13 arg14 arg15 arg16 x0 x1), read_row h.p11 (cov_11_12 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS12,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ13.lean ====
/- Joint 13 (parent 9): what the body stores for it in the twelve scratch rows 13 is the parent's transform, read back from
   rows 9, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 13 hold its transform's entries. -/
theorem lvl14 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl13 c arg1 harg1 arg2 harg2 arg5 arg6 arg7 arg8 arg9 arg10 arg11 arg12 arg13 arg14 arg15 arg16 x0 x1) : Lvl14 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_14
    refine Pcs.cons 13 (by decide) _ _ (fun b => ?_) h.p0
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_14
    refine Pcs.cons 13 (by decide) _ _ (fun b => ?_) h.p1
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_14
    refine Pcs.cons 13 (by decide) _ _ (fun b => ?_) h.p2
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_14
    refine Pcs.cons 13 (by decide) _ _ (fun b => ?_) h.p3
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_14
    refine Pcs.cons 13 (by decide) _ _ (fun b => ?_) h.p4
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_14
    refine Pcs.cons 13 (by decide) _ _ (fun b => ?_) h.p5
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_14
    refine Pcs.cons 13 (by decide) _ _ (fun b => ?_) h.p6
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_14
    refine Pcs.cons 13 (by decide) _ _ (fun b => ?_) h.p7
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_14
    refine Pcs.cons 13 (by decide) _ _ (fun b => ?_) h.p8
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_14
    refine Pcs.cons 13 (by decide) _ _ (fun b => ?_) h.p9
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_14
    refine Pcs.cons 13 (by decide) _ _ (fun b => ?_) h.p10
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_14
    refine Pcs.cons 13 (by decide) _ _ (fun b => ?_) h.p11
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 13's piece of the output block holds its position. -/
theorem outp13 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl13 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 10 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 10 (by decide)).1.emb x) := by
  unfold outPiece kernelRun0_A
  simp only [List.get_eq_getElem, List.getElem_cons_succ, List.getElem_cons_zero]
  refine out_piece x0 x1 x2 13 (by decide) inb_S24x3x4096_S1x3x4096_13_0_0 _ (fun k b => ?_)
  fin_cases k <;>
    simp (disch := decide) only [read_row h.p0 (cov_0_13 c arg1 harg1 arg2 harg2 arg5 arg6 arg7 arg8 arg9 arg10 arg11 arg12 arg13 arg14 arg15 arg16 x0 x1), read_row h.p1 (cov_1_13 c arg1 harg1 arg2 harg2 arg5 arg6 arg7 arg8 arg9 arg10 arg11 arg12 arg13 arg14 arg15 arg16 x0 x1), read_row h.p2 (cov_2_13 c arg1 harg1 arg2 harg2 arg5 arg6 arg7 arg8 arg9 arg10 arg11 arg12 arg13 arg14 arg15 arg16 x0 x1), read_row h.p3 (cov_3_13 c arg1 harg1 arg2 harg2 arg5 arg6 arg7 arg8 arg9 arg10 arg11 arg12 arg13 arg14 arg15 arg16 x0 x1), read_row h.p4 (cov_4_13 c arg1 harg1 arg2 harg2 arg5 arg6 arg7 arg8 arg9 arg10 arg11 arg12 arg13 arg14 arg15 arg16 x0 x1), read_row h.p5 (cov_5_13 c arg1 harg1 arg2 harg2 arg5 arg6 arg7 arg8 arg9 arg10 arg11 arg12 arg13 arg14 arg15 arg16 x0 x1), read_row h.p6 (cov_6_13 c arg1 harg1 arg2 harg2 arg5 arg6 arg7 arg8 arg9 arg10 arg11 arg12 arg13 arg14 arg15 arg16 x0 x1), read_row h.p7 (cov_7_13 c arg1 harg1 arg2 harg2 arg5 arg6 arg7 arg8 arg9 arg10 arg11 arg12 arg13 arg14 arg15 arg16 x0 x1), read_row h.p8 (cov_8_13 c arg1 harg1 arg2 harg2 arg5 arg6 arg7 arg8 arg9 arg10 arg11 arg12 arg13 arg14 arg15 arg16 x0 x1), read_row h.p9 (cov_9_13 c arg1 harg1 arg2 harg2 arg5 arg6 arg7 arg8 arg9 arg10 arg11 arg12 arg13 arg14 arg15 arg16 x0 x1), read_row h.p10 (cov_10_13 c arg1 harg1 arg2 harg2 arg5 arg6 arg7 arg8 arg9 arg10 arg11 arg12 arg13 arg14 arg15 arg16 x0 x1), read_row h.p11 (cov_11_13 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS13,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ14.lean ====
/- Joint 14 (parent 9): what the body stores for it in the twelve scratch rows 14 is the parent's transform, read back from
   rows 9, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 14 hold its transform's entries. -/
theorem lvl15 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl14 c arg1 harg1 arg2 harg2 arg5 arg6 arg7 arg8 arg9 arg10 arg11 arg12 arg13 arg14 arg15 arg16 x0 x1) : Lvl15 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_15
    refine Pcs.cons 14 (by decide) _ _ (fun b => ?_) h.p0
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_15
    refine Pcs.cons 14 (by decide) _ _ (fun b => ?_) h.p1
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_15
    refine Pcs.cons 14 (by decide) _ _ (fun b => ?_) h.p2
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_15
    refine Pcs.cons 14 (by decide) _ _ (fun b => ?_) h.p3
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_15
    refine Pcs.cons 14 (by decide) _ _ (fun b => ?_) h.p4
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_15
    refine Pcs.cons 14 (by decide) _ _ (fun b => ?_) h.p5
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_15
    refine Pcs.cons 14 (by decide) _ _ (fun b => ?_) h.p6
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_15
    refine Pcs.cons 14 (by decide) _ _ (fun b => ?_) h.p7
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_15
    refine Pcs.cons 14 (by decide) _ _ (fun b => ?_) h.p8
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_15
    refine Pcs.cons 14 (by decide) _ _ (fun b => ?_) h.p9
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_15
    refine Pcs.cons 14 (by decide) _ _ (fun b => ?_) h.p10
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_15
    refine Pcs.cons 14 (by decide) _ _ (fun b => ?_) h.p11
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 14's piece of the output block holds its position. -/
theorem outp14 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl14 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 9 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 9 (by decide)).1.emb x) := by
  unfold outPiece kernelRun0_A
  simp only [List.get_eq_getElem, List.getElem_cons_succ, List.getElem_cons_zero]
  refine out_piece x0 x1 x2 14 (by decide) inb_S24x3x4096_S1x3x4096_14_0_0 _ (fun k b => ?_)
  fin_cases k <;>
    simp (disch := decide) only [read_row h.p0 (cov_0_14 c arg1 harg1 arg2 harg2 arg5 arg6 arg7 arg8 arg9 arg10 arg11 arg12 arg13 arg14 arg15 arg16 x0 x1), read_row h.p1 (cov_1_14 c arg1 harg1 arg2 harg2 arg5 arg6 arg7 arg8 arg9 arg10 arg11 arg12 arg13 arg14 arg15 arg16 x0 x1), read_row h.p2 (cov_2_14 c arg1 harg1 arg2 harg2 arg5 arg6 arg7 arg8 arg9 arg10 arg11 arg12 arg13 arg14 arg15 arg16 x0 x1), read_row h.p3 (cov_3_14 c arg1 harg1 arg2 harg2 arg5 arg6 arg7 arg8 arg9 arg10 arg11 arg12 arg13 arg14 arg15 arg16 x0 x1), read_row h.p4 (cov_4_14 c arg1 harg1 arg2 harg2 arg5 arg6 arg7 arg8 arg9 arg10 arg11 arg12 arg13 arg14 arg15 arg16 x0 x1), read_row h.p5 (cov_5_14 c arg1 harg1 arg2 harg2 arg5 arg6 arg7 arg8 arg9 arg10 arg11 arg12 arg13 arg14 arg15 arg16 x0 x1), read_row h.p6 (cov_6_14 c arg1 harg1 arg2 harg2 arg5 arg6 arg7 arg8 arg9 arg10 arg11 arg12 arg13 arg14 arg15 arg16 x0 x1), read_row h.p7 (cov_7_14 c arg1 harg1 arg2 harg2 arg5 arg6 arg7 arg8 arg9 arg10 arg11 arg12 arg13 arg14 arg15 arg16 x0 x1), read_row h.p8 (cov_8_14 c arg1 harg1 arg2 harg2 arg5 arg6 arg7 arg8 arg9 arg10 arg11 arg12 arg13 arg14 arg15 arg16 x0 x1), read_row h.p9 (cov_9_14 c arg1 harg1 arg2 harg2 arg5 arg6 arg7 arg8 arg9 arg10 arg11 arg12 arg13 arg14 arg15 arg16 x0 x1), read_row h.p10 (cov_10_14 c arg1 harg1 arg2 harg2 arg5 arg6 arg7 arg8 arg9 arg10 arg11 arg12 arg13 arg14 arg15 arg16 x0 x1), read_row h.p11 (cov_11_14 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS14,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ15.lean ====
/- Joint 15 (parent 12): what the body stores for it in the twelve scratch rows 15 is the parent's transform, read back from
   rows 12, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 15 hold its transform's entries. -/
theorem lvl16 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl15 c arg1 harg1 arg2 harg2 arg5 arg6 arg7 arg8 arg9 arg10 arg11 arg12 arg13 arg14 arg15 arg16 x0 x1) : Lvl16 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_16
    refine Pcs.cons 15 (by decide) _ _ (fun b => ?_) h.p0
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_16
    refine Pcs.cons 15 (by decide) _ _ (fun b => ?_) h.p1
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_16
    refine Pcs.cons 15 (by decide) _ _ (fun b => ?_) h.p2
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_16
    refine Pcs.cons 15 (by decide) _ _ (fun b => ?_) h.p3
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_16
    refine Pcs.cons 15 (by decide) _ _ (fun b => ?_) h.p4
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_16
    refine Pcs.cons 15 (by decide) _ _ (fun b => ?_) h.p5
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_16
    refine Pcs.cons 15 (by decide) _ _ (fun b => ?_) h.p6
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_16
    refine Pcs.cons 15 (by decide) _ _ (fun b => ?_) h.p7
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_16
    refine Pcs.cons 15 (by decide) _ _ (fun b => ?_) h.p8
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_16
    refine Pcs.cons 15 (by decide) _ _ (fun b => ?_) h.p9
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_16
    refine Pcs.cons 15 (by decide) _ _ (fun b => ?_) h.p10
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_16
    refine Pcs.cons 15 (by decide) _ _ (fun b => ?_) h.p11
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 15's piece of the output block holds its position. -/
theorem outp15 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl15 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 8 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 8 (by decide)).1.emb x) := by
  unfold outPiece kernelRun0_A
  simp only [List.get_eq_getElem, List.getElem_cons_succ, List.getElem_cons_zero]
  refine out_piece x0 x1 x2 15 (by decide) inb_S24x3x4096_S1x3x4096_15_0_0 _ (fun k b => ?_)
  fin_cases k <;>
    simp (disch := decide) only [read_row h.p0 (cov_0_15 c arg1 harg1 arg2 harg2 arg5 arg6 arg7 arg8 arg9 arg10 arg11 arg12 arg13 arg14 arg15 arg16 x0 x1), read_row h.p1 (cov_1_15 c arg1 harg1 arg2 harg2 arg5 arg6 arg7 arg8 arg9 arg10 arg11 arg12 arg13 arg14 arg15 arg16 x0 x1), read_row h.p2 (cov_2_15 c arg1 harg1 arg2 harg2 arg5 arg6 arg7 arg8 arg9 arg10 arg11 arg12 arg13 arg14 arg15 arg16 x0 x1), read_row h.p3 (cov_3_15 c arg1 harg1 arg2 harg2 arg5 arg6 arg7 arg8 arg9 arg10 arg11 arg12 arg13 arg14 arg15 arg16 x0 x1), read_row h.p4 (cov_4_15 c arg1 harg1 arg2 harg2 arg5 arg6 arg7 arg8 arg9 arg10 arg11 arg12 arg13 arg14 arg15 arg16 x0 x1), read_row h.p5 (cov_5_15 c arg1 harg1 arg2 harg2 arg5 arg6 arg7 arg8 arg9 arg10 arg11 arg12 arg13 arg14 arg15 arg16 x0 x1), read_row h.p6 (cov_6_15 c arg1 harg1 arg2 harg2 arg5 arg6 arg7 arg8 arg9 arg10 arg11 arg12 arg13 arg14 arg15 arg16 x0 x1), read_row h.p7 (cov_7_15 c arg1 harg1 arg2 harg2 arg5 arg6 arg7 arg8 arg9 arg10 arg11 arg12 arg13 arg14 arg15 arg16 x0 x1), read_row h.p8 (cov_8_15 c arg1 harg1 arg2 harg2 arg5 arg6 arg7 arg8 arg9 arg10 arg11 arg12 arg13 arg14 arg15 arg16 x0 x1), read_row h.p9 (cov_9_15 c arg1 harg1 arg2 harg2 arg5 arg6 arg7 arg8 arg9 arg10 arg11 arg12 arg13 arg14 arg15 arg16 x0 x1), read_row h.p10 (cov_10_15 c arg1 harg1 arg2 harg2 arg5 arg6 arg7 arg8 arg9 arg10 arg11 arg12 arg13 arg14 arg15 arg16 x0 x1), read_row h.p11 (cov_11_15 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS15,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ16.lean ====
/- Joint 16 (parent 13): what the body stores for it in the twelve scratch rows 16 is the parent's transform, read back from
   rows 13, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 16 hold its transform's entries. -/
theorem lvl17 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl16 c arg1 harg1 arg2 harg2 arg5 arg6 arg7 arg8 arg9 arg10 arg11 arg12 arg13 arg14 arg15 arg16 x0 x1) : Lvl17 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_17
    refine Pcs.cons 16 (by decide) _ _ (fun b => ?_) h.p0
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_17
    refine Pcs.cons 16 (by decide) _ _ (fun b => ?_) h.p1
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_17
    refine Pcs.cons 16 (by decide) _ _ (fun b => ?_) h.p2
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_17
    refine Pcs.cons 16 (by decide) _ _ (fun b => ?_) h.p3
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_17
    refine Pcs.cons 16 (by decide) _ _ (fun b => ?_) h.p4
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_17
    refine Pcs.cons 16 (by decide) _ _ (fun b => ?_) h.p5
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_17
    refine Pcs.cons 16 (by decide) _ _ (fun b => ?_) h.p6
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_17
    refine Pcs.cons 16 (by decide) _ _ (fun b => ?_) h.p7
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_17
    refine Pcs.cons 16 (by decide) _ _ (fun b => ?_) h.p8
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_17
    refine Pcs.cons 16 (by decide) _ _ (fun b => ?_) h.p9
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_17
    refine Pcs.cons 16 (by decide) _ _ (fun b => ?_) h.p10
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_17
    refine Pcs.cons 16 (by decide) _ _ (fun b => ?_) h.p11
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 16's piece of the output block holds its position. -/
theorem outp16 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl16 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 7 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 7 (by decide)).1.emb x) := by
  unfold outPiece kernelRun0_A
  simp only [List.get_eq_getElem, List.getElem_cons_succ, List.getElem_cons_zero]
  refine out_piece x0 x1 x2 16 (by decide) inb_S24x3x4096_S1x3x4096_16_0_0 _ (fun k b => ?_)
  fin_cases k <;>
    simp (disch := decide) only [read_row h.p0 (cov_0_16 c arg1 harg1 arg2 harg2 arg5 arg6 arg7 arg8 arg9 arg10 arg11 arg12 arg13 arg14 arg15 arg16 x0 x1), read_row h.p1 (cov_1_16 c arg1 harg1 arg2 harg2 arg5 arg6 arg7 arg8 arg9 arg10 arg11 arg12 arg13 arg14 arg15 arg16 x0 x1), read_row h.p2 (cov_2_16 c arg1 harg1 arg2 harg2 arg5 arg6 arg7 arg8 arg9 arg10 arg11 arg12 arg13 arg14 arg15 arg16 x0 x1), read_row h.p3 (cov_3_16 c arg1 harg1 arg2 harg2 arg5 arg6 arg7 arg8 arg9 arg10 arg11 arg12 arg13 arg14 arg15 arg16 x0 x1), read_row h.p4 (cov_4_16 c arg1 harg1 arg2 harg2 arg5 arg6 arg7 arg8 arg9 arg10 arg11 arg12 arg13 arg14 arg15 arg16 x0 x1), read_row h.p5 (cov_5_16 c arg1 harg1 arg2 harg2 arg5 arg6 arg7 arg8 arg9 arg10 arg11 arg12 arg13 arg14 arg15 arg16 x0 x1), read_row h.p6 (cov_6_16 c arg1 harg1 arg2 harg2 arg5 arg6 arg7 arg8 arg9 arg10 arg11 arg12 arg13 arg14 arg15 arg16 x0 x1), read_row h.p7 (cov_7_16 c arg1 harg1 arg2 harg2 arg5 arg6 arg7 arg8 arg9 arg10 arg11 arg12 arg13 arg14 arg15 arg16 x0 x1), read_row h.p8 (cov_8_16 c arg1 harg1 arg2 harg2 arg5 arg6 arg7 arg8 arg9 arg10 arg11 arg12 arg13 arg14 arg15 arg16 x0 x1), read_row h.p9 (cov_9_16 c arg1 harg1 arg2 harg2 arg5 arg6 arg7 arg8 arg9 arg10 arg11 arg12 arg13 arg14 arg15 arg16 x0 x1), read_row h.p10 (cov_10_16 c arg1 harg1 arg2 harg2 arg5 arg6 arg7 arg8 arg9 arg10 arg11 arg12 arg13 arg14 arg15 arg16 x0 x1), read_row h.p11 (cov_11_16 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS16,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ17.lean ====
/- Joint 17 (parent 14): what the body stores for it in the twelve scratch rows 17 is the parent's transform, read back from
   rows 14, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 17 hold its transform's entries. -/
theorem lvl18 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl17 c arg1 harg1 arg2 harg2 arg5 arg6 arg7 arg8 arg9 arg10 arg11 arg12 arg13 arg14 arg15 arg16 x0 x1) : Lvl18 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_18
    refine Pcs.cons 17 (by decide) _ _ (fun b => ?_) h.p0
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_18
    refine Pcs.cons 17 (by decide) _ _ (fun b => ?_) h.p1
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_18
    refine Pcs.cons 17 (by decide) _ _ (fun b => ?_) h.p2
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_18
    refine Pcs.cons 17 (by decide) _ _ (fun b => ?_) h.p3
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_18
    refine Pcs.cons 17 (by decide) _ _ (fun b => ?_) h.p4
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_18
    refine Pcs.cons 17 (by decide) _ _ (fun b => ?_) h.p5
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_18
    refine Pcs.cons 17 (by decide) _ _ (fun b => ?_) h.p6
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_18
    refine Pcs.cons 17 (by decide) _ _ (fun b => ?_) h.p7
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_18
    refine Pcs.cons 17 (by decide) _ _ (fun b => ?_) h.p8
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_18
    refine Pcs.cons 17 (by decide) _ _ (fun b => ?_) h.p9
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_18
    refine Pcs.cons 17 (by decide) _ _ (fun b => ?_) h.p10
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_18
    refine Pcs.cons 17 (by decide) _ _ (fun b => ?_) h.p11
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 17's piece of the output block holds its position. -/
theorem outp17 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl17 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 6 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 6 (by decide)).1.emb x) := by
  unfold outPiece kernelRun0_A
  simp only [List.get_eq_getElem, List.getElem_cons_succ, List.getElem_cons_zero]
  refine out_piece x0 x1 x2 17 (by decide) inb_S24x3x4096_S1x3x4096_17_0_0 _ (fun k b => ?_)
  fin_cases k <;>
    simp (disch := decide) only [read_row h.p0 (cov_0_17 c arg1 harg1 arg2 harg2 arg5 arg6 arg7 arg8 arg9 arg10 arg11 arg12 arg13 arg14 arg15 arg16 x0 x1), read_row h.p1 (cov_1_17 c arg1 harg1 arg2 harg2 arg5 arg6 arg7 arg8 arg9 arg10 arg11 arg12 arg13 arg14 arg15 arg16 x0 x1), read_row h.p2 (cov_2_17 c arg1 harg1 arg2 harg2 arg5 arg6 arg7 arg8 arg9 arg10 arg11 arg12 arg13 arg14 arg15 arg16 x0 x1), read_row h.p3 (cov_3_17 c arg1 harg1 arg2 harg2 arg5 arg6 arg7 arg8 arg9 arg10 arg11 arg12 arg13 arg14 arg15 arg16 x0 x1), read_row h.p4 (cov_4_17 c arg1 harg1 arg2 harg2 arg5 arg6 arg7 arg8 arg9 arg10 arg11 arg12 arg13 arg14 arg15 arg16 x0 x1), read_row h.p5 (cov_5_17 c arg1 harg1 arg2 harg2 arg5 arg6 arg7 arg8 arg9 arg10 arg11 arg12 arg13 arg14 arg15 arg16 x0 x1), read_row h.p6 (cov_6_17 c arg1 harg1 arg2 harg2 arg5 arg6 arg7 arg8 arg9 arg10 arg11 arg12 arg13 arg14 arg15 arg16 x0 x1), read_row h.p7 (cov_7_17 c arg1 harg1 arg2 harg2 arg5 arg6 arg7 arg8 arg9 arg10 arg11 arg12 arg13 arg14 arg15 arg16 x0 x1), read_row h.p8 (cov_8_17 c arg1 harg1 arg2 harg2 arg5 arg6 arg7 arg8 arg9 arg10 arg11 arg12 arg13 arg14 arg15 arg16 x0 x1), read_row h.p9 (cov_9_17 c arg1 harg1 arg2 harg2 arg5 arg6 arg7 arg8 arg9 arg10 arg11 arg12 arg13 arg14 arg15 arg16 x0 x1), read_row h.p10 (cov_10_17 c arg1 harg1 arg2 harg2 arg5 arg6 arg7 arg8 arg9 arg10 arg11 arg12 arg13 arg14 arg15 arg16 x0 x1), read_row h.p11 (cov_11_17 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS17,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ18.lean ====
/- Joint 18 (parent 16): what the body stores for it in the twelve scratch rows 18 is the parent's transform, read back from
   rows 16, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 18 hold its transform's entries. -/
theorem lvl19 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl18 c arg1 harg1 arg2 harg2 arg5 arg6 arg7 arg8 arg9 arg10 arg11 arg12 arg13 arg14 arg15 arg16 x0 x1) : Lvl19 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_19
    refine Pcs.cons 18 (by decide) _ _ (fun b => ?_) h.p0
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_19
    refine Pcs.cons 18 (by decide) _ _ (fun b => ?_) h.p1
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_19
    refine Pcs.cons 18 (by decide) _ _ (fun b => ?_) h.p2
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_19
    refine Pcs.cons 18 (by decide) _ _ (fun b => ?_) h.p3
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_19
    refine Pcs.cons 18 (by decide) _ _ (fun b => ?_) h.p4
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_19
    refine Pcs.cons 18 (by decide) _ _ (fun b => ?_) h.p5
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_19
    refine Pcs.cons 18 (by decide) _ _ (fun b => ?_) h.p6
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_19
    refine Pcs.cons 18 (by decide) _ _ (fun b => ?_) h.p7
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_19
    refine Pcs.cons 18 (by decide) _ _ (fun b => ?_) h.p8
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_19
    refine Pcs.cons 18 (by decide) _ _ (fun b => ?_) h.p9
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_19
    refine Pcs.cons 18 (by decide) _ _ (fun b => ?_) h.p10
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_19
    refine Pcs.cons 18 (by decide) _ _ (fun b => ?_) h.p11
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 18's piece of the output block holds its position. -/
theorem outp18 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl18 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 5 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 5 (by decide)).1.emb x) := by
  unfold outPiece kernelRun0_A
  simp only [List.get_eq_getElem, List.getElem_cons_succ, List.getElem_cons_zero]
  refine out_piece x0 x1 x2 18 (by decide) inb_S24x3x4096_S1x3x4096_18_0_0 _ (fun k b => ?_)
  fin_cases k <;>
    simp (disch := decide) only [read_row h.p0 (cov_0_18 c arg1 harg1 arg2 harg2 arg5 arg6 arg7 arg8 arg9 arg10 arg11 arg12 arg13 arg14 arg15 arg16 x0 x1), read_row h.p1 (cov_1_18 c arg1 harg1 arg2 harg2 arg5 arg6 arg7 arg8 arg9 arg10 arg11 arg12 arg13 arg14 arg15 arg16 x0 x1), read_row h.p2 (cov_2_18 c arg1 harg1 arg2 harg2 arg5 arg6 arg7 arg8 arg9 arg10 arg11 arg12 arg13 arg14 arg15 arg16 x0 x1), read_row h.p3 (cov_3_18 c arg1 harg1 arg2 harg2 arg5 arg6 arg7 arg8 arg9 arg10 arg11 arg12 arg13 arg14 arg15 arg16 x0 x1), read_row h.p4 (cov_4_18 c arg1 harg1 arg2 harg2 arg5 arg6 arg7 arg8 arg9 arg10 arg11 arg12 arg13 arg14 arg15 arg16 x0 x1), read_row h.p5 (cov_5_18 c arg1 harg1 arg2 harg2 arg5 arg6 arg7 arg8 arg9 arg10 arg11 arg12 arg13 arg14 arg15 arg16 x0 x1), read_row h.p6 (cov_6_18 c arg1 harg1 arg2 harg2 arg5 arg6 arg7 arg8 arg9 arg10 arg11 arg12 arg13 arg14 arg15 arg16 x0 x1), read_row h.p7 (cov_7_18 c arg1 harg1 arg2 harg2 arg5 arg6 arg7 arg8 arg9 arg10 arg11 arg12 arg13 arg14 arg15 arg16 x0 x1), read_row h.p8 (cov_8_18 c arg1 harg1 arg2 harg2 arg5 arg6 arg7 arg8 arg9 arg10 arg11 arg12 arg13 arg14 arg15 arg16 x0 x1), read_row h.p9 (cov_9_18 c arg1 harg1 arg2 harg2 arg5 arg6 arg7 arg8 arg9 arg10 arg11 arg12 arg13 arg14 arg15 arg16 x0 x1), read_row h.p10 (cov_10_18 c arg1 harg1 arg2 harg2 arg5 arg6 arg7 arg8 arg9 arg10 arg11 arg12 arg13 arg14 arg15 arg16 x0 x1), read_row h.p11 (cov_11_18 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS18,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ19.lean ====
/- Joint 19 (parent 17): what the body stores for it in the twelve scratch rows 19 is the parent's transform, read back from
   rows 17, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 19 hold its transform's entries. -/
theorem lvl20 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl19 c arg1 harg1 arg2 harg2 arg5 arg6 arg7 arg8 arg9 arg10 arg11 arg12 arg13 arg14 arg15 arg16 x0 x1) : Lvl20 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_20
    refine Pcs.cons 19 (by decide) _ _ (fun b => ?_) h.p0
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_20
    refine Pcs.cons 19 (by decide) _ _ (fun b => ?_) h.p1
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_20
    refine Pcs.cons 19 (by decide) _ _ (fun b => ?_) h.p2
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_20
    refine Pcs.cons 19 (by decide) _ _ (fun b => ?_) h.p3
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_20
    refine Pcs.cons 19 (by decide) _ _ (fun b => ?_) h.p4
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_20
    refine Pcs.cons 19 (by decide) _ _ (fun b => ?_) h.p5
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_20
    refine Pcs.cons 19 (by decide) _ _ (fun b => ?_) h.p6
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_20
    refine Pcs.cons 19 (by decide) _ _ (fun b => ?_) h.p7
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_20
    refine Pcs.cons 19 (by decide) _ _ (fun b => ?_) h.p8
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_20
    refine Pcs.cons 19 (by decide) _ _ (fun b => ?_) h.p9
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_20
    refine Pcs.cons 19 (by decide) _ _ (fun b => ?_) h.p10
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_20
    refine Pcs.cons 19 (by decide) _ _ (fun b => ?_) h.p11
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 19's piece of the output block holds its position. -/
theorem outp19 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl19 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 4 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 4 (by decide)).1.emb x) := by
  unfold outPiece kernelRun0_A
  simp only [List.get_eq_getElem, List.getElem_cons_succ, List.getElem_cons_zero]
  refine out_piece x0 x1 x2 19 (by decide) inb_S24x3x4096_S1x3x4096_19_0_0 _ (fun k b => ?_)
  fin_cases k <;>
    simp (disch := decide) only [read_row h.p0 (cov_0_19 c arg1 harg1 arg2 harg2 arg5 arg6 arg7 arg8 arg9 arg10 arg11 arg12 arg13 arg14 arg15 arg16 x0 x1), read_row h.p1 (cov_1_19 c arg1 harg1 arg2 harg2 arg5 arg6 arg7 arg8 arg9 arg10 arg11 arg12 arg13 arg14 arg15 arg16 x0 x1), read_row h.p2 (cov_2_19 c arg1 harg1 arg2 harg2 arg5 arg6 arg7 arg8 arg9 arg10 arg11 arg12 arg13 arg14 arg15 arg16 x0 x1), read_row h.p3 (cov_3_19 c arg1 harg1 arg2 harg2 arg5 arg6 arg7 arg8 arg9 arg10 arg11 arg12 arg13 arg14 arg15 arg16 x0 x1), read_row h.p4 (cov_4_19 c arg1 harg1 arg2 harg2 arg5 arg6 arg7 arg8 arg9 arg10 arg11 arg12 arg13 arg14 arg15 arg16 x0 x1), read_row h.p5 (cov_5_19 c arg1 harg1 arg2 harg2 arg5 arg6 arg7 arg8 arg9 arg10 arg11 arg12 arg13 arg14 arg15 arg16 x0 x1), read_row h.p6 (cov_6_19 c arg1 harg1 arg2 harg2 arg5 arg6 arg7 arg8 arg9 arg10 arg11 arg12 arg13 arg14 arg15 arg16 x0 x1), read_row h.p7 (cov_7_19 c arg1 harg1 arg2 harg2 arg5 arg6 arg7 arg8 arg9 arg10 arg11 arg12 arg13 arg14 arg15 arg16 x0 x1), read_row h.p8 (cov_8_19 c arg1 harg1 arg2 harg2 arg5 arg6 arg7 arg8 arg9 arg10 arg11 arg12 arg13 arg14 arg15 arg16 x0 x1), read_row h.p9 (cov_9_19 c arg1 harg1 arg2 harg2 arg5 arg6 arg7 arg8 arg9 arg10 arg11 arg12 arg13 arg14 arg15 arg16 x0 x1), read_row h.p10 (cov_10_19 c arg1 harg1 arg2 harg2 arg5 arg6 arg7 arg8 arg9 arg10 arg11 arg12 arg13 arg14 arg15 arg16 x0 x1), read_row h.p11 (cov_11_19 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS19,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ20.lean ====
/- Joint 20 (parent 18): what the body stores for it in the twelve scratch rows 20 is the parent's transform, read back from
   rows 18, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 20 hold its transform's entries. -/
theorem lvl21 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl20 c arg1 harg1 arg2 harg2 arg5 arg6 arg7 arg8 arg9 arg10 arg11 arg12 arg13 arg14 arg15 arg16 x0 x1) : Lvl21 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_21
    refine Pcs.cons 20 (by decide) _ _ (fun b => ?_) h.p0
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_21
    refine Pcs.cons 20 (by decide) _ _ (fun b => ?_) h.p1
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_21
    refine Pcs.cons 20 (by decide) _ _ (fun b => ?_) h.p2
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_21
    refine Pcs.cons 20 (by decide) _ _ (fun b => ?_) h.p3
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_21
    refine Pcs.cons 20 (by decide) _ _ (fun b => ?_) h.p4
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_21
    refine Pcs.cons 20 (by decide) _ _ (fun b => ?_) h.p5
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_21
    refine Pcs.cons 20 (by decide) _ _ (fun b => ?_) h.p6
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_21
    refine Pcs.cons 20 (by decide) _ _ (fun b => ?_) h.p7
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_21
    refine Pcs.cons 20 (by decide) _ _ (fun b => ?_) h.p8
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_21
    refine Pcs.cons 20 (by decide) _ _ (fun b => ?_) h.p9
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_21
    refine Pcs.cons 20 (by decide) _ _ (fun b => ?_) h.p10
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_21
    refine Pcs.cons 20 (by decide) _ _ (fun b => ?_) h.p11
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 20's piece of the output block holds its position. -/
theorem outp20 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl20 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 3 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 3 (by decide)).1.emb x) := by
  unfold outPiece kernelRun0_A
  simp only [List.get_eq_getElem, List.getElem_cons_succ, List.getElem_cons_zero]
  refine out_piece x0 x1 x2 20 (by decide) inb_S24x3x4096_S1x3x4096_20_0_0 _ (fun k b => ?_)
  fin_cases k <;>
    simp (disch := decide) only [read_row h.p0 (cov_0_20 c arg1 harg1 arg2 harg2 arg5 arg6 arg7 arg8 arg9 arg10 arg11 arg12 arg13 arg14 arg15 arg16 x0 x1), read_row h.p1 (cov_1_20 c arg1 harg1 arg2 harg2 arg5 arg6 arg7 arg8 arg9 arg10 arg11 arg12 arg13 arg14 arg15 arg16 x0 x1), read_row h.p2 (cov_2_20 c arg1 harg1 arg2 harg2 arg5 arg6 arg7 arg8 arg9 arg10 arg11 arg12 arg13 arg14 arg15 arg16 x0 x1), read_row h.p3 (cov_3_20 c arg1 harg1 arg2 harg2 arg5 arg6 arg7 arg8 arg9 arg10 arg11 arg12 arg13 arg14 arg15 arg16 x0 x1), read_row h.p4 (cov_4_20 c arg1 harg1 arg2 harg2 arg5 arg6 arg7 arg8 arg9 arg10 arg11 arg12 arg13 arg14 arg15 arg16 x0 x1), read_row h.p5 (cov_5_20 c arg1 harg1 arg2 harg2 arg5 arg6 arg7 arg8 arg9 arg10 arg11 arg12 arg13 arg14 arg15 arg16 x0 x1), read_row h.p6 (cov_6_20 c arg1 harg1 arg2 harg2 arg5 arg6 arg7 arg8 arg9 arg10 arg11 arg12 arg13 arg14 arg15 arg16 x0 x1), read_row h.p7 (cov_7_20 c arg1 harg1 arg2 harg2 arg5 arg6 arg7 arg8 arg9 arg10 arg11 arg12 arg13 arg14 arg15 arg16 x0 x1), read_row h.p8 (cov_8_20 c arg1 harg1 arg2 harg2 arg5 arg6 arg7 arg8 arg9 arg10 arg11 arg12 arg13 arg14 arg15 arg16 x0 x1), read_row h.p9 (cov_9_20 c arg1 harg1 arg2 harg2 arg5 arg6 arg7 arg8 arg9 arg10 arg11 arg12 arg13 arg14 arg15 arg16 x0 x1), read_row h.p10 (cov_10_20 c arg1 harg1 arg2 harg2 arg5 arg6 arg7 arg8 arg9 arg10 arg11 arg12 arg13 arg14 arg15 arg16 x0 x1), read_row h.p11 (cov_11_20 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS20,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ21.lean ====
/- Joint 21 (parent 19): what the body stores for it in the twelve scratch rows 21 is the parent's transform, read back from
   rows 19, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 21 hold its transform's entries. -/
theorem lvl22 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl21 c arg1 harg1 arg2 harg2 arg5 arg6 arg7 arg8 arg9 arg10 arg11 arg12 arg13 arg14 arg15 arg16 x0 x1) : Lvl22 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_22
    refine Pcs.cons 21 (by decide) _ _ (fun b => ?_) h.p0
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_22
    refine Pcs.cons 21 (by decide) _ _ (fun b => ?_) h.p1
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_22
    refine Pcs.cons 21 (by decide) _ _ (fun b => ?_) h.p2
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_22
    refine Pcs.cons 21 (by decide) _ _ (fun b => ?_) h.p3
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_22
    refine Pcs.cons 21 (by decide) _ _ (fun b => ?_) h.p4
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_22
    refine Pcs.cons 21 (by decide) _ _ (fun b => ?_) h.p5
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_22
    refine Pcs.cons 21 (by decide) _ _ (fun b => ?_) h.p6
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_22
    refine Pcs.cons 21 (by decide) _ _ (fun b => ?_) h.p7
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_22
    refine Pcs.cons 21 (by decide) _ _ (fun b => ?_) h.p8
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_22
    refine Pcs.cons 21 (by decide) _ _ (fun b => ?_) h.p9
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_22
    refine Pcs.cons 21 (by decide) _ _ (fun b => ?_) h.p10
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_22
    refine Pcs.cons 21 (by decide) _ _ (fun b => ?_) h.p11
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 21's piece of the output block holds its position. -/
theorem outp21 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl21 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 2 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 2 (by decide)).1.emb x) := by
  unfold outPiece kernelRun0_A
  simp only [List.get_eq_getElem, List.getElem_cons_succ, List.getElem_cons_zero]
  refine out_piece x0 x1 x2 21 (by decide) inb_S24x3x4096_S1x3x4096_21_0_0 _ (fun k b => ?_)
  fin_cases k <;>
    simp (disch := decide) only [read_row h.p0 (cov_0_21 c arg1 harg1 arg2 harg2 arg5 arg6 arg7 arg8 arg9 arg10 arg11 arg12 arg13 arg14 arg15 arg16 x0 x1), read_row h.p1 (cov_1_21 c arg1 harg1 arg2 harg2 arg5 arg6 arg7 arg8 arg9 arg10 arg11 arg12 arg13 arg14 arg15 arg16 x0 x1), read_row h.p2 (cov_2_21 c arg1 harg1 arg2 harg2 arg5 arg6 arg7 arg8 arg9 arg10 arg11 arg12 arg13 arg14 arg15 arg16 x0 x1), read_row h.p3 (cov_3_21 c arg1 harg1 arg2 harg2 arg5 arg6 arg7 arg8 arg9 arg10 arg11 arg12 arg13 arg14 arg15 arg16 x0 x1), read_row h.p4 (cov_4_21 c arg1 harg1 arg2 harg2 arg5 arg6 arg7 arg8 arg9 arg10 arg11 arg12 arg13 arg14 arg15 arg16 x0 x1), read_row h.p5 (cov_5_21 c arg1 harg1 arg2 harg2 arg5 arg6 arg7 arg8 arg9 arg10 arg11 arg12 arg13 arg14 arg15 arg16 x0 x1), read_row h.p6 (cov_6_21 c arg1 harg1 arg2 harg2 arg5 arg6 arg7 arg8 arg9 arg10 arg11 arg12 arg13 arg14 arg15 arg16 x0 x1), read_row h.p7 (cov_7_21 c arg1 harg1 arg2 harg2 arg5 arg6 arg7 arg8 arg9 arg10 arg11 arg12 arg13 arg14 arg15 arg16 x0 x1), read_row h.p8 (cov_8_21 c arg1 harg1 arg2 harg2 arg5 arg6 arg7 arg8 arg9 arg10 arg11 arg12 arg13 arg14 arg15 arg16 x0 x1), read_row h.p9 (cov_9_21 c arg1 harg1 arg2 harg2 arg5 arg6 arg7 arg8 arg9 arg10 arg11 arg12 arg13 arg14 arg15 arg16 x0 x1), read_row h.p10 (cov_10_21 c arg1 harg1 arg2 harg2 arg5 arg6 arg7 arg8 arg9 arg10 arg11 arg12 arg13 arg14 arg15 arg16 x0 x1), read_row h.p11 (cov_11_21 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS21,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ22.lean ====
/- Joint 22 (parent 20): what the body stores for it in the twelve scratch rows 22 is the parent's transform, read back from
   rows 20, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- The rows stored for joint 22 hold its transform's entries. -/
theorem lvl23 (c : Dev nD) (arg1 : Memref sig .tc .vmem S24x3x4096 .f32) (harg1 : arg1.IsWhole) (arg2 : Memref sig .tc .vmem S24x3 .f32) (harg2 : arg2.IsWhole) (arg5 : Memref sig .tc .vmem S24x4096 .f32) (arg6 : Memref sig .tc .vmem S24x4096 .f32) (arg7 : Memref sig .tc .vmem S24x4096 .f32) (arg8 : Memref sig .tc .vmem S24x4096 .f32) (arg9 : Memref sig .tc .vmem S24x4096 .f32) (arg10 : Memref sig .tc .vmem S24x4096 .f32) (arg11 : Memref sig .tc .vmem S24x4096 .f32) (arg12 : Memref sig .tc .vmem S24x4096 .f32) (arg13 : Memref sig .tc .vmem S24x4096 .f32) (arg14 : Memref sig .tc .vmem S24x4096 .f32) (arg15 : Memref sig .tc .vmem S24x4096 .f32) (arg16 : Memref sig .tc .vmem S24x4096 .f32) (x0 : Vec Ideal S24x3x4096 .f32) (x1 : Vec Ideal S24x3 .f32) (h : Lvl22 c arg1 harg1 arg2 harg2 arg5 arg6 arg7 arg8 arg9 arg10 arg11 arg12 arg13 arg14 arg15 arg16 x0 x1) : Lvl23 c arg1 harg1 arg2 harg2 arg5 arg6 arg7 arg8 arg9 arg10 arg11 arg12 arg13 arg14 arg15 arg16 x0 x1 := by
  refine ⟨?_, ?_, ?_, ?_, ?_, ?_, ?_, ?_, ?_, ?_, ?_, ?_⟩
  · unfold kernelRun0_A.sl.HS0_23
    refine Pcs.cons 22 (by decide) _ _ (fun b => ?_) h.p0
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS1_23
    refine Pcs.cons 22 (by decide) _ _ (fun b => ?_) h.p1
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS2_23
    refine Pcs.cons 22 (by decide) _ _ (fun b => ?_) h.p2
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS3_23
    refine Pcs.cons 22 (by decide) _ _ (fun b => ?_) h.p3
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS4_23
    refine Pcs.cons 22 (by decide) _ _ (fun b => ?_) h.p4
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS5_23
    refine Pcs.cons 22 (by decide) _ _ (fun b => ?_) h.p5
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS6_23
    refine Pcs.cons 22 (by decide) _ _ (fun b => ?_) h.p6
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS7_23
    refine Pcs.cons 22 (by decide) _ _ (fun b => ?_) h.p7
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS8_23
    refine Pcs.cons 22 (by decide) _ _ (fun b => ?_) h.p8
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS9_23
    refine Pcs.cons 22 (by decide) _ _ (fun b => ?_) h.p9
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS10_23
    refine Pcs.cons 22 (by decide) _ _ (fun b => ?_) h.p10
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]
  · unfold kernelRun0_A.sl.HS11_23
    refine Pcs.cons 22 (by decide) _ _ (fun b => ?_) h.p11
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW]

set_option maxHeartbeats 4000000 in
/-- Joint 22's piece of the output block holds its position. -/
theorem outp22 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl22 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 1 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 1 (by decide)).1.emb x) := by
  unfold outPiece kernelRun0_A
  simp only [List.get_eq_getElem, List.getElem_cons_succ, List.getElem_cons_zero]
  refine out_piece x0 x1 x2 22 (by decide) inb_S24x3x4096_S1x3x4096_22_0_0 _ (fun k b => ?_)
  fin_cases k <;>
    simp (disch := decide) only [read_row h.p0 (cov_0_22 c arg1 harg1 arg2 harg2 arg5 arg6 arg7 arg8 arg9 arg10 arg11 arg12 arg13 arg14 arg15 arg16 x0 x1), read_row h.p1 (cov_1_22 c arg1 harg1 arg2 harg2 arg5 arg6 arg7 arg8 arg9 arg10 arg11 arg12 arg13 arg14 arg15 arg16 x0 x1), read_row h.p2 (cov_2_22 c arg1 harg1 arg2 harg2 arg5 arg6 arg7 arg8 arg9 arg10 arg11 arg12 arg13 arg14 arg15 arg16 x0 x1), read_row h.p3 (cov_3_22 c arg1 harg1 arg2 harg2 arg5 arg6 arg7 arg8 arg9 arg10 arg11 arg12 arg13 arg14 arg15 arg16 x0 x1), read_row h.p4 (cov_4_22 c arg1 harg1 arg2 harg2 arg5 arg6 arg7 arg8 arg9 arg10 arg11 arg12 arg13 arg14 arg15 arg16 x0 x1), read_row h.p5 (cov_5_22 c arg1 harg1 arg2 harg2 arg5 arg6 arg7 arg8 arg9 arg10 arg11 arg12 arg13 arg14 arg15 arg16 x0 x1), read_row h.p6 (cov_6_22 c arg1 harg1 arg2 harg2 arg5 arg6 arg7 arg8 arg9 arg10 arg11 arg12 arg13 arg14 arg15 arg16 x0 x1), read_row h.p7 (cov_7_22 c arg1 harg1 arg2 harg2 arg5 arg6 arg7 arg8 arg9 arg10 arg11 arg12 arg13 arg14 arg15 arg16 x0 x1), read_row h.p8 (cov_8_22 c arg1 harg1 arg2 harg2 arg5 arg6 arg7 arg8 arg9 arg10 arg11 arg12 arg13 arg14 arg15 arg16 x0 x1), read_row h.p9 (cov_9_22 c arg1 harg1 arg2 harg2 arg5 arg6 arg7 arg8 arg9 arg10 arg11 arg12 arg13 arg14 arg15 arg16 x0 x1), read_row h.p10 (cov_10_22 c arg1 harg1 arg2 harg2 arg5 arg6 arg7 arg8 arg9 arg10 arg11 arg12 arg13 arg14 arg15 arg16 x0 x1), read_row h.p11 (cov_11_22 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS22,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KJ23.lean ====
/- Joint 23 (parent 21): what the body stores for it in the twelve scratch rows 23 is the parent's transform, read back from
   rows 21, times the joint's own rotation and offset; and its piece of the output block is its translation plus the lane's
   root translation: both sides evaluated at one lane, the parent's rows by the level before. -/
import proofs.«160816_j62156766707902_1_alg».proof.Proof.KLevelDefs
import proofs.«160816_j62156766707902_1_alg».proof.Proof.KLemmas
import proofs.«160816_j62156766707902_1_alg».proof.Proof.KUnfoldSet

set_option maxRecDepth 100000

noncomputable section

namespace Cert.KernelIdeal.Body

open Cert.KernelIdeal Cert.KernelIdeal.Gen Idealize.ShloMosaic Idealize.ShloMosaic.ValueIdx

set_option maxHeartbeats 4000000 in
/-- Joint 23's piece of the output block holds its position. -/
theorem outp23 (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) (h : Lvl23 c arg1 harg1 arg2 harg2 arg5 arg6 arg7 arg8 arg9 arg10 arg11 arg12 arg13 arg14 arg15 arg16 x0 x1) :
    ∀ x, (outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 0 (by decide)).2 x = KOut x0 x1 x2 ((outPiece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 0 (by decide)).1.emb x) := by
  unfold outPiece kernelRun0_A
  simp only [List.get_eq_getElem, List.getElem_cons_succ, List.getElem_cons_zero]
  refine out_piece x0 x1 x2 23 (by decide) inb_S24x3x4096_S1x3x4096_23_0_0 _ (fun k b => ?_)
  fin_cases k <;>
    simp (disch := decide) only [read_row h.p0 (cov_0_23 c arg1 harg1 arg2 harg2 arg5 arg6 arg7 arg8 arg9 arg10 arg11 arg12 arg13 arg14 arg15 arg16 x0 x1), read_row h.p1 (cov_1_23 c arg1 harg1 arg2 harg2 arg5 arg6 arg7 arg8 arg9 arg10 arg11 arg12 arg13 arg14 arg15 arg16 x0 x1), read_row h.p2 (cov_2_23 c arg1 harg1 arg2 harg2 arg5 arg6 arg7 arg8 arg9 arg10 arg11 arg12 arg13 arg14 arg15 arg16 x0 x1), read_row h.p3 (cov_3_23 c arg1 harg1 arg2 harg2 arg5 arg6 arg7 arg8 arg9 arg10 arg11 arg12 arg13 arg14 arg15 arg16 x0 x1), read_row h.p4 (cov_4_23 c arg1 harg1 arg2 harg2 arg5 arg6 arg7 arg8 arg9 arg10 arg11 arg12 arg13 arg14 arg15 arg16 x0 x1), read_row h.p5 (cov_5_23 c arg1 harg1 arg2 harg2 arg5 arg6 arg7 arg8 arg9 arg10 arg11 arg12 arg13 arg14 arg15 arg16 x0 x1), read_row h.p6 (cov_6_23 c arg1 harg1 arg2 harg2 arg5 arg6 arg7 arg8 arg9 arg10 arg11 arg12 arg13 arg14 arg15 arg16 x0 x1), read_row h.p7 (cov_7_23 c arg1 harg1 arg2 harg2 arg5 arg6 arg7 arg8 arg9 arg10 arg11 arg12 arg13 arg14 arg15 arg16 x0 x1), read_row h.p8 (cov_8_23 c arg1 harg1 arg2 harg2 arg5 arg6 arg7 arg8 arg9 arg10 arg11 arg12 arg13 arg14 arg15 arg16 x0 x1), read_row h.p9 (cov_9_23 c arg1 harg1 arg2 harg2 arg5 arg6 arg7 arg8 arg9 arg10 arg11 arg12 arg13 arg14 arg15 arg16 x0 x1), read_row h.p10 (cov_10_23 c arg1 harg1 arg2 harg2 arg5 arg6 arg7 arg8 arg9 arg10 arg11 arg12 arg13 arg14 arg15 arg16 x0 x1), read_row h.p11 (cov_11_23 c arg1 harg1 arg2 harg2 arg5 arg6 arg7 arg8 arg9 arg10 arg11 arg12 arg13 arg14 arg15 arg16 x0 x1),
      fk_unfold,
      KL.sc_1x4096, KL.sc_4096_1x4096, KL.sc_1x3x4096_3x4096, KL.sc_3x4096_1x3x4096, KL.bt_1x4096_3x4096, KL.ess_3x4096_n, KL.off_at_n, KL.mr_3x4096, KL.cat3,
      KL.sqrt_at, KL.sin_at, KL.cos_at, KL.bc_at, KL.scalar_ofBits, KL.float_ofBits, KL.rd_pose_n, KL.rd_trans_n, KL.rd_off,
      ValueIdx.addf_apply, ValueIdx.mulf_apply, ValueIdx.subf_apply, ValueIdx.divf_apply, ValueIdx.broadcast_apply, Ideal.ofBits_zero_f32,
      ix2_c0, ix2_c1, ix3_c0, ix3_c1, ix3_c2, fin24_mk_0, fin24_mk_1, fin24_mk_2, fin24_mk_3, fin24_mk_4, fin24_mk_5, fin24_mk_6, fin24_mk_7, fin24_mk_8, fin24_mk_9, fin24_mk_10, fin24_mk_11, fin24_mk_12, fin24_mk_13, fin24_mk_14, fin24_mk_15, fin24_mk_16, fin24_mk_17, fin24_mk_18, fin24_mk_19, fin24_mk_20, fin24_mk_21, fin24_mk_22, fin24_mk_23, fin3_mk_0, fin3_mk_1, fin3_mk_2,
      Gs, fld, laneV, offT, Cert.FK.kSt, Cert.FK.rootSt, Cert.FK.compSt, Cert.FK.kS23,
      Cert.FK.kr00, Cert.FK.kr01, Cert.FK.kr02, Cert.FK.kr10, Cert.FK.kr11, Cert.FK.kr12, Cert.FK.kr20, Cert.FK.kr21, Cert.FK.kr22,
      Cert.FK.oc, Cert.FK.sn, Cert.FK.dir, Cert.FK.ang, Cert.FK.eps, Cert.FK.oneW,
      KOut, Cert.FK.St.t, Matrix.cons_val_zero, Matrix.cons_val_one, Matrix.cons_val_two, Matrix.head_cons, Matrix.tail_cons, Fin.zero_eta, Fin.mk_one, Fin.reduceFinMk]

end Cert.KernelIdeal.Body

end
-- ==== Proof.KBody.lean ====
/-
  The body's output block is the closed form of its three input blocks.

  The body stores the joints one after the other, each from its parent's rows of the twelve scratch buffers: so the rows
  hold the closed form level by level (joint 0's rows from nothing, joint j's from the rows before), and with every level in
  hand each joint's piece of the output block is the closed form on that joint; the 24 pieces tile the block.
-/
import proofs.«160816_j62156766707902_1_alg».proof.Proof.KJ0
import proofs.«160816_j62156766707902_1_alg».proof.Proof.KJ1
import proofs.«160816_j62156766707902_1_alg».proof.Proof.KJ2
import proofs.«160816_j62156766707902_1_alg».proof.Proof.KJ3
import proofs.«160816_j62156766707902_1_alg».proof.Proof.KJ4
import proofs.«160816_j62156766707902_1_alg».proof.Proof.KJ5
import proofs.«160816_j62156766707902_1_alg».proof.Proof.KJ6
import proofs.«160816_j62156766707902_1_alg».proof.Proof.KJ7
import proofs.«160816_j62156766707902_1_alg».proof.Proof.KJ8
import proofs.«160816_j62156766707902_1_alg».proof.Proof.KJ9
import proofs.«160816_j62156766707902_1_alg».proof.Proof.KJ10
import proofs.«160816_j62156766707902_1_alg».proof.Proof.KJ11
import proofs.«160816_j62156766707902_1_alg».proof.Proof.KJ12
import proofs.«160816_j62156766707902_1_alg».proof.Proof.KJ13
import proofs.«160816_j62156766707902_1_alg».proof.Proof.KJ14
import proofs.«160816_j62156766707902_1_alg».proof.Proof.KJ15
import proofs.«160816_j62156766707902_1_alg».proof.Proof.KJ16
import proofs.«160816_j62156766707902_1_alg».proof.Proof.KJ17
import proofs.«160816_j62156766707902_1_alg».proof.Proof.KJ18
import proofs.«160816_j62156766707902_1_alg».proof.Proof.KJ19
import proofs.«160816_j62156766707902_1_alg».proof.Proof.KJ20
import proofs.«160816_j62156766707902_1_alg».proof.Proof.KJ21
import proofs.«160816_j62156766707902_1_alg».proof.Proof.KJ22
import proofs.«160816_j62156766707902_1_alg».proof.Proof.KJ23
import Mathlib.Tactic.IntervalCases

set_option maxRecDepth 100000

noncomputable section

namespace Cert.KernelIdeal.Body

open Cert.KernelIdeal Cert.KernelIdeal.Gen Idealize.ShloMosaic Idealize.ShloMosaic.ValueIdx

/-- What the run leaves in the output's staging buffer is the closed form of the three input blocks. -/
theorem out_eq (c : Dev nD) (i : grid0.Coords) (arg1 : Memref sig .tc .vmem S24x3x4096 .f32) (harg1 : arg1.IsWhole) (arg2 : Memref sig .tc .vmem S24x3 .f32) (harg2 : arg2.IsWhole) (arg3 : Memref sig .tc .vmem S3x4096 .f32) (harg3 : arg3.IsWhole) (arg4 : Memref sig .tc .vmem S24x3x4096 .f32) (harg4 : arg4.IsWhole) (arg5 : Memref sig .tc .vmem S24x4096 .f32) (harg5 : arg5.IsWhole) (arg6 : Memref sig .tc .vmem S24x4096 .f32) (harg6 : arg6.IsWhole) (arg7 : Memref sig .tc .vmem S24x4096 .f32) (harg7 : arg7.IsWhole) (arg8 : Memref sig .tc .vmem S24x4096 .f32) (harg8 : arg8.IsWhole) (arg9 : Memref sig .tc .vmem S24x4096 .f32) (harg9 : arg9.IsWhole) (arg10 : Memref sig .tc .vmem S24x4096 .f32) (harg10 : arg10.IsWhole) (arg11 : Memref sig .tc .vmem S24x4096 .f32) (harg11 : arg11.IsWhole) (arg12 : Memref sig .tc .vmem S24x4096 .f32) (harg12 : arg12.IsWhole) (arg13 : Memref sig .tc .vmem S24x4096 .f32) (harg13 : arg13.IsWhole) (arg14 : Memref sig .tc .vmem S24x4096 .f32) (harg14 : arg14.IsWhole) (arg15 : Memref sig .tc .vmem S24x4096 .f32) (harg15 : arg15.IsWhole) (arg16 : Memref sig .tc .vmem S24x4096 .f32) (harg16 : arg16.IsWhole) (x0 : Vec Ideal S24x3x4096 .f32) (x1 : Vec Ideal S24x3 .f32) (x2 : Vec Ideal S3x4096 .f32) :
    GenP.out0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 = KOut x0 x1 x2 := by
  have L0 : Lvl0 c arg1 harg1 arg2 harg2 arg5 arg6 arg7 arg8 arg9 arg10 arg11 arg12 arg13 arg14 arg15 arg16 x0 x1 := ⟨trivial⟩
  have L1 := lvl1 c arg1 harg1 arg2 harg2 arg5 arg6 arg7 arg8 arg9 arg10 arg11 arg12 arg13 arg14 arg15 arg16 x0 x1 L0
  have L2 := lvl2 c arg1 harg1 arg2 harg2 arg5 arg6 arg7 arg8 arg9 arg10 arg11 arg12 arg13 arg14 arg15 arg16 x0 x1 L1
  have L3 := lvl3 c arg1 harg1 arg2 harg2 arg5 arg6 arg7 arg8 arg9 arg10 arg11 arg12 arg13 arg14 arg15 arg16 x0 x1 L2
  have L4 := lvl4 c arg1 harg1 arg2 harg2 arg5 arg6 arg7 arg8 arg9 arg10 arg11 arg12 arg13 arg14 arg15 arg16 x0 x1 L3
  have L5 := lvl5 c arg1 harg1 arg2 harg2 arg5 arg6 arg7 arg8 arg9 arg10 arg11 arg12 arg13 arg14 arg15 arg16 x0 x1 L4
  have L6 := lvl6 c arg1 harg1 arg2 harg2 arg5 arg6 arg7 arg8 arg9 arg10 arg11 arg12 arg13 arg14 arg15 arg16 x0 x1 L5
  have L7 := lvl7 c arg1 harg1 arg2 harg2 arg5 arg6 arg7 arg8 arg9 arg10 arg11 arg12 arg13 arg14 arg15 arg16 x0 x1 L6
  have L8 := lvl8 c arg1 harg1 arg2 harg2 arg5 arg6 arg7 arg8 arg9 arg10 arg11 arg12 arg13 arg14 arg15 arg16 x0 x1 L7
  have L9 := lvl9 c arg1 harg1 arg2 harg2 arg5 arg6 arg7 arg8 arg9 arg10 arg11 arg12 arg13 arg14 arg15 arg16 x0 x1 L8
  have L10 := lvl10 c arg1 harg1 arg2 harg2 arg5 arg6 arg7 arg8 arg9 arg10 arg11 arg12 arg13 arg14 arg15 arg16 x0 x1 L9
  have L11 := lvl11 c arg1 harg1 arg2 harg2 arg5 arg6 arg7 arg8 arg9 arg10 arg11 arg12 arg13 arg14 arg15 arg16 x0 x1 L10
  have L12 := lvl12 c arg1 harg1 arg2 harg2 arg5 arg6 arg7 arg8 arg9 arg10 arg11 arg12 arg13 arg14 arg15 arg16 x0 x1 L11
  have L13 := lvl13 c arg1 harg1 arg2 harg2 arg5 arg6 arg7 arg8 arg9 arg10 arg11 arg12 arg13 arg14 arg15 arg16 x0 x1 L12
  have L14 := lvl14 c arg1 harg1 arg2 harg2 arg5 arg6 arg7 arg8 arg9 arg10 arg11 arg12 arg13 arg14 arg15 arg16 x0 x1 L13
  have L15 := lvl15 c arg1 harg1 arg2 harg2 arg5 arg6 arg7 arg8 arg9 arg10 arg11 arg12 arg13 arg14 arg15 arg16 x0 x1 L14
  have L16 := lvl16 c arg1 harg1 arg2 harg2 arg5 arg6 arg7 arg8 arg9 arg10 arg11 arg12 arg13 arg14 arg15 arg16 x0 x1 L15
  have L17 := lvl17 c arg1 harg1 arg2 harg2 arg5 arg6 arg7 arg8 arg9 arg10 arg11 arg12 arg13 arg14 arg15 arg16 x0 x1 L16
  have L18 := lvl18 c arg1 harg1 arg2 harg2 arg5 arg6 arg7 arg8 arg9 arg10 arg11 arg12 arg13 arg14 arg15 arg16 x0 x1 L17
  have L19 := lvl19 c arg1 harg1 arg2 harg2 arg5 arg6 arg7 arg8 arg9 arg10 arg11 arg12 arg13 arg14 arg15 arg16 x0 x1 L18
  have L20 := lvl20 c arg1 harg1 arg2 harg2 arg5 arg6 arg7 arg8 arg9 arg10 arg11 arg12 arg13 arg14 arg15 arg16 x0 x1 L19
  have L21 := lvl21 c arg1 harg1 arg2 harg2 arg5 arg6 arg7 arg8 arg9 arg10 arg11 arg12 arg13 arg14 arg15 arg16 x0 x1 L20
  have L22 := lvl22 c arg1 harg1 arg2 harg2 arg5 arg6 arg7 arg8 arg9 arg10 arg11 arg12 arg13 arg14 arg15 arg16 x0 x1 L21
  have L23 := lvl23 c arg1 harg1 arg2 harg2 arg5 arg6 arg7 arg8 arg9 arg10 arg11 arg12 arg13 arg14 arg15 arg16 x0 x1 L22
  refine out_of_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 (fun p hp => ?_)
  obtain ⟨n, hn⟩ := List.mem_iff_get.mp hp
  subst hn
  obtain ⟨n, hlt⟩ := n
  have h24 : n < 24 := by rw [out_len] at hlt; exact hlt
  interval_cases n
  · exact outp23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L23
  · exact outp22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L22
  · exact outp21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L21
  · exact outp20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L20
  · exact outp19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L19
  · exact outp18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L18
  · exact outp17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L17
  · exact outp16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L16
  · exact outp15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L15
  · exact outp14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L14
  · exact outp13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L13
  · exact outp12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L12
  · exact outp11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L11
  · exact outp10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L10
  · exact outp9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L9
  · exact outp8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L8
  · exact outp7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L7
  · exact outp6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L6
  · exact outp5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L5
  · exact outp4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L4
  · exact outp3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L3
  · exact outp2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L2
  · exact outp1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L1
  · exact outp0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 L0

end Cert.KernelIdeal.Body

end
-- ==== Proof.RefOps.lean ====
/- The reference program's @main as LISTS of its host operations: one item per printed statement, in the printed order,
   the outlined norm (a square, a sum over the last axis, a square root) written out at its call over that call's buffers;
   cut into five consecutive stretches. 164 operations in all. -/
import proofs.«160816_j62156766707902_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Operations 1 to 61: the axis-angle vectors' rotations and the stacked per-joint matrices [[R, o], [0, 0, 0, 1]] (to main_v51). -/
abbrev ops0a : List (HloOp τ sig (Elt F)) :=
  [ StableHlo.nullary main_cst (fun i => FloatOps.ofBits .f32 (lit0 (S4.rowMajor i))),
    StableHlo.nullary main_cst_0 (constant S_ .f32 0x322BCC77#32),
    StableHlo.unary main_cst_0 main_v0 (broadcastInDim S65536x24x3 ![] bcast_S_S65536x24x3 : (⟨S_, .f32⟩ : BufTy).Contents (Elt F) → (⟨S65536x24x3, .f32⟩ : BufTy).Contents (Elt F)),
    StableHlo.binary main_arg1 main_v0 main_v1 (addf : (⟨S65536x24x3, .f32⟩ : BufTy).Contents (Elt F) → (⟨S65536x24x3, .f32⟩ : BufTy).Contents (Elt F) → (⟨S65536x24x3, .f32⟩ : BufTy).Contents (Elt F)),
    StableHlo.TRef.binary (.of main_v1) (.of main_v1) main_call0.v0 mulf,
    StableHlo.TRef.nullary main_call0.cst (constant S_ .f32 0x00000000#32),
    StableHlo.TRef.binary main_call0.v0 main_call0.cst main_call0.v1 (fun x v => Host.reduceAdd x v reducesTo_S65536x24x3_S65536x24_d2 h_S_),
    StableHlo.TRef.unary main_call0.v1 main_call0.v2 (broadcastInDim S65536x24x1 ![0, 1] bcast_S65536x24_S65536x24x1_0_1),
    StableHlo.TRef.unary main_call0.v2 main_call0.v3 Host.sqrt,
    StableHlo.unary main_v2 main_v3 (broadcastInDim S65536x24x3 ![0, 1, 2] bcast_S65536x24x1_S65536x24x3_0_1_2 : (⟨S65536x24x1, .f32⟩ : BufTy).Contents (Elt F) → (⟨S65536x24x3, .f32⟩ : BufTy).Contents (Elt F)),
    StableHlo.binary main_arg1 main_v3 main_v4 (Host.divf : (⟨S65536x24x3, .f32⟩ : BufTy).Contents (Elt F) → (⟨S65536x24x3, .f32⟩ : BufTy).Contents (Elt F) → (⟨S65536x24x3, .f32⟩ : BufTy).Contents (Elt F)),
    StableHlo.unary main_v2 main_v5 (Host.cos : (⟨S65536x24x1, .f32⟩ : BufTy).Contents (Elt F) → (⟨S65536x24x1, .f32⟩ : BufTy).Contents (Elt F)),
    StableHlo.unary main_v5 main_v6 (broadcastInDim S65536x24x1x1 ![0, 1, 2] bcast_S65536x24x1_S65536x24x1x1_0_1_2 : (⟨S65536x24x1, .f32⟩ : BufTy).Contents (Elt F) → (⟨S65536x24x1x1, .f32⟩ : BufTy).Contents (Elt F)),
    StableHlo.unary main_v2 main_v7 (Host.sin : (⟨S65536x24x1, .f32⟩ : BufTy).Contents (Elt F) → (⟨S65536x24x1, .f32⟩ : BufTy).Contents (Elt F)),
    StableHlo.unary main_v7 main_v8 (broadcastInDim S65536x24x1x1 ![0, 1, 2] bcast_S65536x24x1_S65536x24x1x1_0_1_2 : (⟨S65536x24x1, .f32⟩ : BufTy).Contents (Elt F) → (⟨S65536x24x1x1, .f32⟩ : BufTy).Contents (Elt F)),
    StableHlo.unary main_v4 main_v9 ((extractStridedSlice S65536x24x1 ![0, 0, 0] · slices_S65536x24x3_S65536x24x1_0_0_0) : (⟨S65536x24x3, .f32⟩ : BufTy).Contents (Elt F) → (⟨S65536x24x1, .f32⟩ : BufTy).Contents (Elt F)),
    StableHlo.reshape main_v9 main_v10 rfl shapeCasts_S65536x24x1_S65536x24,
    StableHlo.unary main_v4 main_v11 ((extractStridedSlice S65536x24x1 ![0, 0, 1] · slices_S65536x24x3_S65536x24x1_0_0_1) : (⟨S65536x24x3, .f32⟩ : BufTy).Contents (Elt F) → (⟨S65536x24x1, .f32⟩ : BufTy).Contents (Elt F)),
    StableHlo.reshape main_v11 main_v12 rfl shapeCasts_S65536x24x1_S65536x24,
    StableHlo.unary main_v4 main_v13 ((extractStridedSlice S65536x24x1 ![0, 0, 2] · slices_S65536x24x3_S65536x24x1_0_0_2) : (⟨S65536x24x3, .f32⟩ : BufTy).Contents (Elt F) → (⟨S65536x24x1, .f32⟩ : BufTy).Contents (Elt F)),
    StableHlo.reshape main_v13 main_v14 rfl shapeCasts_S65536x24x1_S65536x24,
    StableHlo.nullary main_cst_1 (constant S_ .f32 0x00000000#32),
    StableHlo.unary main_cst_1 main_v15 (broadcastInDim S65536x24 ![] bcast_S_S65536x24 : (⟨S_, .f32⟩ : BufTy).Contents (Elt F) → (⟨S65536x24, .f32⟩ : BufTy).Contents (Elt F)),
    StableHlo.unary main_v14 main_v16 (Host.negf : (⟨S65536x24, .f32⟩ : BufTy).Contents (Elt F) → (⟨S65536x24, .f32⟩ : BufTy).Contents (Elt F)),
    StableHlo.unary main_v10 main_v17 (Host.negf : (⟨S65536x24, .f32⟩ : BufTy).Contents (Elt F) → (⟨S65536x24, .f32⟩ : BufTy).Contents (Elt F)),
    StableHlo.unary main_v12 main_v18 (Host.negf : (⟨S65536x24, .f32⟩ : BufTy).Contents (Elt F) → (⟨S65536x24, .f32⟩ : BufTy).Contents (Elt F)),
    StableHlo.unary main_v15 main_v19 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v16 main_v20 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v12 main_v21 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v14 main_v22 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v15 main_v23 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v17 main_v24 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v18 main_v25 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v10 main_v26 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v15 main_v27 (broadcastInDim S65536x24x1 ![0, 1] bcast_S65536x24_S65536x24x1_0_1 : (⟨S65536x24, .f32⟩ : BufTy).Contents (Elt F) → (⟨S65536x24x1, .f32⟩ : BufTy).Contents (Elt F)),
    StableHlo.nary ![main_v19, main_v20, main_v21, main_v22, main_v23, main_v24, main_v25, main_v26, main_v27] main_v28 (fun u => concatenate S65536x24x9 2 [⟨S65536x24x1, u 0⟩, ⟨S65536x24x1, u 1⟩, ⟨S65536x24x1, u 2⟩, ⟨S65536x24x1, u 3⟩, ⟨S65536x24x1, u 4⟩, ⟨S65536x24x1, u 5⟩, ⟨S65536x24x1, u 6⟩, ⟨S65536x24x1, u 7⟩, ⟨S65536x24x1, u 8⟩] concatenates_S65536x24x1_S65536x24x1_S65536x24x1_S65536x24x1_S65536x24x1_S65536x24x1_S65536x24x1_S65536x24x1_S65536x24x1_S65536x24x9_d2),
    StableHlo.reshape main_v28 main_v29 rfl shapeCasts_S65536x24x9_S65536x24x3x3,
    StableHlo.nullary main_v30 (iotaInDim S3x3 32 0),
    StableHlo.nullary main_v31 (iotaInDim S3x3 32 1),
    StableHlo.nullary main_c (constantI S_ 32 0#32),
    StableHlo.unary main_c main_v32 (broadcastInDim S3x3 ![] bcast_S_S3x3 : (⟨S_, .i32⟩ : BufTy).Contents (Elt F) → (⟨S3x3, .i32⟩ : BufTy).Contents (Elt F)),
    StableHlo.binary main_v30 main_v32 main_v33 (addi : (⟨S3x3, .i32⟩ : BufTy).Contents (Elt F) → (⟨S3x3, .i32⟩ : BufTy).Contents (Elt F) → (⟨S3x3, .i32⟩ : BufTy).Contents (Elt F)),
    StableHlo.binary main_v33 main_v31 main_v34 (cmpi .eq : (⟨S3x3, .i32⟩ : BufTy).Contents (Elt F) → (⟨S3x3, .i32⟩ : BufTy).Contents (Elt F) → (⟨S3x3, .i1⟩ : BufTy).Contents (Elt F)),
    StableHlo.unary main_v34 main_v35 (uitofp .f32 : (⟨S3x3, .i1⟩ : BufTy).Contents (Elt F) → (⟨S3x3, .f32⟩ : BufTy).Contents (Elt F)),
    StableHlo.unary main_v8 main_v36 (broadcastInDim S65536x24x3x3 ![0, 1, 2, 3] bcast_S65536x24x1x1_S65536x24x3x3_0_1_2_3 : (⟨S65536x24x1x1, .f32⟩ : BufTy).Contents (Elt F) → (⟨S65536x24x3x3, .f32⟩ : BufTy).Contents (Elt F)),
    StableHlo.binary main_v36 main_v29 main_v37 (mulf : (⟨S65536x24x3x3, .f32⟩ : BufTy).Contents (Elt F) → (⟨S65536x24x3x3, .f32⟩ : BufTy).Contents (Elt F) → (⟨S65536x24x3x3, .f32⟩ : BufTy).Contents (Elt F)),
    StableHlo.unary main_v35 main_v38 (broadcastInDim S1x1x3x3 ![2, 3] bcast_S3x3_S1x1x3x3_2_3 : (⟨S3x3, .f32⟩ : BufTy).Contents (Elt F) → (⟨S1x1x3x3, .f32⟩ : BufTy).Contents (Elt F)),
    StableHlo.unary main_v38 main_v39 (broadcastInDim S65536x24x3x3 ![0, 1, 2, 3] bcast_S1x1x3x3_S65536x24x3x3_0_1_2_3 : (⟨S1x1x3x3, .f32⟩ : BufTy).Contents (Elt F) → (⟨S65536x24x3x3, .f32⟩ : BufTy).Contents (Elt F)),
    StableHlo.binary main_v39 main_v37 main_v40 (addf : (⟨S65536x24x3x3, .f32⟩ : BufTy).Contents (Elt F) → (⟨S65536x24x3x3, .f32⟩ : BufTy).Contents (Elt F) → (⟨S65536x24x3x3, .f32⟩ : BufTy).Contents (Elt F)),
    StableHlo.nullary main_cst_2 (constant S_ .f32 0x3F800000#32),
    StableHlo.unary main_cst_2 main_v41 (broadcastInDim S65536x24x1x1 ![] bcast_S_S65536x24x1x1 : (⟨S_, .f32⟩ : BufTy).Contents (Elt F) → (⟨S65536x24x1x1, .f32⟩ : BufTy).Contents (Elt F)),
    StableHlo.binary main_v41 main_v6 main_v42 (subf : (⟨S65536x24x1x1, .f32⟩ : BufTy).Contents (Elt F) → (⟨S65536x24x1x1, .f32⟩ : BufTy).Contents (Elt F) → (⟨S65536x24x1x1, .f32⟩ : BufTy).Contents (Elt F)),
    StableHlo.binary main_v29 main_v29 main_v43 ((fun l r => Host.dotGeneral dot_S65536x24x3x3_S65536x24x3x3_S65536x24x3x3_3_2_2_3_01_01 none l r) : (⟨S65536x24x3x3, .f32⟩ : BufTy).Contents (Elt F) → (⟨S65536x24x3x3, .f32⟩ : BufTy).Contents (Elt F) → (⟨S65536x24x3x3, .f32⟩ : BufTy).Contents (Elt F)),
    StableHlo.unary main_v42 main_v44 (broadcastInDim S65536x24x3x3 ![0, 1, 2, 3] bcast_S65536x24x1x1_S65536x24x3x3_0_1_2_3 : (⟨S65536x24x1x1, .f32⟩ : BufTy).Contents (Elt F) → (⟨S65536x24x3x3, .f32⟩ : BufTy).Contents (Elt F)),
    StableHlo.binary main_v44 main_v43 main_v45 (mulf : (⟨S65536x24x3x3, .f32⟩ : BufTy).Contents (Elt F) → (⟨S65536x24x3x3, .f32⟩ : BufTy).Contents (Elt F) → (⟨S65536x24x3x3, .f32⟩ : BufTy).Contents (Elt F)),
    StableHlo.binary main_v40 main_v45 main_v46 (addf : (⟨S65536x24x3x3, .f32⟩ : BufTy).Contents (Elt F) → (⟨S65536x24x3x3, .f32⟩ : BufTy).Contents (Elt F) → (⟨S65536x24x3x3, .f32⟩ : BufTy).Contents (Elt F)),
    StableHlo.unary main_arg0 main_v47 (broadcastInDim S1x24x3x1 ![1, 2] bcast_S24x3_S1x24x3x1_1_2 : (⟨S24x3, .f32⟩ : BufTy).Contents (Elt F) → (⟨S1x24x3x1, .f32⟩ : BufTy).Contents (Elt F)),
    StableHlo.unary main_v47 main_v48 (broadcastInDim S65536x24x3x1 ![0, 1, 2, 3] bcast_S1x24x3x1_S65536x24x3x1_0_1_2_3 : (⟨S1x24x3x1, .f32⟩ : BufTy).Contents (Elt F) → (⟨S65536x24x3x1, .f32⟩ : BufTy).Contents (Elt F)),
    StableHlo.binary main_v46 main_v48 main_v49 ((fun a b => concatenate S65536x24x3x4 3 [⟨S65536x24x3x3, a⟩, ⟨S65536x24x3x1, b⟩] concatenates_S65536x24x3x3_S65536x24x3x1_S65536x24x3x4_d3) : (⟨S65536x24x3x3, .f32⟩ : BufTy).Contents (Elt F) → (⟨S65536x24x3x1, .f32⟩ : BufTy).Contents (Elt F) → (⟨S65536x24x3x4, .f32⟩ : BufTy).Contents (Elt F)),
    StableHlo.unary main_cst main_v50 (broadcastInDim S65536x24x1x4 ![3] bcast_S4_S65536x24x1x4_3 : (⟨S4, .f32⟩ : BufTy).Contents (Elt F) → (⟨S65536x24x1x4, .f32⟩ : BufTy).Contents (Elt F)),
    StableHlo.binary main_v49 main_v50 main_v51 ((fun a b => concatenate S65536x24x4x4 2 [⟨S65536x24x3x4, a⟩, ⟨S65536x24x1x4, b⟩] concatenates_S65536x24x3x4_S65536x24x1x4_S65536x24x4x4_d2) : (⟨S65536x24x3x4, .f32⟩ : BufTy).Contents (Elt F) → (⟨S65536x24x1x4, .f32⟩ : BufTy).Contents (Elt F) → (⟨S65536x24x4x4, .f32⟩ : BufTy).Contents (Elt F)) ]

/-- Operations 62 to 64: the root's matrix and the first child's slice (to main_v54). -/
abbrev ops0b : List (HloOp τ sig (Elt F)) :=
  [ StableHlo.unary main_v51 main_v52 ((extractStridedSlice S65536x1x4x4 ![0, 0, 0, 0] · slices_S65536x24x4x4_S65536x1x4x4_0_0_0_0) : (⟨S65536x24x4x4, .f32⟩ : BufTy).Contents (Elt F) → (⟨S65536x1x4x4, .f32⟩ : BufTy).Contents (Elt F)),
    StableHlo.reshape main_v52 main_v53 rfl shapeCasts_S65536x1x4x4_S65536x4x4,
    StableHlo.unary main_v51 main_v54 ((extractStridedSlice S65536x1x4x4 ![0, 1, 0, 0] · slices_S65536x24x4x4_S65536x1x4x4_0_1_0_0) : (⟨S65536x24x4x4, .f32⟩ : BufTy).Contents (Elt F) → (⟨S65536x1x4x4, .f32⟩ : BufTy).Contents (Elt F)) ]

/-- Operations 65 to 124: the products down the tree, joints 1 to 20, and joint 21's slice (to main_v114). -/
abbrev ops1 : List (HloOp τ sig (Elt F)) :=
  [ StableHlo.reshape main_v54 main_v55 rfl shapeCasts_S65536x1x4x4_S65536x4x4,
    StableHlo.binary main_v53 main_v55 main_v56 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v57 ((extractStridedSlice S65536x1x4x4 ![0, 2, 0, 0] · slices_S65536x24x4x4_S65536x1x4x4_0_2_0_0) : (⟨S65536x24x4x4, .f32⟩ : BufTy).Contents (Elt F) → (⟨S65536x1x4x4, .f32⟩ : BufTy).Contents (Elt F)),
    StableHlo.reshape main_v57 main_v58 rfl shapeCasts_S65536x1x4x4_S65536x4x4,
    StableHlo.binary main_v53 main_v58 main_v59 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v60 ((extractStridedSlice S65536x1x4x4 ![0, 3, 0, 0] · slices_S65536x24x4x4_S65536x1x4x4_0_3_0_0) : (⟨S65536x24x4x4, .f32⟩ : BufTy).Contents (Elt F) → (⟨S65536x1x4x4, .f32⟩ : BufTy).Contents (Elt F)),
    StableHlo.reshape main_v60 main_v61 rfl shapeCasts_S65536x1x4x4_S65536x4x4,
    StableHlo.binary main_v53 main_v61 main_v62 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v63 ((extractStridedSlice S65536x1x4x4 ![0, 4, 0, 0] · slices_S65536x24x4x4_S65536x1x4x4_0_4_0_0) : (⟨S65536x24x4x4, .f32⟩ : BufTy).Contents (Elt F) → (⟨S65536x1x4x4, .f32⟩ : BufTy).Contents (Elt F)),
    StableHlo.reshape main_v63 main_v64 rfl shapeCasts_S65536x1x4x4_S65536x4x4,
    StableHlo.binary main_v56 main_v64 main_v65 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v66 ((extractStridedSlice S65536x1x4x4 ![0, 5, 0, 0] · slices_S65536x24x4x4_S65536x1x4x4_0_5_0_0) : (⟨S65536x24x4x4, .f32⟩ : BufTy).Contents (Elt F) → (⟨S65536x1x4x4, .f32⟩ : BufTy).Contents (Elt F)),
    StableHlo.reshape main_v66 main_v67 rfl shapeCasts_S65536x1x4x4_S65536x4x4,
    StableHlo.binary main_v59 main_v67 main_v68 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v69 ((extractStridedSlice S65536x1x4x4 ![0, 6, 0, 0] · slices_S65536x24x4x4_S65536x1x4x4_0_6_0_0) : (⟨S65536x24x4x4, .f32⟩ : BufTy).Contents (Elt F) → (⟨S65536x1x4x4, .f32⟩ : BufTy).Contents (Elt F)),
    StableHlo.reshape main_v69 main_v70 rfl shapeCasts_S65536x1x4x4_S65536x4x4,
    StableHlo.binary main_v62 main_v70 main_v71 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v72 ((extractStridedSlice S65536x1x4x4 ![0, 7, 0, 0] · slices_S65536x24x4x4_S65536x1x4x4_0_7_0_0) : (⟨S65536x24x4x4, .f32⟩ : BufTy).Contents (Elt F) → (⟨S65536x1x4x4, .f32⟩ : BufTy).Contents (Elt F)),
    StableHlo.reshape main_v72 main_v73 rfl shapeCasts_S65536x1x4x4_S65536x4x4,
    StableHlo.binary main_v65 main_v73 main_v74 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v75 ((extractStridedSlice S65536x1x4x4 ![0, 8, 0, 0] · slices_S65536x24x4x4_S65536x1x4x4_0_8_0_0) : (⟨S65536x24x4x4, .f32⟩ : BufTy).Contents (Elt F) → (⟨S65536x1x4x4, .f32⟩ : BufTy).Contents (Elt F)),
    StableHlo.reshape main_v75 main_v76 rfl shapeCasts_S65536x1x4x4_S65536x4x4,
    StableHlo.binary main_v68 main_v76 main_v77 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v78 ((extractStridedSlice S65536x1x4x4 ![0, 9, 0, 0] · slices_S65536x24x4x4_S65536x1x4x4_0_9_0_0) : (⟨S65536x24x4x4, .f32⟩ : BufTy).Contents (Elt F) → (⟨S65536x1x4x4, .f32⟩ : BufTy).Contents (Elt F)),
    StableHlo.reshape main_v78 main_v79 rfl shapeCasts_S65536x1x4x4_S65536x4x4,
    StableHlo.binary main_v71 main_v79 main_v80 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v81 ((extractStridedSlice S65536x1x4x4 ![0, 10, 0, 0] · slices_S65536x24x4x4_S65536x1x4x4_0_10_0_0) : (⟨S65536x24x4x4, .f32⟩ : BufTy).Contents (Elt F) → (⟨S65536x1x4x4, .f32⟩ : BufTy).Contents (Elt F)),
    StableHlo.reshape main_v81 main_v82 rfl shapeCasts_S65536x1x4x4_S65536x4x4,
    StableHlo.binary main_v74 main_v82 main_v83 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v84 ((extractStridedSlice S65536x1x4x4 ![0, 11, 0, 0] · slices_S65536x24x4x4_S65536x1x4x4_0_11_0_0) : (⟨S65536x24x4x4, .f32⟩ : BufTy).Contents (Elt F) → (⟨S65536x1x4x4, .f32⟩ : BufTy).Contents (Elt F)),
    StableHlo.reshape main_v84 main_v85 rfl shapeCasts_S65536x1x4x4_S65536x4x4,
    StableHlo.binary main_v77 main_v85 main_v86 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v87 ((extractStridedSlice S65536x1x4x4 ![0, 12, 0, 0] · slices_S65536x24x4x4_S65536x1x4x4_0_12_0_0) : (⟨S65536x24x4x4, .f32⟩ : BufTy).Contents (Elt F) → (⟨S65536x1x4x4, .f32⟩ : BufTy).Contents (Elt F)),
    StableHlo.reshape main_v87 main_v88 rfl shapeCasts_S65536x1x4x4_S65536x4x4,
    StableHlo.binary main_v80 main_v88 main_v89 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v90 ((extractStridedSlice S65536x1x4x4 ![0, 13, 0, 0] · slices_S65536x24x4x4_S65536x1x4x4_0_13_0_0) : (⟨S65536x24x4x4, .f32⟩ : BufTy).Contents (Elt F) → (⟨S65536x1x4x4, .f32⟩ : BufTy).Contents (Elt F)),
    StableHlo.reshape main_v90 main_v91 rfl shapeCasts_S65536x1x4x4_S65536x4x4,
    StableHlo.binary main_v80 main_v91 main_v92 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v93 ((extractStridedSlice S65536x1x4x4 ![0, 14, 0, 0] · slices_S65536x24x4x4_S65536x1x4x4_0_14_0_0) : (⟨S65536x24x4x4, .f32⟩ : BufTy).Contents (Elt F) → (⟨S65536x1x4x4, .f32⟩ : BufTy).Contents (Elt F)),
    StableHlo.reshape main_v93 main_v94 rfl shapeCasts_S65536x1x4x4_S65536x4x4,
    StableHlo.binary main_v80 main_v94 main_v95 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v96 ((extractStridedSlice S65536x1x4x4 ![0, 15, 0, 0] · slices_S65536x24x4x4_S65536x1x4x4_0_15_0_0) : (⟨S65536x24x4x4, .f32⟩ : BufTy).Contents (Elt F) → (⟨S65536x1x4x4, .f32⟩ : BufTy).Contents (Elt F)),
    StableHlo.reshape main_v96 main_v97 rfl shapeCasts_S65536x1x4x4_S65536x4x4,
    StableHlo.binary main_v89 main_v97 main_v98 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v99 ((extractStridedSlice S65536x1x4x4 ![0, 16, 0, 0] · slices_S65536x24x4x4_S65536x1x4x4_0_16_0_0) : (⟨S65536x24x4x4, .f32⟩ : BufTy).Contents (Elt F) → (⟨S65536x1x4x4, .f32⟩ : BufTy).Contents (Elt F)),
    StableHlo.reshape main_v99 main_v100 rfl shapeCasts_S65536x1x4x4_S65536x4x4,
    StableHlo.binary main_v92 main_v100 main_v101 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v102 ((extractStridedSlice S65536x1x4x4 ![0, 17, 0, 0] · slices_S65536x24x4x4_S65536x1x4x4_0_17_0_0) : (⟨S65536x24x4x4, .f32⟩ : BufTy).Contents (Elt F) → (⟨S65536x1x4x4, .f32⟩ : BufTy).Contents (Elt F)),
    StableHlo.reshape main_v102 main_v103 rfl shapeCasts_S65536x1x4x4_S65536x4x4,
    StableHlo.binary main_v95 main_v103 main_v104 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v105 ((extractStridedSlice S65536x1x4x4 ![0, 18, 0, 0] · slices_S65536x24x4x4_S65536x1x4x4_0_18_0_0) : (⟨S65536x24x4x4, .f32⟩ : BufTy).Contents (Elt F) → (⟨S65536x1x4x4, .f32⟩ : BufTy).Contents (Elt F)),
    StableHlo.reshape main_v105 main_v106 rfl shapeCasts_S65536x1x4x4_S65536x4x4,
    StableHlo.binary main_v101 main_v106 main_v107 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v108 ((extractStridedSlice S65536x1x4x4 ![0, 19, 0, 0] · slices_S65536x24x4x4_S65536x1x4x4_0_19_0_0) : (⟨S65536x24x4x4, .f32⟩ : BufTy).Contents (Elt F) → (⟨S65536x1x4x4, .f32⟩ : BufTy).Contents (Elt F)),
    StableHlo.reshape main_v108 main_v109 rfl shapeCasts_S65536x1x4x4_S65536x4x4,
    StableHlo.binary main_v104 main_v109 main_v110 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v111 ((extractStridedSlice S65536x1x4x4 ![0, 20, 0, 0] · slices_S65536x24x4x4_S65536x1x4x4_0_20_0_0) : (⟨S65536x24x4x4, .f32⟩ : BufTy).Contents (Elt F) → (⟨S65536x1x4x4, .f32⟩ : BufTy).Contents (Elt F)),
    StableHlo.reshape main_v111 main_v112 rfl shapeCasts_S65536x1x4x4_S65536x4x4,
    StableHlo.binary main_v107 main_v112 main_v113 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v114 ((extractStridedSlice S65536x1x4x4 ![0, 21, 0, 0] · slices_S65536x24x4x4_S65536x1x4x4_0_21_0_0) : (⟨S65536x24x4x4, .f32⟩ : BufTy).Contents (Elt F) → (⟨S65536x1x4x4, .f32⟩ : BufTy).Contents (Elt F)) ]

/-- Operations 125 to 132: the products of joints 21 to 23 (to main_v122). -/
abbrev ops2a : List (HloOp τ sig (Elt F)) :=
  [ StableHlo.reshape main_v114 main_v115 rfl shapeCasts_S65536x1x4x4_S65536x4x4,
    StableHlo.binary main_v110 main_v115 main_v116 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v117 ((extractStridedSlice S65536x1x4x4 ![0, 22, 0, 0] · slices_S65536x24x4x4_S65536x1x4x4_0_22_0_0) : (⟨S65536x24x4x4, .f32⟩ : BufTy).Contents (Elt F) → (⟨S65536x1x4x4, .f32⟩ : BufTy).Contents (Elt F)),
    StableHlo.reshape main_v117 main_v118 rfl shapeCasts_S65536x1x4x4_S65536x4x4,
    StableHlo.binary main_v113 main_v118 main_v119 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v120 ((extractStridedSlice S65536x1x4x4 ![0, 23, 0, 0] · slices_S65536x24x4x4_S65536x1x4x4_0_23_0_0) : (⟨S65536x24x4x4, .f32⟩ : BufTy).Contents (Elt F) → (⟨S65536x1x4x4, .f32⟩ : BufTy).Contents (Elt F)),
    StableHlo.reshape main_v120 main_v121 rfl shapeCasts_S65536x1x4x4_S65536x4x4,
    StableHlo.binary main_v116 main_v121 main_v122 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) ]

/-- Operations 133 to 164: the 24 products stacked, the translation column read out, the root translation added (to main_v154). -/
abbrev ops2b : List (HloOp τ sig (Elt F)) :=
  [ StableHlo.unary main_v53 main_v123 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v56 main_v124 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v59 main_v125 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v62 main_v126 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v65 main_v127 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v68 main_v128 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v71 main_v129 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v74 main_v130 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v77 main_v131 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v80 main_v132 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v83 main_v133 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v86 main_v134 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v89 main_v135 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v92 main_v136 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v95 main_v137 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v98 main_v138 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v101 main_v139 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v104 main_v140 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v107 main_v141 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v110 main_v142 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v113 main_v143 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v116 main_v144 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v119 main_v145 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v122 main_v146 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.nary ![main_v123, main_v124, main_v125, main_v126, main_v127, main_v128, main_v129, main_v130, main_v131, main_v132, main_v133, main_v134, main_v135, main_v136, main_v137, main_v138] main_v147 (fun u => concatenate S65536x16x4x4 1 [⟨S65536x1x4x4, u 0⟩, ⟨S65536x1x4x4, u 1⟩, ⟨S65536x1x4x4, u 2⟩, ⟨S65536x1x4x4, u 3⟩, ⟨S65536x1x4x4, u 4⟩, ⟨S65536x1x4x4, u 5⟩, ⟨S65536x1x4x4, u 6⟩, ⟨S65536x1x4x4, u 7⟩, ⟨S65536x1x4x4, u 8⟩, ⟨S65536x1x4x4, u 9⟩, ⟨S65536x1x4x4, u 10⟩, ⟨S65536x1x4x4, u 11⟩, ⟨S65536x1x4x4, u 12⟩, ⟨S65536x1x4x4, u 13⟩, ⟨S65536x1x4x4, u 14⟩, ⟨S65536x1x4x4, u 15⟩] concatenates_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x16x4x4_d1),
    StableHlo.nary ![main_v139, main_v140, main_v141, main_v142, main_v143, main_v144, main_v145, main_v146] main_v148 (fun u => concatenate S65536x8x4x4 1 [⟨S65536x1x4x4, u 0⟩, ⟨S65536x1x4x4, u 1⟩, ⟨S65536x1x4x4, u 2⟩, ⟨S65536x1x4x4, u 3⟩, ⟨S65536x1x4x4, u 4⟩, ⟨S65536x1x4x4, u 5⟩, ⟨S65536x1x4x4, u 6⟩, ⟨S65536x1x4x4, u 7⟩] concatenates_S65536x1x4x4_S65536x1x4x4_S65536x1x4x4_S65536x1x4x4_S65536x1x4x4_S65536x1x4x4_S65536x1x4x4_S65536x1x4x4_S65536x8x4x4_d1),
    StableHlo.binary main_v147 main_v148 main_v149 ((fun a b => concatenate S65536x24x4x4 1 [⟨S65536x16x4x4, a⟩, ⟨S65536x8x4x4, b⟩] concatenates_S65536x16x4x4_S65536x8x4x4_S65536x24x4x4_d1) : (⟨S65536x16x4x4, .f32⟩ : BufTy).Contents (Elt F) → (⟨S65536x8x4x4, .f32⟩ : BufTy).Contents (Elt F) → (⟨S65536x24x4x4, .f32⟩ : BufTy).Contents (Elt F)),
    StableHlo.unary main_v149 main_v150 ((extractStridedSlice S65536x24x3x1 ![0, 0, 0, 3] · slices_S65536x24x4x4_S65536x24x3x1_0_0_0_3) : (⟨S65536x24x4x4, .f32⟩ : BufTy).Contents (Elt F) → (⟨S65536x24x3x1, .f32⟩ : BufTy).Contents (Elt F)),
    StableHlo.reshape main_v150 main_v151 rfl shapeCasts_S65536x24x3x1_S65536x24x3,
    StableHlo.unary main_arg2 main_v152 (broadcastInDim S65536x1x3 ![0, 2] bcast_S65536x3_S65536x1x3_0_2 : (⟨S65536x3, .f32⟩ : BufTy).Contents (Elt F) → (⟨S65536x1x3, .f32⟩ : BufTy).Contents (Elt F)),
    StableHlo.unary main_v152 main_v153 (broadcastInDim S65536x24x3 ![0, 1, 2] bcast_S65536x1x3_S65536x24x3_0_1_2 : (⟨S65536x1x3, .f32⟩ : BufTy).Contents (Elt F) → (⟨S65536x24x3, .f32⟩ : BufTy).Contents (Elt F)),
    StableHlo.binary main_v151 main_v153 main_v154 (addf : (⟨S65536x24x3, .f32⟩ : BufTy).Contents (Elt F) → (⟨S65536x24x3, .f32⟩ : BufTy).Contents (Elt F) → (⟨S65536x24x3, .f32⟩ : BufTy).Contents (Elt F)) ]

end Cert.ReferenceIdeal.RefOps

end
-- ==== Proof.RefRun.lean ====
/- The reference program's @main is the straight line of its 164 host operations, and its run: every weakly fair
   execution terminates with each buffer at the fold of the operations' results over the launch contents. -/
import proofs.«160816_j62156766707902_1_alg».proof.Proof.RefOps
import proofs.«160816_j62156766707902_1_alg».proof.Proof.Spec
import Idealize.ShloMosaic.Lib.StableHlo.Run
import Mathlib.Data.List.Basic

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo Idealize.ShloMosaic.ValueIdx

variable {F : FTy → Type} [FloatOps F]

/-- @main's 164 operations, in order: the five stretches joined. -/
abbrev ops : List (HloOp τ sig (Elt F)) := ops0a ++ ops0b ++ ops1 ++ ops2a ++ ops2b

/-! ## @main is that straight line

Each printed window is one chain of `hlo` steps; so is the fold `seq` over the matching stretch of the list, once
the sequencing is reassociated and the outlined norm's body is put at its call. -/

set_option maxRecDepth 8192 in
set_option maxHeartbeats 4000000 in
/-- The first window (it holds the call of the norm: its body's five operations stand at the call). -/
theorem part0_eq (c : Dev nD) : main_part0 (F := F) c = seq (ops0a ++ ops0b) := by
  simp only [main_part0, fn_norm.body, seq, bind_assoc, pure_bind]
  rfl

set_option maxRecDepth 8192 in
set_option maxHeartbeats 4000000 in
/-- The second window. -/
theorem part1_eq (c : Dev nD) : main_part1 (F := F) c = seq ops1 := rfl

set_option maxRecDepth 8192 in
set_option maxHeartbeats 4000000 in
/-- The third window. -/
theorem part2_eq (c : Dev nD) : main_part2 (F := F) c = seq (ops2a ++ ops2b) := rfl

/-- Five lines joined, grouped as the three windows: sequencing is associative. -/
theorem seq_join {nD : Nat} {τ : Topo} {sig : RefSig} {Val : EltTy → Type} {Λ : Labels} (a b c d e : List (HloOp τ sig Val)) :
    (seq (a ++ b ++ c ++ d ++ e) : Prog (TpuEff nD τ sig Val Λ .tc) PUnit)
      = seq (a ++ b) >>= fun _ => seq c >>= fun _ => seq (d ++ e) := by
  simp only [seq_append, bind_assoc]

/-- @main runs its three windows in order, which is the whole line. -/
theorem main_eq (c : Dev nD) : main (F := F) c = seq ops := by
  have e : main (F := F) c = (main_part0 c >>= fun _ => main_part1 c >>= fun _ => main_part2 c) := rfl
  rw [e, part0_eq, part1_eq, part2_eq]
  exact (seq_join ops0a ops0b ops1 ops2a ops2b).symm

/-! ## The side conditions of the run, stretch by stretch -/

theorem scopedRefs_eq : (Finset.univ.filter fun b : Ref sig .tc => b.isScoped) = ∅ := by decide
theorem scopedSems_eq : (Finset.univ.filter fun sm : SemLoc sig => sm.isScoped .tc) = ∅ := by decide

/-- Every operation of the rotations and the stacked matrices touches TensorCore references only. -/
theorem ops0a_sub : (ops0a : List (HloOp τ sig (Elt F))).Forall fun op => op.bufs ⊆ tcRefs τ sig :=
  ⟨nullary_bufs_sub .., nullary_bufs_sub .., unary_bufs_sub .., binary_bufs_sub .., binary_bufs_sub .., nullary_bufs_sub ..,
    binary_bufs_sub .., unary_bufs_sub .., unary_bufs_sub .., unary_bufs_sub .., binary_bufs_sub .., unary_bufs_sub ..,
    unary_bufs_sub .., unary_bufs_sub .., unary_bufs_sub .., unary_bufs_sub .., reshape_bufs_sub .., unary_bufs_sub ..,
    reshape_bufs_sub .., unary_bufs_sub .., reshape_bufs_sub .., nullary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., nary_bufs_sub ..,
    reshape_bufs_sub .., nullary_bufs_sub .., nullary_bufs_sub .., nullary_bufs_sub .., unary_bufs_sub .., binary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., unary_bufs_sub ..,
    binary_bufs_sub .., binary_bufs_sub .., unary_bufs_sub .., unary_bufs_sub .., binary_bufs_sub .., unary_bufs_sub ..,
    binary_bufs_sub ..⟩

/-- None of them leaves a result undetermined. -/
theorem ops0a_fresh : (ops0a : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩

/-- Every operation of the root's matrix and the first child's slice touches TensorCore references only. -/
theorem ops0b_sub : (ops0b : List (HloOp τ sig (Elt F))).Forall fun op => op.bufs ⊆ tcRefs τ sig :=
  ⟨unary_bufs_sub .., reshape_bufs_sub .., unary_bufs_sub ..⟩

/-- None of them leaves a result undetermined. -/
theorem ops0b_fresh : (ops0b : List (HloOp τ sig (Elt F))).Forall fun op => op.fresh = ∅ :=
  ⟨rfl, rfl, rfl⟩

/-- Every operation of the products of joints 1 to 20 and joint 21's slice touches TensorCore references only. -/
theorem ops1_sub : (ops1 : List (HloOp τ sig (Elt F))).Forall fun op => op.bufs ⊆ tcRefs τ sig :=
  ⟨reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..⟩

/-- None of them leaves a result undetermined. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- Every operation of the products of joints 21 to 23 touches TensorCore references only. -/
theorem ops2a_sub : (ops2a : List (HloOp τ sig (Elt F))).Forall fun op => op.bufs ⊆ tcRefs τ sig :=
  ⟨reshape_bufs_sub .., binary_bufs_sub .., unary_bufs_sub .., reshape_bufs_sub .., binary_bufs_sub .., unary_bufs_sub ..,
    reshape_bufs_sub .., binary_bufs_sub ..⟩

/-- None of them leaves a result undetermined. -/
theorem ops2a_fresh : (ops2a : List (HloOp τ sig (Elt F))).Forall fun op => op.fresh = ∅ :=
  ⟨rfl, rfl, rfl, rfl, rfl, rfl, rfl, rfl⟩

/-- Every operation of the stacking, the translation column and the sum touches TensorCore references only. -/
theorem ops2b_sub : (ops2b : List (HloOp τ sig (Elt F))).Forall fun op => op.bufs ⊆ tcRefs τ sig :=
  ⟨unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    nary_bufs_sub .., nary_bufs_sub .., binary_bufs_sub .., unary_bufs_sub .., reshape_bufs_sub .., unary_bufs_sub ..,
    unary_bufs_sub .., binary_bufs_sub ..⟩

/-- None of them leaves a result undetermined. -/
theorem ops2b_fresh : (ops2b : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- The whole line touches TensorCore references only. -/
theorem ops_sub : (ops : List (HloOp τ sig (Elt F))).Forall fun op => op.bufs ⊆ tcRefs τ sig :=
  List.forall_append.mpr ⟨List.forall_append.mpr ⟨List.forall_append.mpr ⟨List.forall_append.mpr ⟨ops0a_sub, ops0b_sub⟩, ops1_sub⟩,
    ops2a_sub⟩, ops2b_sub⟩

/-- No operation of the line leaves a result undetermined. -/
theorem ops_fresh : ∀ op ∈ (ops : List (HloOp τ sig (Elt F))), op.fresh = ∅ :=
  List.forall_iff_forall_mem.mp (List.forall_append.mpr ⟨List.forall_append.mpr ⟨List.forall_append.mpr
    ⟨List.forall_append.mpr ⟨ops0a_fresh, ops0b_fresh⟩, ops1_fresh⟩, ops2a_fresh⟩, ops2b_fresh⟩)

/-! ## The run -/

/-- On every device, for any float values, from any memory with zero counters: every weakly fair execution of @main
    terminates, and every final state has each TensorCore buffer at the fold of the operations' results over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefReadA.lean ====
/-
  The first 61 host operations of the reference, read at an index: after them the stacked per-joint buffer holds, for
  each lane and joint, the 4×4 matrix [[R, o], [0, 0, 0, 1]] of Rodrigues' rotation R = (I + sin·K) + (1 − cos)·(K·K) of
  that joint's axis-angle vector and the joint's offset o; and the three argument buffers are untouched.
-/
import proofs.«160816_j62156766707902_1_alg».proof.Proof.RefOps
import proofs.«160816_j62156766707902_1_alg».proof.Proof.Spec
import Idealize.ShloMosaic.Lib.StableHlo.Run
import Idealize.ShloMosaic.Lib.ValueIdx
import Idealize.ShloMosaic.Lib.ValueLayout
import Idealize.ShloMosaic.PureOps.Ideal
import Idealize.ShloMosaic.PureOps.Ideal.Laws
import Idealize.ShloMosaic.PureOps.Reduce
import Idealize.ShloMosaic.Lib.Pipeline.Value
import Mathlib.Algebra.BigOperators.Group.Finset.Defs
import Mathlib.Algebra.BigOperators.Group.Finset.Basic
import Mathlib.Data.Fin.VecNotation
import Mathlib.Tactic.FinCases

noncomputable section

namespace Cert.ReferenceIdeal.RefReadA

open Cert.ReferenceIdeal Cert.ReferenceIdeal.Gen Cert.ReferenceIdeal.RefOps Idealize.ShloMosaic Idealize.ShloMosaic.TcCoe Idealize.SL.Sem Idealize.ShloMosaic.StableHlo Idealize.ShloMosaic.ValueIdx

/-- the axis-angle vectors, as an array of extended reals -/
abbrev A1 (V : Valuation τ sig (Elt Ideal)) : S65536x24x3.Idx → EReal := V (main_arg1 : DevRef τ sig)
/-- the offsets, as an array of extended reals -/
abbrev A0 (V : Valuation τ sig (Elt Ideal)) : S24x3.Idx → EReal := V (main_arg0 : DevRef τ sig)
/-- the axis-angle vector of lane b, joint j -/
abbrev W (V : Valuation τ sig (Elt Ideal)) (b : Fin 65536) (j : Fin 24) : Fin 3 → EReal :=
  fun k => A1 V (ix3 b j k)

/-! ## Layout operations of this program read at an index -/
section Layout
variable {α : Type}

/-- a broadcast scalar reads the scalar -/
theorem bc0 {t : Shape} (h : S_.BroadcastsInDim t (![] : Fin 0 → Fin t.rank)) (x : S_.Idx → α) (j : t.Idx) :
    broadcastInDim t ![] h x j = x ix0 :=
  broadcastInDim_apply _ h x j ix0 (fun a => a.elim0)

theorem bc_ab_ab1 (h : S65536x24.BroadcastsInDim S65536x24x1 ![0, 1]) (x : S65536x24.Idx → α)
    (a : Fin 65536) (b : Fin 24) (u : Fin 1) :
    broadcastInDim S65536x24x1 ![0, 1] h x (ix3 a b u) = x (ix2 a b) :=
  broadcastInDim_apply _ h x _ _ (fun ax => match ax with | ⟨0, _⟩ => rfl | ⟨1, _⟩ => rfl)

theorem bc_ab1_abc (h : S65536x24x1.BroadcastsInDim S65536x24x3 ![0, 1, 2]) (x : S65536x24x1.Idx → α)
    (a : Fin 65536) (b : Fin 24) (c : Fin 3) :
    broadcastInDim S65536x24x3 ![0, 1, 2] h x (ix3 a b c) = x (ix3 a b (0 : Fin 1)) :=
  broadcastInDim_apply _ h x _ _ (fun ax => match ax with | ⟨0, _⟩ => rfl | ⟨1, _⟩ => rfl | ⟨2, _⟩ => rfl)

theorem bc_ab1_ab11 (h : S65536x24x1.BroadcastsInDim S65536x24x1x1 ![0, 1, 2]) (x : S65536x24x1.Idx → α)
    (a : Fin 65536) (b : Fin 24) (u v : Fin 1) :
    broadcastInDim S65536x24x1x1 ![0, 1, 2] h x (ix4 a b u v) = x (ix3 a b (0 : Fin 1)) :=
  broadcastInDim_apply _ h x _ _ (fun ax => match ax with | ⟨0, _⟩ => rfl | ⟨1, _⟩ => rfl | ⟨2, _⟩ => rfl)

theorem bc_ab11_abik (h : S65536x24x1x1.BroadcastsInDim S65536x24x3x3 ![0, 1, 2, 3]) (x : S65536x24x1x1.Idx → α)
    (a : Fin 65536) (b : Fin 24) (i k : Fin 3) :
    broadcastInDim S65536x24x3x3 ![0, 1, 2, 3] h x (ix4 a b i k) = x (ix4 a b (0 : Fin 1) (0 : Fin 1)) :=
  broadcastInDim_apply _ h x _ _ (fun ax => match ax with | ⟨0, _⟩ => rfl | ⟨1, _⟩ => rfl | ⟨2, _⟩ => rfl | ⟨3, _⟩ => rfl)

theorem bc_ik_11ik (h : S3x3.BroadcastsInDim S1x1x3x3 ![2, 3]) (x : S3x3.Idx → α) (u v : Fin 1) (i k : Fin 3) :
    broadcastInDim S1x1x3x3 ![2, 3] h x (ix4 u v i k) = x (ix2 i k) :=
  broadcastInDim_apply _ h x _ _ (fun ax => match ax with | ⟨0, _⟩ => rfl | ⟨1, _⟩ => rfl)

theorem bc_11ik_abik (h : S1x1x3x3.BroadcastsInDim S65536x24x3x3 ![0, 1, 2, 3]) (x : S1x1x3x3.Idx → α)
    (a : Fin 65536) (b : Fin 24) (i k : Fin 3) :
    broadcastInDim S65536x24x3x3 ![0, 1, 2, 3] h x (ix4 a b i k) = x (ix4 (0 : Fin 1) (0 : Fin 1) i k) :=
  broadcastInDim_apply _ h x _ _ (fun ax => match ax with | ⟨0, _⟩ => rfl | ⟨1, _⟩ => rfl | ⟨2, _⟩ => rfl | ⟨3, _⟩ => rfl)

theorem bc_jk_1jk1 (h : S24x3.BroadcastsInDim S1x24x3x1 ![1, 2]) (x : S24x3.Idx → α) (u v : Fin 1) (j : Fin 24) (k : Fin 3) :
    broadcastInDim S1x24x3x1 ![1, 2] h x (ix4 u j k v) = x (ix2 j k) :=
  broadcastInDim_apply _ h x _ _ (fun ax => match ax with | ⟨0, _⟩ => rfl | ⟨1, _⟩ => rfl)

theorem bc_1jk1_bjk1 (h : S1x24x3x1.BroadcastsInDim S65536x24x3x1 ![0, 1, 2, 3]) (x : S1x24x3x1.Idx → α)
    (b : Fin 65536) (j : Fin 24) (k : Fin 3) (v : Fin 1) :
    broadcastInDim S65536x24x3x1 ![0, 1, 2, 3] h x (ix4 b j k v) = x (ix4 (0 : Fin 1) j k (0 : Fin 1)) :=
  broadcastInDim_apply _ h x _ _ (fun ax => match ax with | ⟨0, _⟩ => rfl | ⟨1, _⟩ => rfl | ⟨2, _⟩ => rfl | ⟨3, _⟩ => rfl)

theorem bc_c_ab1c (h : S4.BroadcastsInDim S65536x24x1x4 ![3]) (x : S4.Idx → α)
    (a : Fin 65536) (b : Fin 24) (u : Fin 1) (c : Fin 4) :
    broadcastInDim S65536x24x1x4 ![3] h x (ix4 a b u c) = x (ix1 c) :=
  broadcastInDim_apply _ h x _ _ (fun ax => match ax with | ⟨0, _⟩ => rfl)

/-- dropping the trailing unit axis -/
theorem rs_ab1_ab (h : S65536x24x1.ShapeCasts S65536x24) (x : S65536x24x1.Idx → α) (a : Fin 65536) (b : Fin 24) :
    shapeCast S65536x24 x h (ix2 a b) = x (ix3 a b (0 : Fin 1)) :=
  shapeCast_apply x h _ _ (by
    rw [Shape.rowMajor_val_three, Shape.rowMajor_val_two]
    show (a.val * 24 + b.val) * 1 + 0 = a.val * 24 + b.val
    omega)

/-- nine columns read as a 3×3 block, row-major -/
theorem rs_ab9_ab33 (h : S65536x24x9.ShapeCasts S65536x24x3x3) (x : S65536x24x9.Idx → α)
    (a : Fin 65536) (b : Fin 24) (i k : Fin 3) :
    shapeCast S65536x24x3x3 x h (ix4 a b i k) = x (ix3 a b (⟨3 * i.val + k.val, by omega⟩ : Fin 9)) :=
  shapeCast_apply x h _ _ (by
    rw [Shape.rowMajor_val_three, Shape.rowMajor_val_four]
    show (a.val * 24 + b.val) * 9 + (3 * i.val + k.val) = ((a.val * 24 + b.val) * 3 + i.val) * 3 + k.val
    omega)

/-- one component of the last axis -/
theorem sl_abc (c : Nat) (hc : c < 3) (h : S65536x24x3.Slices ![0, 0, c] S65536x24x1) (x : S65536x24x3.Idx → α)
    (a : Fin 65536) (b : Fin 24) (u : Fin 1) :
    extractStridedSlice S65536x24x1 ![0, 0, c] x h (ix3 a b u) = x (ix3 a b (⟨c, hc⟩ : Fin 3)) :=
  extractStridedSlice_apply _ x h _ _ (fun ax => match ax with
    | ⟨0, _⟩ => (Nat.zero_add _).symm
    | ⟨1, _⟩ => (Nat.zero_add _).symm
    | ⟨2, _⟩ => by show c = c + u.val; omega)

end Layout

/-! ## The host's elementwise operations and its sum, read at an index, at the ideal values -/
section Elementwise
variable {s : Shape} {φ : FTy}

theorem hsqrt_apply (x : FVec Ideal s φ) (i : s.Idx) : Host.sqrt x i = Ideal.sqrt (x i) := rfl
theorem hsin_apply (x : FVec Ideal s φ) (i : s.Idx) : Host.sin x i = Ideal.sin (x i) := rfl
theorem hcos_apply (x : FVec Ideal s φ) (i : s.Idx) : Host.cos x i = Ideal.cos (x i) := rfl
theorem hdivf_apply (x y : FVec Ideal s φ) (i : s.Idx) : Host.divf x y i = Ideal.div (x i) (y i) := rfl
theorem hnegf_apply (x : FVec Ideal s φ) (i : s.Idx) : Host.negf x i = -(x i) := rfl

/-- the host's sum over one axis: the initial value plus the sum over that axis's coordinates -/
theorem hreduce_apply {t u : Shape} {a : Fin s.rank} (x : FVec Ideal s φ) (init : u.Idx → Ideal φ)
    (h' : s.ReducesTo [a] t) (hu : 0 < u.numel) (h : s.Reduces [a] t) (j : t.Idx) :
    Host.reduceAdd x init h' hu j = init (Shape.Idx.first hu) + ∑ k : Fin (s.size a), x (h.lift j k) :=
  Ideal.hostReduceAdd_single h' h x _ j

end Elementwise

/-! ## The stages -/

/-- the vectors shifted by ε -/
theorem s1 (V : Valuation τ sig (Elt Ideal)) :
    after ops0a V (main_v1 : DevRef τ sig) = fun y => A1 V y + Cert.FK.eps := by
  after_results_simp
  funext y
  rw [addf_apply, bc0, constant_apply]
  rfl

private theorem hRed : S65536x24x3.Reduces [2] S65536x24 := by decide

/-- the angle: the norm of the shifted vector -/
theorem s2 (V : Valuation τ sig (Elt Ideal)) :
    after ops0a V (main_v2 : DevRef τ sig) = fun y => Cert.FK.ang (W V (y 0) (y 1)) := by
  have step : after ops0a V (main_v2 : DevRef τ sig)
      = Host.sqrt (broadcastInDim S65536x24x1 ![0, 1] bcast_S65536x24_S65536x24x1_0_1
          (Host.reduceAdd (F := Ideal) (mulf (after ops0a V (main_v1 : DevRef τ sig)) (after ops0a V (main_v1 : DevRef τ sig)))
            (constant S_ .f32 0x00000000#32) reducesTo_S65536x24x3_S65536x24_d2 h_S_)) := by
    after_results_simp
    try rfl
  rw [step, s1 V]
  funext y
  obtain ⟨b, j, u, rfl⟩ : ∃ b j u, y = ix3 b j u := ⟨y 0, y 1, y 2, eq_ix3 y⟩
  rw [hsqrt_apply, bc_ab_ab1, hreduce_apply _ _ _ _ hRed, constant_apply, Ideal.ofBits_zero_f32, zero_add]
  unfold Cert.FK.ang
  congr 1
  refine Finset.sum_congr rfl fun k _ => ?_
  have hl : hRed.lift (ix2 b j) k = ix3 b j k := by
    funext c
    match c with
    | ⟨0, _⟩ => rfl
    | ⟨1, _⟩ => rfl
    | ⟨2, _⟩ => rfl
  rw [hl]
  rfl

/-- the direction: the vector over its angle -/
theorem s4 (V : Valuation τ sig (Elt Ideal)) :
    after ops0a V (main_v4 : DevRef τ sig) = fun y => Cert.FK.dir (W V (y 0) (y 1)) (y 2) := by
  have step : after ops0a V (main_v4 : DevRef τ sig)
      = Host.divf (F := Ideal) (φ := .f32) (A1 V) (broadcastInDim S65536x24x3 ![0, 1, 2] bcast_S65536x24x1_S65536x24x3_0_1_2
          (after ops0a V (main_v2 : DevRef τ sig))) := by
    after_results_simp
    try rfl
  rw [step, s2 V]
  funext y
  obtain ⟨b, j, k, rfl⟩ : ∃ b j k, y = ix3 b j k := ⟨y 0, y 1, y 2, eq_ix3 y⟩
  rw [hdivf_apply, bc_ab1_abc]
  rfl

/-- the sine of the angle -/
theorem s8 (V : Valuation τ sig (Elt Ideal)) :
    after ops0a V (main_v8 : DevRef τ sig) = fun y => Cert.FK.sn (W V (y 0) (y 1)) := by
  have step : after ops0a V (main_v8 : DevRef τ sig)
      = broadcastInDim S65536x24x1x1 ![0, 1, 2] bcast_S65536x24x1_S65536x24x1x1_0_1_2
          (Host.sin (F := Ideal) (φ := .f32) (after ops0a V (main_v2 : DevRef τ sig))) := by
    after_results_simp
    try rfl
  rw [step, s2 V]
  funext y
  obtain ⟨b, j, u, v, rfl⟩ : ∃ b j u v, y = ix4 b j u v := ⟨y 0, y 1, y 2, y 3, eq_ix4 y⟩
  rw [bc_ab1_ab11, hsin_apply]
  rfl

/-- one minus the cosine of the angle -/
theorem s42 (V : Valuation τ sig (Elt Ideal)) :
    after ops0a V (main_v42 : DevRef τ sig) = fun y => Cert.FK.oc (W V (y 0) (y 1)) := by
  have step : after ops0a V (main_v42 : DevRef τ sig)
      = subf (F := Ideal) (φ := .f32) (broadcastInDim S65536x24x1x1 ![] bcast_S_S65536x24x1x1 (constant S_ .f32 0x3F800000#32))
          (broadcastInDim S65536x24x1x1 ![0, 1, 2] bcast_S65536x24x1_S65536x24x1x1_0_1_2
            (Host.cos (F := Ideal) (φ := .f32) (after ops0a V (main_v2 : DevRef τ sig)))) := by
    after_results_simp
    try rfl
  rw [step, s2 V]
  funext y
  obtain ⟨b, j, u, v, rfl⟩ : ∃ b j u v, y = ix4 b j u v := ⟨y 0, y 1, y 2, y 3, eq_ix4 y⟩
  rw [subf_apply, bc0, bc_ab1_ab11, hcos_apply, constant_apply]
  rfl

/-- the direction's components -/
theorem s10 (V : Valuation τ sig (Elt Ideal)) :
    after ops0a V (main_v10 : DevRef τ sig) = fun y => Cert.FK.dir (W V (y 0) (y 1)) 0 := by
  have step : after ops0a V (main_v10 : DevRef τ sig)
      = shapeCast S65536x24 (extractStridedSlice S65536x24x1 ![0, 0, 0] (after ops0a V (main_v4 : DevRef τ sig))
          slices_S65536x24x3_S65536x24x1_0_0_0) shapeCasts_S65536x24x1_S65536x24 := by
    after_results_simp
    try rfl
  rw [step, s4 V]
  funext y
  obtain ⟨b, j, rfl⟩ : ∃ b j, y = ix2 b j := ⟨y 0, y 1, eq_ix2 y⟩
  rw [rs_ab1_ab, sl_abc 0 (by omega)]
  rfl

theorem s12 (V : Valuation τ sig (Elt Ideal)) :
    after ops0a V (main_v12 : DevRef τ sig) = fun y => Cert.FK.dir (W V (y 0) (y 1)) 1 := by
  have step : after ops0a V (main_v12 : DevRef τ sig)
      = shapeCast S65536x24 (extractStridedSlice S65536x24x1 ![0, 0, 1] (after ops0a V (main_v4 : DevRef τ sig))
          slices_S65536x24x3_S65536x24x1_0_0_1) shapeCasts_S65536x24x1_S65536x24 := by
    after_results_simp
    try rfl
  rw [step, s4 V]
  funext y
  obtain ⟨b, j, rfl⟩ : ∃ b j, y = ix2 b j := ⟨y 0, y 1, eq_ix2 y⟩
  rw [rs_ab1_ab, sl_abc 1 (by omega)]
  rfl

theorem s14 (V : Valuation τ sig (Elt Ideal)) :
    after ops0a V (main_v14 : DevRef τ sig) = fun y => Cert.FK.dir (W V (y 0) (y 1)) 2 := by
  have step : after ops0a V (main_v14 : DevRef τ sig)
      = shapeCast S65536x24 (extractStridedSlice S65536x24x1 ![0, 0, 2] (after ops0a V (main_v4 : DevRef τ sig))
          slices_S65536x24x3_S65536x24x1_0_0_2) shapeCasts_S65536x24x1_S65536x24 := by
    after_results_simp
    try rfl
  rw [step, s4 V]
  funext y
  obtain ⟨b, j, rfl⟩ : ∃ b j, y = ix2 b j := ⟨y 0, y 1, eq_ix2 y⟩
  rw [rs_ab1_ab, sl_abc 2 (by omega)]
  rfl

/-- the run's results, a literal family of references read at its literal positions -/
macro "ar_simp" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Matrix.cons_val]))

section Layout2
variable {α : Type}

/-- nine unit columns side by side: column n of the result is the n-th piece -/
theorem cat9 (xs : List ((s : Shape) × (s.Idx → α))) (h : Shape.Concatenates (xs.map (·.1)) S65536x24x9 2)
    (a : Fin 65536) (b : Fin 24) (n : Nat) (hn : n < 9) (hk : n < xs.length) (x : S65536x24x1.Idx → α)
    (hx : xs[n] = ⟨S65536x24x1, x⟩)
    (hpre : (((xs.take n).map (·.1)).map fun s => if h : s.rank = S65536x24x9.rank then s.size ((2 : Fin S65536x24x9.rank).cast h.symm) else 0).sum = n) :
    concatenate S65536x24x9 2 xs h (ix3 a b (⟨n, hn⟩ : Fin 9)) = x (ix3 a b (0 : Fin 1)) :=
  concatenate_apply_piece 2 xs h _ n hk S65536x24x1 x hx rfl n hpre (ix3 a b (0 : Fin 1))
    (fun ax => match ax with
      | ⟨0, _⟩ => fun _ => rfl
      | ⟨1, _⟩ => fun _ => rfl
      | ⟨2, _⟩ => fun hne => absurd (Fin.ext rfl) hne)
    rfl

end Layout2

/-- the cross-product matrix of the direction -/
theorem s29 (V : Valuation τ sig (Elt Ideal)) :
    after ops0a V (main_v29 : DevRef τ sig) = fun y => Cert.FK.Kx (W V (y 0) (y 1)) (y 2) (y 3) := by
  have step : after ops0a V (main_v29 : DevRef τ sig)
      = shapeCast S65536x24x3x3 (concatenate S65536x24x9 2
          [⟨S65536x24x1, broadcastInDim S65536x24x1 ![0, 1] bcast_S65536x24_S65536x24x1_0_1 (broadcastInDim S65536x24 ![] bcast_S_S65536x24 (constant (F := Ideal) S_ .f32 0x00000000#32))⟩,
           ⟨S65536x24x1, broadcastInDim S65536x24x1 ![0, 1] bcast_S65536x24_S65536x24x1_0_1 (Host.negf (F := Ideal) (φ := .f32) (after ops0a V (main_v14 : DevRef τ sig)))⟩,
           ⟨S65536x24x1, broadcastInDim S65536x24x1 ![0, 1] bcast_S65536x24_S65536x24x1_0_1 (after ops0a V (main_v12 : DevRef τ sig))⟩,
           ⟨S65536x24x1, broadcastInDim S65536x24x1 ![0, 1] bcast_S65536x24_S65536x24x1_0_1 (after ops0a V (main_v14 : DevRef τ sig))⟩,
           ⟨S65536x24x1, broadcastInDim S65536x24x1 ![0, 1] bcast_S65536x24_S65536x24x1_0_1 (broadcastInDim S65536x24 ![] bcast_S_S65536x24 (constant (F := Ideal) S_ .f32 0x00000000#32))⟩,
           ⟨S65536x24x1, broadcastInDim S65536x24x1 ![0, 1] bcast_S65536x24_S65536x24x1_0_1 (Host.negf (F := Ideal) (φ := .f32) (after ops0a V (main_v10 : DevRef τ sig)))⟩,
           ⟨S65536x24x1, broadcastInDim S65536x24x1 ![0, 1] bcast_S65536x24_S65536x24x1_0_1 (Host.negf (F := Ideal) (φ := .f32) (after ops0a V (main_v12 : DevRef τ sig)))⟩,
           ⟨S65536x24x1, broadcastInDim S65536x24x1 ![0, 1] bcast_S65536x24_S65536x24x1_0_1 (after ops0a V (main_v10 : DevRef τ sig))⟩,
           ⟨S65536x24x1, broadcastInDim S65536x24x1 ![0, 1] bcast_S65536x24_S65536x24x1_0_1 (broadcastInDim S65536x24 ![] bcast_S_S65536x24 (constant (F := Ideal) S_ .f32 0x00000000#32))⟩]
          concatenates_S65536x24x1_S65536x24x1_S65536x24x1_S65536x24x1_S65536x24x1_S65536x24x1_S65536x24x1_S65536x24x1_S65536x24x1_S65536x24x9_d2) shapeCasts_S65536x24x9_S65536x24x3x3 := by
    ar_simp
    try rfl
  rw [step, s10 V, s12 V, s14 V]
  funext y
  obtain ⟨b, j, i, k, rfl⟩ : ∃ b j i k, y = ix4 b j i k := ⟨y 0, y 1, y 2, y 3, eq_ix4 y⟩
  rw [rs_ab9_ab33]
  fin_cases i <;> fin_cases k
  · refine (cat9 _ _ b j 0 (by omega) (by show (0 : ℕ) < 9; omega) _ rfl rfl).trans ?_
    rw [bc_ab_ab1, bc0, constant_apply, Ideal.ofBits_zero_f32]; rfl
  · refine (cat9 _ _ b j 1 (by omega) (by show (1 : ℕ) < 9; omega) _ rfl rfl).trans ?_
    rw [bc_ab_ab1, hnegf_apply]; rfl
  · refine (cat9 _ _ b j 2 (by omega) (by show (2 : ℕ) < 9; omega) _ rfl rfl).trans ?_
    rw [bc_ab_ab1]; rfl
  · refine (cat9 _ _ b j 3 (by omega) (by show (3 : ℕ) < 9; omega) _ rfl rfl).trans ?_
    rw [bc_ab_ab1]; rfl
  · refine (cat9 _ _ b j 4 (by omega) (by show (4 : ℕ) < 9; omega) _ rfl rfl).trans ?_
    rw [bc_ab_ab1, bc0, constant_apply, Ideal.ofBits_zero_f32]; rfl
  · refine (cat9 _ _ b j 5 (by omega) (by show (5 : ℕ) < 9; omega) _ rfl rfl).trans ?_
    rw [bc_ab_ab1, hnegf_apply]; rfl
  · refine (cat9 _ _ b j 6 (by omega) (by show (6 : ℕ) < 9; omega) _ rfl rfl).trans ?_
    rw [bc_ab_ab1, hnegf_apply]; rfl
  · refine (cat9 _ _ b j 7 (by omega) (by show (7 : ℕ) < 9; omega) _ rfl rfl).trans ?_
    rw [bc_ab_ab1]; rfl
  · refine (cat9 _ _ b j 8 (by omega) (by show (8 : ℕ) < 9; omega) _ rfl rfl).trans ?_
    rw [bc_ab_ab1, bc0, constant_apply, Ideal.ofBits_zero_f32]; rfl

/-- an unsigned word read as an extended real -/
theorem uitofp_apply {s : Shape} {w : Nat} (x : IVec s w) (i : s.Idx) :
    (uitofp .f32 x : FVec Ideal s .f32) i = (((x i).toNat : ℝ) : EReal) := rfl

/-- the identity matrix: row index equal to column index -/
theorem s35 (V : Valuation τ sig (Elt Ideal)) :
    after ops0a V (main_v35 : DevRef τ sig) = fun y => Cert.FK.idm (y 0) (y 1) := by
  after_results_simp
  funext y
  obtain ⟨i, k, rfl⟩ : ∃ i k, y = ix2 i k := ⟨y 0, y 1, eq_ix2 y⟩
  have hb : ∀ i k : Fin 3,
      cmpi .eq (addi (iotaInDim S3x3 32 0) (broadcastInDim S3x3 ![] bcast_S_S3x3 (constantI S_ 32 0#32))) (iotaInDim S3x3 32 1) (ix2 i k)
        = if i = k then 1#1 else 0#1 := by decide
  rw [uitofp_apply, hb]
  show _ = Cert.FK.idm i k
  unfold Cert.FK.idm
  by_cases h : i = k
  · simp [h]
  · simp [h]

/-- I + sin·K -/
theorem s40 (V : Valuation τ sig (Elt Ideal)) :
    after ops0a V (main_v40 : DevRef τ sig)
      = fun y => Cert.FK.idm (y 2) (y 3) + Cert.FK.sn (W V (y 0) (y 1)) * Cert.FK.Kx (W V (y 0) (y 1)) (y 2) (y 3) := by
  have step : after ops0a V (main_v40 : DevRef τ sig)
      = addf (F := Ideal) (φ := .f32)
          (broadcastInDim S65536x24x3x3 ![0, 1, 2, 3] bcast_S1x1x3x3_S65536x24x3x3_0_1_2_3
            (broadcastInDim S1x1x3x3 ![2, 3] bcast_S3x3_S1x1x3x3_2_3 (after ops0a V (main_v35 : DevRef τ sig))))
          (mulf (F := Ideal) (φ := .f32)
            (broadcastInDim S65536x24x3x3 ![0, 1, 2, 3] bcast_S65536x24x1x1_S65536x24x3x3_0_1_2_3 (after ops0a V (main_v8 : DevRef τ sig)))
            (after ops0a V (main_v29 : DevRef τ sig))) := by
    ar_simp
    try rfl
  rw [step, s35 V, s8 V, s29 V]
  funext y
  obtain ⟨b, j, i, k, rfl⟩ : ∃ b j i k, y = ix4 b j i k := ⟨y 0, y 1, y 2, y 3, eq_ix4 y⟩
  rw [addf_apply, mulf_apply, bc_11ik_abik, bc_ik_11ik, bc_ab11_abik]
  rfl

/-- the batched 3×3 product read at an index: the sum over the contracted coordinate -/
theorem dot4 (A B : FVec Ideal S65536x24x3x3 .f32) (a : Fin 65536) (b : Fin 24) (i k : Fin 3) :
    Host.dotGeneral dot_S65536x24x3x3_S65536x24x3x3_S65536x24x3x3_3_2_2_3_01_01 none A B (ix4 a b i k)
      = ∑ l : Fin 3, A (ix4 a b i l) * B (ix4 a b l k) := by
  show FloatOps.dotGeneral _ none _ A B (ix4 a b i k) = _
  rw [Ideal.dotGeneral_apply,
    ← Equiv.sum_comp (contrEquiv1 dot_S65536x24x3x3_S65536x24x3x3_S65536x24x3x3_3_2_2_3_01_01 3 rfl rfl).symm]
  refine Finset.sum_congr rfl fun c _ => ?_
  have c3 := contrEquiv1_symm_val dot_S65536x24x3x3_S65536x24x3x3_S65536x24x3x3_3_2_2_3_01_01 3 rfl rfl c
  have l3 : (dot_S65536x24x3x3_S65536x24x3x3_S65536x24x3x3_3_2_2_3_01_01).lhsIdx (ix4 a b i k) ((contrEquiv1 _ 3 rfl rfl).symm c) = ix4 a b i c := by
    funext ax; apply Fin.ext
    match ax with
    | ⟨0, _⟩ => simp [DotDims.lhsIdx, dot_S65536x24x3x3_S65536x24x3x3_S65536x24x3x3_3_2_2_3_01_01]; try rfl
    | ⟨1, _⟩ => simp [DotDims.lhsIdx, dot_S65536x24x3x3_S65536x24x3x3_S65536x24x3x3_3_2_2_3_01_01]; try rfl
    | ⟨2, _⟩ => simp [DotDims.lhsIdx, dot_S65536x24x3x3_S65536x24x3x3_S65536x24x3x3_3_2_2_3_01_01]; try rfl
    | ⟨3, _⟩ => simp [DotDims.lhsIdx, dot_S65536x24x3x3_S65536x24x3x3_S65536x24x3x3_3_2_2_3_01_01]; exact c3
  have r3 : (dot_S65536x24x3x3_S65536x24x3x3_S65536x24x3x3_3_2_2_3_01_01).rhsIdx (ix4 a b i k) ((contrEquiv1 _ 3 rfl rfl).symm c) = ix4 a b c k := by
    funext ax; apply Fin.ext
    match ax with
    | ⟨0, _⟩ => simp [DotDims.rhsIdx, dot_S65536x24x3x3_S65536x24x3x3_S65536x24x3x3_3_2_2_3_01_01]; try rfl
    | ⟨1, _⟩ => simp [DotDims.rhsIdx, dot_S65536x24x3x3_S65536x24x3x3_S65536x24x3x3_3_2_2_3_01_01]; try rfl
    | ⟨2, _⟩ => simp [DotDims.rhsIdx, dot_S65536x24x3x3_S65536x24x3x3_S65536x24x3x3_3_2_2_3_01_01]; exact c3
    | ⟨3, _⟩ => simp [DotDims.rhsIdx, dot_S65536x24x3x3_S65536x24x3x3_S65536x24x3x3_3_2_2_3_01_01]; try rfl
  rw [l3, r3]

/-- K·K -/
theorem s43 (V : Valuation τ sig (Elt Ideal)) :
    after ops0a V (main_v43 : DevRef τ sig)
      = fun y => ∑ l : Fin 3, Cert.FK.Kx (W V (y 0) (y 1)) (y 2) l * Cert.FK.Kx (W V (y 0) (y 1)) l (y 3) := by
  have step : after ops0a V (main_v43 : DevRef τ sig)
      = Host.dotGeneral (F := Ideal) (φ₁ := .f32) (φ₂ := .f32) dot_S65536x24x3x3_S65536x24x3x3_S65536x24x3x3_3_2_2_3_01_01 none (after ops0a V (main_v29 : DevRef τ sig)) (after ops0a V (main_v29 : DevRef τ sig)) := by
    ar_simp
    try rfl
  rw [step, s29 V]
  funext y
  obtain ⟨b, j, i, k, rfl⟩ : ∃ b j i k, y = ix4 b j i k := ⟨y 0, y 1, y 2, y 3, eq_ix4 y⟩
  rw [dot4]
  rfl

/-- the rotation (I + sin·K) + (1 − cos)·(K·K) -/
theorem s46 (V : Valuation τ sig (Elt Ideal)) :
    after ops0a V (main_v46 : DevRef τ sig) = fun y => Cert.FK.rR (W V (y 0) (y 1)) (y 2) (y 3) := by
  have step : after ops0a V (main_v46 : DevRef τ sig)
      = addf (F := Ideal) (φ := .f32) (after ops0a V (main_v40 : DevRef τ sig))
          (mulf (F := Ideal) (φ := .f32)
            (broadcastInDim S65536x24x3x3 ![0, 1, 2, 3] bcast_S65536x24x1x1_S65536x24x3x3_0_1_2_3 (after ops0a V (main_v42 : DevRef τ sig)))
            (after ops0a V (main_v43 : DevRef τ sig))) := by
    ar_simp
    try rfl
  rw [step, s40 V, s42 V, s43 V]
  funext y
  obtain ⟨b, j, i, k, rfl⟩ : ∃ b j i k, y = ix4 b j i k := ⟨y 0, y 1, y 2, y 3, eq_ix4 y⟩
  rw [addf_apply, mulf_apply, bc_ab11_abik]
  rfl

/-- the rotation with the offset as a fourth column -/
theorem s49 (V : Valuation τ sig (Elt Ideal)) :
    after ops0a V (main_v49 : DevRef τ sig)
      = fun y => if hk : (y 3).val < 3 then Cert.FK.rR (W V (y 0) (y 1)) (y 2) ⟨(y 3).val, hk⟩ else A0 V (ix2 (y 1) (y 2)) := by
  have step : after ops0a V (main_v49 : DevRef τ sig)
      = concatenate S65536x24x3x4 3
          [⟨S65536x24x3x3, after ops0a V (main_v46 : DevRef τ sig)⟩,
           ⟨S65536x24x3x1, broadcastInDim S65536x24x3x1 ![0, 1, 2, 3] bcast_S1x24x3x1_S65536x24x3x1_0_1_2_3
              (broadcastInDim S1x24x3x1 ![1, 2] bcast_S24x3_S1x24x3x1_1_2 (A0 V))⟩]
          concatenates_S65536x24x3x3_S65536x24x3x1_S65536x24x3x4_d3 := by
    ar_simp
    try rfl
  rw [step, s46 V]
  funext y
  obtain ⟨b, j, i, c, rfl⟩ : ∃ b j i c, y = ix4 b j i c := ⟨y 0, y 1, y 2, y 3, eq_ix4 y⟩
  show _ = if hk : c.val < 3 then Cert.FK.rR (W V b j) i ⟨c.val, hk⟩ else A0 V (ix2 j i)
  by_cases hc : c.val < 3
  · rw [dif_pos hc]
    exact concatenate_pair_apply_left (t := S65536x24x3x4) (s₁ := S65536x24x3x3) (s₂ := S65536x24x3x1) 3 _ _ _ (ix4 b j i c) rfl (ix4 b j i (⟨c.val, hc⟩ : Fin 3))
      (fun ax => match ax with | ⟨0, _⟩ => rfl | ⟨1, _⟩ => rfl | ⟨2, _⟩ => rfl | ⟨3, _⟩ => rfl)
  · rw [dif_neg hc]
    refine (concatenate_pair_apply_right (t := S65536x24x3x4) (s₁ := S65536x24x3x3) (s₂ := S65536x24x3x1) 3 _ _ _ (ix4 b j i c) rfl rfl (ix4 b j i (0 : Fin 1))
      (fun ax => match ax with
        | ⟨0, _⟩ => fun _ => rfl
        | ⟨1, _⟩ => fun _ => rfl
        | ⟨2, _⟩ => fun _ => rfl
        | ⟨3, _⟩ => fun hne => absurd (Fin.ext rfl) hne)
      (by show 0 + 3 = c.val; omega)).trans ?_
    rw [bc_1jk1_bjk1, bc_jk_1jk1]

/-- the constant bottom row -/
theorem scst (V : Valuation τ sig (Elt Ideal)) :
    after ops0a V (main_cst : DevRef τ sig) = fun y => Cert.FK.lastRow (y 0) := by
  after_results_simp
  funext y
  obtain ⟨c, rfl⟩ : ∃ c, y = ix1 c := ⟨y 0, eq_ix1 y⟩
  fin_cases c
  · exact Ideal.ofBits_zero_f32
  · exact Ideal.ofBits_zero_f32
  · exact Ideal.ofBits_zero_f32
  · rfl

/-- the stacked 4×4 matrices -/
theorem s51 (V : Valuation τ sig (Elt Ideal)) :
    after ops0a V (main_v51 : DevRef τ sig)
      = fun y => Cert.FK.st (Cert.FK.rR (W V (y 0) (y 1))) (fun k => A0 V (ix2 (y 1) k)) (y 2) (y 3) := by
  have step : after ops0a V (main_v51 : DevRef τ sig)
      = concatenate S65536x24x4x4 2
          [⟨S65536x24x3x4, after ops0a V (main_v49 : DevRef τ sig)⟩,
           ⟨S65536x24x1x4, broadcastInDim S65536x24x1x4 ![3] bcast_S4_S65536x24x1x4_3 (after ops0a V (main_cst : DevRef τ sig))⟩]
          concatenates_S65536x24x3x4_S65536x24x1x4_S65536x24x4x4_d2 := by
    ar_simp
    try rfl
  rw [step, s49 V, scst V]
  funext y
  obtain ⟨b, j, i, c, rfl⟩ : ∃ b j i c, y = ix4 b j i c := ⟨y 0, y 1, y 2, y 3, eq_ix4 y⟩
  show _ = Cert.FK.st (Cert.FK.rR (W V b j)) (fun k => A0 V (ix2 j k)) i c
  unfold Cert.FK.st
  by_cases hi : i.val < 3
  · rw [dif_pos hi]
    exact concatenate_pair_apply_left (t := S65536x24x4x4) (s₁ := S65536x24x3x4) (s₂ := S65536x24x1x4) 2 _ _ _ (ix4 b j i c) rfl (ix4 b j (⟨i.val, hi⟩ : Fin 3) c)
      (fun ax => match ax with | ⟨0, _⟩ => rfl | ⟨1, _⟩ => rfl | ⟨2, _⟩ => rfl | ⟨3, _⟩ => rfl)
  · rw [dif_neg hi]
    refine (concatenate_pair_apply_right (t := S65536x24x4x4) (s₁ := S65536x24x3x4) (s₂ := S65536x24x1x4) 2 _ _ _ (ix4 b j i c) rfl rfl (ix4 b j (0 : Fin 1) c)
      (fun ax => match ax with
        | ⟨0, _⟩ => fun _ => rfl
        | ⟨1, _⟩ => fun _ => rfl
        | ⟨2, _⟩ => fun hne => absurd (Fin.ext rfl) hne
        | ⟨3, _⟩ => fun _ => rfl)
      (by show 0 + 3 = i.val; omega)).trans ?_
    rw [bc_c_ab1c]
    rfl

/-! ## The statements the assembly uses -/

/-- after the first 61 operations the stacked per-joint matrices are [[R, o], [0,0,0,1]] of each lane's and joint's axis-angle vector -/
theorem v51_eq (V : Valuation τ sig (Elt Ideal)) :
    after ops0a V (main_v51 : DevRef τ sig)
      = fun y => Cert.FK.st (Cert.FK.rR (fun k => V (main_arg1 : DevRef τ sig) (ix3 (y 0) (y 1) k))) (fun k => V (main_arg0 : DevRef τ sig) (ix2 (y 1) k)) (y 2) (y 3) :=
  s51 V

/-- the first 61 operations write none of the three argument arrays -/
theorem keep_arg0 (V : Valuation τ sig (Elt Ideal)) : after ops0a V (main_arg0 : DevRef τ sig) = V (main_arg0 : DevRef τ sig) := by
  after_results_simp
theorem keep_arg1 (V : Valuation τ sig (Elt Ideal)) : after ops0a V (main_arg1 : DevRef τ sig) = V (main_arg1 : DevRef τ sig) := by
  after_results_simp
theorem keep_arg2 (V : Valuation τ sig (Elt Ideal)) : after ops0a V (main_arg2 : DevRef τ sig) = V (main_arg2 : DevRef τ sig) := by
  after_results_simp

end Cert.ReferenceIdeal.RefReadA
end
-- ==== Proof.RefReadB.lean ====
/-
  The products down the tree, read off the reference's operations: joint 0's slice of the stacked matrices, then for each
  joint j = 1 … 23 the slice of joint j, its reshape, and the batched 4×4 product of the parent's result with it.
-/
import proofs.«160816_j62156766707902_1_alg».proof.Proof.RefOps
import proofs.«160816_j62156766707902_1_alg».proof.Proof.Spec
import Idealize.ShloMosaic.Lib.ValueLayout
import Idealize.ShloMosaic.Lib.StackMember
import Idealize.ShloMosaic.Lib.Pipeline.Frame

noncomputable section

namespace Cert.ReferenceIdeal.RefReadB

open Cert.ReferenceIdeal Cert.ReferenceIdeal.Gen Cert.ReferenceIdeal.RefOps Idealize.ShloMosaic Idealize.ShloMosaic.TcCoe Idealize.SL.Sem Idealize.ShloMosaic.StableHlo Idealize.ShloMosaic.ValueIdx

/-- Operations 62 to 132: the 24 products down the tree. -/
abbrev opsB : List (HloOp τ sig (Elt Ideal)) := ops0b ++ ops1 ++ ops2a

/-- A run of two lists of operations is the second's run after the first's. -/
theorem after_app (l₁ l₂ : List (HloOp τ sig (Elt Ideal))) (V : Valuation τ sig (Elt Ideal)) : after (l₁ ++ l₂) V = after l₂ (after l₁ V) :=
  StableHlo.after_append l₁ l₂ V

/-! ## The operations, joint by joint -/

/-- Joint 0: its slice of the stacked matrices, reshaped. -/
abbrev t0 : List (HloOp τ sig (Elt Ideal)) :=
  [ StableHlo.unary main_v51 main_v52 ((extractStridedSlice S65536x1x4x4 ![0, 0, 0, 0] · slices_S65536x24x4x4_S65536x1x4x4_0_0_0_0) : (⟨S65536x24x4x4, .f32⟩ : BufTy).Contents (Elt Ideal) → (⟨S65536x1x4x4, .f32⟩ : BufTy).Contents (Elt Ideal)),
    StableHlo.reshape main_v52 main_v53 rfl shapeCasts_S65536x1x4x4_S65536x4x4 ]
/-- Joint 1: its slice, the reshape, and the product of joint 0's result with it. -/
abbrev t1 : List (HloOp τ sig (Elt Ideal)) :=
  [ StableHlo.unary main_v51 main_v54 ((extractStridedSlice S65536x1x4x4 ![0, 1, 0, 0] · slices_S65536x24x4x4_S65536x1x4x4_0_1_0_0) : (⟨S65536x24x4x4, .f32⟩ : BufTy).Contents (Elt Ideal) → (⟨S65536x1x4x4, .f32⟩ : BufTy).Contents (Elt Ideal)),
    StableHlo.reshape main_v54 main_v55 rfl shapeCasts_S65536x1x4x4_S65536x4x4,
    StableHlo.binary main_v53 main_v55 main_v56 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 2: its slice, the reshape, and the product of joint 0's result with it. -/
abbrev t2 : List (HloOp τ sig (Elt Ideal)) :=
  [ StableHlo.unary main_v51 main_v57 ((extractStridedSlice S65536x1x4x4 ![0, 2, 0, 0] · slices_S65536x24x4x4_S65536x1x4x4_0_2_0_0) : (⟨S65536x24x4x4, .f32⟩ : BufTy).Contents (Elt Ideal) → (⟨S65536x1x4x4, .f32⟩ : BufTy).Contents (Elt Ideal)),
    StableHlo.reshape main_v57 main_v58 rfl shapeCasts_S65536x1x4x4_S65536x4x4,
    StableHlo.binary main_v53 main_v58 main_v59 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 3: its slice, the reshape, and the product of joint 0's result with it. -/
abbrev t3 : List (HloOp τ sig (Elt Ideal)) :=
  [ StableHlo.unary main_v51 main_v60 ((extractStridedSlice S65536x1x4x4 ![0, 3, 0, 0] · slices_S65536x24x4x4_S65536x1x4x4_0_3_0_0) : (⟨S65536x24x4x4, .f32⟩ : BufTy).Contents (Elt Ideal) → (⟨S65536x1x4x4, .f32⟩ : BufTy).Contents (Elt Ideal)),
    StableHlo.reshape main_v60 main_v61 rfl shapeCasts_S65536x1x4x4_S65536x4x4,
    StableHlo.binary main_v53 main_v61 main_v62 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 4: its slice, the reshape, and the product of joint 1's result with it. -/
abbrev t4 : List (HloOp τ sig (Elt Ideal)) :=
  [ StableHlo.unary main_v51 main_v63 ((extractStridedSlice S65536x1x4x4 ![0, 4, 0, 0] · slices_S65536x24x4x4_S65536x1x4x4_0_4_0_0) : (⟨S65536x24x4x4, .f32⟩ : BufTy).Contents (Elt Ideal) → (⟨S65536x1x4x4, .f32⟩ : BufTy).Contents (Elt Ideal)),
    StableHlo.reshape main_v63 main_v64 rfl shapeCasts_S65536x1x4x4_S65536x4x4,
    StableHlo.binary main_v56 main_v64 main_v65 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 5: its slice, the reshape, and the product of joint 2's result with it. -/
abbrev t5 : List (HloOp τ sig (Elt Ideal)) :=
  [ StableHlo.unary main_v51 main_v66 ((extractStridedSlice S65536x1x4x4 ![0, 5, 0, 0] · slices_S65536x24x4x4_S65536x1x4x4_0_5_0_0) : (⟨S65536x24x4x4, .f32⟩ : BufTy).Contents (Elt Ideal) → (⟨S65536x1x4x4, .f32⟩ : BufTy).Contents (Elt Ideal)),
    StableHlo.reshape main_v66 main_v67 rfl shapeCasts_S65536x1x4x4_S65536x4x4,
    StableHlo.binary main_v59 main_v67 main_v68 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 6: its slice, the reshape, and the product of joint 3's result with it. -/
abbrev t6 : List (HloOp τ sig (Elt Ideal)) :=
  [ StableHlo.unary main_v51 main_v69 ((extractStridedSlice S65536x1x4x4 ![0, 6, 0, 0] · slices_S65536x24x4x4_S65536x1x4x4_0_6_0_0) : (⟨S65536x24x4x4, .f32⟩ : BufTy).Contents (Elt Ideal) → (⟨S65536x1x4x4, .f32⟩ : BufTy).Contents (Elt Ideal)),
    StableHlo.reshape main_v69 main_v70 rfl shapeCasts_S65536x1x4x4_S65536x4x4,
    StableHlo.binary main_v62 main_v70 main_v71 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 7: its slice, the reshape, and the product of joint 4's result with it. -/
abbrev t7 : List (HloOp τ sig (Elt Ideal)) :=
  [ StableHlo.unary main_v51 main_v72 ((extractStridedSlice S65536x1x4x4 ![0, 7, 0, 0] · slices_S65536x24x4x4_S65536x1x4x4_0_7_0_0) : (⟨S65536x24x4x4, .f32⟩ : BufTy).Contents (Elt Ideal) → (⟨S65536x1x4x4, .f32⟩ : BufTy).Contents (Elt Ideal)),
    StableHlo.reshape main_v72 main_v73 rfl shapeCasts_S65536x1x4x4_S65536x4x4,
    StableHlo.binary main_v65 main_v73 main_v74 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 8: its slice, the reshape, and the product of joint 5's result with it. -/
abbrev t8 : List (HloOp τ sig (Elt Ideal)) :=
  [ StableHlo.unary main_v51 main_v75 ((extractStridedSlice S65536x1x4x4 ![0, 8, 0, 0] · slices_S65536x24x4x4_S65536x1x4x4_0_8_0_0) : (⟨S65536x24x4x4, .f32⟩ : BufTy).Contents (Elt Ideal) → (⟨S65536x1x4x4, .f32⟩ : BufTy).Contents (Elt Ideal)),
    StableHlo.reshape main_v75 main_v76 rfl shapeCasts_S65536x1x4x4_S65536x4x4,
    StableHlo.binary main_v68 main_v76 main_v77 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 9: its slice, the reshape, and the product of joint 6's result with it. -/
abbrev t9 : List (HloOp τ sig (Elt Ideal)) :=
  [ StableHlo.unary main_v51 main_v78 ((extractStridedSlice S65536x1x4x4 ![0, 9, 0, 0] · slices_S65536x24x4x4_S65536x1x4x4_0_9_0_0) : (⟨S65536x24x4x4, .f32⟩ : BufTy).Contents (Elt Ideal) → (⟨S65536x1x4x4, .f32⟩ : BufTy).Contents (Elt Ideal)),
    StableHlo.reshape main_v78 main_v79 rfl shapeCasts_S65536x1x4x4_S65536x4x4,
    StableHlo.binary main_v71 main_v79 main_v80 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 10: its slice, the reshape, and the product of joint 7's result with it. -/
abbrev t10 : List (HloOp τ sig (Elt Ideal)) :=
  [ StableHlo.unary main_v51 main_v81 ((extractStridedSlice S65536x1x4x4 ![0, 10, 0, 0] · slices_S65536x24x4x4_S65536x1x4x4_0_10_0_0) : (⟨S65536x24x4x4, .f32⟩ : BufTy).Contents (Elt Ideal) → (⟨S65536x1x4x4, .f32⟩ : BufTy).Contents (Elt Ideal)),
    StableHlo.reshape main_v81 main_v82 rfl shapeCasts_S65536x1x4x4_S65536x4x4,
    StableHlo.binary main_v74 main_v82 main_v83 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 11: its slice, the reshape, and the product of joint 8's result with it. -/
abbrev t11 : List (HloOp τ sig (Elt Ideal)) :=
  [ StableHlo.unary main_v51 main_v84 ((extractStridedSlice S65536x1x4x4 ![0, 11, 0, 0] · slices_S65536x24x4x4_S65536x1x4x4_0_11_0_0) : (⟨S65536x24x4x4, .f32⟩ : BufTy).Contents (Elt Ideal) → (⟨S65536x1x4x4, .f32⟩ : BufTy).Contents (Elt Ideal)),
    StableHlo.reshape main_v84 main_v85 rfl shapeCasts_S65536x1x4x4_S65536x4x4,
    StableHlo.binary main_v77 main_v85 main_v86 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 12: its slice, the reshape, and the product of joint 9's result with it. -/
abbrev t12 : List (HloOp τ sig (Elt Ideal)) :=
  [ StableHlo.unary main_v51 main_v87 ((extractStridedSlice S65536x1x4x4 ![0, 12, 0, 0] · slices_S65536x24x4x4_S65536x1x4x4_0_12_0_0) : (⟨S65536x24x4x4, .f32⟩ : BufTy).Contents (Elt Ideal) → (⟨S65536x1x4x4, .f32⟩ : BufTy).Contents (Elt Ideal)),
    StableHlo.reshape main_v87 main_v88 rfl shapeCasts_S65536x1x4x4_S65536x4x4,
    StableHlo.binary main_v80 main_v88 main_v89 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 13: its slice, the reshape, and the product of joint 9's result with it. -/
abbrev t13 : List (HloOp τ sig (Elt Ideal)) :=
  [ StableHlo.unary main_v51 main_v90 ((extractStridedSlice S65536x1x4x4 ![0, 13, 0, 0] · slices_S65536x24x4x4_S65536x1x4x4_0_13_0_0) : (⟨S65536x24x4x4, .f32⟩ : BufTy).Contents (Elt Ideal) → (⟨S65536x1x4x4, .f32⟩ : BufTy).Contents (Elt Ideal)),
    StableHlo.reshape main_v90 main_v91 rfl shapeCasts_S65536x1x4x4_S65536x4x4,
    StableHlo.binary main_v80 main_v91 main_v92 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 14: its slice, the reshape, and the product of joint 9's result with it. -/
abbrev t14 : List (HloOp τ sig (Elt Ideal)) :=
  [ StableHlo.unary main_v51 main_v93 ((extractStridedSlice S65536x1x4x4 ![0, 14, 0, 0] · slices_S65536x24x4x4_S65536x1x4x4_0_14_0_0) : (⟨S65536x24x4x4, .f32⟩ : BufTy).Contents (Elt Ideal) → (⟨S65536x1x4x4, .f32⟩ : BufTy).Contents (Elt Ideal)),
    StableHlo.reshape main_v93 main_v94 rfl shapeCasts_S65536x1x4x4_S65536x4x4,
    StableHlo.binary main_v80 main_v94 main_v95 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 15: its slice, the reshape, and the product of joint 12's result with it. -/
abbrev t15 : List (HloOp τ sig (Elt Ideal)) :=
  [ StableHlo.unary main_v51 main_v96 ((extractStridedSlice S65536x1x4x4 ![0, 15, 0, 0] · slices_S65536x24x4x4_S65536x1x4x4_0_15_0_0) : (⟨S65536x24x4x4, .f32⟩ : BufTy).Contents (Elt Ideal) → (⟨S65536x1x4x4, .f32⟩ : BufTy).Contents (Elt Ideal)),
    StableHlo.reshape main_v96 main_v97 rfl shapeCasts_S65536x1x4x4_S65536x4x4,
    StableHlo.binary main_v89 main_v97 main_v98 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 16: its slice, the reshape, and the product of joint 13's result with it. -/
abbrev t16 : List (HloOp τ sig (Elt Ideal)) :=
  [ StableHlo.unary main_v51 main_v99 ((extractStridedSlice S65536x1x4x4 ![0, 16, 0, 0] · slices_S65536x24x4x4_S65536x1x4x4_0_16_0_0) : (⟨S65536x24x4x4, .f32⟩ : BufTy).Contents (Elt Ideal) → (⟨S65536x1x4x4, .f32⟩ : BufTy).Contents (Elt Ideal)),
    StableHlo.reshape main_v99 main_v100 rfl shapeCasts_S65536x1x4x4_S65536x4x4,
    StableHlo.binary main_v92 main_v100 main_v101 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 17: its slice, the reshape, and the product of joint 14's result with it. -/
abbrev t17 : List (HloOp τ sig (Elt Ideal)) :=
  [ StableHlo.unary main_v51 main_v102 ((extractStridedSlice S65536x1x4x4 ![0, 17, 0, 0] · slices_S65536x24x4x4_S65536x1x4x4_0_17_0_0) : (⟨S65536x24x4x4, .f32⟩ : BufTy).Contents (Elt Ideal) → (⟨S65536x1x4x4, .f32⟩ : BufTy).Contents (Elt Ideal)),
    StableHlo.reshape main_v102 main_v103 rfl shapeCasts_S65536x1x4x4_S65536x4x4,
    StableHlo.binary main_v95 main_v103 main_v104 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 18: its slice, the reshape, and the product of joint 16's result with it. -/
abbrev t18 : List (HloOp τ sig (Elt Ideal)) :=
  [ StableHlo.unary main_v51 main_v105 ((extractStridedSlice S65536x1x4x4 ![0, 18, 0, 0] · slices_S65536x24x4x4_S65536x1x4x4_0_18_0_0) : (⟨S65536x24x4x4, .f32⟩ : BufTy).Contents (Elt Ideal) → (⟨S65536x1x4x4, .f32⟩ : BufTy).Contents (Elt Ideal)),
    StableHlo.reshape main_v105 main_v106 rfl shapeCasts_S65536x1x4x4_S65536x4x4,
    StableHlo.binary main_v101 main_v106 main_v107 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 19: its slice, the reshape, and the product of joint 17's result with it. -/
abbrev t19 : List (HloOp τ sig (Elt Ideal)) :=
  [ StableHlo.unary main_v51 main_v108 ((extractStridedSlice S65536x1x4x4 ![0, 19, 0, 0] · slices_S65536x24x4x4_S65536x1x4x4_0_19_0_0) : (⟨S65536x24x4x4, .f32⟩ : BufTy).Contents (Elt Ideal) → (⟨S65536x1x4x4, .f32⟩ : BufTy).Contents (Elt Ideal)),
    StableHlo.reshape main_v108 main_v109 rfl shapeCasts_S65536x1x4x4_S65536x4x4,
    StableHlo.binary main_v104 main_v109 main_v110 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 20: its slice, the reshape, and the product of joint 18's result with it. -/
abbrev t20 : List (HloOp τ sig (Elt Ideal)) :=
  [ StableHlo.unary main_v51 main_v111 ((extractStridedSlice S65536x1x4x4 ![0, 20, 0, 0] · slices_S65536x24x4x4_S65536x1x4x4_0_20_0_0) : (⟨S65536x24x4x4, .f32⟩ : BufTy).Contents (Elt Ideal) → (⟨S65536x1x4x4, .f32⟩ : BufTy).Contents (Elt Ideal)),
    StableHlo.reshape main_v111 main_v112 rfl shapeCasts_S65536x1x4x4_S65536x4x4,
    StableHlo.binary main_v107 main_v112 main_v113 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 21: its slice, the reshape, and the product of joint 19's result with it. -/
abbrev t21 : List (HloOp τ sig (Elt Ideal)) :=
  [ StableHlo.unary main_v51 main_v114 ((extractStridedSlice S65536x1x4x4 ![0, 21, 0, 0] · slices_S65536x24x4x4_S65536x1x4x4_0_21_0_0) : (⟨S65536x24x4x4, .f32⟩ : BufTy).Contents (Elt Ideal) → (⟨S65536x1x4x4, .f32⟩ : BufTy).Contents (Elt Ideal)),
    StableHlo.reshape main_v114 main_v115 rfl shapeCasts_S65536x1x4x4_S65536x4x4,
    StableHlo.binary main_v110 main_v115 main_v116 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 22: its slice, the reshape, and the product of joint 20's result with it. -/
abbrev t22 : List (HloOp τ sig (Elt Ideal)) :=
  [ StableHlo.unary main_v51 main_v117 ((extractStridedSlice S65536x1x4x4 ![0, 22, 0, 0] · slices_S65536x24x4x4_S65536x1x4x4_0_22_0_0) : (⟨S65536x24x4x4, .f32⟩ : BufTy).Contents (Elt Ideal) → (⟨S65536x1x4x4, .f32⟩ : BufTy).Contents (Elt Ideal)),
    StableHlo.reshape main_v117 main_v118 rfl shapeCasts_S65536x1x4x4_S65536x4x4,
    StableHlo.binary main_v113 main_v118 main_v119 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]
/-- Joint 23: its slice, the reshape, and the product of joint 21's result with it. -/
abbrev t23 : List (HloOp τ sig (Elt Ideal)) :=
  [ StableHlo.unary main_v51 main_v120 ((extractStridedSlice S65536x1x4x4 ![0, 23, 0, 0] · slices_S65536x24x4x4_S65536x1x4x4_0_23_0_0) : (⟨S65536x24x4x4, .f32⟩ : BufTy).Contents (Elt Ideal) → (⟨S65536x1x4x4, .f32⟩ : BufTy).Contents (Elt Ideal)),
    StableHlo.reshape main_v120 main_v121 rfl shapeCasts_S65536x1x4x4_S65536x4x4,
    StableHlo.binary main_v116 main_v121 main_v122 ((fun l r => Host.dotGeneral (F := Ideal) (φ₁ := .f32) (φ₂ := .f32) dot_S65536x4x4_S65536x4x4_S65536x4x4_2_1_1_2_0_0 none l r) : (⟨S65536x4x4, .f32⟩ : BufTy).Contents (Elt Ideal) → (⟨S65536x4x4, .f32⟩ : BufTy).Contents (Elt Ideal) → (⟨S65536x4x4, .f32⟩ : BufTy).Contents (Elt Ideal)) ]

theorem opsB_split : opsB = t0 ++ (t1 ++ (t2 ++ (t3 ++ (t4 ++ (t5 ++ (t6 ++ (t7 ++ (t8 ++ (t9 ++ (t10 ++ (t11 ++ (t12 ++ (t13 ++ (t14 ++ (t15 ++ (t16 ++ (t17 ++ (t18 ++ (t19 ++ (t20 ++ (t21 ++ (t22 ++ (t23))))))))))))))))))))))) := rfl

/-- The step of the tree on values: the parent's product `A` times joint `j`'s matrix, batch lane by batch lane. -/
def stepF (A : S65536x4x4.Idx → EReal) (X : S65536x24x4x4.Idx → EReal) (j : Fin 24) : S65536x4x4.Idx → EReal :=
  fun y => ∑ l : Fin 4, A (ix3 (y 0) (y 1) l) * X (ix4 (y 0) j l (y 2))

/-- One step at the level of values: the batched product of a stack of 4×4 matrices with joint o's slice of the stacked
    per-joint matrices is, entry by entry, the sum over the contracted coordinate. -/
theorem step_val (o : Nat) (jj : Fin 24) (ho : jj.val = o)
    (h : S65536x24x4x4.Slices ![0, o, 0, 0] S65536x1x4x4)
    (A : S65536x4x4.Idx → EReal) (X : S65536x24x4x4.Idx → EReal) (b : Fin 65536) (i k : Fin 4) :
    Host.dotGeneral (F := Ideal) (φ₁ := .f32) (φ₂ := .f32) dot_S65536x4x4_S65536x4x4_S65536x4x4_2_1_1_2_0_0 none A
      (shapeCast S65536x4x4 (extractStridedSlice S65536x1x4x4 ![0, o, 0, 0] X h) shapeCasts_S65536x1x4x4_S65536x4x4) (ix3 b i k)
    = ∑ l : Fin 4, A (ix3 b i l) * X (ix4 b jj l k) := by
  have hd := StackMember.dotGeneral_stack_apply (G := 65536) (m := 4) (n := 4) (k := 4) (φ₁ := .f32) (φ₂ := .f32)
    dot_S65536x4x4_S65536x4x4_S65536x4x4_2_1_1_2_0_0_wf none A
    (shapeCast S65536x4x4 (extractStridedSlice S65536x1x4x4 ![0, o, 0, 0] X h) shapeCasts_S65536x1x4x4_S65536x4x4) b i k
  refine hd.trans (Finset.sum_congr rfl fun l _ => ?_)
  congr 1
  have e1 := shapeCast_apply (extractStridedSlice S65536x1x4x4 ![0, o, 0, 0] X h) shapeCasts_S65536x1x4x4_S65536x4x4
    (ix3 b l k) (ix4 b (0 : Fin 1) l k) (by
      rw [Shape.rowMajor_val_four, Shape.rowMajor_val_three]
      show ((b.val * 1 + 0) * 4 + l.val) * 4 + k.val = (b.val * 4 + l.val) * 4 + k.val
      omega)
  refine e1.trans ?_
  exact slice4_axis1_apply o X h b (0 : Fin 1) l k jj (by rw [ho]; rfl)

/-- The root's step on values: joint 0's slice of the stacked matrices, reshaped. -/
theorem root_val (h : S65536x24x4x4.Slices ![0, 0, 0, 0] S65536x1x4x4) (X : S65536x24x4x4.Idx → EReal) (b : Fin 65536) (i k : Fin 4) :
    shapeCast S65536x4x4 (extractStridedSlice S65536x1x4x4 ![0, 0, 0, 0] X h) shapeCasts_S65536x1x4x4_S65536x4x4 (ix3 b i k)
      = X (ix4 b (0 : Fin 24) i k) := by
  have e1 := shapeCast_apply (extractStridedSlice S65536x1x4x4 ![0, 0, 0, 0] X h) shapeCasts_S65536x1x4x4_S65536x4x4
    (ix3 b i k) (ix4 b (0 : Fin 1) i k) (by
      rw [Shape.rowMajor_val_four, Shape.rowMajor_val_three]
      show ((b.val * 1 + 0) * 4 + i.val) * 4 + k.val = (b.val * 4 + i.val) * 4 + k.val
      omega)
  refine e1.trans ?_
  exact slice4_axis1_apply 0 X h b (0 : Fin 1) i k (0 : Fin 24) rfl

/-! ## What each joint's operations write, and what they leave -/

theorem t0_out (W : Valuation τ sig (Elt Ideal)) :
    after t0 W (main_v53 : DevRef τ sig) = fun y => W (main_v51 : DevRef τ sig) (ix4 (y 0) (0 : Fin 24) (y 1) (y 2)) := by
  after_results
  funext y
  obtain ⟨b, i, k, rfl⟩ : ∃ (b : Fin 65536) (i k : Fin 4), y = ix3 b i k := ⟨y 0, y 1, y 2, eq_ix3 y⟩
  exact root_val _ _ b i k
theorem t0_keep (W : Valuation τ sig (Elt Ideal)) (r : Ref sig .tc) (h1 : r ≠ main_v52) (h2 : r ≠ main_v53) :
    after t0 W (Proc.devRef .tc r) = W (Proc.devRef .tc r) := by
  simp only [after_cons, after_nil]
  rw [reshape_result_ne (h := h2), unary_result_ne (h := h1)]
theorem t1_out (W : Valuation τ sig (Elt Ideal)) :
    after t1 W (main_v56 : DevRef τ sig) = stepF (W (main_v53 : DevRef τ sig)) (W (main_v51 : DevRef τ sig)) 1 := by
  after_results
  funext y
  obtain ⟨b, i, k, rfl⟩ : ∃ (b : Fin 65536) (i k : Fin 4), y = ix3 b i k := ⟨y 0, y 1, y 2, eq_ix3 y⟩
  exact step_val 1 1 rfl _ _ _ b i k
theorem t1_keep (W : Valuation τ sig (Elt Ideal)) (r : Ref sig .tc) (h1 : r ≠ main_v54) (h2 : r ≠ main_v55) (h3 : r ≠ main_v56) :
    after t1 W (Proc.devRef .tc r) = W (Proc.devRef .tc r) := by
  simp only [after_cons, after_nil]
  rw [binary_result_ne (h := h3), reshape_result_ne (h := h2), unary_result_ne (h := h1)]
theorem t2_out (W : Valuation τ sig (Elt Ideal)) :
    after t2 W (main_v59 : DevRef τ sig) = stepF (W (main_v53 : DevRef τ sig)) (W (main_v51 : DevRef τ sig)) 2 := by
  after_results
  funext y
  obtain ⟨b, i, k, rfl⟩ : ∃ (b : Fin 65536) (i k : Fin 4), y = ix3 b i k := ⟨y 0, y 1, y 2, eq_ix3 y⟩
  exact step_val 2 2 rfl _ _ _ b i k
theorem t2_keep (W : Valuation τ sig (Elt Ideal)) (r : Ref sig .tc) (h1 : r ≠ main_v57) (h2 : r ≠ main_v58) (h3 : r ≠ main_v59) :
    after t2 W (Proc.devRef .tc r) = W (Proc.devRef .tc r) := by
  simp only [after_cons, after_nil]
  rw [binary_result_ne (h := h3), reshape_result_ne (h := h2), unary_result_ne (h := h1)]
theorem t3_out (W : Valuation τ sig (Elt Ideal)) :
    after t3 W (main_v62 : DevRef τ sig) = stepF (W (main_v53 : DevRef τ sig)) (W (main_v51 : DevRef τ sig)) 3 := by
  after_results
  funext y
  obtain ⟨b, i, k, rfl⟩ : ∃ (b : Fin 65536) (i k : Fin 4), y = ix3 b i k := ⟨y 0, y 1, y 2, eq_ix3 y⟩
  exact step_val 3 3 rfl _ _ _ b i k
theorem t3_keep (W : Valuation τ sig (Elt Ideal)) (r : Ref sig .tc) (h1 : r ≠ main_v60) (h2 : r ≠ main_v61) (h3 : r ≠ main_v62) :
    after t3 W (Proc.devRef .tc r) = W (Proc.devRef .tc r) := by
  simp only [after_cons, after_nil]
  rw [binary_result_ne (h := h3), reshape_result_ne (h := h2), unary_result_ne (h := h1)]
theorem t4_out (W : Valuation τ sig (Elt Ideal)) :
    after t4 W (main_v65 : DevRef τ sig) = stepF (W (main_v56 : DevRef τ sig)) (W (main_v51 : DevRef τ sig)) 4 := by
  after_results
  funext y
  obtain ⟨b, i, k, rfl⟩ : ∃ (b : Fin 65536) (i k : Fin 4), y = ix3 b i k := ⟨y 0, y 1, y 2, eq_ix3 y⟩
  exact step_val 4 4 rfl _ _ _ b i k
theorem t4_keep (W : Valuation τ sig (Elt Ideal)) (r : Ref sig .tc) (h1 : r ≠ main_v63) (h2 : r ≠ main_v64) (h3 : r ≠ main_v65) :
    after t4 W (Proc.devRef .tc r) = W (Proc.devRef .tc r) := by
  simp only [after_cons, after_nil]
  rw [binary_result_ne (h := h3), reshape_result_ne (h := h2), unary_result_ne (h := h1)]
theorem t5_out (W : Valuation τ sig (Elt Ideal)) :
    after t5 W (main_v68 : DevRef τ sig) = stepF (W (main_v59 : DevRef τ sig)) (W (main_v51 : DevRef τ sig)) 5 := by
  after_results
  funext y
  obtain ⟨b, i, k, rfl⟩ : ∃ (b : Fin 65536) (i k : Fin 4), y = ix3 b i k := ⟨y 0, y 1, y 2, eq_ix3 y⟩
  exact step_val 5 5 rfl _ _ _ b i k
theorem t5_keep (W : Valuation τ sig (Elt Ideal)) (r : Ref sig .tc) (h1 : r ≠ main_v66) (h2 : r ≠ main_v67) (h3 : r ≠ main_v68) :
    after t5 W (Proc.devRef .tc r) = W (Proc.devRef .tc r) := by
  simp only [after_cons, after_nil]
  rw [binary_result_ne (h := h3), reshape_result_ne (h := h2), unary_result_ne (h := h1)]
theorem t6_out (W : Valuation τ sig (Elt Ideal)) :
    after t6 W (main_v71 : DevRef τ sig) = stepF (W (main_v62 : DevRef τ sig)) (W (main_v51 : DevRef τ sig)) 6 := by
  after_results
  funext y
  obtain ⟨b, i, k, rfl⟩ : ∃ (b : Fin 65536) (i k : Fin 4), y = ix3 b i k := ⟨y 0, y 1, y 2, eq_ix3 y⟩
  exact step_val 6 6 rfl _ _ _ b i k
theorem t6_keep (W : Valuation τ sig (Elt Ideal)) (r : Ref sig .tc) (h1 : r ≠ main_v69) (h2 : r ≠ main_v70) (h3 : r ≠ main_v71) :
    after t6 W (Proc.devRef .tc r) = W (Proc.devRef .tc r) := by
  simp only [after_cons, after_nil]
  rw [binary_result_ne (h := h3), reshape_result_ne (h := h2), unary_result_ne (h := h1)]
theorem t7_out (W : Valuation τ sig (Elt Ideal)) :
    after t7 W (main_v74 : DevRef τ sig) = stepF (W (main_v65 : DevRef τ sig)) (W (main_v51 : DevRef τ sig)) 7 := by
  after_results
  funext y
  obtain ⟨b, i, k, rfl⟩ : ∃ (b : Fin 65536) (i k : Fin 4), y = ix3 b i k := ⟨y 0, y 1, y 2, eq_ix3 y⟩
  exact step_val 7 7 rfl _ _ _ b i k
theorem t7_keep (W : Valuation τ sig (Elt Ideal)) (r : Ref sig .tc) (h1 : r ≠ main_v72) (h2 : r ≠ main_v73) (h3 : r ≠ main_v74) :
    after t7 W (Proc.devRef .tc r) = W (Proc.devRef .tc r) := by
  simp only [after_cons, after_nil]
  rw [binary_result_ne (h := h3), reshape_result_ne (h := h2), unary_result_ne (h := h1)]
theorem t8_out (W : Valuation τ sig (Elt Ideal)) :
    after t8 W (main_v77 : DevRef τ sig) = stepF (W (main_v68 : DevRef τ sig)) (W (main_v51 : DevRef τ sig)) 8 := by
  after_results
  funext y
  obtain ⟨b, i, k, rfl⟩ : ∃ (b : Fin 65536) (i k : Fin 4), y = ix3 b i k := ⟨y 0, y 1, y 2, eq_ix3 y⟩
  exact step_val 8 8 rfl _ _ _ b i k
theorem t8_keep (W : Valuation τ sig (Elt Ideal)) (r : Ref sig .tc) (h1 : r ≠ main_v75) (h2 : r ≠ main_v76) (h3 : r ≠ main_v77) :
    after t8 W (Proc.devRef .tc r) = W (Proc.devRef .tc r) := by
  simp only [after_cons, after_nil]
  rw [binary_result_ne (h := h3), reshape_result_ne (h := h2), unary_result_ne (h := h1)]
theorem t9_out (W : Valuation τ sig (Elt Ideal)) :
    after t9 W (main_v80 : DevRef τ sig) = stepF (W (main_v71 : DevRef τ sig)) (W (main_v51 : DevRef τ sig)) 9 := by
  after_results
  funext y
  obtain ⟨b, i, k, rfl⟩ : ∃ (b : Fin 65536) (i k : Fin 4), y = ix3 b i k := ⟨y 0, y 1, y 2, eq_ix3 y⟩
  exact step_val 9 9 rfl _ _ _ b i k
theorem t9_keep (W : Valuation τ sig (Elt Ideal)) (r : Ref sig .tc) (h1 : r ≠ main_v78) (h2 : r ≠ main_v79) (h3 : r ≠ main_v80) :
    after t9 W (Proc.devRef .tc r) = W (Proc.devRef .tc r) := by
  simp only [after_cons, after_nil]
  rw [binary_result_ne (h := h3), reshape_result_ne (h := h2), unary_result_ne (h := h1)]
theorem t10_out (W : Valuation τ sig (Elt Ideal)) :
    after t10 W (main_v83 : DevRef τ sig) = stepF (W (main_v74 : DevRef τ sig)) (W (main_v51 : DevRef τ sig)) 10 := by
  after_results
  funext y
  obtain ⟨b, i, k, rfl⟩ : ∃ (b : Fin 65536) (i k : Fin 4), y = ix3 b i k := ⟨y 0, y 1, y 2, eq_ix3 y⟩
  exact step_val 10 10 rfl _ _ _ b i k
theorem t10_keep (W : Valuation τ sig (Elt Ideal)) (r : Ref sig .tc) (h1 : r ≠ main_v81) (h2 : r ≠ main_v82) (h3 : r ≠ main_v83) :
    after t10 W (Proc.devRef .tc r) = W (Proc.devRef .tc r) := by
  simp only [after_cons, after_nil]
  rw [binary_result_ne (h := h3), reshape_result_ne (h := h2), unary_result_ne (h := h1)]
theorem t11_out (W : Valuation τ sig (Elt Ideal)) :
    after t11 W (main_v86 : DevRef τ sig) = stepF (W (main_v77 : DevRef τ sig)) (W (main_v51 : DevRef τ sig)) 11 := by
  after_results
  funext y
  obtain ⟨b, i, k, rfl⟩ : ∃ (b : Fin 65536) (i k : Fin 4), y = ix3 b i k := ⟨y 0, y 1, y 2, eq_ix3 y⟩
  exact step_val 11 11 rfl _ _ _ b i k
theorem t11_keep (W : Valuation τ sig (Elt Ideal)) (r : Ref sig .tc) (h1 : r ≠ main_v84) (h2 : r ≠ main_v85) (h3 : r ≠ main_v86) :
    after t11 W (Proc.devRef .tc r) = W (Proc.devRef .tc r) := by
  simp only [after_cons, after_nil]
  rw [binary_result_ne (h := h3), reshape_result_ne (h := h2), unary_result_ne (h := h1)]
theorem t12_out (W : Valuation τ sig (Elt Ideal)) :
    after t12 W (main_v89 : DevRef τ sig) = stepF (W (main_v80 : DevRef τ sig)) (W (main_v51 : DevRef τ sig)) 12 := by
  after_results
  funext y
  obtain ⟨b, i, k, rfl⟩ : ∃ (b : Fin 65536) (i k : Fin 4), y = ix3 b i k := ⟨y 0, y 1, y 2, eq_ix3 y⟩
  exact step_val 12 12 rfl _ _ _ b i k
theorem t12_keep (W : Valuation τ sig (Elt Ideal)) (r : Ref sig .tc) (h1 : r ≠ main_v87) (h2 : r ≠ main_v88) (h3 : r ≠ main_v89) :
    after t12 W (Proc.devRef .tc r) = W (Proc.devRef .tc r) := by
  simp only [after_cons, after_nil]
  rw [binary_result_ne (h := h3), reshape_result_ne (h := h2), unary_result_ne (h := h1)]
theorem t13_out (W : Valuation τ sig (Elt Ideal)) :
    after t13 W (main_v92 : DevRef τ sig) = stepF (W (main_v80 : DevRef τ sig)) (W (main_v51 : DevRef τ sig)) 13 := by
  after_results
  funext y
  obtain ⟨b, i, k, rfl⟩ : ∃ (b : Fin 65536) (i k : Fin 4), y = ix3 b i k := ⟨y 0, y 1, y 2, eq_ix3 y⟩
  exact step_val 13 13 rfl _ _ _ b i k
theorem t13_keep (W : Valuation τ sig (Elt Ideal)) (r : Ref sig .tc) (h1 : r ≠ main_v90) (h2 : r ≠ main_v91) (h3 : r ≠ main_v92) :
    after t13 W (Proc.devRef .tc r) = W (Proc.devRef .tc r) := by
  simp only [after_cons, after_nil]
  rw [binary_result_ne (h := h3), reshape_result_ne (h := h2), unary_result_ne (h := h1)]
theorem t14_out (W : Valuation τ sig (Elt Ideal)) :
    after t14 W (main_v95 : DevRef τ sig) = stepF (W (main_v80 : DevRef τ sig)) (W (main_v51 : DevRef τ sig)) 14 := by
  after_results
  funext y
  obtain ⟨b, i, k, rfl⟩ : ∃ (b : Fin 65536) (i k : Fin 4), y = ix3 b i k := ⟨y 0, y 1, y 2, eq_ix3 y⟩
  exact step_val 14 14 rfl _ _ _ b i k
theorem t14_keep (W : Valuation τ sig (Elt Ideal)) (r : Ref sig .tc) (h1 : r ≠ main_v93) (h2 : r ≠ main_v94) (h3 : r ≠ main_v95) :
    after t14 W (Proc.devRef .tc r) = W (Proc.devRef .tc r) := by
  simp only [after_cons, after_nil]
  rw [binary_result_ne (h := h3), reshape_result_ne (h := h2), unary_result_ne (h := h1)]
theorem t15_out (W : Valuation τ sig (Elt Ideal)) :
    after t15 W (main_v98 : DevRef τ sig) = stepF (W (main_v89 : DevRef τ sig)) (W (main_v51 : DevRef τ sig)) 15 := by
  after_results
  funext y
  obtain ⟨b, i, k, rfl⟩ : ∃ (b : Fin 65536) (i k : Fin 4), y = ix3 b i k := ⟨y 0, y 1, y 2, eq_ix3 y⟩
  exact step_val 15 15 rfl _ _ _ b i k
theorem t15_keep (W : Valuation τ sig (Elt Ideal)) (r : Ref sig .tc) (h1 : r ≠ main_v96) (h2 : r ≠ main_v97) (h3 : r ≠ main_v98) :
    after t15 W (Proc.devRef .tc r) = W (Proc.devRef .tc r) := by
  simp only [after_cons, after_nil]
  rw [binary_result_ne (h := h3), reshape_result_ne (h := h2), unary_result_ne (h := h1)]
theorem t16_out (W : Valuation τ sig (Elt Ideal)) :
    after t16 W (main_v101 : DevRef τ sig) = stepF (W (main_v92 : DevRef τ sig)) (W (main_v51 : DevRef τ sig)) 16 := by
  after_results
  funext y
  obtain ⟨b, i, k, rfl⟩ : ∃ (b : Fin 65536) (i k : Fin 4), y = ix3 b i k := ⟨y 0, y 1, y 2, eq_ix3 y⟩
  exact step_val 16 16 rfl _ _ _ b i k
theorem t16_keep (W : Valuation τ sig (Elt Ideal)) (r : Ref sig .tc) (h1 : r ≠ main_v99) (h2 : r ≠ main_v100) (h3 : r ≠ main_v101) :
    after t16 W (Proc.devRef .tc r) = W (Proc.devRef .tc r) := by
  simp only [after_cons, after_nil]
  rw [binary_result_ne (h := h3), reshape_result_ne (h := h2), unary_result_ne (h := h1)]
theorem t17_out (W : Valuation τ sig (Elt Ideal)) :
    after t17 W (main_v104 : DevRef τ sig) = stepF (W (main_v95 : DevRef τ sig)) (W (main_v51 : DevRef τ sig)) 17 := by
  after_results
  funext y
  obtain ⟨b, i, k, rfl⟩ : ∃ (b : Fin 65536) (i k : Fin 4), y = ix3 b i k := ⟨y 0, y 1, y 2, eq_ix3 y⟩
  exact step_val 17 17 rfl _ _ _ b i k
theorem t17_keep (W : Valuation τ sig (Elt Ideal)) (r : Ref sig .tc) (h1 : r ≠ main_v102) (h2 : r ≠ main_v103) (h3 : r ≠ main_v104) :
    after t17 W (Proc.devRef .tc r) = W (Proc.devRef .tc r) := by
  simp only [after_cons, after_nil]
  rw [binary_result_ne (h := h3), reshape_result_ne (h := h2), unary_result_ne (h := h1)]
theorem t18_out (W : Valuation τ sig (Elt Ideal)) :
    after t18 W (main_v107 : DevRef τ sig) = stepF (W (main_v101 : DevRef τ sig)) (W (main_v51 : DevRef τ sig)) 18 := by
  after_results
  funext y
  obtain ⟨b, i, k, rfl⟩ : ∃ (b : Fin 65536) (i k : Fin 4), y = ix3 b i k := ⟨y 0, y 1, y 2, eq_ix3 y⟩
  exact step_val 18 18 rfl _ _ _ b i k
theorem t18_keep (W : Valuation τ sig (Elt Ideal)) (r : Ref sig .tc) (h1 : r ≠ main_v105) (h2 : r ≠ main_v106) (h3 : r ≠ main_v107) :
    after t18 W (Proc.devRef .tc r) = W (Proc.devRef .tc r) := by
  simp only [after_cons, after_nil]
  rw [binary_result_ne (h := h3), reshape_result_ne (h := h2), unary_result_ne (h := h1)]
theorem t19_out (W : Valuation τ sig (Elt Ideal)) :
    after t19 W (main_v110 : DevRef τ sig) = stepF (W (main_v104 : DevRef τ sig)) (W (main_v51 : DevRef τ sig)) 19 := by
  after_results
  funext y
  obtain ⟨b, i, k, rfl⟩ : ∃ (b : Fin 65536) (i k : Fin 4), y = ix3 b i k := ⟨y 0, y 1, y 2, eq_ix3 y⟩
  exact step_val 19 19 rfl _ _ _ b i k
theorem t19_keep (W : Valuation τ sig (Elt Ideal)) (r : Ref sig .tc) (h1 : r ≠ main_v108) (h2 : r ≠ main_v109) (h3 : r ≠ main_v110) :
    after t19 W (Proc.devRef .tc r) = W (Proc.devRef .tc r) := by
  simp only [after_cons, after_nil]
  rw [binary_result_ne (h := h3), reshape_result_ne (h := h2), unary_result_ne (h := h1)]
theorem t20_out (W : Valuation τ sig (Elt Ideal)) :
    after t20 W (main_v113 : DevRef τ sig) = stepF (W (main_v107 : DevRef τ sig)) (W (main_v51 : DevRef τ sig)) 20 := by
  after_results
  funext y
  obtain ⟨b, i, k, rfl⟩ : ∃ (b : Fin 65536) (i k : Fin 4), y = ix3 b i k := ⟨y 0, y 1, y 2, eq_ix3 y⟩
  exact step_val 20 20 rfl _ _ _ b i k
theorem t20_keep (W : Valuation τ sig (Elt Ideal)) (r : Ref sig .tc) (h1 : r ≠ main_v111) (h2 : r ≠ main_v112) (h3 : r ≠ main_v113) :
    after t20 W (Proc.devRef .tc r) = W (Proc.devRef .tc r) := by
  simp only [after_cons, after_nil]
  rw [binary_result_ne (h := h3), reshape_result_ne (h := h2), unary_result_ne (h := h1)]
theorem t21_out (W : Valuation τ sig (Elt Ideal)) :
    after t21 W (main_v116 : DevRef τ sig) = stepF (W (main_v110 : DevRef τ sig)) (W (main_v51 : DevRef τ sig)) 21 := by
  after_results
  funext y
  obtain ⟨b, i, k, rfl⟩ : ∃ (b : Fin 65536) (i k : Fin 4), y = ix3 b i k := ⟨y 0, y 1, y 2, eq_ix3 y⟩
  exact step_val 21 21 rfl _ _ _ b i k
theorem t21_keep (W : Valuation τ sig (Elt Ideal)) (r : Ref sig .tc) (h1 : r ≠ main_v114) (h2 : r ≠ main_v115) (h3 : r ≠ main_v116) :
    after t21 W (Proc.devRef .tc r) = W (Proc.devRef .tc r) := by
  simp only [after_cons, after_nil]
  rw [binary_result_ne (h := h3), reshape_result_ne (h := h2), unary_result_ne (h := h1)]
theorem t22_out (W : Valuation τ sig (Elt Ideal)) :
    after t22 W (main_v119 : DevRef τ sig) = stepF (W (main_v113 : DevRef τ sig)) (W (main_v51 : DevRef τ sig)) 22 := by
  after_results
  funext y
  obtain ⟨b, i, k, rfl⟩ : ∃ (b : Fin 65536) (i k : Fin 4), y = ix3 b i k := ⟨y 0, y 1, y 2, eq_ix3 y⟩
  exact step_val 22 22 rfl _ _ _ b i k
theorem t22_keep (W : Valuation τ sig (Elt Ideal)) (r : Ref sig .tc) (h1 : r ≠ main_v117) (h2 : r ≠ main_v118) (h3 : r ≠ main_v119) :
    after t22 W (Proc.devRef .tc r) = W (Proc.devRef .tc r) := by
  simp only [after_cons, after_nil]
  rw [binary_result_ne (h := h3), reshape_result_ne (h := h2), unary_result_ne (h := h1)]
theorem t23_out (W : Valuation τ sig (Elt Ideal)) :
    after t23 W (main_v122 : DevRef τ sig) = stepF (W (main_v116 : DevRef τ sig)) (W (main_v51 : DevRef τ sig)) 23 := by
  after_results
  funext y
  obtain ⟨b, i, k, rfl⟩ : ∃ (b : Fin 65536) (i k : Fin 4), y = ix3 b i k := ⟨y 0, y 1, y 2, eq_ix3 y⟩
  exact step_val 23 23 rfl _ _ _ b i k
theorem t23_keep (W : Valuation τ sig (Elt Ideal)) (r : Ref sig .tc) (h1 : r ≠ main_v120) (h2 : r ≠ main_v121) (h3 : r ≠ main_v122) :
    after t23 W (Proc.devRef .tc r) = W (Proc.devRef .tc r) := by
  simp only [after_cons, after_nil]
  rw [binary_result_ne (h := h3), reshape_result_ne (h := h2), unary_result_ne (h := h1)]

/-! ## The run, joint by joint -/

/-- Lane `b`'s 24 stacked matrices. -/
abbrev Tm (V : Valuation τ sig (Elt Ideal)) (b : Fin 65536) : Fin 24 → Fin 4 → Fin 4 → EReal :=
  fun j a c => V (main_v51 : DevRef τ sig) (ix4 b j a c)

/-- The buffers after joint 0's operations, …, after joint 23's. -/
def P0 (V : Valuation τ sig (Elt Ideal)) : Valuation τ sig (Elt Ideal) := after t0 V
def P1 (V : Valuation τ sig (Elt Ideal)) : Valuation τ sig (Elt Ideal) := after t1 (P0 V)
def P2 (V : Valuation τ sig (Elt Ideal)) : Valuation τ sig (Elt Ideal) := after t2 (P1 V)
def P3 (V : Valuation τ sig (Elt Ideal)) : Valuation τ sig (Elt Ideal) := after t3 (P2 V)
def P4 (V : Valuation τ sig (Elt Ideal)) : Valuation τ sig (Elt Ideal) := after t4 (P3 V)
def P5 (V : Valuation τ sig (Elt Ideal)) : Valuation τ sig (Elt Ideal) := after t5 (P4 V)
def P6 (V : Valuation τ sig (Elt Ideal)) : Valuation τ sig (Elt Ideal) := after t6 (P5 V)
def P7 (V : Valuation τ sig (Elt Ideal)) : Valuation τ sig (Elt Ideal) := after t7 (P6 V)
def P8 (V : Valuation τ sig (Elt Ideal)) : Valuation τ sig (Elt Ideal) := after t8 (P7 V)
def P9 (V : Valuation τ sig (Elt Ideal)) : Valuation τ sig (Elt Ideal) := after t9 (P8 V)
def P10 (V : Valuation τ sig (Elt Ideal)) : Valuation τ sig (Elt Ideal) := after t10 (P9 V)
def P11 (V : Valuation τ sig (Elt Ideal)) : Valuation τ sig (Elt Ideal) := after t11 (P10 V)
def P12 (V : Valuation τ sig (Elt Ideal)) : Valuation τ sig (Elt Ideal) := after t12 (P11 V)
def P13 (V : Valuation τ sig (Elt Ideal)) : Valuation τ sig (Elt Ideal) := after t13 (P12 V)
def P14 (V : Valuation τ sig (Elt Ideal)) : Valuation τ sig (Elt Ideal) := after t14 (P13 V)
def P15 (V : Valuation τ sig (Elt Ideal)) : Valuation τ sig (Elt Ideal) := after t15 (P14 V)
def P16 (V : Valuation τ sig (Elt Ideal)) : Valuation τ sig (Elt Ideal) := after t16 (P15 V)
def P17 (V : Valuation τ sig (Elt Ideal)) : Valuation τ sig (Elt Ideal) := after t17 (P16 V)
def P18 (V : Valuation τ sig (Elt Ideal)) : Valuation τ sig (Elt Ideal) := after t18 (P17 V)
def P19 (V : Valuation τ sig (Elt Ideal)) : Valuation τ sig (Elt Ideal) := after t19 (P18 V)
def P20 (V : Valuation τ sig (Elt Ideal)) : Valuation τ sig (Elt Ideal) := after t20 (P19 V)
def P21 (V : Valuation τ sig (Elt Ideal)) : Valuation τ sig (Elt Ideal) := after t21 (P20 V)
def P22 (V : Valuation τ sig (Elt Ideal)) : Valuation τ sig (Elt Ideal) := after t22 (P21 V)
def P23 (V : Valuation τ sig (Elt Ideal)) : Valuation τ sig (Elt Ideal) := after t23 (P22 V)

theorem opsB_run (V : Valuation τ sig (Elt Ideal)) : after opsB V = P23 V := by
  rw [opsB_split]
  simp only [after_app]
  rfl

theorem P0_step (V : Valuation τ sig (Elt Ideal)) (r : Ref sig .tc) (h1 : r ≠ main_v52) (h2 : r ≠ main_v53) :
    P0 V (Proc.devRef .tc r) = V (Proc.devRef .tc r) := t0_keep V r h1 h2
theorem P1_step (V : Valuation τ sig (Elt Ideal)) (r : Ref sig .tc) (h1 : r ≠ main_v54) (h2 : r ≠ main_v55) (h3 : r ≠ main_v56) :
    P1 V (Proc.devRef .tc r) = P0 V (Proc.devRef .tc r) := t1_keep (P0 V) r h1 h2 h3
theorem P2_step (V : Valuation τ sig (Elt Ideal)) (r : Ref sig .tc) (h1 : r ≠ main_v57) (h2 : r ≠ main_v58) (h3 : r ≠ main_v59) :
    P2 V (Proc.devRef .tc r) = P1 V (Proc.devRef .tc r) := t2_keep (P1 V) r h1 h2 h3
theorem P3_step (V : Valuation τ sig (Elt Ideal)) (r : Ref sig .tc) (h1 : r ≠ main_v60) (h2 : r ≠ main_v61) (h3 : r ≠ main_v62) :
    P3 V (Proc.devRef .tc r) = P2 V (Proc.devRef .tc r) := t3_keep (P2 V) r h1 h2 h3
theorem P4_step (V : Valuation τ sig (Elt Ideal)) (r : Ref sig .tc) (h1 : r ≠ main_v63) (h2 : r ≠ main_v64) (h3 : r ≠ main_v65) :
    P4 V (Proc.devRef .tc r) = P3 V (Proc.devRef .tc r) := t4_keep (P3 V) r h1 h2 h3
theorem P5_step (V : Valuation τ sig (Elt Ideal)) (r : Ref sig .tc) (h1 : r ≠ main_v66) (h2 : r ≠ main_v67) (h3 : r ≠ main_v68) :
    P5 V (Proc.devRef .tc r) = P4 V (Proc.devRef .tc r) := t5_keep (P4 V) r h1 h2 h3
theorem P6_step (V : Valuation τ sig (Elt Ideal)) (r : Ref sig .tc) (h1 : r ≠ main_v69) (h2 : r ≠ main_v70) (h3 : r ≠ main_v71) :
    P6 V (Proc.devRef .tc r) = P5 V (Proc.devRef .tc r) := t6_keep (P5 V) r h1 h2 h3
theorem P7_step (V : Valuation τ sig (Elt Ideal)) (r : Ref sig .tc) (h1 : r ≠ main_v72) (h2 : r ≠ main_v73) (h3 : r ≠ main_v74) :
    P7 V (Proc.devRef .tc r) = P6 V (Proc.devRef .tc r) := t7_keep (P6 V) r h1 h2 h3
theorem P8_step (V : Valuation τ sig (Elt Ideal)) (r : Ref sig .tc) (h1 : r ≠ main_v75) (h2 : r ≠ main_v76) (h3 : r ≠ main_v77) :
    P8 V (Proc.devRef .tc r) = P7 V (Proc.devRef .tc r) := t8_keep (P7 V) r h1 h2 h3
theorem P9_step (V : Valuation τ sig (Elt Ideal)) (r : Ref sig .tc) (h1 : r ≠ main_v78) (h2 : r ≠ main_v79) (h3 : r ≠ main_v80) :
    P9 V (Proc.devRef .tc r) = P8 V (Proc.devRef .tc r) := t9_keep (P8 V) r h1 h2 h3
theorem P10_step (V : Valuation τ sig (Elt Ideal)) (r : Ref sig .tc) (h1 : r ≠ main_v81) (h2 : r ≠ main_v82) (h3 : r ≠ main_v83) :
    P10 V (Proc.devRef .tc r) = P9 V (Proc.devRef .tc r) := t10_keep (P9 V) r h1 h2 h3
theorem P11_step (V : Valuation τ sig (Elt Ideal)) (r : Ref sig .tc) (h1 : r ≠ main_v84) (h2 : r ≠ main_v85) (h3 : r ≠ main_v86) :
    P11 V (Proc.devRef .tc r) = P10 V (Proc.devRef .tc r) := t11_keep (P10 V) r h1 h2 h3
theorem P12_step (V : Valuation τ sig (Elt Ideal)) (r : Ref sig .tc) (h1 : r ≠ main_v87) (h2 : r ≠ main_v88) (h3 : r ≠ main_v89) :
    P12 V (Proc.devRef .tc r) = P11 V (Proc.devRef .tc r) := t12_keep (P11 V) r h1 h2 h3
theorem P13_step (V : Valuation τ sig (Elt Ideal)) (r : Ref sig .tc) (h1 : r ≠ main_v90) (h2 : r ≠ main_v91) (h3 : r ≠ main_v92) :
    P13 V (Proc.devRef .tc r) = P12 V (Proc.devRef .tc r) := t13_keep (P12 V) r h1 h2 h3
theorem P14_step (V : Valuation τ sig (Elt Ideal)) (r : Ref sig .tc) (h1 : r ≠ main_v93) (h2 : r ≠ main_v94) (h3 : r ≠ main_v95) :
    P14 V (Proc.devRef .tc r) = P13 V (Proc.devRef .tc r) := t14_keep (P13 V) r h1 h2 h3
theorem P15_step (V : Valuation τ sig (Elt Ideal)) (r : Ref sig .tc) (h1 : r ≠ main_v96) (h2 : r ≠ main_v97) (h3 : r ≠ main_v98) :
    P15 V (Proc.devRef .tc r) = P14 V (Proc.devRef .tc r) := t15_keep (P14 V) r h1 h2 h3
theorem P16_step (V : Valuation τ sig (Elt Ideal)) (r : Ref sig .tc) (h1 : r ≠ main_v99) (h2 : r ≠ main_v100) (h3 : r ≠ main_v101) :
    P16 V (Proc.devRef .tc r) = P15 V (Proc.devRef .tc r) := t16_keep (P15 V) r h1 h2 h3
theorem P17_step (V : Valuation τ sig (Elt Ideal)) (r : Ref sig .tc) (h1 : r ≠ main_v102) (h2 : r ≠ main_v103) (h3 : r ≠ main_v104) :
    P17 V (Proc.devRef .tc r) = P16 V (Proc.devRef .tc r) := t17_keep (P16 V) r h1 h2 h3
theorem P18_step (V : Valuation τ sig (Elt Ideal)) (r : Ref sig .tc) (h1 : r ≠ main_v105) (h2 : r ≠ main_v106) (h3 : r ≠ main_v107) :
    P18 V (Proc.devRef .tc r) = P17 V (Proc.devRef .tc r) := t18_keep (P17 V) r h1 h2 h3
theorem P19_step (V : Valuation τ sig (Elt Ideal)) (r : Ref sig .tc) (h1 : r ≠ main_v108) (h2 : r ≠ main_v109) (h3 : r ≠ main_v110) :
    P19 V (Proc.devRef .tc r) = P18 V (Proc.devRef .tc r) := t19_keep (P18 V) r h1 h2 h3
theorem P20_step (V : Valuation τ sig (Elt Ideal)) (r : Ref sig .tc) (h1 : r ≠ main_v111) (h2 : r ≠ main_v112) (h3 : r ≠ main_v113) :
    P20 V (Proc.devRef .tc r) = P19 V (Proc.devRef .tc r) := t20_keep (P19 V) r h1 h2 h3
theorem P21_step (V : Valuation τ sig (Elt Ideal)) (r : Ref sig .tc) (h1 : r ≠ main_v114) (h2 : r ≠ main_v115) (h3 : r ≠ main_v116) :
    P21 V (Proc.devRef .tc r) = P20 V (Proc.devRef .tc r) := t21_keep (P20 V) r h1 h2 h3
theorem P22_step (V : Valuation τ sig (Elt Ideal)) (r : Ref sig .tc) (h1 : r ≠ main_v117) (h2 : r ≠ main_v118) (h3 : r ≠ main_v119) :
    P22 V (Proc.devRef .tc r) = P21 V (Proc.devRef .tc r) := t22_keep (P21 V) r h1 h2 h3
theorem P23_step (V : Valuation τ sig (Elt Ideal)) (r : Ref sig .tc) (h1 : r ≠ main_v120) (h2 : r ≠ main_v121) (h3 : r ≠ main_v122) :
    P23 V (Proc.devRef .tc r) = P22 V (Proc.devRef .tc r) := t23_keep (P22 V) r h1 h2 h3
theorem P0_v51 (V : Valuation τ sig (Elt Ideal)) : P0 V (main_v51 : DevRef τ sig) = V (main_v51 : DevRef τ sig) :=
  P0_step V main_v51 (by decide) (by decide)
theorem P1_v51 (V : Valuation τ sig (Elt Ideal)) : P1 V (main_v51 : DevRef τ sig) = V (main_v51 : DevRef τ sig) :=
  (P1_step V main_v51 (by decide) (by decide) (by decide)).trans (P0_v51 V)
theorem P2_v51 (V : Valuation τ sig (Elt Ideal)) : P2 V (main_v51 : DevRef τ sig) = V (main_v51 : DevRef τ sig) :=
  (P2_step V main_v51 (by decide) (by decide) (by decide)).trans (P1_v51 V)
theorem P3_v51 (V : Valuation τ sig (Elt Ideal)) : P3 V (main_v51 : DevRef τ sig) = V (main_v51 : DevRef τ sig) :=
  (P3_step V main_v51 (by decide) (by decide) (by decide)).trans (P2_v51 V)
theorem P4_v51 (V : Valuation τ sig (Elt Ideal)) : P4 V (main_v51 : DevRef τ sig) = V (main_v51 : DevRef τ sig) :=
  (P4_step V main_v51 (by decide) (by decide) (by decide)).trans (P3_v51 V)
theorem P5_v51 (V : Valuation τ sig (Elt Ideal)) : P5 V (main_v51 : DevRef τ sig) = V (main_v51 : DevRef τ sig) :=
  (P5_step V main_v51 (by decide) (by decide) (by decide)).trans (P4_v51 V)
theorem P6_v51 (V : Valuation τ sig (Elt Ideal)) : P6 V (main_v51 : DevRef τ sig) = V (main_v51 : DevRef τ sig) :=
  (P6_step V main_v51 (by decide) (by decide) (by decide)).trans (P5_v51 V)
theorem P7_v51 (V : Valuation τ sig (Elt Ideal)) : P7 V (main_v51 : DevRef τ sig) = V (main_v51 : DevRef τ sig) :=
  (P7_step V main_v51 (by decide) (by decide) (by decide)).trans (P6_v51 V)
theorem P8_v51 (V : Valuation τ sig (Elt Ideal)) : P8 V (main_v51 : DevRef τ sig) = V (main_v51 : DevRef τ sig) :=
  (P8_step V main_v51 (by decide) (by decide) (by decide)).trans (P7_v51 V)
theorem P9_v51 (V : Valuation τ sig (Elt Ideal)) : P9 V (main_v51 : DevRef τ sig) = V (main_v51 : DevRef τ sig) :=
  (P9_step V main_v51 (by decide) (by decide) (by decide)).trans (P8_v51 V)
theorem P10_v51 (V : Valuation τ sig (Elt Ideal)) : P10 V (main_v51 : DevRef τ sig) = V (main_v51 : DevRef τ sig) :=
  (P10_step V main_v51 (by decide) (by decide) (by decide)).trans (P9_v51 V)
theorem P11_v51 (V : Valuation τ sig (Elt Ideal)) : P11 V (main_v51 : DevRef τ sig) = V (main_v51 : DevRef τ sig) :=
  (P11_step V main_v51 (by decide) (by decide) (by decide)).trans (P10_v51 V)
theorem P12_v51 (V : Valuation τ sig (Elt Ideal)) : P12 V (main_v51 : DevRef τ sig) = V (main_v51 : DevRef τ sig) :=
  (P12_step V main_v51 (by decide) (by decide) (by decide)).trans (P11_v51 V)
theorem P13_v51 (V : Valuation τ sig (Elt Ideal)) : P13 V (main_v51 : DevRef τ sig) = V (main_v51 : DevRef τ sig) :=
  (P13_step V main_v51 (by decide) (by decide) (by decide)).trans (P12_v51 V)
theorem P14_v51 (V : Valuation τ sig (Elt Ideal)) : P14 V (main_v51 : DevRef τ sig) = V (main_v51 : DevRef τ sig) :=
  (P14_step V main_v51 (by decide) (by decide) (by decide)).trans (P13_v51 V)
theorem P15_v51 (V : Valuation τ sig (Elt Ideal)) : P15 V (main_v51 : DevRef τ sig) = V (main_v51 : DevRef τ sig) :=
  (P15_step V main_v51 (by decide) (by decide) (by decide)).trans (P14_v51 V)
theorem P16_v51 (V : Valuation τ sig (Elt Ideal)) : P16 V (main_v51 : DevRef τ sig) = V (main_v51 : DevRef τ sig) :=
  (P16_step V main_v51 (by decide) (by decide) (by decide)).trans (P15_v51 V)
theorem P17_v51 (V : Valuation τ sig (Elt Ideal)) : P17 V (main_v51 : DevRef τ sig) = V (main_v51 : DevRef τ sig) :=
  (P17_step V main_v51 (by decide) (by decide) (by decide)).trans (P16_v51 V)
theorem P18_v51 (V : Valuation τ sig (Elt Ideal)) : P18 V (main_v51 : DevRef τ sig) = V (main_v51 : DevRef τ sig) :=
  (P18_step V main_v51 (by decide) (by decide) (by decide)).trans (P17_v51 V)
theorem P19_v51 (V : Valuation τ sig (Elt Ideal)) : P19 V (main_v51 : DevRef τ sig) = V (main_v51 : DevRef τ sig) :=
  (P19_step V main_v51 (by decide) (by decide) (by decide)).trans (P18_v51 V)
theorem P20_v51 (V : Valuation τ sig (Elt Ideal)) : P20 V (main_v51 : DevRef τ sig) = V (main_v51 : DevRef τ sig) :=
  (P20_step V main_v51 (by decide) (by decide) (by decide)).trans (P19_v51 V)
theorem P21_v51 (V : Valuation τ sig (Elt Ideal)) : P21 V (main_v51 : DevRef τ sig) = V (main_v51 : DevRef τ sig) :=
  (P21_step V main_v51 (by decide) (by decide) (by decide)).trans (P20_v51 V)
theorem P22_v51 (V : Valuation τ sig (Elt Ideal)) : P22 V (main_v51 : DevRef τ sig) = V (main_v51 : DevRef τ sig) :=
  (P22_step V main_v51 (by decide) (by decide) (by decide)).trans (P21_v51 V)
theorem P23_v51 (V : Valuation τ sig (Elt Ideal)) : P23 V (main_v51 : DevRef τ sig) = V (main_v51 : DevRef τ sig) :=
  (P23_step V main_v51 (by decide) (by decide) (by decide)).trans (P22_v51 V)
theorem P0_arg0 (V : Valuation τ sig (Elt Ideal)) : P0 V (main_arg0 : DevRef τ sig) = V (main_arg0 : DevRef τ sig) :=
  P0_step V main_arg0 (by decide) (by decide)
theorem P1_arg0 (V : Valuation τ sig (Elt Ideal)) : P1 V (main_arg0 : DevRef τ sig) = V (main_arg0 : DevRef τ sig) :=
  (P1_step V main_arg0 (by decide) (by decide) (by decide)).trans (P0_arg0 V)
theorem P2_arg0 (V : Valuation τ sig (Elt Ideal)) : P2 V (main_arg0 : DevRef τ sig) = V (main_arg0 : DevRef τ sig) :=
  (P2_step V main_arg0 (by decide) (by decide) (by decide)).trans (P1_arg0 V)
theorem P3_arg0 (V : Valuation τ sig (Elt Ideal)) : P3 V (main_arg0 : DevRef τ sig) = V (main_arg0 : DevRef τ sig) :=
  (P3_step V main_arg0 (by decide) (by decide) (by decide)).trans (P2_arg0 V)
theorem P4_arg0 (V : Valuation τ sig (Elt Ideal)) : P4 V (main_arg0 : DevRef τ sig) = V (main_arg0 : DevRef τ sig) :=
  (P4_step V main_arg0 (by decide) (by decide) (by decide)).trans (P3_arg0 V)
theorem P5_arg0 (V : Valuation τ sig (Elt Ideal)) : P5 V (main_arg0 : DevRef τ sig) = V (main_arg0 : DevRef τ sig) :=
  (P5_step V main_arg0 (by decide) (by decide) (by decide)).trans (P4_arg0 V)
theorem P6_arg0 (V : Valuation τ sig (Elt Ideal)) : P6 V (main_arg0 : DevRef τ sig) = V (main_arg0 : DevRef τ sig) :=
  (P6_step V main_arg0 (by decide) (by decide) (by decide)).trans (P5_arg0 V)
theorem P7_arg0 (V : Valuation τ sig (Elt Ideal)) : P7 V (main_arg0 : DevRef τ sig) = V (main_arg0 : DevRef τ sig) :=
  (P7_step V main_arg0 (by decide) (by decide) (by decide)).trans (P6_arg0 V)
theorem P8_arg0 (V : Valuation τ sig (Elt Ideal)) : P8 V (main_arg0 : DevRef τ sig) = V (main_arg0 : DevRef τ sig) :=
  (P8_step V main_arg0 (by decide) (by decide) (by decide)).trans (P7_arg0 V)
theorem P9_arg0 (V : Valuation τ sig (Elt Ideal)) : P9 V (main_arg0 : DevRef τ sig) = V (main_arg0 : DevRef τ sig) :=
  (P9_step V main_arg0 (by decide) (by decide) (by decide)).trans (P8_arg0 V)
theorem P10_arg0 (V : Valuation τ sig (Elt Ideal)) : P10 V (main_arg0 : DevRef τ sig) = V (main_arg0 : DevRef τ sig) :=
  (P10_step V main_arg0 (by decide) (by decide) (by decide)).trans (P9_arg0 V)
theorem P11_arg0 (V : Valuation τ sig (Elt Ideal)) : P11 V (main_arg0 : DevRef τ sig) = V (main_arg0 : DevRef τ sig) :=
  (P11_step V main_arg0 (by decide) (by decide) (by decide)).trans (P10_arg0 V)
theorem P12_arg0 (V : Valuation τ sig (Elt Ideal)) : P12 V (main_arg0 : DevRef τ sig) = V (main_arg0 : DevRef τ sig) :=
  (P12_step V main_arg0 (by decide) (by decide) (by decide)).trans (P11_arg0 V)
theorem P13_arg0 (V : Valuation τ sig (Elt Ideal)) : P13 V (main_arg0 : DevRef τ sig) = V (main_arg0 : DevRef τ sig) :=
  (P13_step V main_arg0 (by decide) (by decide) (by decide)).trans (P12_arg0 V)
theorem P14_arg0 (V : Valuation τ sig (Elt Ideal)) : P14 V (main_arg0 : DevRef τ sig) = V (main_arg0 : DevRef τ sig) :=
  (P14_step V main_arg0 (by decide) (by decide) (by decide)).trans (P13_arg0 V)
theorem P15_arg0 (V : Valuation τ sig (Elt Ideal)) : P15 V (main_arg0 : DevRef τ sig) = V (main_arg0 : DevRef τ sig) :=
  (P15_step V main_arg0 (by decide) (by decide) (by decide)).trans (P14_arg0 V)
theorem P16_arg0 (V : Valuation τ sig (Elt Ideal)) : P16 V (main_arg0 : DevRef τ sig) = V (main_arg0 : DevRef τ sig) :=
  (P16_step V main_arg0 (by decide) (by decide) (by decide)).trans (P15_arg0 V)
theorem P17_arg0 (V : Valuation τ sig (Elt Ideal)) : P17 V (main_arg0 : DevRef τ sig) = V (main_arg0 : DevRef τ sig) :=
  (P17_step V main_arg0 (by decide) (by decide) (by decide)).trans (P16_arg0 V)
theorem P18_arg0 (V : Valuation τ sig (Elt Ideal)) : P18 V (main_arg0 : DevRef τ sig) = V (main_arg0 : DevRef τ sig) :=
  (P18_step V main_arg0 (by decide) (by decide) (by decide)).trans (P17_arg0 V)
theorem P19_arg0 (V : Valuation τ sig (Elt Ideal)) : P19 V (main_arg0 : DevRef τ sig) = V (main_arg0 : DevRef τ sig) :=
  (P19_step V main_arg0 (by decide) (by decide) (by decide)).trans (P18_arg0 V)
theorem P20_arg0 (V : Valuation τ sig (Elt Ideal)) : P20 V (main_arg0 : DevRef τ sig) = V (main_arg0 : DevRef τ sig) :=
  (P20_step V main_arg0 (by decide) (by decide) (by decide)).trans (P19_arg0 V)
theorem P21_arg0 (V : Valuation τ sig (Elt Ideal)) : P21 V (main_arg0 : DevRef τ sig) = V (main_arg0 : DevRef τ sig) :=
  (P21_step V main_arg0 (by decide) (by decide) (by decide)).trans (P20_arg0 V)
theorem P22_arg0 (V : Valuation τ sig (Elt Ideal)) : P22 V (main_arg0 : DevRef τ sig) = V (main_arg0 : DevRef τ sig) :=
  (P22_step V main_arg0 (by decide) (by decide) (by decide)).trans (P21_arg0 V)
theorem P23_arg0 (V : Valuation τ sig (Elt Ideal)) : P23 V (main_arg0 : DevRef τ sig) = V (main_arg0 : DevRef τ sig) :=
  (P23_step V main_arg0 (by decide) (by decide) (by decide)).trans (P22_arg0 V)
theorem P0_arg1 (V : Valuation τ sig (Elt Ideal)) : P0 V (main_arg1 : DevRef τ sig) = V (main_arg1 : DevRef τ sig) :=
  P0_step V main_arg1 (by decide) (by decide)
theorem P1_arg1 (V : Valuation τ sig (Elt Ideal)) : P1 V (main_arg1 : DevRef τ sig) = V (main_arg1 : DevRef τ sig) :=
  (P1_step V main_arg1 (by decide) (by decide) (by decide)).trans (P0_arg1 V)
theorem P2_arg1 (V : Valuation τ sig (Elt Ideal)) : P2 V (main_arg1 : DevRef τ sig) = V (main_arg1 : DevRef τ sig) :=
  (P2_step V main_arg1 (by decide) (by decide) (by decide)).trans (P1_arg1 V)
theorem P3_arg1 (V : Valuation τ sig (Elt Ideal)) : P3 V (main_arg1 : DevRef τ sig) = V (main_arg1 : DevRef τ sig) :=
  (P3_step V main_arg1 (by decide) (by decide) (by decide)).trans (P2_arg1 V)
theorem P4_arg1 (V : Valuation τ sig (Elt Ideal)) : P4 V (main_arg1 : DevRef τ sig) = V (main_arg1 : DevRef τ sig) :=
  (P4_step V main_arg1 (by decide) (by decide) (by decide)).trans (P3_arg1 V)
theorem P5_arg1 (V : Valuation τ sig (Elt Ideal)) : P5 V (main_arg1 : DevRef τ sig) = V (main_arg1 : DevRef τ sig) :=
  (P5_step V main_arg1 (by decide) (by decide) (by decide)).trans (P4_arg1 V)
theorem P6_arg1 (V : Valuation τ sig (Elt Ideal)) : P6 V (main_arg1 : DevRef τ sig) = V (main_arg1 : DevRef τ sig) :=
  (P6_step V main_arg1 (by decide) (by decide) (by decide)).trans (P5_arg1 V)
theorem P7_arg1 (V : Valuation τ sig (Elt Ideal)) : P7 V (main_arg1 : DevRef τ sig) = V (main_arg1 : DevRef τ sig) :=
  (P7_step V main_arg1 (by decide) (by decide) (by decide)).trans (P6_arg1 V)
theorem P8_arg1 (V : Valuation τ sig (Elt Ideal)) : P8 V (main_arg1 : DevRef τ sig) = V (main_arg1 : DevRef τ sig) :=
  (P8_step V main_arg1 (by decide) (by decide) (by decide)).trans (P7_arg1 V)
theorem P9_arg1 (V : Valuation τ sig (Elt Ideal)) : P9 V (main_arg1 : DevRef τ sig) = V (main_arg1 : DevRef τ sig) :=
  (P9_step V main_arg1 (by decide) (by decide) (by decide)).trans (P8_arg1 V)
theorem P10_arg1 (V : Valuation τ sig (Elt Ideal)) : P10 V (main_arg1 : DevRef τ sig) = V (main_arg1 : DevRef τ sig) :=
  (P10_step V main_arg1 (by decide) (by decide) (by decide)).trans (P9_arg1 V)
theorem P11_arg1 (V : Valuation τ sig (Elt Ideal)) : P11 V (main_arg1 : DevRef τ sig) = V (main_arg1 : DevRef τ sig) :=
  (P11_step V main_arg1 (by decide) (by decide) (by decide)).trans (P10_arg1 V)
theorem P12_arg1 (V : Valuation τ sig (Elt Ideal)) : P12 V (main_arg1 : DevRef τ sig) = V (main_arg1 : DevRef τ sig) :=
  (P12_step V main_arg1 (by decide) (by decide) (by decide)).trans (P11_arg1 V)
theorem P13_arg1 (V : Valuation τ sig (Elt Ideal)) : P13 V (main_arg1 : DevRef τ sig) = V (main_arg1 : DevRef τ sig) :=
  (P13_step V main_arg1 (by decide) (by decide) (by decide)).trans (P12_arg1 V)
theorem P14_arg1 (V : Valuation τ sig (Elt Ideal)) : P14 V (main_arg1 : DevRef τ sig) = V (main_arg1 : DevRef τ sig) :=
  (P14_step V main_arg1 (by decide) (by decide) (by decide)).trans (P13_arg1 V)
theorem P15_arg1 (V : Valuation τ sig (Elt Ideal)) : P15 V (main_arg1 : DevRef τ sig) = V (main_arg1 : DevRef τ sig) :=
  (P15_step V main_arg1 (by decide) (by decide) (by decide)).trans (P14_arg1 V)
theorem P16_arg1 (V : Valuation τ sig (Elt Ideal)) : P16 V (main_arg1 : DevRef τ sig) = V (main_arg1 : DevRef τ sig) :=
  (P16_step V main_arg1 (by decide) (by decide) (by decide)).trans (P15_arg1 V)
theorem P17_arg1 (V : Valuation τ sig (Elt Ideal)) : P17 V (main_arg1 : DevRef τ sig) = V (main_arg1 : DevRef τ sig) :=
  (P17_step V main_arg1 (by decide) (by decide) (by decide)).trans (P16_arg1 V)
theorem P18_arg1 (V : Valuation τ sig (Elt Ideal)) : P18 V (main_arg1 : DevRef τ sig) = V (main_arg1 : DevRef τ sig) :=
  (P18_step V main_arg1 (by decide) (by decide) (by decide)).trans (P17_arg1 V)
theorem P19_arg1 (V : Valuation τ sig (Elt Ideal)) : P19 V (main_arg1 : DevRef τ sig) = V (main_arg1 : DevRef τ sig) :=
  (P19_step V main_arg1 (by decide) (by decide) (by decide)).trans (P18_arg1 V)
theorem P20_arg1 (V : Valuation τ sig (Elt Ideal)) : P20 V (main_arg1 : DevRef τ sig) = V (main_arg1 : DevRef τ sig) :=
  (P20_step V main_arg1 (by decide) (by decide) (by decide)).trans (P19_arg1 V)
theorem P21_arg1 (V : Valuation τ sig (Elt Ideal)) : P21 V (main_arg1 : DevRef τ sig) = V (main_arg1 : DevRef τ sig) :=
  (P21_step V main_arg1 (by decide) (by decide) (by decide)).trans (P20_arg1 V)
theorem P22_arg1 (V : Valuation τ sig (Elt Ideal)) : P22 V (main_arg1 : DevRef τ sig) = V (main_arg1 : DevRef τ sig) :=
  (P22_step V main_arg1 (by decide) (by decide) (by decide)).trans (P21_arg1 V)
theorem P23_arg1 (V : Valuation τ sig (Elt Ideal)) : P23 V (main_arg1 : DevRef τ sig) = V (main_arg1 : DevRef τ sig) :=
  (P23_step V main_arg1 (by decide) (by decide) (by decide)).trans (P22_arg1 V)
theorem P0_arg2 (V : Valuation τ sig (Elt Ideal)) : P0 V (main_arg2 : DevRef τ sig) = V (main_arg2 : DevRef τ sig) :=
  P0_step V main_arg2 (by decide) (by decide)
theorem P1_arg2 (V : Valuation τ sig (Elt Ideal)) : P1 V (main_arg2 : DevRef τ sig) = V (main_arg2 : DevRef τ sig) :=
  (P1_step V main_arg2 (by decide) (by decide) (by decide)).trans (P0_arg2 V)
theorem P2_arg2 (V : Valuation τ sig (Elt Ideal)) : P2 V (main_arg2 : DevRef τ sig) = V (main_arg2 : DevRef τ sig) :=
  (P2_step V main_arg2 (by decide) (by decide) (by decide)).trans (P1_arg2 V)
theorem P3_arg2 (V : Valuation τ sig (Elt Ideal)) : P3 V (main_arg2 : DevRef τ sig) = V (main_arg2 : DevRef τ sig) :=
  (P3_step V main_arg2 (by decide) (by decide) (by decide)).trans (P2_arg2 V)
theorem P4_arg2 (V : Valuation τ sig (Elt Ideal)) : P4 V (main_arg2 : DevRef τ sig) = V (main_arg2 : DevRef τ sig) :=
  (P4_step V main_arg2 (by decide) (by decide) (by decide)).trans (P3_arg2 V)
theorem P5_arg2 (V : Valuation τ sig (Elt Ideal)) : P5 V (main_arg2 : DevRef τ sig) = V (main_arg2 : DevRef τ sig) :=
  (P5_step V main_arg2 (by decide) (by decide) (by decide)).trans (P4_arg2 V)
theorem P6_arg2 (V : Valuation τ sig (Elt Ideal)) : P6 V (main_arg2 : DevRef τ sig) = V (main_arg2 : DevRef τ sig) :=
  (P6_step V main_arg2 (by decide) (by decide) (by decide)).trans (P5_arg2 V)
theorem P7_arg2 (V : Valuation τ sig (Elt Ideal)) : P7 V (main_arg2 : DevRef τ sig) = V (main_arg2 : DevRef τ sig) :=
  (P7_step V main_arg2 (by decide) (by decide) (by decide)).trans (P6_arg2 V)
theorem P8_arg2 (V : Valuation τ sig (Elt Ideal)) : P8 V (main_arg2 : DevRef τ sig) = V (main_arg2 : DevRef τ sig) :=
  (P8_step V main_arg2 (by decide) (by decide) (by decide)).trans (P7_arg2 V)
theorem P9_arg2 (V : Valuation τ sig (Elt Ideal)) : P9 V (main_arg2 : DevRef τ sig) = V (main_arg2 : DevRef τ sig) :=
  (P9_step V main_arg2 (by decide) (by decide) (by decide)).trans (P8_arg2 V)
theorem P10_arg2 (V : Valuation τ sig (Elt Ideal)) : P10 V (main_arg2 : DevRef τ sig) = V (main_arg2 : DevRef τ sig) :=
  (P10_step V main_arg2 (by decide) (by decide) (by decide)).trans (P9_arg2 V)
theorem P11_arg2 (V : Valuation τ sig (Elt Ideal)) : P11 V (main_arg2 : DevRef τ sig) = V (main_arg2 : DevRef τ sig) :=
  (P11_step V main_arg2 (by decide) (by decide) (by decide)).trans (P10_arg2 V)
theorem P12_arg2 (V : Valuation τ sig (Elt Ideal)) : P12 V (main_arg2 : DevRef τ sig) = V (main_arg2 : DevRef τ sig) :=
  (P12_step V main_arg2 (by decide) (by decide) (by decide)).trans (P11_arg2 V)
theorem P13_arg2 (V : Valuation τ sig (Elt Ideal)) : P13 V (main_arg2 : DevRef τ sig) = V (main_arg2 : DevRef τ sig) :=
  (P13_step V main_arg2 (by decide) (by decide) (by decide)).trans (P12_arg2 V)
theorem P14_arg2 (V : Valuation τ sig (Elt Ideal)) : P14 V (main_arg2 : DevRef τ sig) = V (main_arg2 : DevRef τ sig) :=
  (P14_step V main_arg2 (by decide) (by decide) (by decide)).trans (P13_arg2 V)
theorem P15_arg2 (V : Valuation τ sig (Elt Ideal)) : P15 V (main_arg2 : DevRef τ sig) = V (main_arg2 : DevRef τ sig) :=
  (P15_step V main_arg2 (by decide) (by decide) (by decide)).trans (P14_arg2 V)
theorem P16_arg2 (V : Valuation τ sig (Elt Ideal)) : P16 V (main_arg2 : DevRef τ sig) = V (main_arg2 : DevRef τ sig) :=
  (P16_step V main_arg2 (by decide) (by decide) (by decide)).trans (P15_arg2 V)
theorem P17_arg2 (V : Valuation τ sig (Elt Ideal)) : P17 V (main_arg2 : DevRef τ sig) = V (main_arg2 : DevRef τ sig) :=
  (P17_step V main_arg2 (by decide) (by decide) (by decide)).trans (P16_arg2 V)
theorem P18_arg2 (V : Valuation τ sig (Elt Ideal)) : P18 V (main_arg2 : DevRef τ sig) = V (main_arg2 : DevRef τ sig) :=
  (P18_step V main_arg2 (by decide) (by decide) (by decide)).trans (P17_arg2 V)
theorem P19_arg2 (V : Valuation τ sig (Elt Ideal)) : P19 V (main_arg2 : DevRef τ sig) = V (main_arg2 : DevRef τ sig) :=
  (P19_step V main_arg2 (by decide) (by decide) (by decide)).trans (P18_arg2 V)
theorem P20_arg2 (V : Valuation τ sig (Elt Ideal)) : P20 V (main_arg2 : DevRef τ sig) = V (main_arg2 : DevRef τ sig) :=
  (P20_step V main_arg2 (by decide) (by decide) (by decide)).trans (P19_arg2 V)
theorem P21_arg2 (V : Valuation τ sig (Elt Ideal)) : P21 V (main_arg2 : DevRef τ sig) = V (main_arg2 : DevRef τ sig) :=
  (P21_step V main_arg2 (by decide) (by decide) (by decide)).trans (P20_arg2 V)
theorem P22_arg2 (V : Valuation τ sig (Elt Ideal)) : P22 V (main_arg2 : DevRef τ sig) = V (main_arg2 : DevRef τ sig) :=
  (P22_step V main_arg2 (by decide) (by decide) (by decide)).trans (P21_arg2 V)
theorem P23_arg2 (V : Valuation τ sig (Elt Ideal)) : P23 V (main_arg2 : DevRef τ sig) = V (main_arg2 : DevRef τ sig) :=
  (P23_step V main_arg2 (by decide) (by decide) (by decide)).trans (P22_arg2 V)

/-! ## Each joint's product, right after its own operations -/

theorem L0 (V : Valuation τ sig (Elt Ideal)) : P0 V (main_v53 : DevRef τ sig) = fun y => Cert.FK.cM0 (Tm V (y 0)) (y 1) (y 2) :=
  t0_out V
theorem L1 (V : Valuation τ sig (Elt Ideal)) : P1 V (main_v56 : DevRef τ sig) = fun y => Cert.FK.cM1 (Tm V (y 0)) (y 1) (y 2) := by
  refine (t1_out (P0 V)).trans ?_
  rw [P0_v51, L0]
  rfl
theorem L2 (V : Valuation τ sig (Elt Ideal)) : P2 V (main_v59 : DevRef τ sig) = fun y => Cert.FK.cM2 (Tm V (y 0)) (y 1) (y 2) := by
  refine (t2_out (P1 V)).trans ?_
  rw [P1_v51, P1_step V main_v53 (by decide) (by decide) (by decide), L0]
  rfl
theorem L3 (V : Valuation τ sig (Elt Ideal)) : P3 V (main_v62 : DevRef τ sig) = fun y => Cert.FK.cM3 (Tm V (y 0)) (y 1) (y 2) := by
  refine (t3_out (P2 V)).trans ?_
  rw [P2_v51, P2_step V main_v53 (by decide) (by decide) (by decide), P1_step V main_v53 (by decide) (by decide) (by decide), L0]
  rfl
theorem L4 (V : Valuation τ sig (Elt Ideal)) : P4 V (main_v65 : DevRef τ sig) = fun y => Cert.FK.cM4 (Tm V (y 0)) (y 1) (y 2) := by
  refine (t4_out (P3 V)).trans ?_
  rw [P3_v51, P3_step V main_v56 (by decide) (by decide) (by decide), P2_step V main_v56 (by decide) (by decide) (by decide), L1]
  rfl
theorem L5 (V : Valuation τ sig (Elt Ideal)) : P5 V (main_v68 : DevRef τ sig) = fun y => Cert.FK.cM5 (Tm V (y 0)) (y 1) (y 2) := by
  refine (t5_out (P4 V)).trans ?_
  rw [P4_v51, P4_step V main_v59 (by decide) (by decide) (by decide), P3_step V main_v59 (by decide) (by decide) (by decide), L2]
  rfl
theorem L6 (V : Valuation τ sig (Elt Ideal)) : P6 V (main_v71 : DevRef τ sig) = fun y => Cert.FK.cM6 (Tm V (y 0)) (y 1) (y 2) := by
  refine (t6_out (P5 V)).trans ?_
  rw [P5_v51, P5_step V main_v62 (by decide) (by decide) (by decide), P4_step V main_v62 (by decide) (by decide) (by decide), L3]
  rfl
theorem L7 (V : Valuation τ sig (Elt Ideal)) : P7 V (main_v74 : DevRef τ sig) = fun y => Cert.FK.cM7 (Tm V (y 0)) (y 1) (y 2) := by
  refine (t7_out (P6 V)).trans ?_
  rw [P6_v51, P6_step V main_v65 (by decide) (by decide) (by decide), P5_step V main_v65 (by decide) (by decide) (by decide), L4]
  rfl
theorem L8 (V : Valuation τ sig (Elt Ideal)) : P8 V (main_v77 : DevRef τ sig) = fun y => Cert.FK.cM8 (Tm V (y 0)) (y 1) (y 2) := by
  refine (t8_out (P7 V)).trans ?_
  rw [P7_v51, P7_step V main_v68 (by decide) (by decide) (by decide), P6_step V main_v68 (by decide) (by decide) (by decide), L5]
  rfl
theorem L9 (V : Valuation τ sig (Elt Ideal)) : P9 V (main_v80 : DevRef τ sig) = fun y => Cert.FK.cM9 (Tm V (y 0)) (y 1) (y 2) := by
  refine (t9_out (P8 V)).trans ?_
  rw [P8_v51, P8_step V main_v71 (by decide) (by decide) (by decide), P7_step V main_v71 (by decide) (by decide) (by decide), L6]
  rfl
theorem L10 (V : Valuation τ sig (Elt Ideal)) : P10 V (main_v83 : DevRef τ sig) = fun y => Cert.FK.cM10 (Tm V (y 0)) (y 1) (y 2) := by
  refine (t10_out (P9 V)).trans ?_
  rw [P9_v51, P9_step V main_v74 (by decide) (by decide) (by decide), P8_step V main_v74 (by decide) (by decide) (by decide), L7]
  rfl
theorem L11 (V : Valuation τ sig (Elt Ideal)) : P11 V (main_v86 : DevRef τ sig) = fun y => Cert.FK.cM11 (Tm V (y 0)) (y 1) (y 2) := by
  refine (t11_out (P10 V)).trans ?_
  rw [P10_v51, P10_step V main_v77 (by decide) (by decide) (by decide), P9_step V main_v77 (by decide) (by decide) (by decide), L8]
  rfl
theorem L12 (V : Valuation τ sig (Elt Ideal)) : P12 V (main_v89 : DevRef τ sig) = fun y => Cert.FK.cM12 (Tm V (y 0)) (y 1) (y 2) := by
  refine (t12_out (P11 V)).trans ?_
  rw [P11_v51, P11_step V main_v80 (by decide) (by decide) (by decide), P10_step V main_v80 (by decide) (by decide) (by decide), L9]
  rfl
theorem L13 (V : Valuation τ sig (Elt Ideal)) : P13 V (main_v92 : DevRef τ sig) = fun y => Cert.FK.cM13 (Tm V (y 0)) (y 1) (y 2) := by
  refine (t13_out (P12 V)).trans ?_
  rw [P12_v51, P12_step V main_v80 (by decide) (by decide) (by decide), P11_step V main_v80 (by decide) (by decide) (by decide), P10_step V main_v80 (by decide) (by decide) (by decide), L9]
  rfl
theorem L14 (V : Valuation τ sig (Elt Ideal)) : P14 V (main_v95 : DevRef τ sig) = fun y => Cert.FK.cM14 (Tm V (y 0)) (y 1) (y 2) := by
  refine (t14_out (P13 V)).trans ?_
  rw [P13_v51, P13_step V main_v80 (by decide) (by decide) (by decide), P12_step V main_v80 (by decide) (by decide) (by decide), P11_step V main_v80 (by decide) (by decide) (by decide), P10_step V main_v80 (by decide) (by decide) (by decide), L9]
  rfl
theorem L15 (V : Valuation τ sig (Elt Ideal)) : P15 V (main_v98 : DevRef τ sig) = fun y => Cert.FK.cM15 (Tm V (y 0)) (y 1) (y 2) := by
  refine (t15_out (P14 V)).trans ?_
  rw [P14_v51, P14_step V main_v89 (by decide) (by decide) (by decide), P13_step V main_v89 (by decide) (by decide) (by decide), L12]
  rfl
theorem L16 (V : Valuation τ sig (Elt Ideal)) : P16 V (main_v101 : DevRef τ sig) = fun y => Cert.FK.cM16 (Tm V (y 0)) (y 1) (y 2) := by
  refine (t16_out (P15 V)).trans ?_
  rw [P15_v51, P15_step V main_v92 (by decide) (by decide) (by decide), P14_step V main_v92 (by decide) (by decide) (by decide), L13]
  rfl
theorem L17 (V : Valuation τ sig (Elt Ideal)) : P17 V (main_v104 : DevRef τ sig) = fun y => Cert.FK.cM17 (Tm V (y 0)) (y 1) (y 2) := by
  refine (t17_out (P16 V)).trans ?_
  rw [P16_v51, P16_step V main_v95 (by decide) (by decide) (by decide), P15_step V main_v95 (by decide) (by decide) (by decide), L14]
  rfl
theorem L18 (V : Valuation τ sig (Elt Ideal)) : P18 V (main_v107 : DevRef τ sig) = fun y => Cert.FK.cM18 (Tm V (y 0)) (y 1) (y 2) := by
  refine (t18_out (P17 V)).trans ?_
  rw [P17_v51, P17_step V main_v101 (by decide) (by decide) (by decide), L16]
  rfl
theorem L19 (V : Valuation τ sig (Elt Ideal)) : P19 V (main_v110 : DevRef τ sig) = fun y => Cert.FK.cM19 (Tm V (y 0)) (y 1) (y 2) := by
  refine (t19_out (P18 V)).trans ?_
  rw [P18_v51, P18_step V main_v104 (by decide) (by decide) (by decide), L17]
  rfl
theorem L20 (V : Valuation τ sig (Elt Ideal)) : P20 V (main_v113 : DevRef τ sig) = fun y => Cert.FK.cM20 (Tm V (y 0)) (y 1) (y 2) := by
  refine (t20_out (P19 V)).trans ?_
  rw [P19_v51, P19_step V main_v107 (by decide) (by decide) (by decide), L18]
  rfl
theorem L21 (V : Valuation τ sig (Elt Ideal)) : P21 V (main_v116 : DevRef τ sig) = fun y => Cert.FK.cM21 (Tm V (y 0)) (y 1) (y 2) := by
  refine (t21_out (P20 V)).trans ?_
  rw [P20_v51, P20_step V main_v110 (by decide) (by decide) (by decide), L19]
  rfl
theorem L22 (V : Valuation τ sig (Elt Ideal)) : P22 V (main_v119 : DevRef τ sig) = fun y => Cert.FK.cM22 (Tm V (y 0)) (y 1) (y 2) := by
  refine (t22_out (P21 V)).trans ?_
  rw [P21_v51, P21_step V main_v113 (by decide) (by decide) (by decide), L20]
  rfl
theorem L23 (V : Valuation τ sig (Elt Ideal)) : P23 V (main_v122 : DevRef τ sig) = fun y => Cert.FK.cM23 (Tm V (y 0)) (y 1) (y 2) := by
  refine (t23_out (P22 V)).trans ?_
  rw [P22_v51, P22_step V main_v116 (by decide) (by decide) (by decide), L21]
  rfl

/-! ## The results: each joint's product after all the operations, and the inputs kept -/

/-- Joint 0's product, for any contents of the stacked matrices. -/
theorem prod0 (V : Valuation τ sig (Elt Ideal)) : after opsB V (main_v53 : DevRef τ sig) = fun y => Cert.FK.cM0 (fun j a b => V (main_v51 : DevRef τ sig) (ix4 (y 0) j a b)) (y 1) (y 2) := by
  rw [opsB_run, P23_step V main_v53 (by decide) (by decide) (by decide), P22_step V main_v53 (by decide) (by decide) (by decide), P21_step V main_v53 (by decide) (by decide) (by decide), P20_step V main_v53 (by decide) (by decide) (by decide), P19_step V main_v53 (by decide) (by decide) (by decide), P18_step V main_v53 (by decide) (by decide) (by decide), P17_step V main_v53 (by decide) (by decide) (by decide), P16_step V main_v53 (by decide) (by decide) (by decide), P15_step V main_v53 (by decide) (by decide) (by decide), P14_step V main_v53 (by decide) (by decide) (by decide), P13_step V main_v53 (by decide) (by decide) (by decide), P12_step V main_v53 (by decide) (by decide) (by decide), P11_step V main_v53 (by decide) (by decide) (by decide), P10_step V main_v53 (by decide) (by decide) (by decide), P9_step V main_v53 (by decide) (by decide) (by decide), P8_step V main_v53 (by decide) (by decide) (by decide), P7_step V main_v53 (by decide) (by decide) (by decide), P6_step V main_v53 (by decide) (by decide) (by decide), P5_step V main_v53 (by decide) (by decide) (by decide), P4_step V main_v53 (by decide) (by decide) (by decide), P3_step V main_v53 (by decide) (by decide) (by decide), P2_step V main_v53 (by decide) (by decide) (by decide), P1_step V main_v53 (by decide) (by decide) (by decide)]
  exact L0 V
/-- Joint 1's product, for any contents of the stacked matrices. -/
theorem prod1 (V : Valuation τ sig (Elt Ideal)) : after opsB V (main_v56 : DevRef τ sig) = fun y => Cert.FK.cM1 (fun j a b => V (main_v51 : DevRef τ sig) (ix4 (y 0) j a b)) (y 1) (y 2) := by
  rw [opsB_run, P23_step V main_v56 (by decide) (by decide) (by decide), P22_step V main_v56 (by decide) (by decide) (by decide), P21_step V main_v56 (by decide) (by decide) (by decide), P20_step V main_v56 (by decide) (by decide) (by decide), P19_step V main_v56 (by decide) (by decide) (by decide), P18_step V main_v56 (by decide) (by decide) (by decide), P17_step V main_v56 (by decide) (by decide) (by decide), P16_step V main_v56 (by decide) (by decide) (by decide), P15_step V main_v56 (by decide) (by decide) (by decide), P14_step V main_v56 (by decide) (by decide) (by decide), P13_step V main_v56 (by decide) (by decide) (by decide), P12_step V main_v56 (by decide) (by decide) (by decide), P11_step V main_v56 (by decide) (by decide) (by decide), P10_step V main_v56 (by decide) (by decide) (by decide), P9_step V main_v56 (by decide) (by decide) (by decide), P8_step V main_v56 (by decide) (by decide) (by decide), P7_step V main_v56 (by decide) (by decide) (by decide), P6_step V main_v56 (by decide) (by decide) (by decide), P5_step V main_v56 (by decide) (by decide) (by decide), P4_step V main_v56 (by decide) (by decide) (by decide), P3_step V main_v56 (by decide) (by decide) (by decide), P2_step V main_v56 (by decide) (by decide) (by decide)]
  exact L1 V
/-- Joint 2's product, for any contents of the stacked matrices. -/
theorem prod2 (V : Valuation τ sig (Elt Ideal)) : after opsB V (main_v59 : DevRef τ sig) = fun y => Cert.FK.cM2 (fun j a b => V (main_v51 : DevRef τ sig) (ix4 (y 0) j a b)) (y 1) (y 2) := by
  rw [opsB_run, P23_step V main_v59 (by decide) (by decide) (by decide), P22_step V main_v59 (by decide) (by decide) (by decide), P21_step V main_v59 (by decide) (by decide) (by decide), P20_step V main_v59 (by decide) (by decide) (by decide), P19_step V main_v59 (by decide) (by decide) (by decide), P18_step V main_v59 (by decide) (by decide) (by decide), P17_step V main_v59 (by decide) (by decide) (by decide), P16_step V main_v59 (by decide) (by decide) (by decide), P15_step V main_v59 (by decide) (by decide) (by decide), P14_step V main_v59 (by decide) (by decide) (by decide), P13_step V main_v59 (by decide) (by decide) (by decide), P12_step V main_v59 (by decide) (by decide) (by decide), P11_step V main_v59 (by decide) (by decide) (by decide), P10_step V main_v59 (by decide) (by decide) (by decide), P9_step V main_v59 (by decide) (by decide) (by decide), P8_step V main_v59 (by decide) (by decide) (by decide), P7_step V main_v59 (by decide) (by decide) (by decide), P6_step V main_v59 (by decide) (by decide) (by decide), P5_step V main_v59 (by decide) (by decide) (by decide), P4_step V main_v59 (by decide) (by decide) (by decide), P3_step V main_v59 (by decide) (by decide) (by decide)]
  exact L2 V
/-- Joint 3's product, for any contents of the stacked matrices. -/
theorem prod3 (V : Valuation τ sig (Elt Ideal)) : after opsB V (main_v62 : DevRef τ sig) = fun y => Cert.FK.cM3 (fun j a b => V (main_v51 : DevRef τ sig) (ix4 (y 0) j a b)) (y 1) (y 2) := by
  rw [opsB_run, P23_step V main_v62 (by decide) (by decide) (by decide), P22_step V main_v62 (by decide) (by decide) (by decide), P21_step V main_v62 (by decide) (by decide) (by decide), P20_step V main_v62 (by decide) (by decide) (by decide), P19_step V main_v62 (by decide) (by decide) (by decide), P18_step V main_v62 (by decide) (by decide) (by decide), P17_step V main_v62 (by decide) (by decide) (by decide), P16_step V main_v62 (by decide) (by decide) (by decide), P15_step V main_v62 (by decide) (by decide) (by decide), P14_step V main_v62 (by decide) (by decide) (by decide), P13_step V main_v62 (by decide) (by decide) (by decide), P12_step V main_v62 (by decide) (by decide) (by decide), P11_step V main_v62 (by decide) (by decide) (by decide), P10_step V main_v62 (by decide) (by decide) (by decide), P9_step V main_v62 (by decide) (by decide) (by decide), P8_step V main_v62 (by decide) (by decide) (by decide), P7_step V main_v62 (by decide) (by decide) (by decide), P6_step V main_v62 (by decide) (by decide) (by decide), P5_step V main_v62 (by decide) (by decide) (by decide), P4_step V main_v62 (by decide) (by decide) (by decide)]
  exact L3 V
/-- Joint 4's product, for any contents of the stacked matrices. -/
theorem prod4 (V : Valuation τ sig (Elt Ideal)) : after opsB V (main_v65 : DevRef τ sig) = fun y => Cert.FK.cM4 (fun j a b => V (main_v51 : DevRef τ sig) (ix4 (y 0) j a b)) (y 1) (y 2) := by
  rw [opsB_run, P23_step V main_v65 (by decide) (by decide) (by decide), P22_step V main_v65 (by decide) (by decide) (by decide), P21_step V main_v65 (by decide) (by decide) (by decide), P20_step V main_v65 (by decide) (by decide) (by decide), P19_step V main_v65 (by decide) (by decide) (by decide), P18_step V main_v65 (by decide) (by decide) (by decide), P17_step V main_v65 (by decide) (by decide) (by decide), P16_step V main_v65 (by decide) (by decide) (by decide), P15_step V main_v65 (by decide) (by decide) (by decide), P14_step V main_v65 (by decide) (by decide) (by decide), P13_step V main_v65 (by decide) (by decide) (by decide), P12_step V main_v65 (by decide) (by decide) (by decide), P11_step V main_v65 (by decide) (by decide) (by decide), P10_step V main_v65 (by decide) (by decide) (by decide), P9_step V main_v65 (by decide) (by decide) (by decide), P8_step V main_v65 (by decide) (by decide) (by decide), P7_step V main_v65 (by decide) (by decide) (by decide), P6_step V main_v65 (by decide) (by decide) (by decide), P5_step V main_v65 (by decide) (by decide) (by decide)]
  exact L4 V
/-- Joint 5's product, for any contents of the stacked matrices. -/
theorem prod5 (V : Valuation τ sig (Elt Ideal)) : after opsB V (main_v68 : DevRef τ sig) = fun y => Cert.FK.cM5 (fun j a b => V (main_v51 : DevRef τ sig) (ix4 (y 0) j a b)) (y 1) (y 2) := by
  rw [opsB_run, P23_step V main_v68 (by decide) (by decide) (by decide), P22_step V main_v68 (by decide) (by decide) (by decide), P21_step V main_v68 (by decide) (by decide) (by decide), P20_step V main_v68 (by decide) (by decide) (by decide), P19_step V main_v68 (by decide) (by decide) (by decide), P18_step V main_v68 (by decide) (by decide) (by decide), P17_step V main_v68 (by decide) (by decide) (by decide), P16_step V main_v68 (by decide) (by decide) (by decide), P15_step V main_v68 (by decide) (by decide) (by decide), P14_step V main_v68 (by decide) (by decide) (by decide), P13_step V main_v68 (by decide) (by decide) (by decide), P12_step V main_v68 (by decide) (by decide) (by decide), P11_step V main_v68 (by decide) (by decide) (by decide), P10_step V main_v68 (by decide) (by decide) (by decide), P9_step V main_v68 (by decide) (by decide) (by decide), P8_step V main_v68 (by decide) (by decide) (by decide), P7_step V main_v68 (by decide) (by decide) (by decide), P6_step V main_v68 (by decide) (by decide) (by decide)]
  exact L5 V
/-- Joint 6's product, for any contents of the stacked matrices. -/
theorem prod6 (V : Valuation τ sig (Elt Ideal)) : after opsB V (main_v71 : DevRef τ sig) = fun y => Cert.FK.cM6 (fun j a b => V (main_v51 : DevRef τ sig) (ix4 (y 0) j a b)) (y 1) (y 2) := by
  rw [opsB_run, P23_step V main_v71 (by decide) (by decide) (by decide), P22_step V main_v71 (by decide) (by decide) (by decide), P21_step V main_v71 (by decide) (by decide) (by decide), P20_step V main_v71 (by decide) (by decide) (by decide), P19_step V main_v71 (by decide) (by decide) (by decide), P18_step V main_v71 (by decide) (by decide) (by decide), P17_step V main_v71 (by decide) (by decide) (by decide), P16_step V main_v71 (by decide) (by decide) (by decide), P15_step V main_v71 (by decide) (by decide) (by decide), P14_step V main_v71 (by decide) (by decide) (by decide), P13_step V main_v71 (by decide) (by decide) (by decide), P12_step V main_v71 (by decide) (by decide) (by decide), P11_step V main_v71 (by decide) (by decide) (by decide), P10_step V main_v71 (by decide) (by decide) (by decide), P9_step V main_v71 (by decide) (by decide) (by decide), P8_step V main_v71 (by decide) (by decide) (by decide), P7_step V main_v71 (by decide) (by decide) (by decide)]
  exact L6 V
/-- Joint 7's product, for any contents of the stacked matrices. -/
theorem prod7 (V : Valuation τ sig (Elt Ideal)) : after opsB V (main_v74 : DevRef τ sig) = fun y => Cert.FK.cM7 (fun j a b => V (main_v51 : DevRef τ sig) (ix4 (y 0) j a b)) (y 1) (y 2) := by
  rw [opsB_run, P23_step V main_v74 (by decide) (by decide) (by decide), P22_step V main_v74 (by decide) (by decide) (by decide), P21_step V main_v74 (by decide) (by decide) (by decide), P20_step V main_v74 (by decide) (by decide) (by decide), P19_step V main_v74 (by decide) (by decide) (by decide), P18_step V main_v74 (by decide) (by decide) (by decide), P17_step V main_v74 (by decide) (by decide) (by decide), P16_step V main_v74 (by decide) (by decide) (by decide), P15_step V main_v74 (by decide) (by decide) (by decide), P14_step V main_v74 (by decide) (by decide) (by decide), P13_step V main_v74 (by decide) (by decide) (by decide), P12_step V main_v74 (by decide) (by decide) (by decide), P11_step V main_v74 (by decide) (by decide) (by decide), P10_step V main_v74 (by decide) (by decide) (by decide), P9_step V main_v74 (by decide) (by decide) (by decide), P8_step V main_v74 (by decide) (by decide) (by decide)]
  exact L7 V
/-- Joint 8's product, for any contents of the stacked matrices. -/
theorem prod8 (V : Valuation τ sig (Elt Ideal)) : after opsB V (main_v77 : DevRef τ sig) = fun y => Cert.FK.cM8 (fun j a b => V (main_v51 : DevRef τ sig) (ix4 (y 0) j a b)) (y 1) (y 2) := by
  rw [opsB_run, P23_step V main_v77 (by decide) (by decide) (by decide), P22_step V main_v77 (by decide) (by decide) (by decide), P21_step V main_v77 (by decide) (by decide) (by decide), P20_step V main_v77 (by decide) (by decide) (by decide), P19_step V main_v77 (by decide) (by decide) (by decide), P18_step V main_v77 (by decide) (by decide) (by decide), P17_step V main_v77 (by decide) (by decide) (by decide), P16_step V main_v77 (by decide) (by decide) (by decide), P15_step V main_v77 (by decide) (by decide) (by decide), P14_step V main_v77 (by decide) (by decide) (by decide), P13_step V main_v77 (by decide) (by decide) (by decide), P12_step V main_v77 (by decide) (by decide) (by decide), P11_step V main_v77 (by decide) (by decide) (by decide), P10_step V main_v77 (by decide) (by decide) (by decide), P9_step V main_v77 (by decide) (by decide) (by decide)]
  exact L8 V
/-- Joint 9's product, for any contents of the stacked matrices. -/
theorem prod9 (V : Valuation τ sig (Elt Ideal)) : after opsB V (main_v80 : DevRef τ sig) = fun y => Cert.FK.cM9 (fun j a b => V (main_v51 : DevRef τ sig) (ix4 (y 0) j a b)) (y 1) (y 2) := by
  rw [opsB_run, P23_step V main_v80 (by decide) (by decide) (by decide), P22_step V main_v80 (by decide) (by decide) (by decide), P21_step V main_v80 (by decide) (by decide) (by decide), P20_step V main_v80 (by decide) (by decide) (by decide), P19_step V main_v80 (by decide) (by decide) (by decide), P18_step V main_v80 (by decide) (by decide) (by decide), P17_step V main_v80 (by decide) (by decide) (by decide), P16_step V main_v80 (by decide) (by decide) (by decide), P15_step V main_v80 (by decide) (by decide) (by decide), P14_step V main_v80 (by decide) (by decide) (by decide), P13_step V main_v80 (by decide) (by decide) (by decide), P12_step V main_v80 (by decide) (by decide) (by decide), P11_step V main_v80 (by decide) (by decide) (by decide), P10_step V main_v80 (by decide) (by decide) (by decide)]
  exact L9 V
/-- Joint 10's product, for any contents of the stacked matrices. -/
theorem prod10 (V : Valuation τ sig (Elt Ideal)) : after opsB V (main_v83 : DevRef τ sig) = fun y => Cert.FK.cM10 (fun j a b => V (main_v51 : DevRef τ sig) (ix4 (y 0) j a b)) (y 1) (y 2) := by
  rw [opsB_run, P23_step V main_v83 (by decide) (by decide) (by decide), P22_step V main_v83 (by decide) (by decide) (by decide), P21_step V main_v83 (by decide) (by decide) (by decide), P20_step V main_v83 (by decide) (by decide) (by decide), P19_step V main_v83 (by decide) (by decide) (by decide), P18_step V main_v83 (by decide) (by decide) (by decide), P17_step V main_v83 (by decide) (by decide) (by decide), P16_step V main_v83 (by decide) (by decide) (by decide), P15_step V main_v83 (by decide) (by decide) (by decide), P14_step V main_v83 (by decide) (by decide) (by decide), P13_step V main_v83 (by decide) (by decide) (by decide), P12_step V main_v83 (by decide) (by decide) (by decide), P11_step V main_v83 (by decide) (by decide) (by decide)]
  exact L10 V
/-- Joint 11's product, for any contents of the stacked matrices. -/
theorem prod11 (V : Valuation τ sig (Elt Ideal)) : after opsB V (main_v86 : DevRef τ sig) = fun y => Cert.FK.cM11 (fun j a b => V (main_v51 : DevRef τ sig) (ix4 (y 0) j a b)) (y 1) (y 2) := by
  rw [opsB_run, P23_step V main_v86 (by decide) (by decide) (by decide), P22_step V main_v86 (by decide) (by decide) (by decide), P21_step V main_v86 (by decide) (by decide) (by decide), P20_step V main_v86 (by decide) (by decide) (by decide), P19_step V main_v86 (by decide) (by decide) (by decide), P18_step V main_v86 (by decide) (by decide) (by decide), P17_step V main_v86 (by decide) (by decide) (by decide), P16_step V main_v86 (by decide) (by decide) (by decide), P15_step V main_v86 (by decide) (by decide) (by decide), P14_step V main_v86 (by decide) (by decide) (by decide), P13_step V main_v86 (by decide) (by decide) (by decide), P12_step V main_v86 (by decide) (by decide) (by decide)]
  exact L11 V
/-- Joint 12's product, for any contents of the stacked matrices. -/
theorem prod12 (V : Valuation τ sig (Elt Ideal)) : after opsB V (main_v89 : DevRef τ sig) = fun y => Cert.FK.cM12 (fun j a b => V (main_v51 : DevRef τ sig) (ix4 (y 0) j a b)) (y 1) (y 2) := by
  rw [opsB_run, P23_step V main_v89 (by decide) (by decide) (by decide), P22_step V main_v89 (by decide) (by decide) (by decide), P21_step V main_v89 (by decide) (by decide) (by decide), P20_step V main_v89 (by decide) (by decide) (by decide), P19_step V main_v89 (by decide) (by decide) (by decide), P18_step V main_v89 (by decide) (by decide) (by decide), P17_step V main_v89 (by decide) (by decide) (by decide), P16_step V main_v89 (by decide) (by decide) (by decide), P15_step V main_v89 (by decide) (by decide) (by decide), P14_step V main_v89 (by decide) (by decide) (by decide), P13_step V main_v89 (by decide) (by decide) (by decide)]
  exact L12 V
/-- Joint 13's product, for any contents of the stacked matrices. -/
theorem prod13 (V : Valuation τ sig (Elt Ideal)) : after opsB V (main_v92 : DevRef τ sig) = fun y => Cert.FK.cM13 (fun j a b => V (main_v51 : DevRef τ sig) (ix4 (y 0) j a b)) (y 1) (y 2) := by
  rw [opsB_run, P23_step V main_v92 (by decide) (by decide) (by decide), P22_step V main_v92 (by decide) (by decide) (by decide), P21_step V main_v92 (by decide) (by decide) (by decide), P20_step V main_v92 (by decide) (by decide) (by decide), P19_step V main_v92 (by decide) (by decide) (by decide), P18_step V main_v92 (by decide) (by decide) (by decide), P17_step V main_v92 (by decide) (by decide) (by decide), P16_step V main_v92 (by decide) (by decide) (by decide), P15_step V main_v92 (by decide) (by decide) (by decide), P14_step V main_v92 (by decide) (by decide) (by decide)]
  exact L13 V
/-- Joint 14's product, for any contents of the stacked matrices. -/
theorem prod14 (V : Valuation τ sig (Elt Ideal)) : after opsB V (main_v95 : DevRef τ sig) = fun y => Cert.FK.cM14 (fun j a b => V (main_v51 : DevRef τ sig) (ix4 (y 0) j a b)) (y 1) (y 2) := by
  rw [opsB_run, P23_step V main_v95 (by decide) (by decide) (by decide), P22_step V main_v95 (by decide) (by decide) (by decide), P21_step V main_v95 (by decide) (by decide) (by decide), P20_step V main_v95 (by decide) (by decide) (by decide), P19_step V main_v95 (by decide) (by decide) (by decide), P18_step V main_v95 (by decide) (by decide) (by decide), P17_step V main_v95 (by decide) (by decide) (by decide), P16_step V main_v95 (by decide) (by decide) (by decide), P15_step V main_v95 (by decide) (by decide) (by decide)]
  exact L14 V
/-- Joint 15's product, for any contents of the stacked matrices. -/
theorem prod15 (V : Valuation τ sig (Elt Ideal)) : after opsB V (main_v98 : DevRef τ sig) = fun y => Cert.FK.cM15 (fun j a b => V (main_v51 : DevRef τ sig) (ix4 (y 0) j a b)) (y 1) (y 2) := by
  rw [opsB_run, P23_step V main_v98 (by decide) (by decide) (by decide), P22_step V main_v98 (by decide) (by decide) (by decide), P21_step V main_v98 (by decide) (by decide) (by decide), P20_step V main_v98 (by decide) (by decide) (by decide), P19_step V main_v98 (by decide) (by decide) (by decide), P18_step V main_v98 (by decide) (by decide) (by decide), P17_step V main_v98 (by decide) (by decide) (by decide), P16_step V main_v98 (by decide) (by decide) (by decide)]
  exact L15 V
/-- Joint 16's product, for any contents of the stacked matrices. -/
theorem prod16 (V : Valuation τ sig (Elt Ideal)) : after opsB V (main_v101 : DevRef τ sig) = fun y => Cert.FK.cM16 (fun j a b => V (main_v51 : DevRef τ sig) (ix4 (y 0) j a b)) (y 1) (y 2) := by
  rw [opsB_run, P23_step V main_v101 (by decide) (by decide) (by decide), P22_step V main_v101 (by decide) (by decide) (by decide), P21_step V main_v101 (by decide) (by decide) (by decide), P20_step V main_v101 (by decide) (by decide) (by decide), P19_step V main_v101 (by decide) (by decide) (by decide), P18_step V main_v101 (by decide) (by decide) (by decide), P17_step V main_v101 (by decide) (by decide) (by decide)]
  exact L16 V
/-- Joint 17's product, for any contents of the stacked matrices. -/
theorem prod17 (V : Valuation τ sig (Elt Ideal)) : after opsB V (main_v104 : DevRef τ sig) = fun y => Cert.FK.cM17 (fun j a b => V (main_v51 : DevRef τ sig) (ix4 (y 0) j a b)) (y 1) (y 2) := by
  rw [opsB_run, P23_step V main_v104 (by decide) (by decide) (by decide), P22_step V main_v104 (by decide) (by decide) (by decide), P21_step V main_v104 (by decide) (by decide) (by decide), P20_step V main_v104 (by decide) (by decide) (by decide), P19_step V main_v104 (by decide) (by decide) (by decide), P18_step V main_v104 (by decide) (by decide) (by decide)]
  exact L17 V
/-- Joint 18's product, for any contents of the stacked matrices. -/
theorem prod18 (V : Valuation τ sig (Elt Ideal)) : after opsB V (main_v107 : DevRef τ sig) = fun y => Cert.FK.cM18 (fun j a b => V (main_v51 : DevRef τ sig) (ix4 (y 0) j a b)) (y 1) (y 2) := by
  rw [opsB_run, P23_step V main_v107 (by decide) (by decide) (by decide), P22_step V main_v107 (by decide) (by decide) (by decide), P21_step V main_v107 (by decide) (by decide) (by decide), P20_step V main_v107 (by decide) (by decide) (by decide), P19_step V main_v107 (by decide) (by decide) (by decide)]
  exact L18 V
/-- Joint 19's product, for any contents of the stacked matrices. -/
theorem prod19 (V : Valuation τ sig (Elt Ideal)) : after opsB V (main_v110 : DevRef τ sig) = fun y => Cert.FK.cM19 (fun j a b => V (main_v51 : DevRef τ sig) (ix4 (y 0) j a b)) (y 1) (y 2) := by
  rw [opsB_run, P23_step V main_v110 (by decide) (by decide) (by decide), P22_step V main_v110 (by decide) (by decide) (by decide), P21_step V main_v110 (by decide) (by decide) (by decide), P20_step V main_v110 (by decide) (by decide) (by decide)]
  exact L19 V
/-- Joint 20's product, for any contents of the stacked matrices. -/
theorem prod20 (V : Valuation τ sig (Elt Ideal)) : after opsB V (main_v113 : DevRef τ sig) = fun y => Cert.FK.cM20 (fun j a b => V (main_v51 : DevRef τ sig) (ix4 (y 0) j a b)) (y 1) (y 2) := by
  rw [opsB_run, P23_step V main_v113 (by decide) (by decide) (by decide), P22_step V main_v113 (by decide) (by decide) (by decide), P21_step V main_v113 (by decide) (by decide) (by decide)]
  exact L20 V
/-- Joint 21's product, for any contents of the stacked matrices. -/
theorem prod21 (V : Valuation τ sig (Elt Ideal)) : after opsB V (main_v116 : DevRef τ sig) = fun y => Cert.FK.cM21 (fun j a b => V (main_v51 : DevRef τ sig) (ix4 (y 0) j a b)) (y 1) (y 2) := by
  rw [opsB_run, P23_step V main_v116 (by decide) (by decide) (by decide), P22_step V main_v116 (by decide) (by decide) (by decide)]
  exact L21 V
/-- Joint 22's product, for any contents of the stacked matrices. -/
theorem prod22 (V : Valuation τ sig (Elt Ideal)) : after opsB V (main_v119 : DevRef τ sig) = fun y => Cert.FK.cM22 (fun j a b => V (main_v51 : DevRef τ sig) (ix4 (y 0) j a b)) (y 1) (y 2) := by
  rw [opsB_run, P23_step V main_v119 (by decide) (by decide) (by decide)]
  exact L22 V
/-- Joint 23's product, for any contents of the stacked matrices. -/
theorem prod23 (V : Valuation τ sig (Elt Ideal)) : after opsB V (main_v122 : DevRef τ sig) = fun y => Cert.FK.cM23 (fun j a b => V (main_v51 : DevRef τ sig) (ix4 (y 0) j a b)) (y 1) (y 2) := by
  rw [opsB_run]
  exact L23 V
theorem keepB_arg0 (V : Valuation τ sig (Elt Ideal)) : after opsB V (main_arg0 : DevRef τ sig) = V (main_arg0 : DevRef τ sig) := by
  rw [opsB_run]
  exact P23_arg0 V
theorem keepB_arg1 (V : Valuation τ sig (Elt Ideal)) : after opsB V (main_arg1 : DevRef τ sig) = V (main_arg1 : DevRef τ sig) := by
  rw [opsB_run]
  exact P23_arg1 V
theorem keepB_arg2 (V : Valuation τ sig (Elt Ideal)) : after opsB V (main_arg2 : DevRef τ sig) = V (main_arg2 : DevRef τ sig) := by
  rw [opsB_run]
  exact P23_arg2 V
theorem keepB_v51 (V : Valuation τ sig (Elt Ideal)) : after opsB V (main_v51 : DevRef τ sig) = V (main_v51 : DevRef τ sig) := by
  rw [opsB_run]
  exact P23_v51 V

end Cert.ReferenceIdeal.RefReadB

end
-- ==== Proof.RefReadC.lean ====
/-
  The last stretch of the reference's straight line: the 24 per-joint products, each given a unit joint axis, are laid
  end to end along that axis (sixteen, then eight, then the two runs joined), the translation column (rows 0 to 2 of
  column 3) is read out of every joint's matrix, and the per-lane root translation is added to every joint.
  Read at an index (b, j, k) the result is joint j's product at (b, k, 3) plus the translation at (b, k).
-/
import proofs.«160816_j62156766707902_1_alg».proof.Proof.RefOps
import proofs.«160816_j62156766707902_1_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.ReferenceIdeal.RefReadC

open Cert.ReferenceIdeal Cert.ReferenceIdeal.Gen Cert.ReferenceIdeal.RefOps Idealize.ShloMosaic Idealize.ShloMosaic.TcCoe Idealize.SL.Sem Idealize.ShloMosaic.StableHlo Idealize.ShloMosaic.ValueIdx

/-- Joint j's product buffer. -/
def prodBuf : Fin 24 → Ref sig .tc
  | ⟨0, _⟩ => main_v53
  | ⟨1, _⟩ => main_v56
  | ⟨2, _⟩ => main_v59
  | ⟨3, _⟩ => main_v62
  | ⟨4, _⟩ => main_v65
  | ⟨5, _⟩ => main_v68
  | ⟨6, _⟩ => main_v71
  | ⟨7, _⟩ => main_v74
  | ⟨8, _⟩ => main_v77
  | ⟨9, _⟩ => main_v80
  | ⟨10, _⟩ => main_v83
  | ⟨11, _⟩ => main_v86
  | ⟨12, _⟩ => main_v89
  | ⟨13, _⟩ => main_v92
  | ⟨14, _⟩ => main_v95
  | ⟨15, _⟩ => main_v98
  | ⟨16, _⟩ => main_v101
  | ⟨17, _⟩ => main_v104
  | ⟨18, _⟩ => main_v107
  | ⟨19, _⟩ => main_v110
  | ⟨20, _⟩ => main_v113
  | ⟨21, _⟩ => main_v116
  | ⟨22, _⟩ => main_v119
  | ⟨23, _⟩ => main_v122
  | ⟨_ + 24, h⟩ => absurd h (Nat.not_lt.2 (Nat.le_add_left _ _))

/-- Sixteen unit-extent pieces laid along axis 1: at joint coordinate n the result reads piece n. -/
theorem cat16_read (X : Fin 16 → (⟨4, ![65536, 1, 4, 4]⟩ : Shape).Idx → EReal)
    (h : Shape.Concatenates [S65536x1x4x4, S65536x1x4x4, S65536x1x4x4, S65536x1x4x4, S65536x1x4x4, S65536x1x4x4, S65536x1x4x4, S65536x1x4x4, S65536x1x4x4, S65536x1x4x4, S65536x1x4x4, S65536x1x4x4, S65536x1x4x4, S65536x1x4x4, S65536x1x4x4, S65536x1x4x4] S65536x16x4x4 1)
    (b : Fin 65536) (n : Fin 16) (r c : Fin 4) :
    concatenate S65536x16x4x4 1 [⟨S65536x1x4x4, X 0⟩, ⟨S65536x1x4x4, X 1⟩, ⟨S65536x1x4x4, X 2⟩, ⟨S65536x1x4x4, X 3⟩, ⟨S65536x1x4x4, X 4⟩, ⟨S65536x1x4x4, X 5⟩, ⟨S65536x1x4x4, X 6⟩, ⟨S65536x1x4x4, X 7⟩, ⟨S65536x1x4x4, X 8⟩, ⟨S65536x1x4x4, X 9⟩, ⟨S65536x1x4x4, X 10⟩, ⟨S65536x1x4x4, X 11⟩, ⟨S65536x1x4x4, X 12⟩, ⟨S65536x1x4x4, X 13⟩, ⟨S65536x1x4x4, X 14⟩, ⟨S65536x1x4x4, X 15⟩] h (ix4 b n r c)
      = X n (ix4 b (0 : Fin 1) r c) :=
  concatenate_ofFn_unit_apply (t := S65536x16x4x4) (s₁ := S65536x1x4x4) 1 X h rfl rfl (ix4 b n r c) n rfl (ix4 b (0 : Fin 1) r c)
    (fun a ha => by
      match a with
      | ⟨0, _⟩ => rfl
      | ⟨1, _⟩ => exact absurd rfl ha
      | ⟨2, _⟩ => rfl
      | ⟨3, _⟩ => rfl)

/-- Eight unit-extent pieces laid along axis 1: at joint coordinate n the result reads piece n. -/
theorem cat8_read (X : Fin 8 → (⟨4, ![65536, 1, 4, 4]⟩ : Shape).Idx → EReal)
    (h : Shape.Concatenates [S65536x1x4x4, S65536x1x4x4, S65536x1x4x4, S65536x1x4x4, S65536x1x4x4, S65536x1x4x4, S65536x1x4x4, S65536x1x4x4] S65536x8x4x4 1)
    (b : Fin 65536) (n : Fin 8) (r c : Fin 4) :
    concatenate S65536x8x4x4 1 [⟨S65536x1x4x4, X 0⟩, ⟨S65536x1x4x4, X 1⟩, ⟨S65536x1x4x4, X 2⟩, ⟨S65536x1x4x4, X 3⟩, ⟨S65536x1x4x4, X 4⟩, ⟨S65536x1x4x4, X 5⟩, ⟨S65536x1x4x4, X 6⟩, ⟨S65536x1x4x4, X 7⟩] h (ix4 b n r c)
      = X n (ix4 b (0 : Fin 1) r c) :=
  concatenate_ofFn_unit_apply (t := S65536x8x4x4) (s₁ := S65536x1x4x4) 1 X h rfl rfl (ix4 b n r c) n rfl (ix4 b (0 : Fin 1) r c)
    (fun a ha => by
      match a with
      | ⟨0, _⟩ => rfl
      | ⟨1, _⟩ => exact absurd rfl ha
      | ⟨2, _⟩ => rfl
      | ⟨3, _⟩ => rfl)

/-- The last eight operations: the stacking, the column read out, the translation added. -/
abbrev opsB : List (HloOp τ sig (Elt Ideal)) := (ops2b (F := Ideal)).drop 24

/-- Over any contents of the 24 unit-axis buffers and of the translation: the result at (b, j, k) is piece j at
    (b, 0, k, 3) plus the translation at (b, k). -/
theorem tail_read (V1 : Valuation τ sig (Elt Ideal)) (Q : Fin 24 → (⟨4, ![65536, 1, 4, 4]⟩ : Shape).Idx → EReal)
    (T : (⟨2, ![65536, 3]⟩ : Shape).Idx → EReal)
    (h0 : V1 (main_v123 : DevRef τ sig) = Q 0) (h1 : V1 (main_v124 : DevRef τ sig) = Q 1) (h2 : V1 (main_v125 : DevRef τ sig) = Q 2) (h3 : V1 (main_v126 : DevRef τ sig) = Q 3)
    (h4 : V1 (main_v127 : DevRef τ sig) = Q 4) (h5 : V1 (main_v128 : DevRef τ sig) = Q 5) (h6 : V1 (main_v129 : DevRef τ sig) = Q 6) (h7 : V1 (main_v130 : DevRef τ sig) = Q 7)
    (h8 : V1 (main_v131 : DevRef τ sig) = Q 8) (h9 : V1 (main_v132 : DevRef τ sig) = Q 9) (h10 : V1 (main_v133 : DevRef τ sig) = Q 10) (h11 : V1 (main_v134 : DevRef τ sig) = Q 11)
    (h12 : V1 (main_v135 : DevRef τ sig) = Q 12) (h13 : V1 (main_v136 : DevRef τ sig) = Q 13) (h14 : V1 (main_v137 : DevRef τ sig) = Q 14) (h15 : V1 (main_v138 : DevRef τ sig) = Q 15)
    (h16 : V1 (main_v139 : DevRef τ sig) = Q 16) (h17 : V1 (main_v140 : DevRef τ sig) = Q 17) (h18 : V1 (main_v141 : DevRef τ sig) = Q 18) (h19 : V1 (main_v142 : DevRef τ sig) = Q 19)
    (h20 : V1 (main_v143 : DevRef τ sig) = Q 20) (h21 : V1 (main_v144 : DevRef τ sig) = Q 21) (h22 : V1 (main_v145 : DevRef τ sig) = Q 22) (h23 : V1 (main_v146 : DevRef τ sig) = Q 23)
    (hT : V1 (main_arg2 : DevRef τ sig) = T) :
    after opsB V1 (main_v154 : DevRef τ sig)
      = fun i => Q (i 1) (ix4 (i 0) (0 : Fin 1) (⟨(i 2).val, Nat.lt_succ_of_lt (i 2).isLt⟩ : Fin 4) (3 : Fin 4)) + T (ix2 (i 0) (i 2)) := by
  simp only [opsB, ops2b, List.drop_succ_cons, List.drop_zero]
  after_results
  dsimp only [Matrix.cons_val]
  repeat (rw [nary_result_ne]; rotate_left; decide)
  rw [h0, h1, h2, h3, h4, h5, h6, h7, h8, h9, h10, h11, h12, h13, h14, h15, h16, h17, h18, h19, h20, h21, h22, h23, hT]
  funext i
  obtain ⟨b, j, k, rfl⟩ : ∃ b j k, i = ix3 b j k := ⟨i 0, i 1, i 2, eq_ix3 i⟩
  rw [addf_apply]
  congr 1
  · -- the translation column of joint j's matrix
    refine (shapeCast_apply _ _ (ix3 b j k) (ix4 b j k (0 : Fin 1)) ?_).trans ?_
    · rw [Shape.rowMajor_val_four]
      refine Eq.trans ?_ (Shape.rowMajor_val_three (d := ![65536, 24, 3]) (ix3 b j k)).symm
      show ((b.val * 24 + j.val) * 3 + k.val) * 1 + 0 = (b.val * 24 + j.val) * 3 + k.val
      omega
    refine (extractStridedSlice_apply _ _ _ (ix4 b j k (0 : Fin 1))
      (ix4 b j (⟨k.val, Nat.lt_succ_of_lt k.isLt⟩ : Fin 4) (3 : Fin 4)) ?_).trans ?_
    · intro a
      match a with
      | ⟨0, _⟩ => exact (Nat.zero_add _).symm
      | ⟨1, _⟩ => exact (Nat.zero_add _).symm
      | ⟨2, _⟩ => exact (Nat.zero_add _).symm
      | ⟨3, _⟩ => rfl
    by_cases hj : j.val < 16
    · -- joints 0 to 15 lie in the first run
      refine (concatenate_pair_apply_left (t := S65536x24x4x4) (s₁ := S65536x16x4x4) (s₂ := S65536x8x4x4) 1 _ _ _ _ rfl
        (ix4 b (⟨j.val, hj⟩ : Fin 16) (⟨k.val, Nat.lt_succ_of_lt k.isLt⟩ : Fin 4) (3 : Fin 4)) ?_).trans ?_
      · intro a
        match a with
        | ⟨0, _⟩ => rfl
        | ⟨1, _⟩ => rfl
        | ⟨2, _⟩ => rfl
        | ⟨3, _⟩ => rfl
      exact cat16_read (fun n => Q ⟨n.val, by omega⟩) _ b ⟨j.val, hj⟩ _ _
    · -- joints 16 to 23 in the second, sixteen places further on
      have hj8 : j.val - 16 < 8 := by have := j.isLt; omega
      refine (concatenate_pair_apply_right (t := S65536x24x4x4) (s₁ := S65536x16x4x4) (s₂ := S65536x8x4x4) 1 _ _ _ _ rfl rfl
        (ix4 b (⟨j.val - 16, hj8⟩ : Fin 8) (⟨k.val, Nat.lt_succ_of_lt k.isLt⟩ : Fin 4) (3 : Fin 4)) ?_ ?_).trans ?_
      · intro a ha
        match a with
        | ⟨0, _⟩ => rfl
        | ⟨1, _⟩ => exact absurd rfl ha
        | ⟨2, _⟩ => rfl
        | ⟨3, _⟩ => rfl
      · show j.val - 16 + 16 = j.val
        omega
      refine (cat8_read (fun n => Q ⟨16 + n.val, by omega⟩) _ b ⟨j.val - 16, hj8⟩ _ _).trans ?_
      show Q ⟨16 + (j.val - 16), _⟩ _ = Q j _
      congr 1
      exact Fin.ext (by show 16 + (j.val - 16) = j.val; omega)
  · -- the root translation, the same for every joint
    refine (broadcastInDim_apply _ _ _ (ix3 b j k) (ix3 b (0 : Fin 1) k) ?_).trans ?_
    · intro a
      match a with
      | ⟨0, _⟩ => rfl
      | ⟨1, _⟩ => rfl
      | ⟨2, _⟩ => rfl
    refine (broadcastInDim_apply _ _ _ (ix3 b (0 : Fin 1) k) (ix2 b k) ?_).trans rfl
    intro a
    match a with
    | ⟨0, _⟩ => rfl
    | ⟨1, _⟩ => rfl

/-- The first 24 operations: each joint's product given a unit joint axis. -/
abbrev opsA : List (HloOp τ sig (Elt Ideal)) := (ops2b (F := Ideal)).take 24

/-- Operations run one list after another are the joined list's run. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih _

theorem after_split (V : Valuation τ sig (Elt Ideal)) : after ops2b V = after opsB (after opsA V) := by
  rw [← after_app, List.take_append_drop]

theorem headA_0 (V : Valuation τ sig (Elt Ideal)) :
    after opsA V (main_v123 : DevRef τ sig)
      = broadcastInDim S65536x1x4x4 ![0, 2, 3] bcast_S65536x4x4_S65536x1x4x4_0_2_3 (V (main_v53 : DevRef τ sig)) := by
  simp only [opsA, ops2b, List.take_succ_cons, List.take_zero]
  after_results

theorem headA_1 (V : Valuation τ sig (Elt Ideal)) :
    after opsA V (main_v124 : DevRef τ sig)
      = broadcastInDim S65536x1x4x4 ![0, 2, 3] bcast_S65536x4x4_S65536x1x4x4_0_2_3 (V (main_v56 : DevRef τ sig)) := by
  simp only [opsA, ops2b, List.take_succ_cons, List.take_zero]
  after_results

theorem headA_2 (V : Valuation τ sig (Elt Ideal)) :
    after opsA V (main_v125 : DevRef τ sig)
      = broadcastInDim S65536x1x4x4 ![0, 2, 3] bcast_S65536x4x4_S65536x1x4x4_0_2_3 (V (main_v59 : DevRef τ sig)) := by
  simp only [opsA, ops2b, List.take_succ_cons, List.take_zero]
  after_results

theorem headA_3 (V : Valuation τ sig (Elt Ideal)) :
    after opsA V (main_v126 : DevRef τ sig)
      = broadcastInDim S65536x1x4x4 ![0, 2, 3] bcast_S65536x4x4_S65536x1x4x4_0_2_3 (V (main_v62 : DevRef τ sig)) := by
  simp only [opsA, ops2b, List.take_succ_cons, List.take_zero]
  after_results

theorem headA_4 (V : Valuation τ sig (Elt Ideal)) :
    after opsA V (main_v127 : DevRef τ sig)
      = broadcastInDim S65536x1x4x4 ![0, 2, 3] bcast_S65536x4x4_S65536x1x4x4_0_2_3 (V (main_v65 : DevRef τ sig)) := by
  simp only [opsA, ops2b, List.take_succ_cons, List.take_zero]
  after_results

theorem headA_5 (V : Valuation τ sig (Elt Ideal)) :
    after opsA V (main_v128 : DevRef τ sig)
      = broadcastInDim S65536x1x4x4 ![0, 2, 3] bcast_S65536x4x4_S65536x1x4x4_0_2_3 (V (main_v68 : DevRef τ sig)) := by
  simp only [opsA, ops2b, List.take_succ_cons, List.take_zero]
  after_results

theorem headA_6 (V : Valuation τ sig (Elt Ideal)) :
    after opsA V (main_v129 : DevRef τ sig)
      = broadcastInDim S65536x1x4x4 ![0, 2, 3] bcast_S65536x4x4_S65536x1x4x4_0_2_3 (V (main_v71 : DevRef τ sig)) := by
  simp only [opsA, ops2b, List.take_succ_cons, List.take_zero]
  after_results

theorem headA_7 (V : Valuation τ sig (Elt Ideal)) :
    after opsA V (main_v130 : DevRef τ sig)
      = broadcastInDim S65536x1x4x4 ![0, 2, 3] bcast_S65536x4x4_S65536x1x4x4_0_2_3 (V (main_v74 : DevRef τ sig)) := by
  simp only [opsA, ops2b, List.take_succ_cons, List.take_zero]
  after_results

theorem headA_8 (V : Valuation τ sig (Elt Ideal)) :
    after opsA V (main_v131 : DevRef τ sig)
      = broadcastInDim S65536x1x4x4 ![0, 2, 3] bcast_S65536x4x4_S65536x1x4x4_0_2_3 (V (main_v77 : DevRef τ sig)) := by
  simp only [opsA, ops2b, List.take_succ_cons, List.take_zero]
  after_results

theorem headA_9 (V : Valuation τ sig (Elt Ideal)) :
    after opsA V (main_v132 : DevRef τ sig)
      = broadcastInDim S65536x1x4x4 ![0, 2, 3] bcast_S65536x4x4_S65536x1x4x4_0_2_3 (V (main_v80 : DevRef τ sig)) := by
  simp only [opsA, ops2b, List.take_succ_cons, List.take_zero]
  after_results

theorem headA_10 (V : Valuation τ sig (Elt Ideal)) :
    after opsA V (main_v133 : DevRef τ sig)
      = broadcastInDim S65536x1x4x4 ![0, 2, 3] bcast_S65536x4x4_S65536x1x4x4_0_2_3 (V (main_v83 : DevRef τ sig)) := by
  simp only [opsA, ops2b, List.take_succ_cons, List.take_zero]
  after_results

theorem headA_11 (V : Valuation τ sig (Elt Ideal)) :
    after opsA V (main_v134 : DevRef τ sig)
      = broadcastInDim S65536x1x4x4 ![0, 2, 3] bcast_S65536x4x4_S65536x1x4x4_0_2_3 (V (main_v86 : DevRef τ sig)) := by
  simp only [opsA, ops2b, List.take_succ_cons, List.take_zero]
  after_results

theorem headA_12 (V : Valuation τ sig (Elt Ideal)) :
    after opsA V (main_v135 : DevRef τ sig)
      = broadcastInDim S65536x1x4x4 ![0, 2, 3] bcast_S65536x4x4_S65536x1x4x4_0_2_3 (V (main_v89 : DevRef τ sig)) := by
  simp only [opsA, ops2b, List.take_succ_cons, List.take_zero]
  after_results

theorem headA_13 (V : Valuation τ sig (Elt Ideal)) :
    after opsA V (main_v136 : DevRef τ sig)
      = broadcastInDim S65536x1x4x4 ![0, 2, 3] bcast_S65536x4x4_S65536x1x4x4_0_2_3 (V (main_v92 : DevRef τ sig)) := by
  simp only [opsA, ops2b, List.take_succ_cons, List.take_zero]
  after_results

theorem headA_14 (V : Valuation τ sig (Elt Ideal)) :
    after opsA V (main_v137 : DevRef τ sig)
      = broadcastInDim S65536x1x4x4 ![0, 2, 3] bcast_S65536x4x4_S65536x1x4x4_0_2_3 (V (main_v95 : DevRef τ sig)) := by
  simp only [opsA, ops2b, List.take_succ_cons, List.take_zero]
  after_results

theorem headA_15 (V : Valuation τ sig (Elt Ideal)) :
    after opsA V (main_v138 : DevRef τ sig)
      = broadcastInDim S65536x1x4x4 ![0, 2, 3] bcast_S65536x4x4_S65536x1x4x4_0_2_3 (V (main_v98 : DevRef τ sig)) := by
  simp only [opsA, ops2b, List.take_succ_cons, List.take_zero]
  after_results

theorem headA_16 (V : Valuation τ sig (Elt Ideal)) :
    after opsA V (main_v139 : DevRef τ sig)
      = broadcastInDim S65536x1x4x4 ![0, 2, 3] bcast_S65536x4x4_S65536x1x4x4_0_2_3 (V (main_v101 : DevRef τ sig)) := by
  simp only [opsA, ops2b, List.take_succ_cons, List.take_zero]
  after_results

theorem headA_17 (V : Valuation τ sig (Elt Ideal)) :
    after opsA V (main_v140 : DevRef τ sig)
      = broadcastInDim S65536x1x4x4 ![0, 2, 3] bcast_S65536x4x4_S65536x1x4x4_0_2_3 (V (main_v104 : DevRef τ sig)) := by
  simp only [opsA, ops2b, List.take_succ_cons, List.take_zero]
  after_results

theorem headA_18 (V : Valuation τ sig (Elt Ideal)) :
    after opsA V (main_v141 : DevRef τ sig)
      = broadcastInDim S65536x1x4x4 ![0, 2, 3] bcast_S65536x4x4_S65536x1x4x4_0_2_3 (V (main_v107 : DevRef τ sig)) := by
  simp only [opsA, ops2b, List.take_succ_cons, List.take_zero]
  after_results

theorem headA_19 (V : Valuation τ sig (Elt Ideal)) :
    after opsA V (main_v142 : DevRef τ sig)
      = broadcastInDim S65536x1x4x4 ![0, 2, 3] bcast_S65536x4x4_S65536x1x4x4_0_2_3 (V (main_v110 : DevRef τ sig)) := by
  simp only [opsA, ops2b, List.take_succ_cons, List.take_zero]
  after_results

theorem headA_20 (V : Valuation τ sig (Elt Ideal)) :
    after opsA V (main_v143 : DevRef τ sig)
      = broadcastInDim S65536x1x4x4 ![0, 2, 3] bcast_S65536x4x4_S65536x1x4x4_0_2_3 (V (main_v113 : DevRef τ sig)) := by
  simp only [opsA, ops2b, List.take_succ_cons, List.take_zero]
  after_results

theorem headA_21 (V : Valuation τ sig (Elt Ideal)) :
    after opsA V (main_v144 : DevRef τ sig)
      = broadcastInDim S65536x1x4x4 ![0, 2, 3] bcast_S65536x4x4_S65536x1x4x4_0_2_3 (V (main_v116 : DevRef τ sig)) := by
  simp only [opsA, ops2b, List.take_succ_cons, List.take_zero]
  after_results

theorem headA_22 (V : Valuation τ sig (Elt Ideal)) :
    after opsA V (main_v145 : DevRef τ sig)
      = broadcastInDim S65536x1x4x4 ![0, 2, 3] bcast_S65536x4x4_S65536x1x4x4_0_2_3 (V (main_v119 : DevRef τ sig)) := by
  simp only [opsA, ops2b, List.take_succ_cons, List.take_zero]
  after_results

theorem headA_23 (V : Valuation τ sig (Elt Ideal)) :
    after opsA V (main_v146 : DevRef τ sig)
      = broadcastInDim S65536x1x4x4 ![0, 2, 3] bcast_S65536x4x4_S65536x1x4x4_0_2_3 (V (main_v122 : DevRef τ sig)) := by
  simp only [opsA, ops2b, List.take_succ_cons, List.take_zero]
  after_results

theorem headA_arg2 (V : Valuation τ sig (Elt Ideal)) :
    after opsA V (main_arg2 : DevRef τ sig) = V (main_arg2 : DevRef τ sig) := by
  simp only [opsA, ops2b, List.take_succ_cons, List.take_zero]
  after_results

theorem v154_eq (V : Valuation τ sig (Elt Ideal)) (P : Fin 24 → (⟨3, ![65536, 4, 4]⟩ : Shape).Idx → EReal)
    (hP0 : V (main_v53 : DevRef τ sig) = P 0) (hP1 : V (main_v56 : DevRef τ sig) = P 1) (hP2 : V (main_v59 : DevRef τ sig) = P 2) (hP3 : V (main_v62 : DevRef τ sig) = P 3)
    (hP4 : V (main_v65 : DevRef τ sig) = P 4) (hP5 : V (main_v68 : DevRef τ sig) = P 5) (hP6 : V (main_v71 : DevRef τ sig) = P 6) (hP7 : V (main_v74 : DevRef τ sig) = P 7)
    (hP8 : V (main_v77 : DevRef τ sig) = P 8) (hP9 : V (main_v80 : DevRef τ sig) = P 9) (hP10 : V (main_v83 : DevRef τ sig) = P 10) (hP11 : V (main_v86 : DevRef τ sig) = P 11)
    (hP12 : V (main_v89 : DevRef τ sig) = P 12) (hP13 : V (main_v92 : DevRef τ sig) = P 13) (hP14 : V (main_v95 : DevRef τ sig) = P 14) (hP15 : V (main_v98 : DevRef τ sig) = P 15)
    (hP16 : V (main_v101 : DevRef τ sig) = P 16) (hP17 : V (main_v104 : DevRef τ sig) = P 17) (hP18 : V (main_v107 : DevRef τ sig) = P 18) (hP19 : V (main_v110 : DevRef τ sig) = P 19)
    (hP20 : V (main_v113 : DevRef τ sig) = P 20) (hP21 : V (main_v116 : DevRef τ sig) = P 21) (hP22 : V (main_v119 : DevRef τ sig) = P 22) (hP23 : V (main_v122 : DevRef τ sig) = P 23) :
    after ops2b V (main_v154 : DevRef τ sig)
      = fun i => P (i 1) (ix3 (i 0) (⟨(i 2).val, Nat.lt_succ_of_lt (i 2).isLt⟩ : Fin 4) (3 : Fin 4)) + V (main_arg2 : DevRef τ sig) (ix2 (i 0) (i 2)) := by
  rw [after_split, tail_read (after opsA V)
    (fun j => broadcastInDim S65536x1x4x4 ![0, 2, 3] bcast_S65536x4x4_S65536x1x4x4_0_2_3 (P j)) (V (main_arg2 : DevRef τ sig))
    (by rw [headA_0, hP0]) (by rw [headA_1, hP1]) (by rw [headA_2, hP2]) (by rw [headA_3, hP3])
    (by rw [headA_4, hP4]) (by rw [headA_5, hP5]) (by rw [headA_6, hP6]) (by rw [headA_7, hP7])
    (by rw [headA_8, hP8]) (by rw [headA_9, hP9]) (by rw [headA_10, hP10]) (by rw [headA_11, hP11])
    (by rw [headA_12, hP12]) (by rw [headA_13, hP13]) (by rw [headA_14, hP14]) (by rw [headA_15, hP15])
    (by rw [headA_16, hP16]) (by rw [headA_17, hP17]) (by rw [headA_18, hP18]) (by rw [headA_19, hP19])
    (by rw [headA_20, hP20]) (by rw [headA_21, hP21]) (by rw [headA_22, hP22]) (by rw [headA_23, hP23])
    (headA_arg2 V)]
  funext i
  congr 1
  -- the unit joint axis read away
  exact broadcastInDim_apply _ _ _ _ (ix3 (i 0) (⟨(i 2).val, Nat.lt_succ_of_lt (i 2).isLt⟩ : Fin 4) (3 : Fin 4)) (fun a => by
    match a with
    | ⟨0, _⟩ => rfl
    | ⟨1, _⟩ => rfl
    | ⟨2, _⟩ => rfl)

theorem keepC_arg0 (V : Valuation τ sig (Elt Ideal)) :
    after ops2b V (main_arg0 : DevRef τ sig) = V (main_arg0 : DevRef τ sig) := by
  after_results

theorem keepC_arg1 (V : Valuation τ sig (Elt Ideal)) :
    after ops2b V (main_arg1 : DevRef τ sig) = V (main_arg1 : DevRef τ sig) := by
  after_results

theorem keepC_arg2 (V : Valuation τ sig (Elt Ideal)) :
    after ops2b V (main_arg2 : DevRef τ sig) = V (main_arg2 : DevRef τ sig) := by
  after_results

end Cert.ReferenceIdeal.RefReadC

end
-- ==== Proof.RefValue.lean ====
/- The reference program's whole run with its result named: after the 164 host operations the result buffer holds, at
   (lane b, joint j, coordinate k), the entry (k, 3) of joint j's product down the tree of the lane's 4×4 matrices
   [[R, o], [0, 0, 0, 1]], plus the lane's root translation; the three argument buffers are unchanged. -/
import proofs.«160816_j62156766707902_1_alg».proof.Proof.RefRun
import proofs.«160816_j62156766707902_1_alg».proof.Proof.RefReadA
import proofs.«160816_j62156766707902_1_alg».proof.Proof.RefReadB
import proofs.«160816_j62156766707902_1_alg».proof.Proof.RefReadC
import proofs.«160816_j62156766707902_1_alg».proof.Proof.Spec
import Idealize.ShloMosaic.Lib.StableHlo.Run
import Idealize.ShloMosaic.Lib.Pipeline.Frame
import Idealize.ShloMosaic.Lib.ValueIdx

noncomputable section

namespace Cert.ReferenceIdeal.RefValue

open Cert.ReferenceIdeal Cert.ReferenceIdeal.Gen Cert.ReferenceIdeal.RefOps Idealize.ShloMosaic Idealize.ShloMosaic.TcCoe Idealize.SL.Sem Idealize.ShloMosaic.StableHlo Idealize.ShloMosaic.ValueIdx

/-- Five lists joined one after the other are the first, the middle three, the last. -/
theorem append5 {α : Type} (a b c d e : List α) : a ++ b ++ c ++ d ++ e = a ++ (b ++ c ++ d) ++ e := by
  simp only [List.append_assoc]

/-- The whole line is the rotations' stretch, the tree's stretch, the read-out's stretch. -/
theorem ops_split : (RefRun.ops : List (HloOp τ sig (Elt Ideal))) = ops0a ++ RefReadB.opsB ++ ops2b :=
  append5 ops0a ops0b ops1 ops2a ops2b

/-- The fold over the whole line is the three stretches' folds, one after the other. -/
theorem after_split (V : Valuation τ sig (Elt Ideal)) :
    after RefRun.ops V = after ops2b (after RefReadB.opsB (after ops0a V)) := by
  rw [ops_split, after_append, after_append]

/-- The result buffer after the whole line: at (b, j, k) the entry (k, 3) of joint j's product down the tree of the lane's
    matrices [[R, o], [0, 0, 0, 1]], plus the lane's root translation. -/
theorem result_eq (V : Valuation τ sig (Elt Ideal)) :
    after RefRun.ops V (main_v154 : DevRef τ sig)
      = Cert.FK.GR (V (main_arg0 : DevRef τ sig)) (V (main_arg1 : DevRef τ sig)) (V (main_arg2 : DevRef τ sig)) := by
  rw [after_split]
  have h51 := RefReadA.v51_eq V
  have ka2 := RefReadA.keep_arg2 V
  generalize after ops0a V = V1 at h51 ka2 ⊢
  have kb2 := RefReadB.keepB_arg2 V1
  have p0 := RefReadB.prod0 V1
  have p1 := RefReadB.prod1 V1
  have p2 := RefReadB.prod2 V1
  have p3 := RefReadB.prod3 V1
  have p4 := RefReadB.prod4 V1
  have p5 := RefReadB.prod5 V1
  have p6 := RefReadB.prod6 V1
  have p7 := RefReadB.prod7 V1
  have p8 := RefReadB.prod8 V1
  have p9 := RefReadB.prod9 V1
  have p10 := RefReadB.prod10 V1
  have p11 := RefReadB.prod11 V1
  have p12 := RefReadB.prod12 V1
  have p13 := RefReadB.prod13 V1
  have p14 := RefReadB.prod14 V1
  have p15 := RefReadB.prod15 V1
  have p16 := RefReadB.prod16 V1
  have p17 := RefReadB.prod17 V1
  have p18 := RefReadB.prod18 V1
  have p19 := RefReadB.prod19 V1
  have p20 := RefReadB.prod20 V1
  have p21 := RefReadB.prod21 V1
  have p22 := RefReadB.prod22 V1
  have p23 := RefReadB.prod23 V1
  generalize after RefReadB.opsB V1 = V2 at kb2 p0 p1 p2 p3 p4 p5 p6 p7 p8 p9 p10 p11 p12 p13 p14 p15 p16 p17 p18 p19 p20 p21 p22 p23 ⊢
  rw [RefReadC.v154_eq V2
    (fun j y => Cert.FK.cMt (fun j' a b => V1 (main_v51 : DevRef τ sig) (ix4 (y 0) j' a b)) j (y 1) (y 2))
    p0 p1 p2 p3 p4 p5 p6 p7 p8 p9 p10 p11 p12 p13 p14 p15 p16 p17 p18 p19 p20 p21 p22 p23]
  rw [kb2, ka2, h51]
  funext i
  unfold Cert.FK.GR Cert.FK.rMt
  rfl

theorem arg0_eq (V : Valuation τ sig (Elt Ideal)) : after RefRun.ops V (main_arg0 : DevRef τ sig) = V (main_arg0 : DevRef τ sig) := by
  rw [after_split, RefReadC.keepC_arg0, RefReadB.keepB_arg0, RefReadA.keep_arg0]
theorem arg1_eq (V : Valuation τ sig (Elt Ideal)) : after RefRun.ops V (main_arg1 : DevRef τ sig) = V (main_arg1 : DevRef τ sig) := by
  rw [after_split, RefReadC.keepC_arg1, RefReadB.keepB_arg1, RefReadA.keep_arg1]
theorem arg2_eq (V : Valuation τ sig (Elt Ideal)) : after RefRun.ops V (main_arg2 : DevRef τ sig) = V (main_arg2 : DevRef τ sig) := by
  rw [after_split, RefReadC.keepC_arg2, RefReadB.keepB_arg2, RefReadA.keep_arg2]

/-- On every device, from any memory with zero counters: every weakly fair execution of the reference terminates with the
    result buffer at the joint positions by the 4×4 chain of the three argument arrays, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v154)
          = Cert.FK.GR (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c => ⟨(h c main_v154).trans (result_eq (launchContents m c)),
      (h c main_arg0).trans (arg0_eq (launchContents m c)),
      (h c main_arg1).trans (arg1_eq (launchContents m c)),
      (h c main_arg2).trans (arg2_eq (launchContents m c))⟩)
    (RefRun.run m ρ)

end Cert.ReferenceIdeal.RefValue

end
-- ==== Proof.PreFinite.lean ====
/-
  The precondition read back: where the printed finiteness predicate answers 1, every entry of the axis-angle
  array is a real number (neither +∞ nor −∞).
-/
import proofs.«160816_j62156766707902_1_alg».proof.Pre_finite_inputs
import Idealize.ShloMosaic.Lib.ReduceAll
import Idealize.ShloMosaic.Lib.ValueIdx
import Idealize.ShloMosaic.PureOps.Ideal

noncomputable section

namespace Cert.PreFinite

open Idealize.ShloMosaic

/-- The rank-0 shape has one index. -/
instance : Subsingleton Cert.Pre_finite_inputs.S_.Idx := ⟨fun a b => funext fun d => d.elim0⟩

/-- If the predicate "all three arrays are finite" answers 1, every axis-angle entry is finite. -/
theorem poses_finite [Cert.Pre_finite_inputs.Facts]
    (A0 : (⟨2, ![24, 3]⟩ : Shape).Idx → EReal) (A1 : (⟨3, ![65536, 24, 3]⟩ : Shape).Idx → EReal)
    (A2 : (⟨2, ![65536, 3]⟩ : Shape).Idx → EReal)
    (h : Cert.Pre_finite_inputs.fn (F := Ideal) A0 A1 A2 = fun _ => 1#1) : ∀ i, A1 i ≠ ⊤ ∧ A1 i ≠ ⊥ := by
  intro i
  have h0 := congrFun h ValueIdx.ix0
  dsimp only [Cert.Pre_finite_inputs.fn] at h0
  obtain ⟨h1, -⟩ := IntOp.andi_eq_one.1 h0
  obtain ⟨-, h2⟩ := IntOp.andi_eq_one.1 h1
  have h3 := Host.reduce_andi_all _ _ _ _ _ h2 i
  simp [cmpf, Host.absf, broadcastInDim, constant, Ideal.cmp, Ideal.ofBits, Ideal.ieee] at h3
  change Ideal.cmp .olt (max (A1 i) (-(A1 i))) ⊤ = 1#1 at h3
  generalize A1 i = x at h3 ⊢
  induction x using EReal.rec <;> simp [Ideal.cmp] at h3 ⊢

end Cert.PreFinite

end
-- ==== Proof.lean ====
/- The kernel and the reference compute the same joint positions. Both are read at the ideal instance (floats are
   extended reals, operations exact). The kernel's run leaves, at (lane b, joint j, coordinate k), the k-th translation
   entry of joint j's world transform, composed entry by entry down the tree from the lane's Rodrigues rotations in
   closed form and the offsets, plus the lane's root translation (the function G of the three arguments). The
   reference's run leaves the same entry read in the last column of the product of the 4×4 matrices
   [[R, o], [0, 0, 0, 1]] down the same tree, R = (I + sin·K) + (1 − cos)·K·K, plus the root translation (GR).
   Where the axis-angle entries are finite — which the precondition says — the closed form is the matrix expression
   and the entrywise composition is the 4×4 product (x·0 = 0, x·1 = x, x + 0 = x), so G = GR. Each program leaves its
   arguments as they were; the idealization rewrote no operation. -/
import proofs.«160816_j62156766707902_1_alg».proof.Defs
import proofs.«160816_j62156766707902_1_alg».proof.Proof.Gen.Kernel
import proofs.«160816_j62156766707902_1_alg».proof.Proof.Gen.KernelIdeal
import proofs.«160816_j62156766707902_1_alg».proof.Proof.Gen.ReferenceIdeal
import proofs.«160816_j62156766707902_1_alg».proof.Proof.Gen.Pre_finite_inputs
import proofs.«160816_j62156766707902_1_alg».proof.Proof.KernelFrame
import proofs.«160816_j62156766707902_1_alg».proof.Proof.KernelIdealFrame
import proofs.«160816_j62156766707902_1_alg».proof.Proof.KArray
import proofs.«160816_j62156766707902_1_alg».proof.Proof.KBody
import proofs.«160816_j62156766707902_1_alg».proof.Proof.RefValue
import proofs.«160816_j62156766707902_1_alg».proof.Proof.PreFinite
import proofs.«160816_j62156766707902_1_alg».proof.Proof.Spec

noncomputable section

namespace Cert.Proof

open Idealize.ShloMosaic Idealize.SL.Sem

/-- The kernel runs and leaves its arguments unchanged. -/
theorem frameK : Cert.frame_Kernel (hKernel := Cert.Kernel.Gen.facts) (hPre_finite_inputs := Cert.Pre_finite_inputs.Gen.facts) :=
  fun m ρ _ => Cert.Kernel.GenP.frame m ρ

/-- So does the kernel read at the ideal instance. -/
theorem frameKI : Cert.frame_KernelIdeal (hKernelIdeal := Cert.KernelIdeal.Gen.facts) (hPre_finite_inputs := Cert.Pre_finite_inputs.Gen.facts) :=
  fun m ρ _ => Cert.KernelIdeal.GenP.frame m ρ

/-- So does the reference: its run with the result named, the result's conjunct dropped. -/
theorem frameR : Cert.frame_ReferenceIdeal (hReferenceIdeal := Cert.ReferenceIdeal.Gen.facts) (hPre_finite_inputs := Cert.Pre_finite_inputs.Gen.facts) :=
  fun m ρ _ => (θ_run _ _ _).mono (fun _ h c => (h c).2) (Cert.ReferenceIdeal.RefValue.ref_run m ρ)

/-- What every grid point's body leaves in the output block is the closed form of its three input blocks. -/
theorem hbody (m : (ℓ : Loc Cert.KernelIdeal.nD Cert.KernelIdeal.τ Cert.KernelIdeal.sig) → Buf (Elt Ideal) ℓ) (c : Dev Cert.KernelIdeal.nD) (t : Fin Cert.KernelIdeal.cfg0.N) :
    Cert.KernelIdeal.GenP.outsAt0 (F := Ideal) m c t
      = Cert.KernelIdeal.Body.KOut (Cert.KernelIdeal.Gen.iblk m c 0 t) (Cert.KernelIdeal.Gen.iblk m c 1 t) (Cert.KernelIdeal.Gen.iblk m c 2 t) := by
  unfold Cert.KernelIdeal.GenP.outsAt0
  exact Cert.KernelIdeal.Body.out_eq ..

/-- From memories agreeing on the arguments, the axis-angle entries finite: both programs run, the kernel's result is G of
    the arguments, the reference's is GR of them, and G = GR there. -/
theorem alg : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.FK.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.KArray.kernel_run hbody m ρ, ?_⟩
  refine (θ_run _ _ _).mono (fun r h c => ?_) (Cert.ReferenceIdeal.RefValue.ref_run m' ρ')
  obtain ⟨h0, h1, h2, h3⟩ := h c
  obtain ⟨a0, a1, a2⟩ := hagree c
  refine ⟨h0.trans ?_, h1, h2, h3⟩
  rw [a0, a1, a2]
  exact (Cert.FK.G_eq_GR _ _ _ (Cert.PreFinite.poses_finite _ _ _ (hpre c))).symm

theorem claim : Cert.Claim :=
  ⟨Cert.Kernel.Gen.facts, Cert.KernelIdeal.Gen.facts, Cert.ReferenceIdeal.Gen.facts, Cert.Pre_finite_inputs.Gen.facts,
    frameK, frameKI, frameR, trivial, alg⟩

end Cert.Proof

end
